-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v228)) (v1 : (c : Dev Cert.KernelIdeal.nD) → Buf (Elt Ideal) ((c.tc : Thread Cert.KernelIdeal.nD Cert.KernelIdeal.τ).loc Cert.KernelIdeal.main_v231)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v228) = v0 c
          ∧ r.2.mem ((c.tc : Thread Cert.KernelIdeal.nD Cert.KernelIdeal.τ).loc Cert.KernelIdeal.main_v231) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_v247) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S75000x128 : Shape := ⟨2, ![75000, 128]⟩
abbrev S1500000 : Shape := ⟨1, ![1500000]⟩
abbrev S64x128 : Shape := ⟨2, ![64, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S75000x128 : S_.BroadcastsInDim S75000x128 (![] : Fin 0 → Fin S75000x128.rank)
  reducesTo_S75000x128_S_d0_1 : S75000x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S1500000 : S_.BroadcastsInDim S1500000 (![] : Fin 0 → Fin S1500000.rank)
  reducesTo_S1500000_S_d0 : S1500000.ReducesTo [0] S_

variable [Facts]

def fn_part4 {F : FTy → Type} [FloatOps F] (main_arg3 : IVec S1500000 32) (main_v67 : IVec S_ 1) : IVec S_ 1 :=
  let main_c_26 : IVec S_ 32 := constantI S_ 32 0#32
  let main_v68 : IVec S1500000 32 := broadcastInDim S1500000 ![] bcast_S_S1500000 main_c_26
  let main_v69 : IVec S1500000 1 := cmpi .sge main_arg3 main_v68
  let main_c_27 : IVec S_ 1 := constantI S_ 1 1#1
  let main_v70 : IVec S_ 1 := (fun x v => Host.reduce IntOp.andi x v reducesTo_S1500000_S_d0 h_S_) main_v69 main_c_27
  let main_v71 : IVec S_ 1 := andi main_v67 main_v70
  main_v71

def fn_part3 {F : FTy → Type} [FloatOps F] (main_arg2 : IVec S1500000 32) (main_arg3 : IVec S1500000 32) (main_arg13 : FVec F S128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S1500000 32 := broadcastInDim S1500000 ![] bcast_S_S1500000 main_c_24
  let main_v65 : IVec S1500000 1 := cmpi .sge main_arg2 main_v64
  let main_c_25 : IVec S_ 1 := constantI S_ 1 1#1
  let main_v66 : IVec S_ 1 := (fun x v => Host.reduce IntOp.andi x v reducesTo_S1500000_S_d0 h_S_) main_v65 main_c_25
  let main_v67 : IVec S_ 1 := andi main_v63 main_v66
  fn_part4 (F := F) main_arg3 main_v67

def fn_part2 {F : FTy → Type} [FloatOps F] (main_arg2 : IVec S1500000 32) (main_arg3 : IVec S1500000 32) (main_arg9 : FVec F S3x128 .f32) (main_arg10 : FVec F S3x128x128 .f32) (main_arg11 : FVec F S128 .f32) (main_arg12 : FVec F S128 .f32) (main_arg13 : FVec F S128 .f32) (main_arg14 : FVec F S128 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg10
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg2 main_arg3 main_arg13 main_arg14 main_v48 main_v49 main_v50

def fn_part1 {F : FTy → Type} [FloatOps F] (main_arg2 : IVec S1500000 32) (main_arg3 : IVec S1500000 32) (main_arg6 : FVec F S128x128 .f32) (main_arg7 : FVec F S128 .f32) (main_arg8 : FVec F S3x128x128 .f32) (main_arg9 : FVec F S3x128 .f32) (main_arg10 : FVec F S3x128x128 .f32) (main_arg11 : FVec F S128 .f32) (main_arg12 : FVec F S128 .f32) (main_arg13 : FVec F S128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg8
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg2 main_arg3 main_arg9 main_arg10 main_arg11 main_arg12 main_arg13 main_arg14 main_v33

def fn {F : FTy → Type} [FloatOps F] (main_arg0 : FVec F S150000x64 .f32) (main_arg1 : FVec F S75000x128 .f32) (main_arg2 : IVec S1500000 32) (main_arg3 : IVec S1500000 32) (main_arg4 : FVec F S64x128 .f32) (main_arg5 : FVec F S128 .f32) (main_arg6 : FVec F S128x128 .f32) (main_arg7 : FVec F S128 .f32) (main_arg8 : FVec F S3x128x128 .f32) (main_arg9 : FVec F S3x128 .f32) (main_arg10 : FVec F S3x128x128 .f32) (main_arg11 : FVec F S128 .f32) (main_arg12 : FVec F S128 .f32) (main_arg13 : FVec F S128 .f32) (main_arg14 : FVec F S128 .f32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S75000x128 .f32 := Host.absf main_arg1
  let main_cst_0 : FVec F S_ .f32 := constant S_ .f32 0x7F800000#32
  let main_v5 : FVec F S75000x128 .f32 := broadcastInDim S75000x128 ![] bcast_S_S75000x128 main_cst_0
  let main_v6 : IVec S75000x128 1 := cmpf .olt main_v4 main_v5
  let main_c_1 : IVec S_ 1 := constantI S_ 1 1#1
  let main_v7 : IVec S_ 1 := (fun x v => Host.reduce IntOp.andi x v reducesTo_S75000x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_arg10 main_arg11 main_arg12 main_arg13 main_arg14 main_v13 main_v16
-- ==== Kernel.lean ====
abbrev S150000x64 : Shape := ⟨2, ![150000, 64]⟩
abbrev S75000x128 : Shape := ⟨2, ![75000, 128]⟩
abbrev S1500000 : Shape := ⟨1, ![1500000]⟩
abbrev S64x128 : Shape := ⟨2, ![64, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S1x128 : Shape := ⟨2, ![1, 128]⟩
abbrev S150000x128 : Shape := ⟨2, ![150000, 128]⟩
abbrev S5000x64 : Shape := ⟨2, ![5000, 64]⟩
abbrev S5000x128 : Shape := ⟨2, ![5000, 128]⟩
abbrev S_ : Shape := ⟨0, ![]⟩
abbrev S1500000x1 : Shape := ⟨2, ![1500000, 1]⟩
abbrev S1500000x128 : Shape := ⟨2, ![1500000, 128]⟩
abbrev S75000 : Shape := ⟨1, ![75000]⟩
abbrev S75000x1 : Shape := ⟨2, ![75000, 1]⟩
abbrev S150000 : Shape := ⟨1, ![150000]⟩
abbrev S150000x1 : Shape := ⟨2, ![150000, 1]⟩
abbrev S1x128x128 : Shape := ⟨3, ![1, 128, 128]⟩
abbrev S5000 : Shape := ⟨1, ![5000]⟩
abbrev S5000x1 : Shape := ⟨2, ![5000, 1]⟩

abbrev nBuf : Space → Nat
  | .hbm => 307
  | .vmem => 78
  | .smem => 0
  | _ => 0

abbrev hbmTy0_0 (i : Nat) : BufTy := match i % 128 with
  | 0 => ⟨S150000x64, .f32⟩
  | 1 => ⟨S75000x128, .f32⟩
  | 2 => ⟨S1500000, .i32⟩
  | 3 => ⟨S1500000, .i32⟩
  | 4 => ⟨S64x128, .f32⟩
  | 5 => ⟨S128, .f32⟩
  | 6 => ⟨S128x128, .f32⟩
  | 7 => ⟨S128, .f32⟩
  | 8 => ⟨S3x128x128, .f32⟩
  | 9 => ⟨S3x128, .f32⟩
  | 10 => ⟨S3x128x128, .f32⟩
  | 11 => ⟨S128, .f32⟩
  | 12 => ⟨S128, .f32⟩
  | 13 => ⟨S128, .f32⟩
  | 14 => ⟨S128, .f32⟩
  | 15 => ⟨S1x128, .f32⟩
  | 16 => ⟨S150000x128, .f32⟩
  | 17 => ⟨S1x128, .f32⟩
  | 18 => ⟨S75000x128, .f32⟩
  | 19 => ⟨S_, .i32⟩
  | 20 => ⟨S1500000, .i32⟩
  | 21 => ⟨S1500000, .i1⟩
  | 22 => ⟨S_, .i32⟩
  | 23 => ⟨S1500000, .i32⟩
  | 24 => ⟨S1500000, .i32⟩
  | 25 => ⟨S1500000, .i32⟩
  | 26 => ⟨S1500000x1, .i32⟩
  | 27 => ⟨S1500000x128, .f32⟩
  | 28 => ⟨S_, .f32⟩
  | 29 => ⟨S75000x128, .f32⟩
  | 30 => ⟨S_, .i32⟩
  | 31 => ⟨S1500000, .i32⟩
  | 32 => ⟨S1500000, .i1⟩
  | 33 => ⟨S_, .i32⟩
  | 34 => ⟨S1500000, .i32⟩
  | 35 => ⟨S1500000, .i32⟩
  | 36 => ⟨S1500000, .i32⟩
  | 37 => ⟨S1500000x1, .i32⟩
  | 38 => ⟨S75000x128, .f32⟩
  | 39 => ⟨S_, .f32⟩
  | 40 => ⟨S1500000, .f32⟩
  | 41 => ⟨S_, .f32⟩
  | 42 => ⟨S75000, .f32⟩
  | 43 => ⟨S_, .i32⟩
  | 44 => ⟨S1500000, .i32⟩
  | 45 => ⟨S1500000, .i1⟩
  | 46 => ⟨S_, .i32⟩
  | 47 => ⟨S1500000, .i32⟩
  | 48 => ⟨S1500000, .i32⟩
  | 49 => ⟨S1500000, .i32⟩
  | 50 => ⟨S1500000x1, .i32⟩
  | 51 => ⟨S75000, .f32⟩
  | 52 => ⟨S_, .f32⟩
  | 53 => ⟨S75000, .f32⟩
  | 54 => ⟨S75000, .f32⟩
  | 55 => ⟨S75000x1, .f32⟩
  | 56 => ⟨S75000x128, .f32⟩
  | 57 => ⟨S75000x128, .f32⟩
  | 58 => ⟨S_, .i32⟩
  | 59 => ⟨S1500000, .i32⟩
  | 60 => ⟨S1500000, .i1⟩
  | 61 => ⟨S_, .i32⟩
  | 62 => ⟨S1500000, .i32⟩
  | 63 => ⟨S1500000, .i32⟩
  | 64 => ⟨S1500000, .i32⟩
  | 65 => ⟨S1500000x1, .i32⟩
  | 66 => ⟨S1500000x128, .f32⟩
  | 67 => ⟨S_, .f32⟩
  | 68 => ⟨S150000x128, .f32⟩
  | 69 => ⟨S_, .i32⟩
  | 70 => ⟨S1500000, .i32⟩
  | 71 => ⟨S1500000, .i1⟩
  | 72 => ⟨S_, .i32⟩
  | 73 => ⟨S1500000, .i32⟩
  | 74 => ⟨S1500000, .i32⟩
  | 75 => ⟨S1500000, .i32⟩
  | 76 => ⟨S1500000x1, .i32⟩
  | 77 => ⟨S150000x128, .f32⟩
  | 78 => ⟨S_, .f32⟩
  | 79 => ⟨S1500000, .f32⟩
  | 80 => ⟨S_, .f32⟩
  | 81 => ⟨S150000, .f32⟩
  | 82 => ⟨S_, .i32⟩
  | 83 => ⟨S1500000, .i32⟩
  | 84 => ⟨S1500000, .i1⟩
  | 85 => ⟨S_, .i32⟩
  | 86 => ⟨S1500000, .i32⟩
  | 87 => ⟨S1500000, .i32⟩
  | 88 => ⟨S1500000, .i32⟩
  | 89 => ⟨S1500000x1, .i32⟩
  | 90 => ⟨S150000, .f32⟩
  | 91 => ⟨S_, .f32⟩
  | 92 => ⟨S150000, .f32⟩
  | 93 => ⟨S150000, .f32⟩
  | 94 => ⟨S150000x1, .f32⟩
  | 95 => ⟨S150000x128, .f32⟩
  | 96 => ⟨S150000x128, .f32⟩
  | 97 => ⟨S1x128x128, .f32⟩
  | 98 => ⟨S128x128, .f32⟩
  | 99 => ⟨S1x128, .f32⟩
  | 100 => ⟨S128, .f32⟩
  | 101 => ⟨S1x128x128, .f32⟩
  | 102 => ⟨S128x128, .f32⟩
  | 103 => ⟨S1x128, .f32⟩
  | 104 => ⟨S75000x128, .f32⟩
  | 105 => ⟨S1x128x128, .f32⟩
  | 106 => ⟨S128x128, .f32⟩
  | 107 => ⟨S1x128, .f32⟩
  | 108 => ⟨S128, .f32⟩
  | 109 => ⟨S1x128x128, .f32⟩
  | 110 => ⟨S128x128, .f32⟩
  | 111 => ⟨S1x128, .f32⟩
  | 112 => ⟨S150000x128, .f32⟩
  | 113 => ⟨S_, .i32⟩
  | 114 => ⟨S1500000, .i32⟩
  | 115 => ⟨S1500000, .i1⟩
  | 116 => ⟨S_, .i32⟩
  | 117 => ⟨S1500000, .i32⟩
  | 118 => ⟨S1500000, .i32⟩
  | 119 => ⟨S1500000, .i32⟩
  | 120 => ⟨S1500000x1, .i32⟩
  | 121 => ⟨S1500000x128, .f32⟩
  | 122 => ⟨S_, .f32⟩
  | 123 => ⟨S75000x128, .f32⟩
  | 124 => ⟨S_, .i32⟩
  | 125 => ⟨S1500000, .i32⟩
  | 126 => ⟨S1500000, .i1⟩
  | 127 => ⟨S_, .i32⟩
  | _ => ⟨S150000x64, .f32⟩

abbrev hbmTy0_1 (i : Nat) : BufTy := match i % 128 with
  | 0 => ⟨S1500000, .i32⟩
  | 1 => ⟨S1500000, .i32⟩
  | 2 => ⟨S1500000, .i32⟩
  | 3 => ⟨S1500000x1, .i32⟩
  | 4 => ⟨S75000x128, .f32⟩
  | 5 => ⟨S_, .f32⟩
  | 6 => ⟨S1500000, .f32⟩
  | 7 => ⟨S_, .f32⟩
  | 8 => ⟨S75000, .f32⟩
  | 9 => ⟨S_, .i32⟩
  | 10 => ⟨S1500000, .i32⟩
  | 11 => ⟨S1500000, .i1⟩
  | 12 => ⟨S_, .i32⟩
  | 13 => ⟨S1500000, .i32⟩
  | 14 => ⟨S1500000, .i32⟩
  | 15 => ⟨S1500000, .i32⟩
  | 16 => ⟨S1500000x1, .i32⟩
  | 17 => ⟨S75000, .f32⟩
  | 18 => ⟨S_, .f32⟩
  | 19 => ⟨S75000, .f32⟩
  | 20 => ⟨S75000, .f32⟩
  | 21 => ⟨S75000x1, .f32⟩
  | 22 => ⟨S75000x128, .f32⟩
  | 23 => ⟨S75000x128, .f32⟩
  | 24 => ⟨S_, .i32⟩
  | 25 => ⟨S1500000, .i32⟩
  | 26 => ⟨S1500000, .i1⟩
  | 27 => ⟨S_, .i32⟩
  | 28 => ⟨S1500000, .i32⟩
  | 29 => ⟨S1500000, .i32⟩
  | 30 => ⟨S1500000, .i32⟩
  | 31 => ⟨S1500000x1, .i32⟩
  | 32 => ⟨S1500000x128, .f32⟩
  | 33 => ⟨S_, .f32⟩
  | 34 => ⟨S150000x128, .f32⟩
  | 35 => ⟨S_, .i32⟩
  | 36 => ⟨S1500000, .i32⟩
  | 37 => ⟨S1500000, .i1⟩
  | 38 => ⟨S_, .i32⟩
  | 39 => ⟨S1500000, .i32⟩
  | 40 => ⟨S1500000, .i32⟩
  | 41 => ⟨S1500000, .i32⟩
  | 42 => ⟨S1500000x1, .i32⟩
  | 43 => ⟨S150000x128, .f32⟩
  | 44 => ⟨S_, .f32⟩
  | 45 => ⟨S1500000, .f32⟩
  | 46 => ⟨S_, .f32⟩
  | 47 => ⟨S150000, .f32⟩
  | 48 => ⟨S_, .i32⟩
  | 49 => ⟨S1500000, .i32⟩
  | 50 => ⟨S1500000, .i1⟩
  | 51 => ⟨S_, .i32⟩
  | 52 => ⟨S1500000, .i32⟩
  | 53 => ⟨S1500000, .i32⟩
  | 54 => ⟨S1500000, .i32⟩
  | 55 => ⟨S1500000x1, .i32⟩
  | 56 => ⟨S150000, .f32⟩
  | 57 => ⟨S_, .f32⟩
  | 58 => ⟨S150000, .f32⟩
  | 59 => ⟨S150000, .f32⟩
  | 60 => ⟨S150000x1, .f32⟩
  | 61 => ⟨S150000x128, .f32⟩
  | 62 => ⟨S150000x128, .f32⟩
  | 63 => ⟨S1x128x128, .f32⟩
  | 64 => ⟨S128x128, .f32⟩
  | 65 => ⟨S1x128, .f32⟩
  | 66 => ⟨S128, .f32⟩
  | 67 => ⟨S1x128x128, .f32⟩
  | 68 => ⟨S128x128, .f32⟩
  | 69 => ⟨S1x128, .f32⟩
  | 70 => ⟨S75000x128, .f32⟩
  | 71 => ⟨S1x128x128, .f32⟩
  | 72 => ⟨S128x128, .f32⟩
  | 73 => ⟨S1x128, .f32⟩
  | 74 => ⟨S128, .f32⟩
  | 75 => ⟨S1x128x128, .f32⟩
  | 76 => ⟨S128x128, .f32⟩
  | 77 => ⟨S1x128, .f32⟩
  | 78 => ⟨S150000x128, .f32⟩
  | 79 => ⟨S_, .i32⟩
  | 80 => ⟨S1500000, .i32⟩
  | 81 => ⟨S1500000, .i1⟩
  | 82 => ⟨S_, .i32⟩
  | 83 => ⟨S1500000, .i32⟩
  | 84 => ⟨S1500000, .i32⟩
  | 85 => ⟨S1500000, .i32⟩
  | 86 => ⟨S1500000x1, .i32⟩
  | 87 => ⟨S1500000x128, .f32⟩
  | 88 => ⟨S_, .f32⟩
  | 89 => ⟨S75000x128, .f32⟩
  | 90 => ⟨S_, .i32⟩
  | 91 => ⟨S1500000, .i32⟩
  | 92 => ⟨S1500000, .i1⟩
  | 93 => ⟨S_, .i32⟩
  | 94 => ⟨S1500000, .i32⟩
  | 95 => ⟨S1500000, .i32⟩
  | 96 => ⟨S1500000, .i32⟩
  | 97 => ⟨S1500000x1, .i32⟩
  | 98 => ⟨S75000x128, .f32⟩
  | 99 => ⟨S_, .f32⟩
  | 100 => ⟨S1500000, .f32⟩
  | 101 => ⟨S_, .f32⟩
  | 102 => ⟨S75000, .f32⟩
  | 103 => ⟨S_, .i32⟩
  | 104 => ⟨S1500000, .i32⟩
  | 105 => ⟨S1500000, .i1⟩
  | 106 => ⟨S_, .i32⟩
  | 107 => ⟨S1500000, .i32⟩
  | 108 => ⟨S1500000, .i32⟩
  | 109 => ⟨S1500000, .i32⟩
  | 110 => ⟨S1500000x1, .i32⟩
  | 111 => ⟨S75000, .f32⟩
  | 112 => ⟨S_, .f32⟩
  | 113 => ⟨S75000, .f32⟩
  | 114 => ⟨S75000, .f32⟩
  | 115 => ⟨S75000x1, .f32⟩
  | 116 => ⟨S75000x128, .f32⟩
  | 117 => ⟨S75000x128, .f32⟩
  | 118 => ⟨S_, .i32⟩
  | 119 => ⟨S1500000, .i32⟩
  | 120 => ⟨S1500000, .i1⟩
  | 121 => ⟨S_, .i32⟩
  | 122 => ⟨S1500000, .i32⟩
  | 123 => ⟨S1500000, .i32⟩
  | 124 => ⟨S1500000, .i32⟩
  | 125 => ⟨S1500000x1, .i32⟩
  | 126 => ⟨S1500000x128, .f32⟩
  | 127 => ⟨S_, .f32⟩
  | _ => ⟨S150000x64, .f32⟩

abbrev hbmTy0_2 (i : Nat) : BufTy := match i % 128 with
  | 0 => ⟨S150000x128, .f32⟩
  | 1 => ⟨S_, .i32⟩
  | 2 => ⟨S1500000, .i32⟩
  | 3 => ⟨S1500000, .i1⟩
  | 4 => ⟨S_, .i32⟩
  | 5 => ⟨S1500000, .i32⟩
  | 6 => ⟨S1500000, .i32⟩
  | 7 => ⟨S1500000, .i32⟩
  | 8 => ⟨S1500000x1, .i32⟩
  | 9 => ⟨S150000x128, .f32⟩
  | 10 => ⟨S_, .f32⟩
  | 11 => ⟨S1500000, .f32⟩
  | 12 => ⟨S_, .f32⟩
  | 13 => ⟨S150000, .f32⟩
  | 14 => ⟨S_, .i32⟩
  | 15 => ⟨S1500000, .i32⟩
  | 16 => ⟨S1500000, .i1⟩
  | 17 => ⟨S_, .i32⟩
  | 18 => ⟨S1500000, .i32⟩
  | 19 => ⟨S1500000, .i32⟩
  | 20 => ⟨S1500000, .i32⟩
  | 21 => ⟨S1500000x1, .i32⟩
  | 22 => ⟨S150000, .f32⟩
  | 23 => ⟨S_, .f32⟩
  | 24 => ⟨S150000, .f32⟩
  | 25 => ⟨S150000, .f32⟩
  | 26 => ⟨S150000x1, .f32⟩
  | 27 => ⟨S150000x128, .f32⟩
  | 28 => ⟨S150000x128, .f32⟩
  | 29 => ⟨S1x128x128, .f32⟩
  | 30 => ⟨S128x128, .f32⟩
  | 31 => ⟨S1x128, .f32⟩
  | 32 => ⟨S128, .f32⟩
  | 33 => ⟨S1x128x128, .f32⟩
  | 34 => ⟨S128x128, .f32⟩
  | 35 => ⟨S1x128, .f32⟩
  | 36 => ⟨S75000x128, .f32⟩
  | 37 => ⟨S1x128x128, .f32⟩
  | 38 => ⟨S128x128, .f32⟩
  | 39 => ⟨S1x128, .f32⟩
  | 40 => ⟨S128, .f32⟩
  | 41 => ⟨S1x128x128, .f32⟩
  | 42 => ⟨S128x128, .f32⟩
  | 43 => ⟨S1x128, .f32⟩
  | 44 => ⟨S150000x128, .f32⟩
  | 45 => ⟨S1x128, .f32⟩
  | 46 => ⟨S1x128, .f32⟩
  | 47 => ⟨S150000x128, .f32⟩
  | 48 => ⟨S1x128, .f32⟩
  | 49 => ⟨S1x128, .f32⟩
  | 50 => ⟨S75000x128, .f32⟩
  | _ => ⟨S150000x64, .f32⟩

abbrev hbmTy (i : Nat) : BufTy := match i / 128 with
  | 0 => hbmTy0_0 i
  | 1 => hbmTy0_1 i
  | 2 => hbmTy0_2 i
  | _ => ⟨S150000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S128x128, .f32⟩
  | .local _ .vmem, ⟨44, _⟩ => ⟨S1x128, .f32⟩
  | .local _ .vmem, ⟨45, _⟩ => ⟨S128x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128x128, .f32⟩
  | .local _ .vmem, ⟨53, _⟩ => ⟨S1x128, .f32⟩
  | .local _ .vmem, ⟨54, _⟩ => ⟨S128x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S128x128, .f32⟩
  | .local _ .vmem, ⟨62, _⟩ => ⟨S1x128, .f32⟩
  | .local _ .vmem, ⟨63, _⟩ => ⟨S128x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S1x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S1x128, .f32⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_7 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_8 : Ref sig .tc := ⟨.hbm, 58, rfl⟩
abbrev main_v33 : Ref sig .tc := ⟨.hbm, 59, rfl⟩
abbrev main_v34 : Ref sig .tc := ⟨.hbm, 60, rfl⟩
abbrev main_c_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_10 : Ref sig .tc := ⟨.hbm, 67, rfl⟩
abbrev main_v40 : Ref sig .tc := ⟨.hbm, 68, rfl⟩
abbrev main_c_11 : Ref sig .tc := ⟨.hbm, 69, rfl⟩
abbrev main_v41 : Ref sig .tc := ⟨.hbm, 70, rfl⟩
abbrev main_v42 : Ref sig .tc := ⟨.hbm, 71, rfl⟩
abbrev main_c_12 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_13 : Ref sig .tc := ⟨.hbm, 78, rfl⟩
abbrev main_v48 : Ref sig .tc := ⟨.hbm, 79, rfl⟩
abbrev main_cst_14 : Ref sig .tc := ⟨.hbm, 80, rfl⟩
abbrev main_v49 : Ref sig .tc := ⟨.hbm, 81, rfl⟩
abbrev main_c_15 : Ref sig .tc := ⟨.hbm, 82, rfl⟩
abbrev main_v50 : Ref sig .tc := ⟨.hbm, 83, rfl⟩
abbrev main_v51 : Ref sig .tc := ⟨.hbm, 84, rfl⟩
abbrev main_c_16 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_17 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_18 : Ref sig .tc := ⟨.hbm, 113, rfl⟩
abbrev main_v78 : Ref sig .tc := ⟨.hbm, 114, rfl⟩
abbrev main_v79 : Ref sig .tc := ⟨.hbm, 115, rfl⟩
abbrev main_c_19 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_20 : Ref sig .tc := ⟨.hbm, 122, rfl⟩
abbrev main_v85 : Ref sig .tc := ⟨.hbm, 123, rfl⟩
abbrev main_c_21 : Ref sig .tc := ⟨.hbm, 124, rfl⟩
abbrev main_v86 : Ref sig .tc := ⟨.hbm, 125, rfl⟩
abbrev main_v87 : Ref sig .tc := ⟨.hbm, 126, rfl⟩
abbrev main_c_22 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_23 : Ref sig .tc := ⟨.hbm, 133, rfl⟩
abbrev main_v93 : Ref sig .tc := ⟨.hbm, 134, rfl⟩
abbrev main_cst_24 : Ref sig .tc := ⟨.hbm, 135, rfl⟩
abbrev main_v94 : Ref sig .tc := ⟨.hbm, 136, rfl⟩
abbrev main_c_25 : Ref sig .tc := ⟨.hbm, 137, rfl⟩
abbrev main_v95 : Ref sig .tc := ⟨.hbm, 138, rfl⟩
abbrev main_v96 : Ref sig .tc := ⟨.hbm, 139, rfl⟩
abbrev main_c_26 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_27 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c_28 : Ref sig .tc := ⟨.hbm, 152, rfl⟩
abbrev main_v107 : Ref sig .tc := ⟨.hbm, 153, rfl⟩
abbrev main_v108 : Ref sig .tc := ⟨.hbm, 154, rfl⟩
abbrev main_c_29 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_30 : Ref sig .tc := ⟨.hbm, 161, rfl⟩
abbrev main_v114 : Ref sig .tc := ⟨.hbm, 162, rfl⟩
abbrev main_c_31 : Ref sig .tc := ⟨.hbm, 163, rfl⟩
abbrev main_v115 : Ref sig .tc := ⟨.hbm, 164, rfl⟩
abbrev main_v116 : Ref sig .tc := ⟨.hbm, 165, rfl⟩
abbrev main_c_32 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_33 : Ref sig .tc := ⟨.hbm, 172, rfl⟩
abbrev main_v122 : Ref sig .tc := ⟨.hbm, 173, rfl⟩
abbrev main_cst_34 : Ref sig .tc := ⟨.hbm, 174, rfl⟩
abbrev main_v123 : Ref sig .tc := ⟨.hbm, 175, rfl⟩
abbrev main_c_35 : Ref sig .tc := ⟨.hbm, 176, rfl⟩
abbrev main_v124 : Ref sig .tc := ⟨.hbm, 177, rfl⟩
abbrev main_v125 : Ref sig .tc := ⟨.hbm, 178, rfl⟩
abbrev main_c_36 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_37 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_c_38 : Ref sig .tc := ⟨.hbm, 207, rfl⟩
abbrev main_v152 : Ref sig .tc := ⟨.hbm, 208, rfl⟩
abbrev main_v153 : Ref sig .tc := ⟨.hbm, 209, rfl⟩
abbrev main_c_39 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_cst_40 : Ref sig .tc := ⟨.hbm, 216, rfl⟩
abbrev main_v159 : Ref sig .tc := ⟨.hbm, 217, rfl⟩
abbrev main_c_41 : Ref sig .tc := ⟨.hbm, 218, rfl⟩
abbrev main_v160 : Ref sig .tc := ⟨.hbm, 219, rfl⟩
abbrev main_v161 : Ref sig .tc := ⟨.hbm, 220, rfl⟩
abbrev main_c_42 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_cst_43 : Ref sig .tc := ⟨.hbm, 227, rfl⟩
abbrev main_v167 : Ref sig .tc := ⟨.hbm, 228, rfl⟩
abbrev main_cst_44 : Ref sig .tc := ⟨.hbm, 229, rfl⟩
abbrev main_v168 : Ref sig .tc := ⟨.hbm, 230, rfl⟩
abbrev main_c_45 : Ref sig .tc := ⟨.hbm, 231, rfl⟩
abbrev main_v169 : Ref sig .tc := ⟨.hbm, 232, rfl⟩
abbrev main_v170 : Ref sig .tc := ⟨.hbm, 233, rfl⟩
abbrev main_c_46 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_cst_47 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_c_48 : Ref sig .tc := ⟨.hbm, 246, rfl⟩
abbrev main_v181 : Ref sig .tc := ⟨.hbm, 247, rfl⟩
abbrev main_v182 : Ref sig .tc := ⟨.hbm, 248, rfl⟩
abbrev main_c_49 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_cst_50 : Ref sig .tc := ⟨.hbm, 255, rfl⟩
abbrev main_v188 : Ref sig .tc := ⟨.hbm, 256, rfl⟩
abbrev main_c_51 : Ref sig .tc := ⟨.hbm, 257, rfl⟩
abbrev main_v189 : Ref sig .tc := ⟨.hbm, 258, rfl⟩
abbrev main_v190 : Ref sig .tc := ⟨.hbm, 259, rfl⟩
abbrev main_c_52 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_cst_53 : Ref sig .tc := ⟨.hbm, 266, rfl⟩
abbrev main_v196 : Ref sig .tc := ⟨.hbm, 267, rfl⟩
abbrev main_cst_54 : Ref sig .tc := ⟨.hbm, 268, rfl⟩
abbrev main_v197 : Ref sig .tc := ⟨.hbm, 269, rfl⟩
abbrev main_c_55 : Ref sig .tc := ⟨.hbm, 270, rfl⟩
abbrev main_v198 : Ref sig .tc := ⟨.hbm, 271, rfl⟩
abbrev main_v199 : Ref sig .tc := ⟨.hbm, 272, rfl⟩
abbrev main_c_56 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_cst_57 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg5_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg5_0 : Ref sig .tc := ⟨.vmem, 55, rfl⟩
abbrev cc6_stg5_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg3_0 : Ref sig .tc := ⟨.vmem, 62, rfl⟩
abbrev cc7_stg4_0 : Ref sig .tc := ⟨.vmem, 63, rfl⟩
abbrev cc7_stg5_0 : Ref sig .tc := ⟨.vmem, 64, rfl⟩
abbrev cc7_stg5_1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg2_0 : Ref sig .tc := ⟨.vmem, 69, rfl⟩
abbrev cc8_stg3_0 : Ref sig .tc := ⟨.vmem, 70, rfl⟩
abbrev cc8_stg3_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg3_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem5_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem5_0 : DmaSem sig := 55
abbrev cc6_sem5_1 : DmaSem sig := 56
abbrev cc7_sem0_0 : DmaSem sig := 57
abbrev cc7_sem0_1 : DmaSem sig := 58
abbrev cc7_sem1_0 : DmaSem sig := 59
abbrev cc7_sem1_1 : DmaSem sig := 60
abbrev cc7_sem2_0 : DmaSem sig := 61
abbrev cc7_sem3_0 : DmaSem sig := 62
abbrev cc7_sem4_0 : DmaSem sig := 63
abbrev cc7_sem5_0 : DmaSem sig := 64
abbrev cc7_sem5_1 : DmaSem sig := 65
abbrev cc8_sem0_0 : DmaSem sig := 66
abbrev cc8_sem0_1 : DmaSem sig := 67
abbrev cc8_sem1_0 : DmaSem sig := 68
abbrev cc8_sem2_0 : DmaSem sig := 69
abbrev cc8_sem3_0 : DmaSem sig := 70
abbrev cc8_sem3_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem3_0 : DmaSem sig := 76
abbrev cc9_sem3_1 : DmaSem sig := 77

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![15], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![30], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![15], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![30], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![30], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![15], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S75000x128 : S_.BroadcastsInDim S75000x128 (![] : Fin 0 → Fin S75000x128.rank)
  bcast_S_S75000 : S_.BroadcastsInDim S75000 (![] : Fin 0 → Fin S75000.rank)
  bcast_S75000_S75000x1_0 : S75000.BroadcastsInDim S75000x1 (![0] : Fin 1 → Fin S75000x1.rank)
  bcast_S75000x1_S75000x128_0_1 : S75000x1.BroadcastsInDim S75000x128 (![0, 1] : Fin 2 → Fin S75000x128.rank)
  bcast_S_S150000x128 : S_.BroadcastsInDim S150000x128 (![] : Fin 0 → Fin S150000x128.rank)
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x128_0_1 : S150000x1.BroadcastsInDim S150000x128 (![0, 1] : Fin 2 → Fin S150000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  reduces_S5000x128_S5000 : S5000x128.Reduces [1] S5000
  shapeCasts_S5000_S5000x1 : S5000.ShapeCasts S5000x1
  broadcasts_S5000x1_S5000x128 : S5000x1.Broadcasts S5000x128
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S150000x128_S1500000x1_S1500000x128_1_0_n_n_0_1_1128_wf : GatherDims.WF S150000x128 S1500000x1 S1500000x128 [1] [0] [] [0] [] 1 ![1, 128]
  scatter_S75000x128_S1500000x1_S1500000x128_1_0_0_1_wf : ScatterDims.WF S75000x128 S1500000x1 S1500000x128 [1] [0] [0] 1
  scatter_S75000_S1500000x1_S1500000_n_0_0_1_wf : ScatterDims.WF S75000 S1500000x1 S1500000 [] [0] [0] 1
  gather_S75000x128_S1500000x1_S1500000x128_1_0_n_n_0_1_1128_wf : GatherDims.WF S75000x128 S1500000x1 S1500000x128 [1] [0] [] [0] [] 1 ![1, 128]
  scatter_S150000x128_S1500000x1_S1500000x128_1_0_0_1_wf : ScatterDims.WF S150000x128 S1500000x1 S1500000x128 [1] [0] [0] 1
  scatter_S150000_S1500000x1_S1500000_n_0_0_1_wf : ScatterDims.WF S150000 S1500000x1 S1500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S150000x64.size a
  hwx0_0 : ∀ i : grid0.Coords, EltTy.bits .f32 = 32 ∨ (Rect.block (s := S150000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S150000x128.size a
  hwx0_3 : ∀ i : grid0.Coords, EltTy.bits .f32 = 32 ∨ (Rect.block (s := S150000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S75000x128.size a
  hwx1_0 : ∀ i : grid1.Coords, EltTy.bits .f32 = 32 ∨ (Rect.block (s := S75000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S75000x128.size a
  hwx1_3 : ∀ i : grid1.Coords, EltTy.bits .f32 = 32 ∨ (Rect.block (s := S75000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S75000x128.size a
  hwx2_0 : ∀ i : grid2.Coords, EltTy.bits .f32 = 32 ∨ (Rect.block (s := S75000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S75000x128.size a
  hwx2_1 : ∀ i : grid2.Coords, EltTy.bits .f32 = 32 ∨ (Rect.block (s := S75000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S75000x128.size a
  hwx2_5 : ∀ i : grid2.Coords, EltTy.bits .f32 = 32 ∨ (Rect.block (s := S75000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S150000x128.size a
  hwx3_0 : ∀ i : grid3.Coords, EltTy.bits .f32 = 32 ∨ (Rect.block (s := S150000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S150000x128.size a
  hwx3_1 : ∀ i : grid3.Coords, EltTy.bits .f32 = 32 ∨ (Rect.block (s := S150000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S150000x128.size a
  hwx3_5 : ∀ i : grid3.Coords, EltTy.bits .f32 = 32 ∨ (Rect.block (s := S150000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S75000x128.size a
  hwx4_0 : ∀ i : grid4.Coords, EltTy.bits .f32 = 32 ∨ (Rect.block (s := S75000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S75000x128.size a
  hwx4_1 : ∀ i : grid4.Coords, EltTy.bits .f32 = 32 ∨ (Rect.block (s := S75000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S75000x128.size a
  hwx4_5 : ∀ i : grid4.Coords, EltTy.bits .f32 = 32 ∨ (Rect.block (s := S75000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S150000x128.size a
  hwx5_0 : ∀ i : grid5.Coords, EltTy.bits .f32 = 32 ∨ (Rect.block (s := S150000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S150000x128.size a
  hwx5_1 : ∀ i : grid5.Coords, EltTy.bits .f32 = 32 ∨ (Rect.block (s := S150000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S150000x128.size a
  hwx5_5 : ∀ i : grid5.Coords, EltTy.bits .f32 = 32 ∨ (Rect.block (s := S150000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S75000x128.size a
  hwx6_0 : ∀ i : grid6.Coords, EltTy.bits .f32 = 32 ∨ (Rect.block (s := S75000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S75000x128.size a
  hwx6_1 : ∀ i : grid6.Coords, EltTy.bits .f32 = 32 ∨ (Rect.block (s := S75000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S75000x128.size a
  hwx6_5 : ∀ i : grid6.Coords, EltTy.bits .f32 = 32 ∨ (Rect.block (s := S75000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S150000x128.size a
  hwx7_0 : ∀ i : grid7.Coords, EltTy.bits .f32 = 32 ∨ (Rect.block (s := S150000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S150000x128.size a
  hwx7_1 : ∀ i : grid7.Coords, EltTy.bits .f32 = 32 ∨ (Rect.block (s := S150000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S150000x128.size a
  hwx7_5 : ∀ i : grid7.Coords, EltTy.bits .f32 = 32 ∨ (Rect.block (s := S150000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S150000x128.size a
  hwx8_0 : ∀ i : grid8.Coords, EltTy.bits .f32 = 32 ∨ (Rect.block (s := S150000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S150000x128.size a
  hwx8_3 : ∀ i : grid8.Coords, EltTy.bits .f32 = 32 ∨ (Rect.block (s := S150000x128) S5000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S75000x128.size a
  hwx9_0 : ∀ i : grid9.Coords, EltTy.bits .f32 = 32 ∨ (Rect.block (s := S75000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S75000x128.size a
  hwx9_3 : ∀ i : grid9.Coords, EltTy.bits .f32 = 32 ∨ (Rect.block (s := S75000x128) S5000x128.size (cc9_transform_3 i) (hinb9_3 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S150000x128_S1500000x1_S1500000x128_1_0_n_n_0_1_1128 : GatherDims S150000x128 S1500000x1 S1500000x128 where
  offsetDims := [1]
  collapsedSliceDims := [0]
  operandBatchingDims := []
  startIndicesBatchingDims := []
  startIndexMap := [0]
  indexVectorDim := 1
  sliceSizes := ![1, 128]
  wf := gather_S150000x128_S1500000x1_S1500000x128_1_0_n_n_0_1_1128_wf
def scatter_S75000x128_S1500000x1_S1500000x128_1_0_0_1 : ScatterDims S75000x128 S1500000x1 S1500000x128 where
  updateWindowDims := [1]
  insertedWindowDims := [0]
  scatterDimsToOperandDims := [0]
  indexVectorDim := 1
  wf := scatter_S75000x128_S1500000x1_S1500000x128_1_0_0_1_wf
def scatter_S75000_S1500000x1_S1500000_n_0_0_1 : ScatterDims S75000 S1500000x1 S1500000 where
  updateWindowDims := []
  insertedWindowDims := [0]
  scatterDimsToOperandDims := [0]
  indexVectorDim := 1
  wf := scatter_S75000_S1500000x1_S1500000_n_0_0_1_wf
def gather_S75000x128_S1500000x1_S1500000x128_1_0_n_n_0_1_1128 : GatherDims S75000x128 S1500000x1 S1500000x128 where
  offsetDims := [1]
  collapsedSliceDims := [0]
  operandBatchingDims := []
  startIndicesBatchingDims := []
  startIndexMap := [0]
  indexVectorDim := 1
  sliceSizes := ![1, 128]
  wf := gather_S75000x128_S1500000x1_S1500000x128_1_0_n_n_0_1_1128_wf
def scatter_S150000x128_S1500000x1_S1500000x128_1_0_0_1 : ScatterDims S150000x128 S1500000x1 S1500000x128 where
  updateWindowDims := [1]
  insertedWindowDims := [0]
  scatterDimsToOperandDims := [0]
  indexVectorDim := 1
  wf := scatter_S150000x128_S1500000x1_S1500000x128_1_0_0_1_wf
def scatter_S150000_S1500000x1_S1500000_n_0_0_1 : ScatterDims S150000 S1500000x1 S1500000 where
  updateWindowDims := []
  insertedWindowDims := [0]
  scatterDimsToOperandDims := [0]
  indexVectorDim := 1
  wf := scatter_S150000_S1500000x1_S1500000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v32) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v71) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v106) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v137) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v142) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v141) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v143) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v135) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v145) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v150) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v149) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v151) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v180) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v143) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v211) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v216) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v215) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v217) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v209) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v151) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v219) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v224) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v223) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v225) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v225) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v226) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v227) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v228) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v217) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v229) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v230) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v231) S5000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S150000x64 : Shape := ⟨2, ![150000, 64]⟩
abbrev S75000x128 : Shape := ⟨2, ![75000, 128]⟩
abbrev S1500000 : Shape := ⟨1, ![1500000]⟩
abbrev S64x128 : Shape := ⟨2, ![64, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S150000x128 : Shape := ⟨2, ![150000, 128]⟩
abbrev S1x128 : Shape := ⟨2, ![1, 128]⟩
abbrev S1x128x128 : Shape := ⟨3, ![1, 128, 128]⟩
abbrev S_ : Shape := ⟨0, ![]⟩
abbrev S1500000x1 : Shape := ⟨2, ![1500000, 1]⟩
abbrev S1500000x128 : Shape := ⟨2, ![1500000, 128]⟩
abbrev S75000 : Shape := ⟨1, ![75000]⟩
abbrev S75000x1 : Shape := ⟨2, ![75000, 1]⟩
abbrev S150000 : Shape := ⟨1, ![150000]⟩
abbrev S150000x1 : Shape := ⟨2, ![150000, 1]⟩

abbrev nBuf : Space → Nat
  | .hbm => 321
  | .vmem => 0
  | .smem => 0
  | _ => 0

abbrev hbmTy0_0 (i : Nat) : BufTy := match i % 128 with
  | 0 => ⟨S150000x64, .f32⟩
  | 1 => ⟨S75000x128, .f32⟩
  | 2 => ⟨S1500000, .i32⟩
  | 3 => ⟨S1500000, .i32⟩
  | 4 => ⟨S64x128, .f32⟩
  | 5 => ⟨S128, .f32⟩
  | 6 => ⟨S128x128, .f32⟩
  | 7 => ⟨S128, .f32⟩
  | 8 => ⟨S3x128x128, .f32⟩
  | 9 => ⟨S3x128, .f32⟩
  | 10 => ⟨S3x128x128, .f32⟩
  | 11 => ⟨S128, .f32⟩
  | 12 => ⟨S128, .f32⟩
  | 13 => ⟨S128, .f32⟩
  | 14 => ⟨S128, .f32⟩
  | 15 => ⟨S150000x128, .f32⟩
  | 16 => ⟨S1x128, .f32⟩
  | 17 => ⟨S150000x128, .f32⟩
  | 18 => ⟨S150000x128, .f32⟩
  | 19 => ⟨S75000x128, .f32⟩
  | 20 => ⟨S1x128, .f32⟩
  | 21 => ⟨S75000x128, .f32⟩
  | 22 => ⟨S75000x128, .f32⟩
  | 23 => ⟨S1x128x128, .f32⟩
  | 24 => ⟨S128x128, .f32⟩
  | 25 => ⟨S1x128, .f32⟩
  | 26 => ⟨S128, .f32⟩
  | 27 => ⟨S1x128x128, .f32⟩
  | 28 => ⟨S128x128, .f32⟩
  | 29 => ⟨S_, .i32⟩
  | 30 => ⟨S1500000, .i32⟩
  | 31 => ⟨S1500000, .i1⟩
  | 32 => ⟨S_, .i32⟩
  | 33 => ⟨S1500000, .i32⟩
  | 34 => ⟨S1500000, .i32⟩
  | 35 => ⟨S1500000, .i32⟩
  | 36 => ⟨S1500000x1, .i32⟩
  | 37 => ⟨S1500000x128, .f32⟩
  | 38 => ⟨S_, .f32⟩
  | 39 => ⟨S75000x128, .f32⟩
  | 40 => ⟨S1500000x1, .i32⟩
  | 41 => ⟨S75000x128, .f32⟩
  | 42 => ⟨S_, .f32⟩
  | 43 => ⟨S1500000, .f32⟩
  | 44 => ⟨S_, .f32⟩
  | 45 => ⟨S75000, .f32⟩
  | 46 => ⟨S1500000x1, .i32⟩
  | 47 => ⟨S75000, .f32⟩
  | 48 => ⟨S_, .f32⟩
  | 49 => ⟨S75000, .f32⟩
  | 50 => ⟨S75000, .f32⟩
  | 51 => ⟨S75000x1, .f32⟩
  | 52 => ⟨S75000x128, .f32⟩
  | 53 => ⟨S75000x128, .f32⟩
  | 54 => ⟨S75000x128, .f32⟩
  | 55 => ⟨S1x128, .f32⟩
  | 56 => ⟨S75000x128, .f32⟩
  | 57 => ⟨S75000x128, .f32⟩
  | 58 => ⟨S75000x128, .f32⟩
  | 59 => ⟨S75000x128, .f32⟩
  | 60 => ⟨S1x128x128, .f32⟩
  | 61 => ⟨S128x128, .f32⟩
  | 62 => ⟨S1x128, .f32⟩
  | 63 => ⟨S128, .f32⟩
  | 64 => ⟨S1x128x128, .f32⟩
  | 65 => ⟨S128x128, .f32⟩
  | 66 => ⟨S_, .i32⟩
  | 67 => ⟨S1500000, .i32⟩
  | 68 => ⟨S1500000, .i1⟩
  | 69 => ⟨S_, .i32⟩
  | 70 => ⟨S1500000, .i32⟩
  | 71 => ⟨S1500000, .i32⟩
  | 72 => ⟨S1500000, .i32⟩
  | 73 => ⟨S1500000x1, .i32⟩
  | 74 => ⟨S1500000x128, .f32⟩
  | 75 => ⟨S_, .f32⟩
  | 76 => ⟨S150000x128, .f32⟩
  | 77 => ⟨S1500000x1, .i32⟩
  | 78 => ⟨S150000x128, .f32⟩
  | 79 => ⟨S_, .f32⟩
  | 80 => ⟨S1500000, .f32⟩
  | 81 => ⟨S_, .f32⟩
  | 82 => ⟨S150000, .f32⟩
  | 83 => ⟨S1500000x1, .i32⟩
  | 84 => ⟨S150000, .f32⟩
  | 85 => ⟨S_, .f32⟩
  | 86 => ⟨S150000, .f32⟩
  | 87 => ⟨S150000, .f32⟩
  | 88 => ⟨S150000x1, .f32⟩
  | 89 => ⟨S150000x128, .f32⟩
  | 90 => ⟨S150000x128, .f32⟩
  | 91 => ⟨S150000x128, .f32⟩
  | 92 => ⟨S1x128, .f32⟩
  | 93 => ⟨S150000x128, .f32⟩
  | 94 => ⟨S150000x128, .f32⟩
  | 95 => ⟨S150000x128, .f32⟩
  | 96 => ⟨S150000x128, .f32⟩
  | 97 => ⟨S_, .f32⟩
  | 98 => ⟨S150000x128, .f32⟩
  | 99 => ⟨S150000x128, .f32⟩
  | 100 => ⟨S_, .f32⟩
  | 101 => ⟨S75000x128, .f32⟩
  | 102 => ⟨S75000x128, .f32⟩
  | 103 => ⟨S1x128x128, .f32⟩
  | 104 => ⟨S128x128, .f32⟩
  | 105 => ⟨S1x128, .f32⟩
  | 106 => ⟨S128, .f32⟩
  | 107 => ⟨S1x128x128, .f32⟩
  | 108 => ⟨S128x128, .f32⟩
  | 109 => ⟨S_, .i32⟩
  | 110 => ⟨S1500000, .i32⟩
  | 111 => ⟨S1500000, .i1⟩
  | 112 => ⟨S_, .i32⟩
  | 113 => ⟨S1500000, .i32⟩
  | 114 => ⟨S1500000, .i32⟩
  | 115 => ⟨S1500000, .i32⟩
  | 116 => ⟨S1500000x1, .i32⟩
  | 117 => ⟨S1500000x128, .f32⟩
  | 118 => ⟨S_, .f32⟩
  | 119 => ⟨S75000x128, .f32⟩
  | 120 => ⟨S1500000x1, .i32⟩
  | 121 => ⟨S75000x128, .f32⟩
  | 122 => ⟨S_, .f32⟩
  | 123 => ⟨S1500000, .f32⟩
  | 124 => ⟨S_, .f32⟩
  | 125 => ⟨S75000, .f32⟩
  | 126 => ⟨S1500000x1, .i32⟩
  | 127 => ⟨S75000, .f32⟩
  | _ => ⟨S150000x64, .f32⟩

abbrev hbmTy0_1 (i : Nat) : BufTy := match i % 128 with
  | 0 => ⟨S_, .f32⟩
  | 1 => ⟨S75000, .f32⟩
  | 2 => ⟨S75000, .f32⟩
  | 3 => ⟨S75000x1, .f32⟩
  | 4 => ⟨S75000x128, .f32⟩
  | 5 => ⟨S75000x128, .f32⟩
  | 6 => ⟨S75000x128, .f32⟩
  | 7 => ⟨S1x128, .f32⟩
  | 8 => ⟨S75000x128, .f32⟩
  | 9 => ⟨S75000x128, .f32⟩
  | 10 => ⟨S75000x128, .f32⟩
  | 11 => ⟨S75000x128, .f32⟩
  | 12 => ⟨S1x128x128, .f32⟩
  | 13 => ⟨S128x128, .f32⟩
  | 14 => ⟨S1x128, .f32⟩
  | 15 => ⟨S128, .f32⟩
  | 16 => ⟨S1x128x128, .f32⟩
  | 17 => ⟨S128x128, .f32⟩
  | 18 => ⟨S_, .i32⟩
  | 19 => ⟨S1500000, .i32⟩
  | 20 => ⟨S1500000, .i1⟩
  | 21 => ⟨S_, .i32⟩
  | 22 => ⟨S1500000, .i32⟩
  | 23 => ⟨S1500000, .i32⟩
  | 24 => ⟨S1500000, .i32⟩
  | 25 => ⟨S1500000x1, .i32⟩
  | 26 => ⟨S1500000x128, .f32⟩
  | 27 => ⟨S_, .f32⟩
  | 28 => ⟨S150000x128, .f32⟩
  | 29 => ⟨S1500000x1, .i32⟩
  | 30 => ⟨S150000x128, .f32⟩
  | 31 => ⟨S_, .f32⟩
  | 32 => ⟨S1500000, .f32⟩
  | 33 => ⟨S_, .f32⟩
  | 34 => ⟨S150000, .f32⟩
  | 35 => ⟨S1500000x1, .i32⟩
  | 36 => ⟨S150000, .f32⟩
  | 37 => ⟨S_, .f32⟩
  | 38 => ⟨S150000, .f32⟩
  | 39 => ⟨S150000, .f32⟩
  | 40 => ⟨S150000x1, .f32⟩
  | 41 => ⟨S150000x128, .f32⟩
  | 42 => ⟨S150000x128, .f32⟩
  | 43 => ⟨S150000x128, .f32⟩
  | 44 => ⟨S1x128, .f32⟩
  | 45 => ⟨S150000x128, .f32⟩
  | 46 => ⟨S150000x128, .f32⟩
  | 47 => ⟨S150000x128, .f32⟩
  | 48 => ⟨S150000x128, .f32⟩
  | 49 => ⟨S_, .f32⟩
  | 50 => ⟨S150000x128, .f32⟩
  | 51 => ⟨S150000x128, .f32⟩
  | 52 => ⟨S_, .f32⟩
  | 53 => ⟨S75000x128, .f32⟩
  | 54 => ⟨S75000x128, .f32⟩
  | 55 => ⟨S1x128x128, .f32⟩
  | 56 => ⟨S128x128, .f32⟩
  | 57 => ⟨S1x128, .f32⟩
  | 58 => ⟨S128, .f32⟩
  | 59 => ⟨S1x128x128, .f32⟩
  | 60 => ⟨S128x128, .f32⟩
  | 61 => ⟨S_, .i32⟩
  | 62 => ⟨S1500000, .i32⟩
  | 63 => ⟨S1500000, .i1⟩
  | 64 => ⟨S_, .i32⟩
  | 65 => ⟨S1500000, .i32⟩
  | 66 => ⟨S1500000, .i32⟩
  | 67 => ⟨S1500000, .i32⟩
  | 68 => ⟨S1500000x1, .i32⟩
  | 69 => ⟨S1500000x128, .f32⟩
  | 70 => ⟨S_, .f32⟩
  | 71 => ⟨S75000x128, .f32⟩
  | 72 => ⟨S1500000x1, .i32⟩
  | 73 => ⟨S75000x128, .f32⟩
  | 74 => ⟨S_, .f32⟩
  | 75 => ⟨S1500000, .f32⟩
  | 76 => ⟨S_, .f32⟩
  | 77 => ⟨S75000, .f32⟩
  | 78 => ⟨S1500000x1, .i32⟩
  | 79 => ⟨S75000, .f32⟩
  | 80 => ⟨S_, .f32⟩
  | 81 => ⟨S75000, .f32⟩
  | 82 => ⟨S75000, .f32⟩
  | 83 => ⟨S75000x1, .f32⟩
  | 84 => ⟨S75000x128, .f32⟩
  | 85 => ⟨S75000x128, .f32⟩
  | 86 => ⟨S75000x128, .f32⟩
  | 87 => ⟨S1x128, .f32⟩
  | 88 => ⟨S75000x128, .f32⟩
  | 89 => ⟨S75000x128, .f32⟩
  | 90 => ⟨S75000x128, .f32⟩
  | 91 => ⟨S75000x128, .f32⟩
  | 92 => ⟨S1x128x128, .f32⟩
  | 93 => ⟨S128x128, .f32⟩
  | 94 => ⟨S1x128, .f32⟩
  | 95 => ⟨S128, .f32⟩
  | 96 => ⟨S1x128x128, .f32⟩
  | 97 => ⟨S128x128, .f32⟩
  | 98 => ⟨S_, .i32⟩
  | 99 => ⟨S1500000, .i32⟩
  | 100 => ⟨S1500000, .i1⟩
  | 101 => ⟨S_, .i32⟩
  | 102 => ⟨S1500000, .i32⟩
  | 103 => ⟨S1500000, .i32⟩
  | 104 => ⟨S1500000, .i32⟩
  | 105 => ⟨S1500000x1, .i32⟩
  | 106 => ⟨S1500000x128, .f32⟩
  | 107 => ⟨S_, .f32⟩
  | 108 => ⟨S150000x128, .f32⟩
  | 109 => ⟨S1500000x1, .i32⟩
  | 110 => ⟨S150000x128, .f32⟩
  | 111 => ⟨S_, .f32⟩
  | 112 => ⟨S1500000, .f32⟩
  | 113 => ⟨S_, .f32⟩
  | 114 => ⟨S150000, .f32⟩
  | 115 => ⟨S1500000x1, .i32⟩
  | 116 => ⟨S150000, .f32⟩
  | 117 => ⟨S_, .f32⟩
  | 118 => ⟨S150000, .f32⟩
  | 119 => ⟨S150000, .f32⟩
  | 120 => ⟨S150000x1, .f32⟩
  | 121 => ⟨S150000x128, .f32⟩
  | 122 => ⟨S150000x128, .f32⟩
  | 123 => ⟨S150000x128, .f32⟩
  | 124 => ⟨S1x128, .f32⟩
  | 125 => ⟨S150000x128, .f32⟩
  | 126 => ⟨S150000x128, .f32⟩
  | 127 => ⟨S150000x128, .f32⟩
  | _ => ⟨S150000x64, .f32⟩

abbrev hbmTy0_2 (i : Nat) : BufTy := match i % 128 with
  | 0 => ⟨S150000x128, .f32⟩
  | 1 => ⟨S_, .f32⟩
  | 2 => ⟨S150000x128, .f32⟩
  | 3 => ⟨S150000x128, .f32⟩
  | 4 => ⟨S_, .f32⟩
  | 5 => ⟨S75000x128, .f32⟩
  | 6 => ⟨S75000x128, .f32⟩
  | 7 => ⟨S_, .f32⟩
  | 8 => ⟨S150000, .f32⟩
  | 9 => ⟨S150000x1, .f32⟩
  | 10 => ⟨S_, .f32⟩
  | 11 => ⟨S150000x1, .f32⟩
  | 12 => ⟨S150000x1, .f32⟩
  | 13 => ⟨S150000x128, .f32⟩
  | 14 => ⟨S150000x128, .f32⟩
  | 15 => ⟨S150000x128, .f32⟩
  | 16 => ⟨S_, .f32⟩
  | 17 => ⟨S150000, .f32⟩
  | 18 => ⟨S150000x1, .f32⟩
  | 19 => ⟨S_, .f32⟩
  | 20 => ⟨S150000x1, .f32⟩
  | 21 => ⟨S150000x1, .f32⟩
  | 22 => ⟨S150000x128, .f32⟩
  | 23 => ⟨S150000x128, .f32⟩
  | 24 => ⟨S_, .f32⟩
  | 25 => ⟨S150000x1, .f32⟩
  | 26 => ⟨S150000x1, .f32⟩
  | 27 => ⟨S150000x1, .f32⟩
  | 28 => ⟨S150000x128, .f32⟩
  | 29 => ⟨S150000x128, .f32⟩
  | 30 => ⟨S1x128, .f32⟩
  | 31 => ⟨S150000x128, .f32⟩
  | 32 => ⟨S150000x128, .f32⟩
  | 33 => ⟨S1x128, .f32⟩
  | 34 => ⟨S150000x128, .f32⟩
  | 35 => ⟨S150000x128, .f32⟩
  | 36 => ⟨S_, .f32⟩
  | 37 => ⟨S75000, .f32⟩
  | 38 => ⟨S75000x1, .f32⟩
  | 39 => ⟨S_, .f32⟩
  | 40 => ⟨S75000x1, .f32⟩
  | 41 => ⟨S75000x1, .f32⟩
  | 42 => ⟨S75000x128, .f32⟩
  | 43 => ⟨S75000x128, .f32⟩
  | 44 => ⟨S75000x128, .f32⟩
  | 45 => ⟨S_, .f32⟩
  | 46 => ⟨S75000, .f32⟩
  | 47 => ⟨S75000x1, .f32⟩
  | 48 => ⟨S_, .f32⟩
  | 49 => ⟨S75000x1, .f32⟩
  | 50 => ⟨S75000x1, .f32⟩
  | 51 => ⟨S75000x128, .f32⟩
  | 52 => ⟨S75000x128, .f32⟩
  | 53 => ⟨S_, .f32⟩
  | 54 => ⟨S75000x1, .f32⟩
  | 55 => ⟨S75000x1, .f32⟩
  | 56 => ⟨S75000x1, .f32⟩
  | 57 => ⟨S75000x128, .f32⟩
  | 58 => ⟨S75000x128, .f32⟩
  | 59 => ⟨S1x128, .f32⟩
  | 60 => ⟨S75000x128, .f32⟩
  | 61 => ⟨S75000x128, .f32⟩
  | 62 => ⟨S1x128, .f32⟩
  | 63 => ⟨S75000x128, .f32⟩
  | 64 => ⟨S75000x128, .f32⟩
  | _ => ⟨S150000x64, .f32⟩

abbrev hbmTy (i : Nat) : BufTy := match i / 128 with
  | 0 => hbmTy0_0 i
  | 1 => hbmTy0_1 i
  | 2 => hbmTy0_2 i
  | _ => ⟨S150000x64, .f32⟩

abbrev bufTy : (tb : Table) → Fin (tcTables nBuf tb) → BufTy
  | .hbm, ⟨i, _⟩ => hbmTy i
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_4 : Ref sig .tc := ⟨.hbm, 66, rfl⟩
abbrev main_v45 : Ref sig .tc := ⟨.hbm, 67, rfl⟩
abbrev main_v46 : Ref sig .tc := ⟨.hbm, 68, rfl⟩
abbrev main_c_5 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_6 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_cst_8 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_9 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_call0_cst : Ref sig .tc := ⟨.hbm, 97, rfl⟩
abbrev main_call0_v0 : Ref sig .tc := ⟨.hbm, 98, rfl⟩
abbrev main_v70 : Ref sig .tc := ⟨.hbm, 99, rfl⟩
abbrev main_call1_cst : Ref sig .tc := ⟨.hbm, 100, rfl⟩
abbrev main_call1_v0 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_10 : Ref sig .tc := ⟨.hbm, 109, rfl⟩
abbrev main_v78 : Ref sig .tc := ⟨.hbm, 110, rfl⟩
abbrev main_v79 : Ref sig .tc := ⟨.hbm, 111, rfl⟩
abbrev main_c_11 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_12 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_13 : Ref sig .tc := ⟨.hbm, 122, rfl⟩
abbrev main_v88 : Ref sig .tc := ⟨.hbm, 123, rfl⟩
abbrev main_cst_14 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_15 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_16 : Ref sig .tc := ⟨.hbm, 146, rfl⟩
abbrev main_v109 : Ref sig .tc := ⟨.hbm, 147, rfl⟩
abbrev main_v110 : Ref sig .tc := ⟨.hbm, 148, rfl⟩
abbrev main_c_17 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_18 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_19 : Ref sig .tc := ⟨.hbm, 159, rfl⟩
abbrev main_v119 : Ref sig .tc := ⟨.hbm, 160, rfl⟩
abbrev main_cst_20 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_21 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_call2_cst : Ref sig .tc := ⟨.hbm, 177, rfl⟩
abbrev main_call2_v0 : Ref sig .tc := ⟨.hbm, 178, rfl⟩
abbrev main_v134 : Ref sig .tc := ⟨.hbm, 179, rfl⟩
abbrev main_call3_cst : Ref sig .tc := ⟨.hbm, 180, rfl⟩
abbrev main_call3_v0 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_c_22 : Ref sig .tc := ⟨.hbm, 189, rfl⟩
abbrev main_v142 : Ref sig .tc := ⟨.hbm, 190, rfl⟩
abbrev main_v143 : Ref sig .tc := ⟨.hbm, 191, rfl⟩
abbrev main_c_23 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_cst_24 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_cst_25 : Ref sig .tc := ⟨.hbm, 202, rfl⟩
abbrev main_v152 : Ref sig .tc := ⟨.hbm, 203, rfl⟩
abbrev main_cst_26 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_cst_27 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_c_28 : Ref sig .tc := ⟨.hbm, 226, rfl⟩
abbrev main_v173 : Ref sig .tc := ⟨.hbm, 227, rfl⟩
abbrev main_v174 : Ref sig .tc := ⟨.hbm, 228, rfl⟩
abbrev main_c_29 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_cst_30 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_cst_31 : Ref sig .tc := ⟨.hbm, 239, rfl⟩
abbrev main_v183 : Ref sig .tc := ⟨.hbm, 240, rfl⟩
abbrev main_cst_32 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_cst_33 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_call4_cst : Ref sig .tc := ⟨.hbm, 257, rfl⟩
abbrev main_call4_v0 : Ref sig .tc := ⟨.hbm, 258, rfl⟩
abbrev main_v198 : Ref sig .tc := ⟨.hbm, 259, rfl⟩
abbrev main_call5_cst : Ref sig .tc := ⟨.hbm, 260, rfl⟩
abbrev main_call5_v0 : Ref sig .tc := ⟨.hbm, 261, rfl⟩
abbrev main_v199 : Ref sig .tc := ⟨.hbm, 262, rfl⟩
abbrev main_cst_34 : Ref sig .tc := ⟨.hbm, 263, rfl⟩
abbrev main_v200 : Ref sig .tc := ⟨.hbm, 264, rfl⟩
abbrev main_v201 : Ref sig .tc := ⟨.hbm, 265, rfl⟩
abbrev main_cst_35 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_cst_36 : Ref sig .tc := ⟨.hbm, 272, rfl⟩
abbrev main_v207 : Ref sig .tc := ⟨.hbm, 273, rfl⟩
abbrev main_v208 : Ref sig .tc := ⟨.hbm, 274, rfl⟩
abbrev main_cst_37 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_cst_38 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_cst_39 : Ref sig .tc := ⟨.hbm, 292, rfl⟩
abbrev main_v224 : Ref sig .tc := ⟨.hbm, 293, rfl⟩
abbrev main_v225 : Ref sig .tc := ⟨.hbm, 294, rfl⟩
abbrev main_cst_40 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_cst_41 : Ref sig .tc := ⟨.hbm, 301, rfl⟩
abbrev main_v231 : Ref sig .tc := ⟨.hbm, 302, rfl⟩
abbrev main_v232 : Ref sig .tc := ⟨.hbm, 303, rfl⟩
abbrev main_cst_42 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_cst_43 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_v247 : Ref sig .tc := ⟨.hbm, 320, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S150000x128_0_1 : S1x128.BroadcastsInDim S150000x128 (![0, 1] : Fin 2 → Fin S150000x128.rank)
  bcast_S1x128_S75000x128_0_1 : S1x128.BroadcastsInDim S75000x128 (![0, 1] : Fin 2 → Fin S75000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S75000x128 : S_.BroadcastsInDim S75000x128 (![] : Fin 0 → Fin S75000x128.rank)
  bcast_S_S75000 : S_.BroadcastsInDim S75000 (![] : Fin 0 → Fin S75000.rank)
  bcast_S75000_S75000x1_0 : S75000.BroadcastsInDim S75000x1 (![0] : Fin 1 → Fin S75000x1.rank)
  bcast_S75000x1_S75000x128_0_1 : S75000x1.BroadcastsInDim S75000x128 (![0, 1] : Fin 2 → Fin S75000x128.rank)
  bcast_S_S150000x128 : S_.BroadcastsInDim S150000x128 (![] : Fin 0 → Fin S150000x128.rank)
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x128_0_1 : S150000x1.BroadcastsInDim S150000x128 (![0, 1] : Fin 2 → Fin S150000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  reducesTo_S150000x128_S150000_d1 : S150000x128.ReducesTo [1] S150000
  h_S_ : 0 < S_.numel
  bcast_S_S150000x1 : S_.BroadcastsInDim S150000x1 (![] : Fin 0 → Fin S150000x1.rank)
  reducesTo_S75000x128_S75000_d1 : S75000x128.ReducesTo [1] S75000
  bcast_S_S75000x1 : S_.BroadcastsInDim S75000x1 (![] : Fin 0 → Fin S75000x1.rank)
  dot_S150000x64_S64x128_S150000x128_1_0_0_1_n_n_wf : DotDims.WF S150000x64 S64x128 S150000x128 [1] [0] [0] [1] [] []
  dot_S75000x128_S128x128_S75000x128_1_0_0_1_n_n_wf : DotDims.WF S75000x128 S128x128 S75000x128 [1] [0] [0] [1] [] []
  gather_S150000x128_S1500000x1_S1500000x128_1_0_n_n_0_1_1128_wf : GatherDims.WF S150000x128 S1500000x1 S1500000x128 [1] [0] [] [0] [] 1 ![1, 128]
  scatter_S75000x128_S1500000x1_S1500000x128_1_0_0_1_wf : ScatterDims.WF S75000x128 S1500000x1 S1500000x128 [1] [0] [0] 1
  scatter_S75000_S1500000x1_S1500000_n_0_0_1_wf : ScatterDims.WF S75000 S1500000x1 S1500000 [] [0] [0] 1
  gather_S75000x128_S1500000x1_S1500000x128_1_0_n_n_0_1_1128_wf : GatherDims.WF S75000x128 S1500000x1 S1500000x128 [1] [0] [] [0] [] 1 ![1, 128]
  scatter_S150000x128_S1500000x1_S1500000x128_1_0_0_1_wf : ScatterDims.WF S150000x128 S1500000x1 S1500000x128 [1] [0] [0] 1
  scatter_S150000_S1500000x1_S1500000_n_0_0_1_wf : ScatterDims.WF S150000 S1500000x1 S1500000 [] [0] [0] 1
  dot_S150000x128_S128x128_S150000x128_1_0_0_1_n_n_wf : DotDims.WF S150000x128 S128x128 S150000x128 [1] [0] [0] [1] [] []

variable [Facts₀]

def dot_S150000x64_S64x128_S150000x128_1_0_0_1_n_n : DotDims S150000x64 S64x128 S150000x128 where
  lhsContracting := [1]
  rhsContracting := [0]
  lhsNonContracting := [0]
  rhsNonContracting := [1]
  lhsBatch := []
  rhsBatch := []
  wf := dot_S150000x64_S64x128_S150000x128_1_0_0_1_n_n_wf
def dot_S75000x128_S128x128_S75000x128_1_0_0_1_n_n : DotDims S75000x128 S128x128 S75000x128 where
  lhsContracting := [1]
  rhsContracting := [0]
  lhsNonContracting := [0]
  rhsNonContracting := [1]
  lhsBatch := []
  rhsBatch := []
  wf := dot_S75000x128_S128x128_S75000x128_1_0_0_1_n_n_wf
def gather_S150000x128_S1500000x1_S1500000x128_1_0_n_n_0_1_1128 : GatherDims S150000x128 S1500000x1 S1500000x128 where
  offsetDims := [1]
  collapsedSliceDims := [0]
  operandBatchingDims := []
  startIndicesBatchingDims := []
  startIndexMap := [0]
  indexVectorDim := 1
  sliceSizes := ![1, 128]
  wf := gather_S150000x128_S1500000x1_S1500000x128_1_0_n_n_0_1_1128_wf
def scatter_S75000x128_S1500000x1_S1500000x128_1_0_0_1 : ScatterDims S75000x128 S1500000x1 S1500000x128 where
  updateWindowDims := [1]
  insertedWindowDims := [0]
  scatterDimsToOperandDims := [0]
  indexVectorDim := 1
  wf := scatter_S75000x128_S1500000x1_S1500000x128_1_0_0_1_wf
def scatter_S75000_S1500000x1_S1500000_n_0_0_1 : ScatterDims S75000 S1500000x1 S1500000 where
  updateWindowDims := []
  insertedWindowDims := [0]
  scatterDimsToOperandDims := [0]
  indexVectorDim := 1
  wf := scatter_S75000_S1500000x1_S1500000_n_0_0_1_wf
def gather_S75000x128_S1500000x1_S1500000x128_1_0_n_n_0_1_1128 : GatherDims S75000x128 S1500000x1 S1500000x128 where
  offsetDims := [1]
  collapsedSliceDims := [0]
  operandBatchingDims := []
  startIndicesBatchingDims := []
  startIndexMap := [0]
  indexVectorDim := 1
  sliceSizes := ![1, 128]
  wf := gather_S75000x128_S1500000x1_S1500000x128_1_0_n_n_0_1_1128_wf
def scatter_S150000x128_S1500000x1_S1500000x128_1_0_0_1 : ScatterDims S150000x128 S1500000x1 S1500000x128 where
  updateWindowDims := [1]
  insertedWindowDims := [0]
  scatterDimsToOperandDims := [0]
  indexVectorDim := 1
  wf := scatter_S150000x128_S1500000x1_S1500000x128_1_0_0_1_wf
def scatter_S150000_S1500000x1_S1500000_n_0_0_1 : ScatterDims S150000 S1500000x1 S1500000 where
  updateWindowDims := []
  insertedWindowDims := [0]
  scatterDimsToOperandDims := [0]
  indexVectorDim := 1
  wf := scatter_S150000_S1500000x1_S1500000_n_0_0_1_wf
def dot_S150000x128_S128x128_S150000x128_1_0_0_1_n_n : DotDims S150000x128 S128x128 S150000x128 where
  lhsContracting := [1]
  rhsContracting := [0]
  lhsNonContracting := [0]
  rhsNonContracting := [1]
  lhsBatch := []
  rhsBatch := []
  wf := dot_S150000x128_S128x128_S150000x128_1_0_0_1_n_n_wf

class Facts : Prop extends Facts₀ where

variable [Facts]
-- ==== Proof.Spec.lean ====
/-
  The two towers' common arithmetic, stated once on the extended reals, index by index.

  A bipartite graph has 150000 "user" nodes and 75000 "book" nodes joined by 1500000 edges. Every node carries a
  row of 128 numbers. The network first maps the raw node features to such rows by an affine map (`proj`), then
  three times replaces every node's row by  max(mean · Wl + own · Wr + bl, 0)  where `mean` is the average of the
  rows of the node's neighbours on the other side (`sage`, `layer`), and finally normalises every row to mean zero
  and unit variance before a per-column scale and shift (`lnorm`).

  The neighbour average itself (a gather of rows along the edges followed by a sum per destination node and a
  division by the number of incoming edges) enters `layer` and `model` as a PARAMETER: both programs compute it
  with the same chain of whole-array operations, so nothing about it has to be read index by index.
-/
import Idealize.ShloMosaic.PureOps.Ideal.Laws
import Idealize.ShloMosaic.Lib.ValueIdx

noncomputable section

namespace Cert.Spec

open Idealize.ShloMosaic Idealize.ShloMosaic.ValueIdx

/-- An n × k matrix of extended reals. -/
abbrev Mat (n k : ℕ) : Type := FVec Ideal ⟨2, ![n, k]⟩ .f32
/-- A vector of k extended reals. -/
abbrev Row (k : ℕ) : Type := FVec Ideal ⟨1, ![k]⟩ .f32

/-- A vector laid out as a one-row matrix. -/
def rowMat {k : ℕ} (r : Row k) : Mat 1 k := fun i => r (ix1 (i 1))

theorem rowMat_apply {k : ℕ} (r : Row k) (z : Fin 1) (q : Fin k) : rowMat r (ix2 z q) = r (ix1 q) := rfl

/-- The number zero, as both programs spell it. -/
abbrev zero : Ideal .f32 := Ideal.ofBits .f32 0x00000000#32
/-- The number 128, as both programs spell it. -/
abbrev c128 : Ideal .f32 := Ideal.ofBits .f32 0x43000000#32
/-- The variance's guard (the float nearest 1e-5), as both programs spell it. -/
abbrev eps : Ideal .f32 := Ideal.ofBits .f32 0x3727C5AC#32

/-- The affine map  x · w + b  (the bias a one-row matrix, added to every row). -/
def proj {n k : ℕ} (x : Mat n k) (w : Mat k 128) (b : Mat 1 128) : Mat n 128 :=
  fun i => (∑ j : Fin k, x (ix2 (i 0) j) * w (ix2 j (i 1))) + b (ix2 0 (i 1))

theorem proj_apply {n k : ℕ} (x : Mat n k) (w : Mat k 128) (b : Mat 1 128) (p : Fin n) (q : Fin 128) :
    proj x w b (ix2 p q) = (∑ j : Fin k, x (ix2 p j) * w (ix2 j q)) + b (ix2 0 q) := rfl

/-- One node update:  max(mean · wl + own · wr + bl, 0). -/
def sage {n : ℕ} (mean own : Mat n 128) (wl : Mat 128 128) (bl : Mat 1 128) (wr : Mat 128 128) : Mat n 128 :=
  fun i => max (((∑ j : Fin 128, mean (ix2 (i 0) j) * wl (ix2 j (i 1))) + (∑ j : Fin 128, own (ix2 (i 0) j) * wr (ix2 j (i 1))))
    + bl (ix2 0 (i 1))) zero

theorem sage_apply {n : ℕ} (mean own : Mat n 128) (wl : Mat 128 128) (bl : Mat 1 128) (wr : Mat 128 128) (p : Fin n) (q : Fin 128) :
    sage mean own wl bl wr (ix2 p q)
      = max (((∑ j : Fin 128, mean (ix2 p j) * wl (ix2 j q)) + (∑ j : Fin 128, own (ix2 p j) * wr (ix2 j q))) + bl (ix2 0 q)) zero := rfl

/-- The mean of row p. -/
def rowMean {n : ℕ} (x : Mat n 128) (p : Fin n) : Ideal .f32 := Ideal.div (∑ j : Fin 128, x (ix2 p j)) c128

/-- The (biased) variance of row p. -/
def rowVar {n : ℕ} (x : Mat n 128) (p : Fin n) : Ideal .f32 :=
  Ideal.div (∑ j : Fin 128, (x (ix2 p j) - rowMean x p) * (x (ix2 p j) - rowMean x p)) c128

/-- Row normalisation:  (x − mean) · (var + eps)^(−1/2) · gamma + beta. -/
def lnorm {n : ℕ} (x : Mat n 128) (g be : Mat 1 128) : Mat n 128 :=
  fun i => ((x (ix2 (i 0) (i 1)) - rowMean x (i 0)) * Ideal.rsqrt (rowVar x (i 0) + eps)) * g (ix2 0 (i 1)) + be (ix2 0 (i 1))

theorem lnorm_apply {n : ℕ} (x : Mat n 128) (g be : Mat 1 128) (p : Fin n) (q : Fin 128) :
    lnorm x g be (ix2 p q)
      = ((x (ix2 p q) - rowMean x p) * Ideal.rsqrt (rowVar x p + eps)) * g (ix2 0 q) + be (ix2 0 q) := rfl

/-- One layer's weights. -/
structure Weights where
  wl : Mat 128 128
  bl : Row 128
  wr : Mat 128 128

/-- One layer: both sides updated from the OLD rows of both sides. `aggB` averages user rows into the books,
    `aggU` book rows into the users. -/
def layer (aggB : Mat 150000 128 → Mat 75000 128) (aggU : Mat 75000 128 → Mat 150000 128) (w : Weights)
    (ub : Mat 150000 128 × Mat 75000 128) : Mat 150000 128 × Mat 75000 128 :=
  (sage (aggU ub.2) ub.1 w.wl (rowMat w.bl) w.wr, sage (aggB ub.1) ub.2 w.wl (rowMat w.bl) w.wr)

/-- The whole network: the users' and the books' final rows. -/
def model (xu : Mat 150000 64) (xb : Mat 75000 128) (pwu : Mat 64 128) (pbu : Row 128) (pwb : Mat 128 128) (pbb : Row 128)
    (aggB : Mat 150000 128 → Mat 75000 128) (aggU : Mat 75000 128 → Mat 150000 128) (w0 w1 w2 : Weights)
    (gu bu gb bb : Row 128) : Mat 150000 128 × Mat 75000 128 :=
  let h := layer aggB aggU w2 (layer aggB aggU w1 (layer aggB aggU w0 (proj xu pwu (rowMat pbu), proj xb pwb (rowMat pbb))))
  (lnorm h.1 (rowMat gu) (rowMat bu), lnorm h.2 (rowMat gb) (rowMat bb))

end Cert.Spec

end
-- ==== Proof.KPieces.lean ====
/-
  The whole-array pieces of the network that the program `KernelIdeal` computes with plain array operations outside its
  row-blocked regions, each written once as a function of the arrays it reads:

  * `wrapU` / `wrapB`: an edge's endpoint as python reads an index (a negative one counted from the end: +150000 on
    the user side, +75000 on the book side);
  * `aggBook` / `aggUser`: the neighbour average. The rows named by the gather endpoints `gi` are fetched (one row per
    edge), summed into the row named by the scatter endpoint `si`, and divided by max(count, 1) where count is the
    number of edges that land on that row;
  * `weights i`: layer i's two 128 × 128 matrices and its bias, cut out of the stacked parameter arrays.
-/
import proofs.«165431_j6949257085118_1_alg».proof.Proof.Gen.KernelIdeal
import proofs.«165431_j6949257085118_1_alg».proof.Proof.Spec

noncomputable section

namespace Cert.KernelIdeal.Pieces

open Cert.KernelIdeal Cert.KernelIdeal.Gen Idealize.ShloMosaic Cert.Spec

/-- The edges' endpoints. -/
abbrev Edges : Type := IVec S1500000 32

/-- A user index as python reads it. -/
def wrapU (i : Edges) : Edges :=
  select (cmpi .slt i (broadcastInDim S1500000 ![] bcast_S_S1500000 (constantI S_ 32 0#32)))
    (addi i (broadcastInDim S1500000 ![] bcast_S_S1500000 (constantI S_ 32 150000#32))) i

/-- A book index as python reads it. -/
def wrapB (i : Edges) : Edges :=
  select (cmpi .slt i (broadcastInDim S1500000 ![] bcast_S_S1500000 (constantI S_ 32 0#32)))
    (addi i (broadcastInDim S1500000 ![] bcast_S_S1500000 (constantI S_ 32 75000#32))) i

/-- The users' rows averaged into the books: gather along `gi`, sum and count along `si`. -/
def aggBook (gi si : Edges) (u : Mat 150000 128) : Mat 75000 128 :=
  Host.divf (F := Ideal)
    (Host.scatterAdd (F := Ideal) scatter_S75000x128_S1500000x1_S1500000x128_1_0_0_1
      (broadcastInDim S75000x128 ![] bcast_S_S75000x128 (constant (F := Ideal) S_ .f32 0x00000000#32))
      (broadcastInDim S1500000x1 ![0] bcast_S1500000_S1500000x1_0 si)
      (Host.gather gather_S150000x128_S1500000x1_S1500000x128_1_0_n_n_0_1_1128 u (broadcastInDim S1500000x1 ![0] bcast_S1500000_S1500000x1_0 gi)))
    (broadcastInDim S75000x128 ![0, 1] bcast_S75000x1_S75000x128_0_1 (broadcastInDim S75000x1 ![0] bcast_S75000_S75000x1_0
      (maximumf (F := Ideal)
        (Host.scatterAdd (F := Ideal) scatter_S75000_S1500000x1_S1500000_n_0_0_1
          (broadcastInDim S75000 ![] bcast_S_S75000 (constant (F := Ideal) S_ .f32 0x00000000#32))
          (broadcastInDim S1500000x1 ![0] bcast_S1500000_S1500000x1_0 si)
          (broadcastInDim S1500000 ![] bcast_S_S1500000 (constant (F := Ideal) S_ .f32 0x3F800000#32)))
        (broadcastInDim S75000 ![] bcast_S_S75000 (constant (F := Ideal) S_ .f32 0x3F800000#32)))))

/-- The books' rows averaged into the users: gather along `gi`, sum and count along `si`. -/
def aggUser (gi si : Edges) (b : Mat 75000 128) : Mat 150000 128 :=
  Host.divf (F := Ideal)
    (Host.scatterAdd (F := Ideal) scatter_S150000x128_S1500000x1_S1500000x128_1_0_0_1
      (broadcastInDim S150000x128 ![] bcast_S_S150000x128 (constant (F := Ideal) S_ .f32 0x00000000#32))
      (broadcastInDim S1500000x1 ![0] bcast_S1500000_S1500000x1_0 si)
      (Host.gather gather_S75000x128_S1500000x1_S1500000x128_1_0_n_n_0_1_1128 b (broadcastInDim S1500000x1 ![0] bcast_S1500000_S1500000x1_0 gi)))
    (broadcastInDim S150000x128 ![0, 1] bcast_S150000x1_S150000x128_0_1 (broadcastInDim S150000x1 ![0] bcast_S150000_S150000x1_0
      (maximumf (F := Ideal)
        (Host.scatterAdd (F := Ideal) scatter_S150000_S1500000x1_S1500000_n_0_0_1
          (broadcastInDim S150000 ![] bcast_S_S150000 (constant (F := Ideal) S_ .f32 0x00000000#32))
          (broadcastInDim S1500000x1 ![0] bcast_S1500000_S1500000x1_0 si)
          (broadcastInDim S1500000 ![] bcast_S_S1500000 (constant (F := Ideal) S_ .f32 0x3F800000#32)))
        (broadcastInDim S150000 ![] bcast_S_S150000 (constant (F := Ideal) S_ .f32 0x3F800000#32)))))

/-- Layer 0's parameters. -/
def weights0 (a8 : FVec Ideal S3x128x128 .f32) (a9 : FVec Ideal S3x128 .f32) (a10 : FVec Ideal S3x128x128 .f32) : Weights where
  wl := shapeCast S128x128 (extractStridedSlice S1x128x128 ![0, 0, 0] a8 slices_S3x128x128_S1x128x128_0_0_0) shapeCasts_S1x128x128_S128x128
  bl := shapeCast S128 (extractStridedSlice S1x128 ![0, 0] a9 slices_S3x128_S1x128_0_0) shapeCasts_S1x128_S128
  wr := shapeCast S128x128 (extractStridedSlice S1x128x128 ![0, 0, 0] a10 slices_S3x128x128_S1x128x128_0_0_0) shapeCasts_S1x128x128_S128x128

/-- Layer 1's parameters. -/
def weights1 (a8 : FVec Ideal S3x128x128 .f32) (a9 : FVec Ideal S3x128 .f32) (a10 : FVec Ideal S3x128x128 .f32) : Weights where
  wl := shapeCast S128x128 (extractStridedSlice S1x128x128 ![1, 0, 0] a8 slices_S3x128x128_S1x128x128_1_0_0) shapeCasts_S1x128x128_S128x128
  bl := shapeCast S128 (extractStridedSlice S1x128 ![1, 0] a9 slices_S3x128_S1x128_1_0) shapeCasts_S1x128_S128
  wr := shapeCast S128x128 (extractStridedSlice S1x128x128 ![1, 0, 0] a10 slices_S3x128x128_S1x128x128_1_0_0) shapeCasts_S1x128x128_S128x128

/-- Layer 2's parameters. -/
def weights2 (a8 : FVec Ideal S3x128x128 .f32) (a9 : FVec Ideal S3x128 .f32) (a10 : FVec Ideal S3x128x128 .f32) : Weights where
  wl := shapeCast S128x128 (extractStridedSlice S1x128x128 ![2, 0, 0] a8 slices_S3x128x128_S1x128x128_2_0_0) shapeCasts_S1x128x128_S128x128
  bl := shapeCast S128 (extractStridedSlice S1x128 ![2, 0] a9 slices_S3x128_S1x128_2_0) shapeCasts_S1x128_S128
  wr := shapeCast S128x128 (extractStridedSlice S1x128x128 ![2, 0, 0] a10 slices_S3x128x128_S1x128x128_2_0_0) shapeCasts_S1x128x128_S128x128

end Cert.KernelIdeal.Pieces

end
-- ==== Proof.KState.lean ====
/-
  The rows the idealized kernel program holds after each of its stages, as terms of the argument arrays (the
  launch memory `m` read on core `c`): `h0` after the two input projections, `h1`, `h2`, `h3` after each layer
  (users first, books second), with the neighbour averages taken along the edge endpoints as python reads them.
-/
import proofs.«165431_j6949257085118_1_alg».proof.Proof.Gen.KernelIdeal
import proofs.«165431_j6949257085118_1_alg».proof.Proof.Spec
import proofs.«165431_j6949257085118_1_alg».proof.Proof.KPieces

noncomputable section

namespace Cert.KernelIdeal.Chain

open Cert.KernelIdeal Cert.KernelIdeal.Gen Cert.KernelIdeal.Pieces Idealize.ShloMosaic Idealize.ShloMosaic.TcCoe Idealize.SL.Sem Cert.Spec

variable (m : (ℓ : Loc nD τ sig) → Buf (Elt Ideal) ℓ) (c : Dev nD)

/-- Users' rows averaged into the books, along this launch's edges. -/
def aggB : Mat 150000 128 → Mat 75000 128 := aggBook (wrapU (m ((c : Thread nD τ).loc main_arg2))) (wrapB (m ((c : Thread nD τ).loc main_arg3)))
/-- Books' rows averaged into the users, along this launch's edges. -/
def aggU : Mat 75000 128 → Mat 150000 128 := aggUser (wrapB (m ((c : Thread nD τ).loc main_arg3))) (wrapU (m ((c : Thread nD τ).loc main_arg2)))

/-- After the input projections. -/
def h0 : Mat 150000 128 × Mat 75000 128 :=
  (proj (m ((c : Thread nD τ).loc main_arg0)) (m ((c : Thread nD τ).loc main_arg4)) (rowMat (m ((c : Thread nD τ).loc main_arg5))), proj (m ((c : Thread nD τ).loc main_arg1)) (m ((c : Thread nD τ).loc main_arg6)) (rowMat (m ((c : Thread nD τ).loc main_arg7))))
/-- After layer 0. -/
def h1 : Mat 150000 128 × Mat 75000 128 := layer (aggB m c) (aggU m c) (weights0 (m ((c : Thread nD τ).loc main_arg8)) (m ((c : Thread nD τ).loc main_arg9)) (m ((c : Thread nD τ).loc main_arg10))) (h0 m c)
/-- After layer 1. -/
def h2 : Mat 150000 128 × Mat 75000 128 := layer (aggB m c) (aggU m c) (weights1 (m ((c : Thread nD τ).loc main_arg8)) (m ((c : Thread nD τ).loc main_arg9)) (m ((c : Thread nD τ).loc main_arg10))) (h1 m c)
/-- After layer 2. -/
def h3 : Mat 150000 128 × Mat 75000 128 := layer (aggB m c) (aggU m c) (weights2 (m ((c : Thread nD τ).loc main_arg8)) (m ((c : Thread nD τ).loc main_arg9)) (m ((c : Thread nD τ).loc main_arg10))) (h2 m c)

/-- The network's value on this launch's arguments is the normalisation of `h3`. -/
theorem model_eq :
    Spec.model (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (aggB m c) (aggU m c)
      (weights0 (m ((c : Thread nD τ).loc main_arg8)) (m ((c : Thread nD τ).loc main_arg9)) (m ((c : Thread nD τ).loc main_arg10))) (weights1 (m ((c : Thread nD τ).loc main_arg8)) (m ((c : Thread nD τ).loc main_arg9)) (m ((c : Thread nD τ).loc main_arg10))) (weights2 (m ((c : Thread nD τ).loc main_arg8)) (m ((c : Thread nD τ).loc main_arg9)) (m ((c : Thread nD τ).loc main_arg10)))
      (m ((c : Thread nD τ).loc main_arg11)) (m ((c : Thread nD τ).loc main_arg12)) (m ((c : Thread nD τ).loc main_arg13)) (m ((c : Thread nD τ).loc main_arg14))
    = (lnorm (h3 m c).1 (rowMat (m ((c : Thread nD τ).loc main_arg11))) (rowMat (m ((c : Thread nD τ).loc main_arg12))), lnorm (h3 m c).2 (rowMat (m ((c : Thread nD τ).loc main_arg13))) (rowMat (m ((c : Thread nD τ).loc main_arg14)))) := rfl

end Cert.KernelIdeal.Chain

end
-- ==== Proof.KArgs.lean ====
/- (each hop below is the matching step of the generated theorem W20_main_argK, cut at boundary j).
   No host operation and no region of the program writes an argument array, so at every segment boundary j the
   fold W_j of the program's effects over the launch memory still holds the launch contents at an argument:
   one hop per segment (a host stretch writes other buffers; a region either does not touch the array or reads it
   through an input window, which leaves it as entered). -/
import proofs.«165431_j6949257085118_1_alg».proof.Proof.Gen.KernelIdeal.Frame

set_option maxRecDepth 16384

noncomputable section

namespace Cert.KernelIdeal.Args

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-! ## argument 0 -/

theorem W0_main_arg0 (c : Dev nD) : W0 m ρ c (Proc.devRef .tc main_arg0) = m ((c : Thread nD τ).loc main_arg0) := rfl
theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W0_main_arg0 m ρ c

/-! ## argument 1 -/

theorem W0_main_arg1 (c : Dev nD) : W0 m ρ c (Proc.devRef .tc main_arg1) = m ((c : Thread nD τ).loc main_arg1) := rfl
theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W0_main_arg1 m ρ c
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = m ((c : Thread nD τ).loc main_arg1) := W1_main_arg1 m ρ c
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W2_main_arg1 m ρ c

/-! ## argument 2 -/

theorem W0_main_arg2 (c : Dev nD) : W0 m ρ c (Proc.devRef .tc main_arg2) = m ((c : Thread nD τ).loc main_arg2) := rfl
theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W0_main_arg2 m ρ c
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = m ((c : Thread nD τ).loc main_arg2) := W1_main_arg2 m ρ c
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W2_main_arg2 m ρ c
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = m ((c : Thread nD τ).loc main_arg2) := W3_main_arg2 m ρ c
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W4_main_arg2 m ρ c
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = m ((c : Thread nD τ).loc main_arg2) := W5_main_arg2 m ρ c
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W6_main_arg2 m ρ c
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = m ((c : Thread nD τ).loc main_arg2) := W7_main_arg2 m ρ c
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W8_main_arg2 m ρ c
theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = m ((c : Thread nD τ).loc main_arg2) := W9_main_arg2 m ρ c
theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W10_main_arg2 m ρ c
theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = m ((c : Thread nD τ).loc main_arg2) := W11_main_arg2 m ρ c

/-! ## argument 3 -/

theorem W0_main_arg3 (c : Dev nD) : W0 m ρ c (Proc.devRef .tc main_arg3) = m ((c : Thread nD τ).loc main_arg3) := rfl
theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W0_main_arg3 m ρ c
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = m ((c : Thread nD τ).loc main_arg3) := W1_main_arg3 m ρ c
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W2_main_arg3 m ρ c
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = m ((c : Thread nD τ).loc main_arg3) := W3_main_arg3 m ρ c
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W4_main_arg3 m ρ c
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = m ((c : Thread nD τ).loc main_arg3) := W5_main_arg3 m ρ c
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W6_main_arg3 m ρ c
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = m ((c : Thread nD τ).loc main_arg3) := W7_main_arg3 m ρ c
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W8_main_arg3 m ρ c
theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = m ((c : Thread nD τ).loc main_arg3) := W9_main_arg3 m ρ c
theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := StableHlo.after_of_forall_not_mem (b := Proc.devRef .tc main_arg3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W10_main_arg3 m ρ c
theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = m ((c : Thread nD τ).loc main_arg3) := W11_main_arg3 m ρ c

/-! ## argument 4 -/

theorem W0_main_arg4 (c : Dev nD) : W0 m ρ c (Proc.devRef .tc main_arg4) = m ((c : Thread nD τ).loc main_arg4) := rfl
theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W0_main_arg4 m ρ c

/-! ## argument 5 -/

theorem W0_main_arg5 (c : Dev nD) : W0 m ρ c (Proc.devRef .tc main_arg5) = m ((c : Thread nD τ).loc main_arg5) := rfl

/-! ## argument 6 -/

theorem W0_main_arg6 (c : Dev nD) : W0 m ρ c (Proc.devRef .tc main_arg6) = m ((c : Thread nD τ).loc main_arg6) := rfl
theorem W1_main_arg6 (c : Dev nD) : W1 m ρ c (Proc.devRef .tc main_arg6) = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W0_main_arg6 m ρ c
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = m ((c : Thread nD τ).loc main_arg6) := W1_main_arg6 m ρ c
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W2_main_arg6 m ρ c

/-! ## argument 7 -/

theorem W0_main_arg7 (c : Dev nD) : W0 m ρ c (Proc.devRef .tc main_arg7) = m ((c : Thread nD τ).loc main_arg7) := rfl
theorem W1_main_arg7 (c : Dev nD) : W1 m ρ c (Proc.devRef .tc main_arg7) = m ((c : Thread nD τ).loc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W0_main_arg7 m ρ c
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = m ((c : Thread nD τ).loc main_arg7) := W1_main_arg7 m ρ c

/-! ## argument 8 -/

theorem W0_main_arg8 (c : Dev nD) : W0 m ρ c (Proc.devRef .tc main_arg8) = m ((c : Thread nD τ).loc main_arg8) := rfl
theorem W1_main_arg8 (c : Dev nD) : W1 m ρ c (Proc.devRef .tc main_arg8) = m ((c : Thread nD τ).loc main_arg8) :=
  calc W1 m ρ c (Proc.devRef .tc main_arg8)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W0_main_arg8 m ρ c
theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = m ((c : Thread nD τ).loc main_arg8) := W1_main_arg8 m ρ c
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W2_main_arg8 m ρ c
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = m ((c : Thread nD τ).loc main_arg8) := W3_main_arg8 m ρ c
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W4_main_arg8 m ρ c
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = m ((c : Thread nD τ).loc main_arg8) := W5_main_arg8 m ρ c
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W6_main_arg8 m ρ c
theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = m ((c : Thread nD τ).loc main_arg8) := W7_main_arg8 m ρ c
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W8_main_arg8 m ρ c
theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = m ((c : Thread nD τ).loc main_arg8) := W9_main_arg8 m ρ c
theorem W11_main_arg8 (c : Dev nD) : W11 m ρ c (Proc.devRef .tc main_arg8) = m ((c : Thread nD τ).loc main_arg8) :=
  calc W11 m ρ c (Proc.devRef .tc main_arg8)
    _ = W10 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W10_main_arg8 m ρ c
theorem W12_main_arg8 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = m ((c : Thread nD τ).loc main_arg8) := W11_main_arg8 m ρ c
theorem W13_main_arg8 (c : Dev nD) : W13 m ρ c (Proc.devRef .tc main_arg8) = m ((c : Thread nD τ).loc main_arg8) :=
  calc W13 m ρ c (Proc.devRef .tc main_arg8)
    _ = W12 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W12_main_arg8 m ρ c
theorem W14_main_arg8 (c : Dev nD) : W14 m ρ c (Proc.devRef .tc main_arg8) = m ((c : Thread nD τ).loc main_arg8) :=
  calc W14 m ρ c (Proc.devRef .tc main_arg8)
    _ = W13 m ρ c (Proc.devRef .tc main_arg8) := W14_of_ne m ρ c main_arg8 (by decide)
    _ = m ((c : Thread nD τ).loc main_arg8) := W13_main_arg8 m ρ c

/-! ## argument 9 -/

theorem W0_main_arg9 (c : Dev nD) : W0 m ρ c (Proc.devRef .tc main_arg9) = m ((c : Thread nD τ).loc main_arg9) := rfl
theorem W1_main_arg9 (c : Dev nD) : W1 m ρ c (Proc.devRef .tc main_arg9) = m ((c : Thread nD τ).loc main_arg9) :=
  calc W1 m ρ c (Proc.devRef .tc main_arg9)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W0_main_arg9 m ρ c
theorem W2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = m ((c : Thread nD τ).loc main_arg9) := W1_main_arg9 m ρ c
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W2_main_arg9 m ρ c
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = m ((c : Thread nD τ).loc main_arg9) := W3_main_arg9 m ρ c
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W4_main_arg9 m ρ c
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = m ((c : Thread nD τ).loc main_arg9) := W5_main_arg9 m ρ c
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W6_main_arg9 m ρ c
theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = m ((c : Thread nD τ).loc main_arg9) := W7_main_arg9 m ρ c
theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W8_main_arg9 m ρ c
theorem W10_main_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = m ((c : Thread nD τ).loc main_arg9) := W9_main_arg9 m ρ c
theorem W11_main_arg9 (c : Dev nD) : W11 m ρ c (Proc.devRef .tc main_arg9) = m ((c : Thread nD τ).loc main_arg9) :=
  calc W11 m ρ c (Proc.devRef .tc main_arg9)
    _ = W10 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W10_main_arg9 m ρ c
theorem W12_main_arg9 (c : Dev nD) : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = m ((c : Thread nD τ).loc main_arg9) := W11_main_arg9 m ρ c
theorem W13_main_arg9 (c : Dev nD) : W13 m ρ c (Proc.devRef .tc main_arg9) = m ((c : Thread nD τ).loc main_arg9) :=
  calc W13 m ρ c (Proc.devRef .tc main_arg9)
    _ = W12 m ρ c (Proc.devRef .tc main_arg9) := StableHlo.after_of_forall_not_mem (b := Proc.devRef .tc main_arg9) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W12_main_arg9 m ρ c
theorem W14_main_arg9 (c : Dev nD) : W14 m ρ c (Proc.devRef .tc main_arg9) = m ((c : Thread nD τ).loc main_arg9) :=
  calc W14 m ρ c (Proc.devRef .tc main_arg9)
    _ = W13 m ρ c (Proc.devRef .tc main_arg9) := W14_of_ne m ρ c main_arg9 (by decide)
    _ = m ((c : Thread nD τ).loc main_arg9) := W13_main_arg9 m ρ c

/-! ## argument 10 -/

theorem W0_main_arg10 (c : Dev nD) : W0 m ρ c (Proc.devRef .tc main_arg10) = m ((c : Thread nD τ).loc main_arg10) := rfl
theorem W1_main_arg10 (c : Dev nD) : W1 m ρ c (Proc.devRef .tc main_arg10) = m ((c : Thread nD τ).loc main_arg10) :=
  calc W1 m ρ c (Proc.devRef .tc main_arg10)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W0_main_arg10 m ρ c
theorem W2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = m ((c : Thread nD τ).loc main_arg10) := W1_main_arg10 m ρ c
theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W2_main_arg10 m ρ c
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = m ((c : Thread nD τ).loc main_arg10) := W3_main_arg10 m ρ c
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W4_main_arg10 m ρ c
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = m ((c : Thread nD τ).loc main_arg10) := W5_main_arg10 m ρ c
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W6_main_arg10 m ρ c
theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = m ((c : Thread nD τ).loc main_arg10) := W7_main_arg10 m ρ c
theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W8_main_arg10 m ρ c
theorem W10_main_arg10 (c : Dev nD) : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = m ((c : Thread nD τ).loc main_arg10) := W9_main_arg10 m ρ c
theorem W11_main_arg10 (c : Dev nD) : W11 m ρ c (Proc.devRef .tc main_arg10) = m ((c : Thread nD τ).loc main_arg10) :=
  calc W11 m ρ c (Proc.devRef .tc main_arg10)
    _ = W10 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W10_main_arg10 m ρ c
theorem W12_main_arg10 (c : Dev nD) : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = m ((c : Thread nD τ).loc main_arg10) := W11_main_arg10 m ρ c
theorem W13_main_arg10 (c : Dev nD) : W13 m ρ c (Proc.devRef .tc main_arg10) = m ((c : Thread nD τ).loc main_arg10) :=
  calc W13 m ρ c (Proc.devRef .tc main_arg10)
    _ = W12 m ρ c (Proc.devRef .tc main_arg10) := StableHlo.after_of_forall_not_mem (b := Proc.devRef .tc main_arg10) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W12_main_arg10 m ρ c
theorem W14_main_arg10 (c : Dev nD) : W14 m ρ c (Proc.devRef .tc main_arg10) = m ((c : Thread nD τ).loc main_arg10) :=
  calc W14 m ρ c (Proc.devRef .tc main_arg10)
    _ = W13 m ρ c (Proc.devRef .tc main_arg10) := W14_of_ne m ρ c main_arg10 (by decide)
    _ = m ((c : Thread nD τ).loc main_arg10) := W13_main_arg10 m ρ c

/-! ## argument 11 -/

theorem W0_main_arg11 (c : Dev nD) : W0 m ρ c (Proc.devRef .tc main_arg11) = m ((c : Thread nD τ).loc main_arg11) := rfl
theorem W1_main_arg11 (c : Dev nD) : W1 m ρ c (Proc.devRef .tc main_arg11) = m ((c : Thread nD τ).loc main_arg11) :=
  calc W1 m ρ c (Proc.devRef .tc main_arg11)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W0_main_arg11 m ρ c
theorem W2_main_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = m ((c : Thread nD τ).loc main_arg11) := W1_main_arg11 m ρ c
theorem W3_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W2_main_arg11 m ρ c
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = m ((c : Thread nD τ).loc main_arg11) := W3_main_arg11 m ρ c
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W4_main_arg11 m ρ c
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = m ((c : Thread nD τ).loc main_arg11) := W5_main_arg11 m ρ c
theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W6_main_arg11 m ρ c
theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = m ((c : Thread nD τ).loc main_arg11) := W7_main_arg11 m ρ c
theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W8_main_arg11 m ρ c
theorem W10_main_arg11 (c : Dev nD) : W10 m ρ c (Proc.devRef .tc main_arg11) = m ((c : Thread nD τ).loc main_arg11) :=
  calc W10 m ρ c (Proc.devRef .tc main_arg11)
    _ = W9 m ρ c (Proc.devRef .tc main_arg11) := W10_of_ne m ρ c main_arg11 (by decide)
    _ = m ((c : Thread nD τ).loc main_arg11) := W9_main_arg11 m ρ c
theorem W11_main_arg11 (c : Dev nD) : W11 m ρ c (Proc.devRef .tc main_arg11) = m ((c : Thread nD τ).loc main_arg11) :=
  calc W11 m ρ c (Proc.devRef .tc main_arg11)
    _ = W10 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W10_main_arg11 m ρ c
theorem W12_main_arg11 (c : Dev nD) : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = m ((c : Thread nD τ).loc main_arg11) := W11_main_arg11 m ρ c
theorem W13_main_arg11 (c : Dev nD) : W13 m ρ c (Proc.devRef .tc main_arg11) = m ((c : Thread nD τ).loc main_arg11) :=
  calc W13 m ρ c (Proc.devRef .tc main_arg11)
    _ = W12 m ρ c (Proc.devRef .tc main_arg11) := StableHlo.after_of_forall_not_mem (b := Proc.devRef .tc main_arg11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W12_main_arg11 m ρ c
theorem W14_main_arg11 (c : Dev nD) : W14 m ρ c (Proc.devRef .tc main_arg11) = m ((c : Thread nD τ).loc main_arg11) :=
  calc W14 m ρ c (Proc.devRef .tc main_arg11)
    _ = W13 m ρ c (Proc.devRef .tc main_arg11) := W14_of_ne m ρ c main_arg11 (by decide)
    _ = m ((c : Thread nD τ).loc main_arg11) := W13_main_arg11 m ρ c
theorem W15_main_arg11 (c : Dev nD) : W15 m ρ c (Proc.devRef .tc main_arg11) = m ((c : Thread nD τ).loc main_arg11) :=
  calc W15 m ρ c (Proc.devRef .tc main_arg11)
    _ = W14 m ρ c (Proc.devRef .tc main_arg11) := StableHlo.after_of_forall_not_mem (b := Proc.devRef .tc main_arg11) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W14_main_arg11 m ρ c
theorem W16_main_arg11 (c : Dev nD) : W16 m ρ c (Proc.devRef .tc main_arg11) = m ((c : Thread nD τ).loc main_arg11) :=
  calc W16 m ρ c (Proc.devRef .tc main_arg11)
    _ = W15 m ρ c (Proc.devRef .tc main_arg11) := W16_of_ne m ρ c main_arg11 (by decide)
    _ = m ((c : Thread nD τ).loc main_arg11) := W15_main_arg11 m ρ c

/-! ## argument 12 -/

theorem W0_main_arg12 (c : Dev nD) : W0 m ρ c (Proc.devRef .tc main_arg12) = m ((c : Thread nD τ).loc main_arg12) := rfl
theorem W1_main_arg12 (c : Dev nD) : W1 m ρ c (Proc.devRef .tc main_arg12) = m ((c : Thread nD τ).loc main_arg12) :=
  calc W1 m ρ c (Proc.devRef .tc main_arg12)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W0_main_arg12 m ρ c
theorem W2_main_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = m ((c : Thread nD τ).loc main_arg12) := W1_main_arg12 m ρ c
theorem W3_main_arg12 (c : Dev nD) : W3 m ρ c (Proc.devRef .tc main_arg12) = m ((c : Thread nD τ).loc main_arg12) :=
  calc W3 m ρ c (Proc.devRef .tc main_arg12)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W2_main_arg12 m ρ c
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = m ((c : Thread nD τ).loc main_arg12) := W3_main_arg12 m ρ c
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W4_main_arg12 m ρ c
theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = m ((c : Thread nD τ).loc main_arg12) := W5_main_arg12 m ρ c
theorem W7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W6_main_arg12 m ρ c
theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = m ((c : Thread nD τ).loc main_arg12) := W7_main_arg12 m ρ c
theorem W9_main_arg12 (c : Dev nD) : W9 m ρ c (Proc.devRef .tc main_arg12) = m ((c : Thread nD τ).loc main_arg12) :=
  calc W9 m ρ c (Proc.devRef .tc main_arg12)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W8_main_arg12 m ρ c
theorem W10_main_arg12 (c : Dev nD) : W10 m ρ c (Proc.devRef .tc main_arg12) = m ((c : Thread nD τ).loc main_arg12) :=
  calc W10 m ρ c (Proc.devRef .tc main_arg12)
    _ = W9 m ρ c (Proc.devRef .tc main_arg12) := W10_of_ne m ρ c main_arg12 (by decide)
    _ = m ((c : Thread nD τ).loc main_arg12) := W9_main_arg12 m ρ c
theorem W11_main_arg12 (c : Dev nD) : W11 m ρ c (Proc.devRef .tc main_arg12) = m ((c : Thread nD τ).loc main_arg12) :=
  calc W11 m ρ c (Proc.devRef .tc main_arg12)
    _ = W10 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W10_main_arg12 m ρ c
theorem W12_main_arg12 (c : Dev nD) : W12 m ρ c (Proc.devRef .tc main_arg12) = m ((c : Thread nD τ).loc main_arg12) :=
  calc W12 m ρ c (Proc.devRef .tc main_arg12)
    _ = W11 m ρ c (Proc.devRef .tc main_arg12) := W12_of_ne m ρ c main_arg12 (by decide)
    _ = m ((c : Thread nD τ).loc main_arg12) := W11_main_arg12 m ρ c
theorem W13_main_arg12 (c : Dev nD) : W13 m ρ c (Proc.devRef .tc main_arg12) = m ((c : Thread nD τ).loc main_arg12) :=
  calc W13 m ρ c (Proc.devRef .tc main_arg12)
    _ = W12 m ρ c (Proc.devRef .tc main_arg12) := StableHlo.after_of_forall_not_mem (b := Proc.devRef .tc main_arg12) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W12_main_arg12 m ρ c
theorem W14_main_arg12 (c : Dev nD) : W14 m ρ c (Proc.devRef .tc main_arg12) = m ((c : Thread nD τ).loc main_arg12) :=
  calc W14 m ρ c (Proc.devRef .tc main_arg12)
    _ = W13 m ρ c (Proc.devRef .tc main_arg12) := W14_of_ne m ρ c main_arg12 (by decide)
    _ = m ((c : Thread nD τ).loc main_arg12) := W13_main_arg12 m ρ c
theorem W15_main_arg12 (c : Dev nD) : W15 m ρ c (Proc.devRef .tc main_arg12) = m ((c : Thread nD τ).loc main_arg12) :=
  calc W15 m ρ c (Proc.devRef .tc main_arg12)
    _ = W14 m ρ c (Proc.devRef .tc main_arg12) := StableHlo.after_of_forall_not_mem (b := Proc.devRef .tc main_arg12) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W14_main_arg12 m ρ c
theorem W16_main_arg12 (c : Dev nD) : W16 m ρ c (Proc.devRef .tc main_arg12) = m ((c : Thread nD τ).loc main_arg12) :=
  calc W16 m ρ c (Proc.devRef .tc main_arg12)
    _ = W15 m ρ c (Proc.devRef .tc main_arg12) := W16_of_ne m ρ c main_arg12 (by decide)
    _ = m ((c : Thread nD τ).loc main_arg12) := W15_main_arg12 m ρ c

/-! ## argument 13 -/

theorem W0_main_arg13 (c : Dev nD) : W0 m ρ c (Proc.devRef .tc main_arg13) = m ((c : Thread nD τ).loc main_arg13) := rfl
theorem W1_main_arg13 (c : Dev nD) : W1 m ρ c (Proc.devRef .tc main_arg13) = m ((c : Thread nD τ).loc main_arg13) :=
  calc W1 m ρ c (Proc.devRef .tc main_arg13)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := W0_main_arg13 m ρ c
theorem W2_main_arg13 (c : Dev nD) : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = m ((c : Thread nD τ).loc main_arg13) := W1_main_arg13 m ρ c
theorem W3_main_arg13 (c : Dev nD) : W3 m ρ c (Proc.devRef .tc main_arg13) = m ((c : Thread nD τ).loc main_arg13) :=
  calc W3 m ρ c (Proc.devRef .tc main_arg13)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := W2_main_arg13 m ρ c
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = m ((c : Thread nD τ).loc main_arg13) := W3_main_arg13 m ρ c
theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := W4_main_arg13 m ρ c
theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = m ((c : Thread nD τ).loc main_arg13) := W5_main_arg13 m ρ c
theorem W7_main_arg13 (c : Dev nD) : W7 m ρ c (Proc.devRef .tc main_arg13) = m ((c : Thread nD τ).loc main_arg13) :=
  calc W7 m ρ c (Proc.devRef .tc main_arg13)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := W6_main_arg13 m ρ c
theorem W8_main_arg13 (c : Dev nD) : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = m ((c : Thread nD τ).loc main_arg13) := W7_main_arg13 m ρ c
theorem W9_main_arg13 (c : Dev nD) : W9 m ρ c (Proc.devRef .tc main_arg13) = m ((c : Thread nD τ).loc main_arg13) :=
  calc W9 m ρ c (Proc.devRef .tc main_arg13)
    _ = W8 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := W8_main_arg13 m ρ c
theorem W10_main_arg13 (c : Dev nD) : W10 m ρ c (Proc.devRef .tc main_arg13) = m ((c : Thread nD τ).loc main_arg13) :=
  calc W10 m ρ c (Proc.devRef .tc main_arg13)
    _ = W9 m ρ c (Proc.devRef .tc main_arg13) := W10_of_ne m ρ c main_arg13 (by decide)
    _ = m ((c : Thread nD τ).loc main_arg13) := W9_main_arg13 m ρ c
theorem W11_main_arg13 (c : Dev nD) : W11 m ρ c (Proc.devRef .tc main_arg13) = m ((c : Thread nD τ).loc main_arg13) :=
  calc W11 m ρ c (Proc.devRef .tc main_arg13)
    _ = W10 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := W10_main_arg13 m ρ c
theorem W12_main_arg13 (c : Dev nD) : W12 m ρ c (Proc.devRef .tc main_arg13) = m ((c : Thread nD τ).loc main_arg13) :=
  calc W12 m ρ c (Proc.devRef .tc main_arg13)
    _ = W11 m ρ c (Proc.devRef .tc main_arg13) := W12_of_ne m ρ c main_arg13 (by decide)
    _ = m ((c : Thread nD τ).loc main_arg13) := W11_main_arg13 m ρ c
theorem W13_main_arg13 (c : Dev nD) : W13 m ρ c (Proc.devRef .tc main_arg13) = m ((c : Thread nD τ).loc main_arg13) :=
  calc W13 m ρ c (Proc.devRef .tc main_arg13)
    _ = W12 m ρ c (Proc.devRef .tc main_arg13) := StableHlo.after_of_forall_not_mem (b := Proc.devRef .tc main_arg13) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := W12_main_arg13 m ρ c
theorem W14_main_arg13 (c : Dev nD) : W14 m ρ c (Proc.devRef .tc main_arg13) = m ((c : Thread nD τ).loc main_arg13) :=
  calc W14 m ρ c (Proc.devRef .tc main_arg13)
    _ = W13 m ρ c (Proc.devRef .tc main_arg13) := W14_of_ne m ρ c main_arg13 (by decide)
    _ = m ((c : Thread nD τ).loc main_arg13) := W13_main_arg13 m ρ c
theorem W15_main_arg13 (c : Dev nD) : W15 m ρ c (Proc.devRef .tc main_arg13) = m ((c : Thread nD τ).loc main_arg13) :=
  calc W15 m ρ c (Proc.devRef .tc main_arg13)
    _ = W14 m ρ c (Proc.devRef .tc main_arg13) := StableHlo.after_of_forall_not_mem (b := Proc.devRef .tc main_arg13) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := W14_main_arg13 m ρ c
theorem W16_main_arg13 (c : Dev nD) : W16 m ρ c (Proc.devRef .tc main_arg13) = m ((c : Thread nD τ).loc main_arg13) :=
  calc W16 m ρ c (Proc.devRef .tc main_arg13)
    _ = W15 m ρ c (Proc.devRef .tc main_arg13) := W16_of_ne m ρ c main_arg13 (by decide)
    _ = m ((c : Thread nD τ).loc main_arg13) := W15_main_arg13 m ρ c
theorem W17_main_arg13 (c : Dev nD) : W17 m ρ c (Proc.devRef .tc main_arg13) = m ((c : Thread nD τ).loc main_arg13) :=
  calc W17 m ρ c (Proc.devRef .tc main_arg13)
    _ = W16 m ρ c (Proc.devRef .tc main_arg13) := StableHlo.after_of_forall_not_mem (b := Proc.devRef .tc main_arg13) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := W16_main_arg13 m ρ c
theorem W18_main_arg13 (c : Dev nD) : W18 m ρ c (Proc.devRef .tc main_arg13) = m ((c : Thread nD τ).loc main_arg13) :=
  calc W18 m ρ c (Proc.devRef .tc main_arg13)
    _ = W17 m ρ c (Proc.devRef .tc main_arg13) := W18_of_ne m ρ c main_arg13 (by decide)
    _ = m ((c : Thread nD τ).loc main_arg13) := W17_main_arg13 m ρ c

/-! ## argument 14 -/

theorem W0_main_arg14 (c : Dev nD) : W0 m ρ c (Proc.devRef .tc main_arg14) = m ((c : Thread nD τ).loc main_arg14) := rfl
theorem W1_main_arg14 (c : Dev nD) : W1 m ρ c (Proc.devRef .tc main_arg14) = m ((c : Thread nD τ).loc main_arg14) :=
  calc W1 m ρ c (Proc.devRef .tc main_arg14)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := W0_main_arg14 m ρ c
theorem W2_main_arg14 (c : Dev nD) : W2 m ρ c (Proc.devRef .tc main_arg14) = m ((c : Thread nD τ).loc main_arg14) :=
  calc W2 m ρ c (Proc.devRef .tc main_arg14)
    _ = W1 m ρ c (Proc.devRef .tc main_arg14) := W2_of_ne m ρ c main_arg14 (by decide)
    _ = m ((c : Thread nD τ).loc main_arg14) := W1_main_arg14 m ρ c
theorem W3_main_arg14 (c : Dev nD) : W3 m ρ c (Proc.devRef .tc main_arg14) = m ((c : Thread nD τ).loc main_arg14) :=
  calc W3 m ρ c (Proc.devRef .tc main_arg14)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := W2_main_arg14 m ρ c
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = m ((c : Thread nD τ).loc main_arg14) := W3_main_arg14 m ρ c
theorem W5_main_arg14 (c : Dev nD) : W5 m ρ c (Proc.devRef .tc main_arg14) = m ((c : Thread nD τ).loc main_arg14) :=
  calc W5 m ρ c (Proc.devRef .tc main_arg14)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := W4_main_arg14 m ρ c
theorem W6_main_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = m ((c : Thread nD τ).loc main_arg14) := W5_main_arg14 m ρ c
theorem W7_main_arg14 (c : Dev nD) : W7 m ρ c (Proc.devRef .tc main_arg14) = m ((c : Thread nD τ).loc main_arg14) :=
  calc W7 m ρ c (Proc.devRef .tc main_arg14)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := W6_main_arg14 m ρ c
theorem W8_main_arg14 (c : Dev nD) : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = m ((c : Thread nD τ).loc main_arg14) := W7_main_arg14 m ρ c
theorem W9_main_arg14 (c : Dev nD) : W9 m ρ c (Proc.devRef .tc main_arg14) = m ((c : Thread nD τ).loc main_arg14) :=
  calc W9 m ρ c (Proc.devRef .tc main_arg14)
    _ = W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := W8_main_arg14 m ρ c
theorem W10_main_arg14 (c : Dev nD) : W10 m ρ c (Proc.devRef .tc main_arg14) = m ((c : Thread nD τ).loc main_arg14) :=
  calc W10 m ρ c (Proc.devRef .tc main_arg14)
    _ = W9 m ρ c (Proc.devRef .tc main_arg14) := W10_of_ne m ρ c main_arg14 (by decide)
    _ = m ((c : Thread nD τ).loc main_arg14) := W9_main_arg14 m ρ c
theorem W11_main_arg14 (c : Dev nD) : W11 m ρ c (Proc.devRef .tc main_arg14) = m ((c : Thread nD τ).loc main_arg14) :=
  calc W11 m ρ c (Proc.devRef .tc main_arg14)
    _ = W10 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := W10_main_arg14 m ρ c
theorem W12_main_arg14 (c : Dev nD) : W12 m ρ c (Proc.devRef .tc main_arg14) = m ((c : Thread nD τ).loc main_arg14) :=
  calc W12 m ρ c (Proc.devRef .tc main_arg14)
    _ = W11 m ρ c (Proc.devRef .tc main_arg14) := W12_of_ne m ρ c main_arg14 (by decide)
    _ = m ((c : Thread nD τ).loc main_arg14) := W11_main_arg14 m ρ c
theorem W13_main_arg14 (c : Dev nD) : W13 m ρ c (Proc.devRef .tc main_arg14) = m ((c : Thread nD τ).loc main_arg14) :=
  calc W13 m ρ c (Proc.devRef .tc main_arg14)
    _ = W12 m ρ c (Proc.devRef .tc main_arg14) := StableHlo.after_of_forall_not_mem (b := Proc.devRef .tc main_arg14) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := W12_main_arg14 m ρ c
theorem W14_main_arg14 (c : Dev nD) : W14 m ρ c (Proc.devRef .tc main_arg14) = m ((c : Thread nD τ).loc main_arg14) :=
  calc W14 m ρ c (Proc.devRef .tc main_arg14)
    _ = W13 m ρ c (Proc.devRef .tc main_arg14) := W14_of_ne m ρ c main_arg14 (by decide)
    _ = m ((c : Thread nD τ).loc main_arg14) := W13_main_arg14 m ρ c
theorem W15_main_arg14 (c : Dev nD) : W15 m ρ c (Proc.devRef .tc main_arg14) = m ((c : Thread nD τ).loc main_arg14) :=
  calc W15 m ρ c (Proc.devRef .tc main_arg14)
    _ = W14 m ρ c (Proc.devRef .tc main_arg14) := StableHlo.after_of_forall_not_mem (b := Proc.devRef .tc main_arg14) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := W14_main_arg14 m ρ c
theorem W16_main_arg14 (c : Dev nD) : W16 m ρ c (Proc.devRef .tc main_arg14) = m ((c : Thread nD τ).loc main_arg14) :=
  calc W16 m ρ c (Proc.devRef .tc main_arg14)
    _ = W15 m ρ c (Proc.devRef .tc main_arg14) := W16_of_ne m ρ c main_arg14 (by decide)
    _ = m ((c : Thread nD τ).loc main_arg14) := W15_main_arg14 m ρ c
theorem W17_main_arg14 (c : Dev nD) : W17 m ρ c (Proc.devRef .tc main_arg14) = m ((c : Thread nD τ).loc main_arg14) :=
  calc W17 m ρ c (Proc.devRef .tc main_arg14)
    _ = W16 m ρ c (Proc.devRef .tc main_arg14) := StableHlo.after_of_forall_not_mem (b := Proc.devRef .tc main_arg14) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := W16_main_arg14 m ρ c
theorem W18_main_arg14 (c : Dev nD) : W18 m ρ c (Proc.devRef .tc main_arg14) = m ((c : Thread nD τ).loc main_arg14) :=
  calc W18 m ρ c (Proc.devRef .tc main_arg14)
    _ = W17 m ρ c (Proc.devRef .tc main_arg14) := W18_of_ne m ρ c main_arg14 (by decide)
    _ = m ((c : Thread nD τ).loc main_arg14) := W17_main_arg14 m ρ c

end Cert.KernelIdeal.Args

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.KPayProj.lean ====
/-
  What one grid point of a projection region stores, entry by entry: the block's row times the weight's column,
  summed over the shared axis, plus the bias (the bf16 roundings of the operands are the identity on the reals).
-/
import proofs.«165431_j6949257085118_1_alg».proof.Proof.Gen.KernelIdeal.Skeleton
import proofs.«165431_j6949257085118_1_alg».proof.Proof.Spec
import proofs.«165431_j6949257085118_1_alg».proof.Proof.LibPlainDot
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx Cert.Spec

/-- The bias row repeated down 5000 rows, read at (r, q): the row's entry q. -/
private theorem bias_apply (x2 : Vec Ideal S1x128 .f32) (r : Fin 5000) (q : Fin 128) :
    broadcastTo S5000x128 (shapeCast S1x128 x2 shapeCasts_S1x128_S1x128) broadcasts_S1x128_S5000x128 (ix2 r q) = x2 (ix2 0 q) := by
  rw [shapeCast_self]
  refine broadcastTo_apply x2 _ (ix2 r q) (ix2 0 q) fun a => ?_
  match a with
  | ⟨0, _⟩ => rfl
  | ⟨1, _⟩ => rfl

/-- Region 0's stored block at (r, q): 64 products summed, plus the bias. -/
theorem pay0_apply (x0 : Vec Ideal S5000x64 .f32) (x1 : Vec Ideal S64x128 .f32) (x2 : Vec Ideal S1x128 .f32) (r : Fin 5000) (q : Fin 128) :
    k0_pay1 (F := Ideal) x0 x1 x2 (ix2 r q) = (∑ j : Fin 64, x0 (ix2 r j) * x1 (ix2 j q)) + x2 (ix2 0 q) := by
  unfold k0_pay1
  rw [addf_apply, bias_apply]
  have h := PlainDot.matmul_zero_apply (R := 5000) (K := 64) (C := 128) (d := dot_S5000x64_S64x128_S5000x128_1_0_0_1_n_n)
    ⟨rfl, rfl, rfl, rfl, rfl, rfl⟩ none (truncf .bf16 x0 bitsLt_bf16_f32) (truncf .bf16 x1 bitsLt_bf16_f32) r q
  exact congrArg (· + x2 (ix2 0 q)) h

/-- Region 1's stored block at (r, q): 128 products summed, plus the bias. -/
theorem pay1_apply (x0 : Vec Ideal S5000x128 .f32) (x1 : Vec Ideal S128x128 .f32) (x2 : Vec Ideal S1x128 .f32) (r : Fin 5000) (q : Fin 128) :
    k1_pay1 (F := Ideal) x0 x1 x2 (ix2 r q) = (∑ j : Fin 128, x0 (ix2 r j) * x1 (ix2 j q)) + x2 (ix2 0 q) := by
  unfold k1_pay1
  rw [addf_apply, bias_apply]
  have h := PlainDot.matmul_zero_apply (R := 5000) (K := 128) (C := 128) (d := dot_S5000x128_S128x128_S5000x128_1_0_0_1_n_n)
    ⟨rfl, rfl, rfl, rfl, rfl, rfl⟩ none (truncf .bf16 x0 bitsLt_bf16_f32) (truncf .bf16 x1 bitsLt_bf16_f32) r q
  exact congrArg (· + x2 (ix2 0 q)) h

end Cert.KernelIdeal.Pay

end
-- ==== Proof.KRegion0.lean ====
/-
  Region 0 of the idealized kernel program (an input projection over 150000 rows in blocks of 5000): the array its output
  window leaves, as one function of the arrays it reads, whatever the memory holds when the region is entered.
-/
import proofs.«165431_j6949257085118_1_alg».proof.Proof.Gen.KernelIdeal.Frame
import proofs.«165431_j6949257085118_1_alg».proof.Proof.Spec
import proofs.«165431_j6949257085118_1_alg».proof.Proof.KPayProj

noncomputable section

namespace Cert.KernelIdeal.RegionValue

open Cert.KernelIdeal Cert.KernelIdeal.Gen Idealize.ShloMosaic Idealize.ShloMosaic.TcCoe Idealize.ShloMosaic.ValueIdx Idealize.SL.Sem Cert.Spec

open Idealize.ShloMosaic.Pipeline (Dat Cfg Window)

variable (V : (c : Dev nD) → (b : Ref sig .tc) → Buf (Elt Ideal) ((c : Thread nD τ).loc b))

private theorem hz0 : (![0, 0] : Fin 2 → Nat) = fun _ => 0 := funext fun a => by fin_cases a <;> rfl

/-- The printed index maps, decided over the 30 grid points: the input rows' block and the output's block are both
    block t along the rows; the weight and the bias are fetched whole (block (0, 0)). -/
private theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- One stored block against the whole arrays: when the block of rows is the rows of `a0` that the embedding `e` names,
    and the weight and the bias are the whole arrays, the stored block is `Spec.proj` read through `e`. -/
private theorem block0 (a0 : Mat 150000 64) (a1 : Mat 64 128) (a2 : Mat 1 128)
    (x0 : Vec Ideal S5000x64 .f32) (x1 : Vec Ideal S64x128 .f32) (x2 : Vec Ideal S1x128 .f32)
    (e : S5000x128.Idx → S150000x128.Idx)
    (h0 : ∀ (j : S5000x128.Idx) (k : Fin 64), x0 (ix2 (j 0) k) = a0 (ix2 (e j 0) k))
    (h1 : x1 = a1) (h2 : x2 = a2) (he : ∀ j, e j 1 = j 1) (j : S5000x128.Idx) :
    k0_pay1 (F := Ideal) x0 x1 x2 j = Spec.proj a0 a1 a2 (e j) := by
  subst h1 h2
  have hp : k0_pay1 (F := Ideal) x0 x1 x2 j = _ :=
    (congrArg (k0_pay1 (F := Ideal) x0 x1 x2) (eq_ix2 j)).trans (Pay.pay0_apply x0 x1 x2 (j 0) (j 1))
  have hq : Spec.proj a0 x1 x2 (e j) = _ :=
    (congrArg (Spec.proj a0 x1 x2) (eq_ix2 (e j))).trans (Spec.proj_apply a0 x1 x2 (e j 0) (e j 1))
  rw [hp, hq, he j]
  exact congrArg (· + x2 (ix2 0 (j 1))) (Finset.sum_congr rfl fun k _ => by rw [h0 j k])

/-- What grid point t writes back is block t of `Spec.proj` of the arrays as the region finds them. -/
theorem flushed0_eq (c : Dev nD) (t : Fin cfg0.N) :
    (dat0 (F := Ideal) V c).flushed 3 t
      = ((cfg0.win 3).blk t).view.read (Elt Ideal) (Spec.proj (V c main_arg0) (V c main_arg4) (V c main_v0)) := by
  show (cfg0.win 3).cut (grid0.coords t) ((dat0 V c).after 3 t) = _
  rw [after0_3]
  unfold out0_3
  rw [View.canon_unit_zero hz0]
  simp only [View.ld_unit_zero (S := S5000x64) hz0, View.ld_unit_zero (S := S64x128) hz0, View.ld_unit_zero (S := S1x128) hz0]
  obtain ⟨e0, e1, e2, e3, e4, e5, e6, e7⟩ := idx_facts0 t
  funext j
  refine block0 (V c main_arg0) (V c main_arg4) (V c main_v0) (iblk0 V c 0 t) (iblk0 V c 1 t) (iblk0 V c 2 t)
    (((cfg0.win 3).blk t).view.emb) ?_ ?_ ?_ ?_ j
  · intro j k
    show V c main_arg0 (((cfg0.win 0).blk t).view.emb (ix2 (j 0) k)) = _
    congr 1
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * k.val = k.val; omega
  · funext x
    show V c main_arg4 (((cfg0.win 1).blk t).view.emb x) = _
    congr 1
    funext a; apply Fin.ext
    match a with
    | ⟨0, _⟩ => show win0_1.index t (0 : Fin 2) * 64 + 1 * (x 0).val = (x 0).val; omega
    | ⟨1, _⟩ => show win0_1.index t (1 : Fin 2) * 128 + 1 * (x 1).val = (x 1).val; omega
  · funext x
    show V c main_v0 (((cfg0.win 2).blk t).view.emb x) = _
    congr 1
    funext a; apply Fin.ext
    match a with
    | ⟨0, _⟩ => show win0_2.index t (0 : Fin 2) * 1 + 1 * (x 0).val = (x 0).val; omega
    | ⟨1, _⟩ => show win0_2.index t (1 : Fin 2) * 128 + 1 * (x 1).val = (x 1).val; omega
  · intro j
    apply Fin.ext
    show win0_3.index t (1 : Fin 2) * 128 + 1 * (j 1).val = (j 1).val; omega

/-- An index of the output array is in grid point t's block iff each coordinate is in the block's range on its axis. -/
private theorem mem_blk0 (t : Fin cfg0.N) (i : S150000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- The 30 blocks of 5000 rows cover the 150000 rows: row i is in block i / 5000. -/
private theorem cover0 (i : S150000x128.Idx) :
    ∃ t : Fin cfg0.N, (cfg0.win 3).flush t = true ∧ i ∈ ((cfg0.win 3).blk t).view.set := by
  have hi0 : (i 0).val < 150000 := (i 0).isLt
  have hi1 : (i 1).val < 128 := (i 1).isLt
  have hN : cfg0.N = 30 := N_0
  obtain ⟨t, ht⟩ : ∃ t : Fin cfg0.N, t.val = (i 0).val / 5000 := ⟨⟨(i 0).val / 5000, by rw [hN]; omega⟩, rfl⟩
  obtain ⟨-, -, -, -, -, -, e6, e7⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After all 30 grid points the output array is `Spec.proj` of the input arrays as the region found them. -/
theorem value0 (c : Dev nD) :
    (dat0 (F := Ideal) V c).arrAt 3 cfg0.N = Spec.proj (V c main_arg0) (V c main_arg4) (V c main_v0) :=
  (dat0 (F := Ideal) V c).arrAt_eq_of_cover 3 _ (fun t _ => flushed0_eq V c t) cover0

end Cert.KernelIdeal.RegionValue

end
-- ==== Proof.KRegion1.lean ====
/-
  Region 1 of the idealized kernel program (an input projection over 75000 rows in blocks of 5000): the array its output
  window leaves, as one function of the arrays it reads, whatever the memory holds when the region is entered.
-/
import proofs.«165431_j6949257085118_1_alg».proof.Proof.Gen.KernelIdeal.Frame
import proofs.«165431_j6949257085118_1_alg».proof.Proof.Spec
import proofs.«165431_j6949257085118_1_alg».proof.Proof.KPayProj

noncomputable section

namespace Cert.KernelIdeal.RegionValue

open Cert.KernelIdeal Cert.KernelIdeal.Gen Idealize.ShloMosaic Idealize.ShloMosaic.TcCoe Idealize.ShloMosaic.ValueIdx Idealize.SL.Sem Cert.Spec

open Idealize.ShloMosaic.Pipeline (Dat Cfg Window)

variable (V : (c : Dev nD) → (b : Ref sig .tc) → Buf (Elt Ideal) ((c : Thread nD τ).loc b))

private theorem hz1 : (![0, 0] : Fin 2 → Nat) = fun _ => 0 := funext fun a => by fin_cases a <;> rfl

/-- The printed index maps, decided over the 15 grid points: the input rows' block and the output's block are both
    block t along the rows; the weight and the bias are fetched whole (block (0, 0)). -/
private theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- One stored block against the whole arrays: when the block of rows is the rows of `a0` that the embedding `e` names,
    and the weight and the bias are the whole arrays, the stored block is `Spec.proj` read through `e`. -/
private theorem block1 (a0 : Mat 75000 128) (a1 : Mat 128 128) (a2 : Mat 1 128)
    (x0 : Vec Ideal S5000x128 .f32) (x1 : Vec Ideal S128x128 .f32) (x2 : Vec Ideal S1x128 .f32)
    (e : S5000x128.Idx → S75000x128.Idx)
    (h0 : ∀ (j : S5000x128.Idx) (k : Fin 128), x0 (ix2 (j 0) k) = a0 (ix2 (e j 0) k))
    (h1 : x1 = a1) (h2 : x2 = a2) (he : ∀ j, e j 1 = j 1) (j : S5000x128.Idx) :
    k1_pay1 (F := Ideal) x0 x1 x2 j = Spec.proj a0 a1 a2 (e j) := by
  subst h1 h2
  have hp : k1_pay1 (F := Ideal) x0 x1 x2 j = _ :=
    (congrArg (k1_pay1 (F := Ideal) x0 x1 x2) (eq_ix2 j)).trans (Pay.pay1_apply x0 x1 x2 (j 0) (j 1))
  have hq : Spec.proj a0 x1 x2 (e j) = _ :=
    (congrArg (Spec.proj a0 x1 x2) (eq_ix2 (e j))).trans (Spec.proj_apply a0 x1 x2 (e j 0) (e j 1))
  rw [hp, hq, he j]
  exact congrArg (· + x2 (ix2 0 (j 1))) (Finset.sum_congr rfl fun k _ => by rw [h0 j k])

/-- What grid point t writes back is block t of `Spec.proj` of the arrays as the region finds them. -/
theorem flushed1_eq (c : Dev nD) (t : Fin cfg1.N) :
    (dat1 (F := Ideal) V c).flushed 3 t
      = ((cfg1.win 3).blk t).view.read (Elt Ideal) (Spec.proj (V c main_arg1) (V c main_arg6) (V c main_v2)) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S128x128) hz1, View.ld_unit_zero (S := S1x128) hz1]
  obtain ⟨e0, e1, e2, e3, e4, e5, e6, e7⟩ := idx_facts1 t
  funext j
  refine block1 (V c main_arg1) (V c main_arg6) (V c main_v2) (iblk1 V c 0 t) (iblk1 V c 1 t) (iblk1 V c 2 t)
    (((cfg1.win 3).blk t).view.emb) ?_ ?_ ?_ ?_ j
  · intro j k
    show V c main_arg1 (((cfg1.win 0).blk t).view.emb (ix2 (j 0) k)) = _
    congr 1
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  · funext x
    show V c main_arg6 (((cfg1.win 1).blk t).view.emb x) = _
    congr 1
    funext a; apply Fin.ext
    match a with
    | ⟨0, _⟩ => show win1_1.index t (0 : Fin 2) * 128 + 1 * (x 0).val = (x 0).val; omega
    | ⟨1, _⟩ => show win1_1.index t (1 : Fin 2) * 128 + 1 * (x 1).val = (x 1).val; omega
  · funext x
    show V c main_v2 (((cfg1.win 2).blk t).view.emb x) = _
    congr 1
    funext a; apply Fin.ext
    match a with
    | ⟨0, _⟩ => show win1_2.index t (0 : Fin 2) * 1 + 1 * (x 0).val = (x 0).val; omega
    | ⟨1, _⟩ => show win1_2.index t (1 : Fin 2) * 128 + 1 * (x 1).val = (x 1).val; omega
  · intro j
    apply Fin.ext
    show win1_3.index t (1 : Fin 2) * 128 + 1 * (j 1).val = (j 1).val; omega

/-- An index of the output array is in grid point t's block iff each coordinate is in the block's range on its axis. -/
private theorem mem_blk1 (t : Fin cfg1.N) (i : S75000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v3).slice (win1_3.rect t)).set ↔ _
  rw [View.set_slice_whole, Rect.mem_set_unit]
  exact Iff.rfl

/-- The 15 blocks of 5000 rows cover the 75000 rows: row i is in block i / 5000. -/
private theorem cover1 (i : S75000x128.Idx) :
    ∃ t : Fin cfg1.N, (cfg1.win 3).flush t = true ∧ i ∈ ((cfg1.win 3).blk t).view.set := by
  have hi0 : (i 0).val < 75000 := (i 0).isLt
  have hi1 : (i 1).val < 128 := (i 1).isLt
  have hN : cfg1.N = 15 := N_1
  obtain ⟨t, ht⟩ : ∃ t : Fin cfg1.N, t.val = (i 0).val / 5000 := ⟨⟨(i 0).val / 5000, by rw [hN]; omega⟩, rfl⟩
  obtain ⟨-, -, -, -, -, -, e6, e7⟩ := idx_facts1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After all 15 grid points the output array is `Spec.proj` of the input arrays as the region found them. -/
theorem value1 (c : Dev nD) :
    (dat1 (F := Ideal) V c).arrAt 3 cfg1.N = Spec.proj (V c main_arg1) (V c main_arg6) (V c main_v2) :=
  (dat1 (F := Ideal) V c).arrAt_eq_of_cover 3 _ (fun t _ => flushed1_eq V c t) cover1

end Cert.KernelIdeal.RegionValue

end
-- ==== Proof.Rows.lean ====
/-
  A vector of 128 numbers enters a row-blocked computation as a one-row matrix. The kernel program makes that
  matrix by a reshape, the reference by a broadcast along a new leading axis; both are the same one-row matrix.
-/
import Idealize.ShloMosaic.PureOps.Ideal.Laws
import Idealize.ShloMosaic.Lib.ValueIdx
import Idealize.ShloMosaic.Lib.Pipeline.Value
import Idealize.ShloMosaic.Lib.ValueLayout
import proofs.«165431_j6949257085118_1_alg».proof.Proof.Spec

noncomputable section

namespace Cert.Rows

open Idealize.ShloMosaic Idealize.ShloMosaic.ValueIdx Cert.Spec

/-- A reshape of a 128-vector to 1 × 128 is the vector as a one-row matrix. -/
theorem shapeCast_row (r : Row 128) (h : (⟨1, ![128]⟩ : Shape).ShapeCasts ⟨2, ![1, 128]⟩) :
    shapeCast ⟨2, ![1, 128]⟩ r h = rowMat r := by
  funext i
  have hi : i = ix2 (i 0 : Fin 1) (i 1 : Fin 128) := eq_ix2 i
  exact (congrArg (shapeCast ⟨2, ![1, 128]⟩ r h) hi).trans (shapeCast_a_1a_apply r h (i 0) (i 1))

/-- A broadcast of a 128-vector along a new leading axis of extent 1 is the vector as a one-row matrix. -/
theorem bcast_row (r : Row 128) (h : (⟨1, ![128]⟩ : Shape).BroadcastsInDim ⟨2, ![1, 128]⟩ (![1] : Fin 1 → Fin 2)) :
    broadcastInDim ⟨2, ![1, 128]⟩ ![1] h r = rowMat r := by
  funext i
  refine broadcastInDim_apply ![1] h r i (ix1 (i 1)) ?_
  intro a
  match a with
  | ⟨0, _⟩ =>
    show (i 1).val = if (128 : ℕ) = 1 then 0 else (i 1).val
    rw [if_neg (by decide)]

end Cert.Rows

end
-- ==== Proof.KChainA.lean ====
/-
  The idealized kernel program up to the end of its second region: the two input projections. Region 0 maps the
  users' raw features, region 1 the books'; each bias reaches its region as a one-row matrix made by a reshape.
-/
import proofs.«165431_j6949257085118_1_alg».proof.Proof.Gen.KernelIdeal.Frame
import proofs.«165431_j6949257085118_1_alg».proof.Proof.KState
import proofs.«165431_j6949257085118_1_alg».proof.Proof.KArgs
import proofs.«165431_j6949257085118_1_alg».proof.Proof.KRegion0
import proofs.«165431_j6949257085118_1_alg».proof.Proof.KRegion1
import proofs.«165431_j6949257085118_1_alg».proof.Proof.Rows
import Idealize.ShloMosaic.Lib.StableHlo.Run

noncomputable section

namespace Cert.KernelIdeal.Chain

open Cert.KernelIdeal Cert.KernelIdeal.Gen Cert.KernelIdeal.Pieces Cert.KernelIdeal.RegionValue Cert.KernelIdeal.Args Idealize.ShloMosaic Idealize.ShloMosaic.TcCoe Idealize.ShloMosaic.ValueIdx Idealize.SL.Sem Cert.Spec

variable (m : (ℓ : Loc nD τ sig) → Buf (Elt Ideal) ℓ) (ρ : Dev nD → PrngReg)

/-- A host stretch leaves a buffer it does not write as it found it. -/
local macro "stretch_skips" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- After region 1 the users' buffer holds the users' projected rows and the books' buffer the books'. -/
theorem inv4 (c : Dev nD) :
    W4 (F := Ideal) m ρ c (Proc.devRef .tc main_v1) = (h0 m c).1 ∧ W4 (F := Ideal) m ρ c (Proc.devRef .tc main_v3) = (h0 m c).2 := by
  -- region 0's bias: a reshape of argument 5
  have ev0 : W1 (F := Ideal) m ρ c (Proc.devRef .tc main_v0) = rowMat (m ((c : Thread nD τ).loc main_arg5)) := by
    show StableHlo.after hostOps0 (W0 (F := Ideal) m ρ c) (Proc.devRef .tc main_v0) = _
    after_results
    exact Rows.shapeCast_row _ _
  -- region 0's output
  have e1 : W2 (F := Ideal) m ρ c (Proc.devRef .tc main_v1) = (h0 m c).1 := by
    refine ((W2_arr m ρ c 3).trans (value0 (V1 m ρ) c)).trans ?_
    show Spec.proj (W1 (F := Ideal) m ρ c (Proc.devRef .tc main_arg0)) (W1 (F := Ideal) m ρ c (Proc.devRef .tc main_arg4)) (W1 (F := Ideal) m ρ c (Proc.devRef .tc main_v0)) = _
    rw [W1_main_arg0 m ρ c, W1_main_arg4 m ρ c, ev0]
    rfl
  -- region 1's bias: a reshape of argument 7
  have ev2 : W3 (F := Ideal) m ρ c (Proc.devRef .tc main_v2) = rowMat (m ((c : Thread nD τ).loc main_arg7)) := by
    show StableHlo.after hostOps1 (W2 (F := Ideal) m ρ c) (Proc.devRef .tc main_v2) = _
    after_results
    rw [W2_main_arg7 m ρ c]
    exact Rows.shapeCast_row _ _
  have e3 : W4 (F := Ideal) m ρ c (Proc.devRef .tc main_v3) = (h0 m c).2 := by
    refine ((W4_arr m ρ c 3).trans (value1 (V3 m ρ) c)).trans ?_
    show Spec.proj (W3 (F := Ideal) m ρ c (Proc.devRef .tc main_arg1)) (W3 (F := Ideal) m ρ c (Proc.devRef .tc main_arg6)) (W3 (F := Ideal) m ρ c (Proc.devRef .tc main_v2)) = _
    rw [W3_main_arg1 m ρ c, W3_main_arg6 m ρ c, ev2]
    rfl
  -- the users' rows pass the second stretch and region 1 untouched
  have c3 : W3 (F := Ideal) m ρ c (Proc.devRef .tc main_v1) = W2 (F := Ideal) m ρ c (Proc.devRef .tc main_v1) := by
    stretch_skips hostOps1
  have c4 : W4 (F := Ideal) m ρ c (Proc.devRef .tc main_v1) = W3 (F := Ideal) m ρ c (Proc.devRef .tc main_v1) :=
    W4_of_ne m ρ c main_v1 (by decide)
  exact ⟨c4.trans (c3.trans e1), e3⟩

end Cert.KernelIdeal.Chain

end
-- ==== Proof.KPaySage.lean ====
/-
  What one grid point of a layer-update region stores, entry by entry: max(mean · wl + own · wr + bl, 0).
-/
import proofs.«165431_j6949257085118_1_alg».proof.Proof.Gen.KernelIdeal.Skeleton
import proofs.«165431_j6949257085118_1_alg».proof.Proof.Spec
import proofs.«165431_j6949257085118_1_alg».proof.Proof.LibPlainDot
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx Cert.Spec

/-- A layer-update region's stored block at (r, q). The arguments in the payload's order: the neighbour means' block,
    the node's own rows' block, wl, wr, and the bias as a one-row matrix. -/
theorem pay2_apply (v0 v3 : Vec Ideal S5000x128 .f32) (v6 v9 : Vec Ideal S128x128 .f32) (v15 : Vec Ideal S1x128 .f32) (r : Fin 5000) (q : Fin 128) :
    k2_pay1 (F := Ideal) v0 v3 v6 v9 v15 (ix2 r q)
      = max (((∑ j : Fin 128, v0 (ix2 r j) * v6 (ix2 j q)) + (∑ j : Fin 128, v3 (ix2 r j) * v9 (ix2 j q))) + v15 (ix2 0 q)) Spec.zero := by
  unfold k2_pay1
  simp only [shapeCast_self]
  rw [maximumf_apply, broadcast_apply, addf_apply, addf_apply]
  show max ((FloatOps.matmul _ _ _ _ _ _ + FloatOps.matmul _ _ _ _ _ _) + _) _ = _
  rw [PlainDot.matmul_zero_apply ⟨rfl, rfl, rfl, rfl, rfl, rfl⟩, PlainDot.matmul_zero_apply ⟨rfl, rfl, rfl, rfl, rfl, rfl⟩]
  simp only [truncf_apply]
  rw [broadcastTo_apply v15 broadcasts_S1x128_S5000x128 (ix2 r q) (ix2 0 q)
    (fun a => by match a with | ⟨0, _⟩ => rfl | ⟨1, _⟩ => rfl)]
  rfl

end Cert.KernelIdeal.Pay

end
-- ==== Proof.KRegion2.lean ====
/-
  Region 2 of the idealized kernel program (a layer update over 75000 rows in blocks of 5000): the array its output
  window leaves, as one function of the arrays it reads, whatever the memory holds when the region is entered.
-/
import proofs.«165431_j6949257085118_1_alg».proof.Proof.Gen.KernelIdeal.Frame
import proofs.«165431_j6949257085118_1_alg».proof.Proof.Spec
import proofs.«165431_j6949257085118_1_alg».proof.Proof.KPaySage

noncomputable section

namespace Cert.KernelIdeal.RegionValue

open Cert.KernelIdeal Cert.KernelIdeal.Gen Idealize.ShloMosaic Idealize.ShloMosaic.TcCoe Idealize.ShloMosaic.ValueIdx Idealize.SL.Sem Cert.Spec

open Idealize.ShloMosaic.Pipeline (Dat Cfg Window)

variable (V : (c : Dev nD) → (b : Ref sig .tc) → Buf (Elt Ideal) ((c : Thread nD τ).loc b))

/-- Every offset of a whole-buffer access is zero. -/
theorem zeroOffsets2 : (![0, 0] : Fin 2 → Nat) = fun _ => 0 := funext fun a => by fin_cases a <;> rfl

/-- The printed index maps, decided over the grid: the means, the own rows and the output move together, block t of rows
    at grid point t; the two weight matrices and the bias are whole arrays, always their block (0, 0). -/
theorem blockIndices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- One stored entry: when the two row blocks are rows b·5000 … of the whole arrays and the other three blocks are the
    whole weight arrays, the payload at a block entry is the layer update at the array entry 5000·b rows further down. -/
theorem point2 (mean own : Mat 75000 128) (wl wr : Mat 128 128) (bl : Mat 1 128)
    (x0 x1 : Vec Ideal S5000x128 .f32) (x2 x4 : Vec Ideal S128x128 .f32) (x3 : Vec Ideal S1x128 .f32) (b : ℕ)
    (h0 : ∀ (y : S5000x128.Idx) (i : S75000x128.Idx), (i 0).val = b * 5000 + (y 0).val → (i 1).val = (y 1).val → x0 y = mean i)
    (h1 : ∀ (y : S5000x128.Idx) (i : S75000x128.Idx), (i 0).val = b * 5000 + (y 0).val → (i 1).val = (y 1).val → x1 y = own i)
    (h2 : x2 = wl) (h4 : x4 = wr) (h3 : x3 = bl)
    (y : S5000x128.Idx) (i : S75000x128.Idx) (hi0 : (i 0).val = b * 5000 + (y 0).val) (hi1 : (i 1).val = (y 1).val) :
    k2_pay1 (F := Ideal) x0 x1 x2 x4 x3 y = Spec.sage mean own wl bl wr i := by
  subst h2 h4 h3
  obtain ⟨r, q, rfl⟩ : ∃ (r : Fin 5000) (q : Fin 128), y = ix2 r q := ⟨y 0, y 1, eq_ix2 y⟩
  obtain ⟨p, q', rfl⟩ : ∃ (p : Fin 75000) (q' : Fin 128), i = ix2 p q' := ⟨i 0, i 1, eq_ix2 i⟩
  have hq : q = q' := (Fin.ext hi1).symm
  subst hq
  refine (Pay.pay2_apply x0 x1 x2 x4 x3 r q).trans ?_
  rw [Spec.sage_apply]
  have e0 : ∀ j : Fin 128, x0 (ix2 r j) = mean (ix2 p j) := fun j => h0 _ _ hi0 rfl
  have e1 : ∀ j : Fin 128, x1 (ix2 r j) = own (ix2 p j) := fun j => h1 _ _ hi0 rfl
  simp only [e0, e1]

/-- What grid point t writes back is block t of the layer update of the arrays the region found. -/
theorem flushed2_eq (c : Dev nD) (t : Fin cfg2.N) :
    (dat2 (F := Ideal) V c).flushed 5 t = ((cfg2.win 5).blk t).view.read (Elt Ideal) (Spec.sage (V c main_v32) (V c main_v3) (V c main_v63) (V c main_v68) (V c main_v67)) := by
  show (cfg2.win 5).cut (grid2.coords t) ((dat2 V c).after 5 t) = _
  rw [after2_5]
  unfold out2_5
  rw [View.canon_unit_zero zeroOffsets2]
  simp only [View.ld_unit_zero (S := S5000x128) zeroOffsets2, View.ld_unit_zero (S := S128x128) zeroOffsets2, View.ld_unit_zero (S := S1x128) zeroOffsets2]
  obtain ⟨e00, e01, e10, e11, e20, e21, e30, e31, e40, e41, e50, e51⟩ := blockIndices2 t
  funext j
  show k2_pay1 (F := Ideal) (iblk2 V c 0 t) (iblk2 V c 1 t) (iblk2 V c 2 t) (iblk2 V c 4 t) (iblk2 V c 3 t) j
    = Spec.sage (V c main_v32) (V c main_v3) (V c main_v63) (V c main_v68) (V c main_v67) (((cfg2.win 5).blk t).view.emb j)
  refine point2 (V c main_v32) (V c main_v3) (V c main_v63) (V c main_v67) (V c main_v68)
    (iblk2 V c 0 t) (iblk2 V c 1 t) (iblk2 V c 2 t) (iblk2 V c 4 t) (iblk2 V c 3 t) t.val ?_ ?_ ?_ ?_ ?_ j (((cfg2.win 5).blk t).view.emb j) ?_ ?_
  · intro y i hi0 hi1
    show V c main_v32 (((cfg2.win 0).blk t).view.emb y) = V c main_v32 i
    refine congrArg _ (funext fun a => Fin.ext ?_)
    match a with
    | ⟨0, _⟩ => show win2_0.index t (0 : Fin 2) * 5000 + 1 * (y 0).val = (i 0).val; omega
    | ⟨1, _⟩ => show win2_0.index t (1 : Fin 2) * 128 + 1 * (y 1).val = (i 1).val; omega
  · intro y i hi0 hi1
    show V c main_v3 (((cfg2.win 1).blk t).view.emb y) = V c main_v3 i
    refine congrArg _ (funext fun a => Fin.ext ?_)
    match a with
    | ⟨0, _⟩ => show win2_1.index t (0 : Fin 2) * 5000 + 1 * (y 0).val = (i 0).val; omega
    | ⟨1, _⟩ => show win2_1.index t (1 : Fin 2) * 128 + 1 * (y 1).val = (i 1).val; omega
  · funext y
    show V c main_v63 (((cfg2.win 2).blk t).view.emb y) = V c main_v63 y
    refine congrArg _ (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  · funext y
    show V c main_v67 (((cfg2.win 4).blk t).view.emb y) = V c main_v67 y
    refine congrArg _ (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  · funext y
    show V c main_v68 (((cfg2.win 3).blk t).view.emb y) = V c main_v68 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 128 + 1 * (y 1).val = (y 1).val; omega
  · show win2_5.index t (0 : Fin 2) * 5000 + 1 * (j 0).val = t.val * 5000 + (j 0).val; omega
  · show win2_5.index t (1 : Fin 2) * 128 + 1 * (j 1).val = (j 1).val; omega

/-- An entry of the array is in grid point t's block iff each coordinate is in the block's range on its axis. -/
theorem mem_blk2 (t : Fin cfg2.N) (i : S75000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v69).slice (win2_5.rect t)).set ↔ _
  rw [View.set_slice_whole, Rect.mem_set_unit]
  exact Iff.rfl

/-- Row i of the array lies in the block of grid point i / 5000: the blocks fill the array. -/
theorem covered2 (i : S75000x128.Idx) : ∃ t : Fin cfg2.N, (cfg2.win 5).flush t = true ∧ i ∈ ((cfg2.win 5).blk t).view.set := by
  have hi0 : (i 0).val < 75000 := (i 0).isLt
  have hi1 : (i 1).val < 128 := (i 1).isLt
  obtain ⟨t, ht⟩ : ∃ t : Fin cfg2.N, t.val = (i 0).val / 5000 := ⟨⟨(i 0).val / 5000, by show _ < grid2.N; rw [N_2]; omega⟩, rfl⟩
  obtain ⟨-, -, -, -, -, -, -, -, -, -, e50, e51⟩ := blockIndices2 t
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- After all 15 grid points the output array is `Spec.sage` of the input arrays as the region found them. -/
theorem value2 (c : Dev nD) :
    (dat2 (F := Ideal) V c).arrAt 5 cfg2.N = Spec.sage (V c main_v32) (V c main_v3) (V c main_v63) (V c main_v68) (V c main_v67) :=
  (dat2 V c).arrAt_eq_of_cover 5 (Spec.sage (V c main_v32) (V c main_v3) (V c main_v63) (V c main_v68) (V c main_v67))
    (fun t _ => flushed2_eq V c t) covered2

end Cert.KernelIdeal.RegionValue

end
-- ==== Proof.KRegion3.lean ====
/-
  Region 3 of the idealized kernel program (a layer update over 150000 rows in blocks of 5000): the array its output
  window leaves, as one function of the arrays it reads, whatever the memory holds when the region is entered.
-/
import proofs.«165431_j6949257085118_1_alg».proof.Proof.Gen.KernelIdeal.Frame
import proofs.«165431_j6949257085118_1_alg».proof.Proof.Spec
import proofs.«165431_j6949257085118_1_alg».proof.Proof.KPaySage

noncomputable section

namespace Cert.KernelIdeal.RegionValue

open Cert.KernelIdeal Cert.KernelIdeal.Gen Idealize.ShloMosaic Idealize.ShloMosaic.TcCoe Idealize.ShloMosaic.ValueIdx Idealize.SL.Sem Cert.Spec

open Idealize.ShloMosaic.Pipeline (Dat Cfg Window)

variable (V : (c : Dev nD) → (b : Ref sig .tc) → Buf (Elt Ideal) ((c : Thread nD τ).loc b))

/-- Every offset of a whole-buffer access is zero. -/
theorem zeroOffsets3 : (![0, 0] : Fin 2 → Nat) = fun _ => 0 := funext fun a => by fin_cases a <;> rfl

/-- The printed index maps, decided over the grid: the means, the own rows and the output move together, block t of rows
    at grid point t; the two weight matrices and the bias are whole arrays, always their block (0, 0). -/
theorem blockIndices3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- One stored entry: when the two row blocks are rows b·5000 … of the whole arrays and the other three blocks are the
    whole weight arrays, the payload at a block entry is the layer update at the array entry 5000·b rows further down. -/
theorem point3 (mean own : Mat 150000 128) (wl wr : Mat 128 128) (bl : Mat 1 128)
    (x0 x1 : Vec Ideal S5000x128 .f32) (x2 x4 : Vec Ideal S128x128 .f32) (x3 : Vec Ideal S1x128 .f32) (b : ℕ)
    (h0 : ∀ (y : S5000x128.Idx) (i : S150000x128.Idx), (i 0).val = b * 5000 + (y 0).val → (i 1).val = (y 1).val → x0 y = mean i)
    (h1 : ∀ (y : S5000x128.Idx) (i : S150000x128.Idx), (i 0).val = b * 5000 + (y 0).val → (i 1).val = (y 1).val → x1 y = own i)
    (h2 : x2 = wl) (h4 : x4 = wr) (h3 : x3 = bl)
    (y : S5000x128.Idx) (i : S150000x128.Idx) (hi0 : (i 0).val = b * 5000 + (y 0).val) (hi1 : (i 1).val = (y 1).val) :
    k3_pay1 (F := Ideal) x0 x1 x2 x4 x3 y = Spec.sage mean own wl bl wr i := by
  subst h2 h4 h3
  obtain ⟨r, q, rfl⟩ : ∃ (r : Fin 5000) (q : Fin 128), y = ix2 r q := ⟨y 0, y 1, eq_ix2 y⟩
  obtain ⟨p, q', rfl⟩ : ∃ (p : Fin 150000) (q' : Fin 128), i = ix2 p q' := ⟨i 0, i 1, eq_ix2 i⟩
  have hq : q = q' := (Fin.ext hi1).symm
  subst hq
  refine (Pay.pay2_apply x0 x1 x2 x4 x3 r q).trans ?_
  rw [Spec.sage_apply]
  have e0 : ∀ j : Fin 128, x0 (ix2 r j) = mean (ix2 p j) := fun j => h0 _ _ hi0 rfl
  have e1 : ∀ j : Fin 128, x1 (ix2 r j) = own (ix2 p j) := fun j => h1 _ _ hi0 rfl
  simp only [e0, e1]

/-- What grid point t writes back is block t of the layer update of the arrays the region found. -/
theorem flushed3_eq (c : Dev nD) (t : Fin cfg3.N) :
    (dat3 (F := Ideal) V c).flushed 5 t = ((cfg3.win 5).blk t).view.read (Elt Ideal) (Spec.sage (V c main_v61) (V c main_v1) (V c main_v71) (V c main_v76) (V c main_v75)) := by
  show (cfg3.win 5).cut (grid3.coords t) ((dat3 V c).after 5 t) = _
  rw [after3_5]
  unfold out3_5
  rw [View.canon_unit_zero zeroOffsets3]
  simp only [View.ld_unit_zero (S := S5000x128) zeroOffsets3, View.ld_unit_zero (S := S128x128) zeroOffsets3, View.ld_unit_zero (S := S1x128) zeroOffsets3]
  obtain ⟨e00, e01, e10, e11, e20, e21, e30, e31, e40, e41, e50, e51⟩ := blockIndices3 t
  funext j
  show k3_pay1 (F := Ideal) (iblk3 V c 0 t) (iblk3 V c 1 t) (iblk3 V c 2 t) (iblk3 V c 4 t) (iblk3 V c 3 t) j
    = Spec.sage (V c main_v61) (V c main_v1) (V c main_v71) (V c main_v76) (V c main_v75) (((cfg3.win 5).blk t).view.emb j)
  refine point3 (V c main_v61) (V c main_v1) (V c main_v71) (V c main_v75) (V c main_v76)
    (iblk3 V c 0 t) (iblk3 V c 1 t) (iblk3 V c 2 t) (iblk3 V c 4 t) (iblk3 V c 3 t) t.val ?_ ?_ ?_ ?_ ?_ j (((cfg3.win 5).blk t).view.emb j) ?_ ?_
  · intro y i hi0 hi1
    show V c main_v61 (((cfg3.win 0).blk t).view.emb y) = V c main_v61 i
    refine congrArg _ (funext fun a => Fin.ext ?_)
    match a with
    | ⟨0, _⟩ => show win3_0.index t (0 : Fin 2) * 5000 + 1 * (y 0).val = (i 0).val; omega
    | ⟨1, _⟩ => show win3_0.index t (1 : Fin 2) * 128 + 1 * (y 1).val = (i 1).val; omega
  · intro y i hi0 hi1
    show V c main_v1 (((cfg3.win 1).blk t).view.emb y) = V c main_v1 i
    refine congrArg _ (funext fun a => Fin.ext ?_)
    match a with
    | ⟨0, _⟩ => show win3_1.index t (0 : Fin 2) * 5000 + 1 * (y 0).val = (i 0).val; omega
    | ⟨1, _⟩ => show win3_1.index t (1 : Fin 2) * 128 + 1 * (y 1).val = (i 1).val; omega
  · funext y
    show V c main_v71 (((cfg3.win 2).blk t).view.emb y) = V c main_v71 y
    refine congrArg _ (funext fun a => Fin.ext ?_)
    match a with
    | ⟨0, _⟩ => show win3_2.index t (0 : Fin 2) * 128 + 1 * (y 0).val = (y 0).val; omega
    | ⟨1, _⟩ => show win3_2.index t (1 : Fin 2) * 128 + 1 * (y 1).val = (y 1).val; omega
  · funext y
    show V c main_v75 (((cfg3.win 4).blk t).view.emb y) = V c main_v75 y
    refine congrArg _ (funext fun a => Fin.ext ?_)
    match a with
    | ⟨0, _⟩ => show win3_4.index t (0 : Fin 2) * 128 + 1 * (y 0).val = (y 0).val; omega
    | ⟨1, _⟩ => show win3_4.index t (1 : Fin 2) * 128 + 1 * (y 1).val = (y 1).val; omega
  · funext y
    show V c main_v76 (((cfg3.win 3).blk t).view.emb y) = V c main_v76 y
    refine congrArg _ (funext fun a => Fin.ext ?_)
    match a with
    | ⟨0, _⟩ => show win3_3.index t (0 : Fin 2) * 1 + 1 * (y 0).val = (y 0).val; omega
    | ⟨1, _⟩ => show win3_3.index t (1 : Fin 2) * 128 + 1 * (y 1).val = (y 1).val; omega
  · show win3_5.index t (0 : Fin 2) * 5000 + 1 * (j 0).val = t.val * 5000 + (j 0).val; omega
  · show win3_5.index t (1 : Fin 2) * 128 + 1 * (j 1).val = (j 1).val; omega

/-- An entry of the array is in grid point t's block iff each coordinate is in the block's range on its axis. -/
theorem mem_blk3 (t : Fin cfg3.N) (i : S150000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v77).slice (win3_5.rect t)).set ↔ _
  rw [View.set_slice_whole, Rect.mem_set_unit]
  exact Iff.rfl

/-- Row i of the array lies in the block of grid point i / 5000: the blocks fill the array. -/
theorem covered3 (i : S150000x128.Idx) : ∃ t : Fin cfg3.N, (cfg3.win 5).flush t = true ∧ i ∈ ((cfg3.win 5).blk t).view.set := by
  have hi0 : (i 0).val < 150000 := (i 0).isLt
  have hi1 : (i 1).val < 128 := (i 1).isLt
  obtain ⟨t, ht⟩ : ∃ t : Fin cfg3.N, t.val = (i 0).val / 5000 := ⟨⟨(i 0).val / 5000, by show _ < grid3.N; rw [N_3]; omega⟩, rfl⟩
  obtain ⟨-, -, -, -, -, -, -, -, -, -, e50, e51⟩ := blockIndices3 t
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- After all 30 grid points the output array is `Spec.sage` of the input arrays as the region found them. -/
theorem value3 (c : Dev nD) :
    (dat3 (F := Ideal) V c).arrAt 5 cfg3.N = Spec.sage (V c main_v61) (V c main_v1) (V c main_v71) (V c main_v76) (V c main_v75) :=
  (dat3 V c).arrAt_eq_of_cover 5 (Spec.sage (V c main_v61) (V c main_v1) (V c main_v71) (V c main_v76) (V c main_v75))
    (fun t _ => flushed3_eq V c t) covered3

end Cert.KernelIdeal.RegionValue

end
-- ==== Proof.KChainL0.lean ====
/-
  Layer 0 of the idealized kernel program: two stretches of whole-array operations (the two neighbour averages and the
  layer's parameters cut out of the stacked arrays) around regions 2 (the books' update) and 3 (the users' update). Both
  updates read the rows as they were BEFORE the layer.
-/
import proofs.«165431_j6949257085118_1_alg».proof.Proof.Gen.KernelIdeal.Frame
import proofs.«165431_j6949257085118_1_alg».proof.Proof.KState
import proofs.«165431_j6949257085118_1_alg».proof.Proof.KArgs
import proofs.«165431_j6949257085118_1_alg».proof.Proof.KRegion2
import proofs.«165431_j6949257085118_1_alg».proof.Proof.KRegion3
import proofs.«165431_j6949257085118_1_alg».proof.Proof.Rows
import Idealize.ShloMosaic.Lib.StableHlo.Run

noncomputable section

namespace Cert.KernelIdeal.Chain

open Cert.KernelIdeal Cert.KernelIdeal.Gen Cert.KernelIdeal.Pieces Cert.KernelIdeal.RegionValue Cert.KernelIdeal.Args Idealize.ShloMosaic Idealize.ShloMosaic.TcCoe Idealize.ShloMosaic.ValueIdx Idealize.SL.Sem Cert.Spec

variable (m : (ℓ : Loc nD τ sig) → Buf (Elt Ideal) ℓ) (ρ : Dev nD → PrngReg)

/-- A buffer that no operation of a stretch writes holds after the stretch what it held before. -/
local macro "stretch_keeps" ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The two stretches of whole-array operations, from any contents `V` -/

section Stretch

variable (V : Valuation τ sig (Elt Ideal))

/-- The first stretch leaves the books' neighbour means: the users' rows averaged along the edges. -/
private theorem sA_meanB : StableHlo.after (hostOps2 (F := Ideal)) V (Proc.devRef .tc main_v32)
    = aggBook (wrapU (V (Proc.devRef .tc main_arg2))) (wrapB (V (Proc.devRef .tc main_arg3))) (V (Proc.devRef .tc main_v1)) := by
  after_results_simp
  rfl

/-- … and the users' neighbour means: the books' rows averaged along the edges. -/
private theorem sA_meanU : StableHlo.after (hostOps2 (F := Ideal)) V (Proc.devRef .tc main_v61)
    = aggUser (wrapB (V (Proc.devRef .tc main_arg3))) (wrapU (V (Proc.devRef .tc main_arg2))) (V (Proc.devRef .tc main_v3)) := by
  after_results_simp
  rfl

/-- … and the layer's parameters, the bias as a one-row matrix. -/
private theorem sA_wl : StableHlo.after (hostOps2 (F := Ideal)) V (Proc.devRef .tc main_v63)
    = (weights0 (V (Proc.devRef .tc main_arg8)) (V (Proc.devRef .tc main_arg9)) (V (Proc.devRef .tc main_arg10))).wl := by
  after_results_simp
  rfl

private theorem sA_bl : StableHlo.after (hostOps2 (F := Ideal)) V (Proc.devRef .tc main_v68)
    = rowMat (weights0 (V (Proc.devRef .tc main_arg8)) (V (Proc.devRef .tc main_arg9)) (V (Proc.devRef .tc main_arg10))).bl := by
  refine Eq.trans ?_ (Rows.shapeCast_row _ shapeCasts_S128_S1x128)
  after_results_simp
  rfl

private theorem sA_wr : StableHlo.after (hostOps2 (F := Ideal)) V (Proc.devRef .tc main_v67)
    = (weights0 (V (Proc.devRef .tc main_arg8)) (V (Proc.devRef .tc main_arg9)) (V (Proc.devRef .tc main_arg10))).wr := by
  after_results_simp
  rfl

/-- The second stretch cuts the same parameters out again. -/
private theorem sB_wl : StableHlo.after (hostOps3 (F := Ideal)) V (Proc.devRef .tc main_v71)
    = (weights0 (V (Proc.devRef .tc main_arg8)) (V (Proc.devRef .tc main_arg9)) (V (Proc.devRef .tc main_arg10))).wl := by
  after_results_simp
  rfl

private theorem sB_bl : StableHlo.after (hostOps3 (F := Ideal)) V (Proc.devRef .tc main_v76)
    = rowMat (weights0 (V (Proc.devRef .tc main_arg8)) (V (Proc.devRef .tc main_arg9)) (V (Proc.devRef .tc main_arg10))).bl := by
  refine Eq.trans ?_ (Rows.shapeCast_row _ shapeCasts_S128_S1x128)
  after_results_simp
  rfl

private theorem sB_wr : StableHlo.after (hostOps3 (F := Ideal)) V (Proc.devRef .tc main_v75)
    = (weights0 (V (Proc.devRef .tc main_arg8)) (V (Proc.devRef .tc main_arg9)) (V (Proc.devRef .tc main_arg10))).wr := by
  after_results_simp
  rfl

/-- The rows both updates read, and the means and the books' update waiting for the second region, pass through the
    stretches untouched. -/
private theorem sA_u : StableHlo.after (hostOps2 (F := Ideal)) V (Proc.devRef .tc main_v1) = V (Proc.devRef .tc main_v1) := by
  stretch_keeps hostOps2
private theorem sA_b : StableHlo.after (hostOps2 (F := Ideal)) V (Proc.devRef .tc main_v3) = V (Proc.devRef .tc main_v3) := by
  stretch_keeps hostOps2
private theorem sB_u : StableHlo.after (hostOps3 (F := Ideal)) V (Proc.devRef .tc main_v1) = V (Proc.devRef .tc main_v1) := by
  stretch_keeps hostOps3
private theorem sB_meanU : StableHlo.after (hostOps3 (F := Ideal)) V (Proc.devRef .tc main_v61) = V (Proc.devRef .tc main_v61) := by
  stretch_keeps hostOps3
private theorem sB_outB : StableHlo.after (hostOps3 (F := Ideal)) V (Proc.devRef .tc main_v69) = V (Proc.devRef .tc main_v69) := by
  stretch_keeps hostOps3

end Stretch

/-! ## Layer 0 -/

/-- `Spec.sage` of equal arrays. -/
private theorem sage_congr {n : ℕ} {a a' b b' : Mat n 128} {wl wl' wr wr' : Mat 128 128} {bl bl' : Mat 1 128}
    (h1 : a = a') (h2 : b = b') (h3 : wl = wl') (h4 : bl = bl') (h5 : wr = wr') :
    Spec.sage a b wl bl wr = Spec.sage a' b' wl' bl' wr' := by
  subst h1 h2 h3 h4 h5; rfl

/-- If the two buffers hold the rows X before the layer, they hold `Spec.layer … X` after it. -/
theorem step0 (c : Dev nD) (X : Mat 150000 128 × Mat 75000 128)
    (hu : W4 (F := Ideal) m ρ c (Proc.devRef .tc main_v1) = X.1) (hb : W4 (F := Ideal) m ρ c (Proc.devRef .tc main_v3) = X.2) :
    W8 (F := Ideal) m ρ c (Proc.devRef .tc main_v77)
        = (Spec.layer (aggB m c) (aggU m c) (weights0 (m ((c : Thread nD τ).loc main_arg8)) (m ((c : Thread nD τ).loc main_arg9)) (m ((c : Thread nD τ).loc main_arg10))) X).1
    ∧ W8 (F := Ideal) m ρ c (Proc.devRef .tc main_v69)
        = (Spec.layer (aggB m c) (aggU m c) (weights0 (m ((c : Thread nD τ).loc main_arg8)) (m ((c : Thread nD τ).loc main_arg9)) (m ((c : Thread nD τ).loc main_arg10))) X).2 := by
  -- the argument arrays where the two stretches read them
  have a2 := Args.W4_main_arg2 (F := Ideal) m ρ c
  have a3 := Args.W4_main_arg3 (F := Ideal) m ρ c
  have a8 := Args.W4_main_arg8 (F := Ideal) m ρ c
  have a9 := Args.W4_main_arg9 (F := Ideal) m ρ c
  have a10 := Args.W4_main_arg10 (F := Ideal) m ρ c
  have a8' := Args.W6_main_arg8 (F := Ideal) m ρ c
  have a9' := Args.W6_main_arg9 (F := Ideal) m ρ c
  have a10' := Args.W6_main_arg10 (F := Ideal) m ρ c
  -- the first stretch: what the books' region finds
  have eMeanB : W5 (F := Ideal) m ρ c (Proc.devRef .tc main_v32) = aggB m c X.1 :=
    (sA_meanB (W4 (F := Ideal) m ρ c)).trans (by rw [a2, a3, hu]; rfl)
  have eMeanU : W5 (F := Ideal) m ρ c (Proc.devRef .tc main_v61) = aggU m c X.2 :=
    (sA_meanU (W4 (F := Ideal) m ρ c)).trans (by rw [a2, a3, hb]; rfl)
  have eWl : W5 (F := Ideal) m ρ c (Proc.devRef .tc main_v63) = (weights0 (m ((c : Thread nD τ).loc main_arg8)) (m ((c : Thread nD τ).loc main_arg9)) (m ((c : Thread nD τ).loc main_arg10))).wl :=
    (sA_wl (W4 (F := Ideal) m ρ c)).trans (by rw [a8, a9, a10])
  have eBl : W5 (F := Ideal) m ρ c (Proc.devRef .tc main_v68) = rowMat (weights0 (m ((c : Thread nD τ).loc main_arg8)) (m ((c : Thread nD τ).loc main_arg9)) (m ((c : Thread nD τ).loc main_arg10))).bl :=
    (sA_bl (W4 (F := Ideal) m ρ c)).trans (by rw [a8, a9, a10])
  have eWr : W5 (F := Ideal) m ρ c (Proc.devRef .tc main_v67) = (weights0 (m ((c : Thread nD τ).loc main_arg8)) (m ((c : Thread nD τ).loc main_arg9)) (m ((c : Thread nD τ).loc main_arg10))).wr :=
    (sA_wr (W4 (F := Ideal) m ρ c)).trans (by rw [a8, a9, a10])
  have eU5 : W5 (F := Ideal) m ρ c (Proc.devRef .tc main_v1) = X.1 := (sA_u (W4 (F := Ideal) m ρ c)).trans hu
  have eB5 : W5 (F := Ideal) m ρ c (Proc.devRef .tc main_v3) = X.2 := (sA_b (W4 (F := Ideal) m ρ c)).trans hb
  -- the books' region
  have eOutB : W6 (F := Ideal) m ρ c (Proc.devRef .tc main_v69)
      = (Spec.layer (aggB m c) (aggU m c) (weights0 (m ((c : Thread nD τ).loc main_arg8)) (m ((c : Thread nD τ).loc main_arg9)) (m ((c : Thread nD τ).loc main_arg10))) X).2 := by
    refine (W6_arr (F := Ideal) m ρ c 5).trans ((value2 (V5 (F := Ideal) m ρ) c).trans ?_)
    exact sage_congr eMeanB eB5 eWl eBl eWr
  have eU6 : W6 (F := Ideal) m ρ c (Proc.devRef .tc main_v1) = X.1 := (W6_of_ne (F := Ideal) m ρ c main_v1 (by decide)).trans eU5
  have eMeanU6 : W6 (F := Ideal) m ρ c (Proc.devRef .tc main_v61) = aggU m c X.2 := (W6_of_ne (F := Ideal) m ρ c main_v61 (by decide)).trans eMeanU
  -- the second stretch: what the users' region finds
  have eWl7 : W7 (F := Ideal) m ρ c (Proc.devRef .tc main_v71) = (weights0 (m ((c : Thread nD τ).loc main_arg8)) (m ((c : Thread nD τ).loc main_arg9)) (m ((c : Thread nD τ).loc main_arg10))).wl :=
    (sB_wl (W6 (F := Ideal) m ρ c)).trans (by rw [a8', a9', a10'])
  have eBl7 : W7 (F := Ideal) m ρ c (Proc.devRef .tc main_v76) = rowMat (weights0 (m ((c : Thread nD τ).loc main_arg8)) (m ((c : Thread nD τ).loc main_arg9)) (m ((c : Thread nD τ).loc main_arg10))).bl :=
    (sB_bl (W6 (F := Ideal) m ρ c)).trans (by rw [a8', a9', a10'])
  have eWr7 : W7 (F := Ideal) m ρ c (Proc.devRef .tc main_v75) = (weights0 (m ((c : Thread nD τ).loc main_arg8)) (m ((c : Thread nD τ).loc main_arg9)) (m ((c : Thread nD τ).loc main_arg10))).wr :=
    (sB_wr (W6 (F := Ideal) m ρ c)).trans (by rw [a8', a9', a10'])
  have eU7 : W7 (F := Ideal) m ρ c (Proc.devRef .tc main_v1) = X.1 := (sB_u (W6 (F := Ideal) m ρ c)).trans eU6
  have eMeanU7 : W7 (F := Ideal) m ρ c (Proc.devRef .tc main_v61) = aggU m c X.2 := (sB_meanU (W6 (F := Ideal) m ρ c)).trans eMeanU6
  have eOutB7 : W7 (F := Ideal) m ρ c (Proc.devRef .tc main_v69) = _ := (sB_outB (W6 (F := Ideal) m ρ c)).trans eOutB
  -- the users' region
  refine ⟨?_, (W8_of_ne (F := Ideal) m ρ c main_v69 (by decide)).trans eOutB7⟩
  refine (W8_arr (F := Ideal) m ρ c 5).trans ((value3 (V7 (F := Ideal) m ρ) c).trans ?_)
  exact sage_congr eMeanU7 eU7 eWl7 eBl7 eWr7

end Cert.KernelIdeal.Chain

end
-- ==== Proof.KRegion4.lean ====
/-
  Region 4 of the idealized kernel program (a layer update over 75000 rows in blocks of 5000): the array its output
  window leaves, as one function of the arrays it reads, whatever the memory holds when the region is entered.
-/
import proofs.«165431_j6949257085118_1_alg».proof.Proof.Gen.KernelIdeal.Frame
import proofs.«165431_j6949257085118_1_alg».proof.Proof.Spec
import proofs.«165431_j6949257085118_1_alg».proof.Proof.KPaySage

noncomputable section

namespace Cert.KernelIdeal.RegionValue

open Cert.KernelIdeal Cert.KernelIdeal.Gen Idealize.ShloMosaic Idealize.ShloMosaic.TcCoe Idealize.ShloMosaic.ValueIdx Idealize.SL.Sem Cert.Spec

open Idealize.ShloMosaic.Pipeline (Dat Cfg Window)

variable (V : (c : Dev nD) → (b : Ref sig .tc) → Buf (Elt Ideal) ((c : Thread nD τ).loc b))

/-- Every offset of a whole-buffer access is zero. -/
theorem zeroOffsets4 : (![0, 0] : Fin 2 → Nat) = fun _ => 0 := funext fun a => by fin_cases a <;> rfl

/-- The printed index maps, decided over the grid: the means, the own rows and the output move together, block t of rows
    at grid point t; the two weight matrices and the bias are whole arrays, always their block (0, 0). -/
theorem blockIndices4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- One stored entry: when the two row blocks are rows b·5000 … of the whole arrays and the other three blocks are the
    whole weight arrays, the payload at a block entry is the layer update at the array entry 5000·b rows further down. -/
theorem point4 (mean own : Mat 75000 128) (wl wr : Mat 128 128) (bl : Mat 1 128)
    (x0 x1 : Vec Ideal S5000x128 .f32) (x2 x4 : Vec Ideal S128x128 .f32) (x3 : Vec Ideal S1x128 .f32) (b : ℕ)
    (h0 : ∀ (y : S5000x128.Idx) (i : S75000x128.Idx), (i 0).val = b * 5000 + (y 0).val → (i 1).val = (y 1).val → x0 y = mean i)
    (h1 : ∀ (y : S5000x128.Idx) (i : S75000x128.Idx), (i 0).val = b * 5000 + (y 0).val → (i 1).val = (y 1).val → x1 y = own i)
    (h2 : x2 = wl) (h4 : x4 = wr) (h3 : x3 = bl)
    (y : S5000x128.Idx) (i : S75000x128.Idx) (hi0 : (i 0).val = b * 5000 + (y 0).val) (hi1 : (i 1).val = (y 1).val) :
    k4_pay1 (F := Ideal) x0 x1 x2 x4 x3 y = Spec.sage mean own wl bl wr i := by
  subst h2 h4 h3
  obtain ⟨r, q, rfl⟩ : ∃ (r : Fin 5000) (q : Fin 128), y = ix2 r q := ⟨y 0, y 1, eq_ix2 y⟩
  obtain ⟨p, q', rfl⟩ : ∃ (p : Fin 75000) (q' : Fin 128), i = ix2 p q' := ⟨i 0, i 1, eq_ix2 i⟩
  have hq : q = q' := (Fin.ext hi1).symm
  subst hq
  refine (Pay.pay2_apply x0 x1 x2 x4 x3 r q).trans ?_
  rw [Spec.sage_apply]
  have e0 : ∀ j : Fin 128, x0 (ix2 r j) = mean (ix2 p j) := fun j => h0 _ _ hi0 rfl
  have e1 : ∀ j : Fin 128, x1 (ix2 r j) = own (ix2 p j) := fun j => h1 _ _ hi0 rfl
  simp only [e0, e1]

/-- What grid point t writes back is block t of the layer update of the arrays the region found. -/
theorem flushed4_eq (c : Dev nD) (t : Fin cfg4.N) :
    (dat4 (F := Ideal) V c).flushed 5 t = ((cfg4.win 5).blk t).view.read (Elt Ideal) (Spec.sage (V c main_v106) (V c main_v69) (V c main_v137) (V c main_v142) (V c main_v141)) := by
  show (cfg4.win 5).cut (grid4.coords t) ((dat4 V c).after 5 t) = _
  rw [after4_5]
  unfold out4_5
  rw [View.canon_unit_zero zeroOffsets4]
  simp only [View.ld_unit_zero (S := S5000x128) zeroOffsets4, View.ld_unit_zero (S := S128x128) zeroOffsets4, View.ld_unit_zero (S := S1x128) zeroOffsets4]
  obtain ⟨e00, e01, e10, e11, e20, e21, e30, e31, e40, e41, e50, e51⟩ := blockIndices4 t
  funext j
  show k4_pay1 (F := Ideal) (iblk4 V c 0 t) (iblk4 V c 1 t) (iblk4 V c 2 t) (iblk4 V c 4 t) (iblk4 V c 3 t) j
    = Spec.sage (V c main_v106) (V c main_v69) (V c main_v137) (V c main_v142) (V c main_v141) (((cfg4.win 5).blk t).view.emb j)
  refine point4 (V c main_v106) (V c main_v69) (V c main_v137) (V c main_v141) (V c main_v142)
    (iblk4 V c 0 t) (iblk4 V c 1 t) (iblk4 V c 2 t) (iblk4 V c 4 t) (iblk4 V c 3 t) t.val ?_ ?_ ?_ ?_ ?_ j (((cfg4.win 5).blk t).view.emb j) ?_ ?_
  · intro y i hi0 hi1
    show V c main_v106 (((cfg4.win 0).blk t).view.emb y) = V c main_v106 i
    refine congrArg _ (funext fun a => Fin.ext ?_)
    match a with
    | ⟨0, _⟩ => show win4_0.index t (0 : Fin 2) * 5000 + 1 * (y 0).val = (i 0).val; omega
    | ⟨1, _⟩ => show win4_0.index t (1 : Fin 2) * 128 + 1 * (y 1).val = (i 1).val; omega
  · intro y i hi0 hi1
    show V c main_v69 (((cfg4.win 1).blk t).view.emb y) = V c main_v69 i
    refine congrArg _ (funext fun a => Fin.ext ?_)
    match a with
    | ⟨0, _⟩ => show win4_1.index t (0 : Fin 2) * 5000 + 1 * (y 0).val = (i 0).val; omega
    | ⟨1, _⟩ => show win4_1.index t (1 : Fin 2) * 128 + 1 * (y 1).val = (i 1).val; omega
  · funext y
    show V c main_v137 (((cfg4.win 2).blk t).view.emb y) = V c main_v137 y
    refine congrArg _ (funext fun a => Fin.ext ?_)
    match a with
    | ⟨0, _⟩ => show win4_2.index t (0 : Fin 2) * 128 + 1 * (y 0).val = (y 0).val; omega
    | ⟨1, _⟩ => show win4_2.index t (1 : Fin 2) * 128 + 1 * (y 1).val = (y 1).val; omega
  · funext y
    show V c main_v141 (((cfg4.win 4).blk t).view.emb y) = V c main_v141 y
    refine congrArg _ (funext fun a => Fin.ext ?_)
    match a with
    | ⟨0, _⟩ => show win4_4.index t (0 : Fin 2) * 128 + 1 * (y 0).val = (y 0).val; omega
    | ⟨1, _⟩ => show win4_4.index t (1 : Fin 2) * 128 + 1 * (y 1).val = (y 1).val; omega
  · funext y
    show V c main_v142 (((cfg4.win 3).blk t).view.emb y) = V c main_v142 y
    refine congrArg _ (funext fun a => Fin.ext ?_)
    match a with
    | ⟨0, _⟩ => show win4_3.index t (0 : Fin 2) * 1 + 1 * (y 0).val = (y 0).val; omega
    | ⟨1, _⟩ => show win4_3.index t (1 : Fin 2) * 128 + 1 * (y 1).val = (y 1).val; omega
  · show win4_5.index t (0 : Fin 2) * 5000 + 1 * (j 0).val = t.val * 5000 + (j 0).val; omega
  · show win4_5.index t (1 : Fin 2) * 128 + 1 * (j 1).val = (j 1).val; omega

/-- An entry of the array is in grid point t's block iff each coordinate is in the block's range on its axis. -/
theorem mem_blk4 (t : Fin cfg4.N) (i : S75000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v143).slice (win4_5.rect t)).set ↔ _
  rw [View.set_slice_whole, Rect.mem_set_unit]
  exact Iff.rfl

/-- Row i of the array lies in the block of grid point i / 5000: the blocks fill the array. -/
theorem covered4 (i : S75000x128.Idx) : ∃ t : Fin cfg4.N, (cfg4.win 5).flush t = true ∧ i ∈ ((cfg4.win 5).blk t).view.set := by
  have hi0 : (i 0).val < 75000 := (i 0).isLt
  have hi1 : (i 1).val < 128 := (i 1).isLt
  obtain ⟨t, ht⟩ : ∃ t : Fin cfg4.N, t.val = (i 0).val / 5000 := ⟨⟨(i 0).val / 5000, by show _ < grid4.N; rw [N_4]; omega⟩, rfl⟩
  obtain ⟨-, -, -, -, -, -, -, -, -, -, e50, e51⟩ := blockIndices4 t
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- After all 15 grid points the output array is `Spec.sage` of the input arrays as the region found them. -/
theorem value4 (c : Dev nD) :
    (dat4 (F := Ideal) V c).arrAt 5 cfg4.N = Spec.sage (V c main_v106) (V c main_v69) (V c main_v137) (V c main_v142) (V c main_v141) :=
  (dat4 V c).arrAt_eq_of_cover 5 (Spec.sage (V c main_v106) (V c main_v69) (V c main_v137) (V c main_v142) (V c main_v141))
    (fun t _ => flushed4_eq V c t) covered4

end Cert.KernelIdeal.RegionValue

end
-- ==== Proof.KRegion5.lean ====
/-
  Region 5 of the idealized kernel program (a layer update over 150000 rows in blocks of 5000): the array its output
  window leaves, as one function of the arrays it reads, whatever the memory holds when the region is entered.
-/
import proofs.«165431_j6949257085118_1_alg».proof.Proof.Gen.KernelIdeal.Frame
import proofs.«165431_j6949257085118_1_alg».proof.Proof.Spec
import proofs.«165431_j6949257085118_1_alg».proof.Proof.KPaySage

noncomputable section

namespace Cert.KernelIdeal.RegionValue

open Cert.KernelIdeal Cert.KernelIdeal.Gen Idealize.ShloMosaic Idealize.ShloMosaic.TcCoe Idealize.ShloMosaic.ValueIdx Idealize.SL.Sem Cert.Spec

open Idealize.ShloMosaic.Pipeline (Dat Cfg Window)

variable (V : (c : Dev nD) → (b : Ref sig .tc) → Buf (Elt Ideal) ((c : Thread nD τ).loc b))

/-- Every offset of a whole-buffer access is zero. -/
theorem zeroOffsets5 : (![0, 0] : Fin 2 → Nat) = fun _ => 0 := funext fun a => by fin_cases a <;> rfl

/-- The printed index maps, decided over the grid: the means, the own rows and the output move together, block t of rows
    at grid point t; the two weight matrices and the bias are whole arrays, always their block (0, 0). -/
theorem blockIndices5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- One stored entry: when the two row blocks are rows b·5000 … of the whole arrays and the other three blocks are the
    whole weight arrays, the payload at a block entry is the layer update at the array entry 5000·b rows further down. -/
theorem point5 (mean own : Mat 150000 128) (wl wr : Mat 128 128) (bl : Mat 1 128)
    (x0 x1 : Vec Ideal S5000x128 .f32) (x2 x4 : Vec Ideal S128x128 .f32) (x3 : Vec Ideal S1x128 .f32) (b : ℕ)
    (h0 : ∀ (y : S5000x128.Idx) (i : S150000x128.Idx), (i 0).val = b * 5000 + (y 0).val → (i 1).val = (y 1).val → x0 y = mean i)
    (h1 : ∀ (y : S5000x128.Idx) (i : S150000x128.Idx), (i 0).val = b * 5000 + (y 0).val → (i 1).val = (y 1).val → x1 y = own i)
    (h2 : x2 = wl) (h4 : x4 = wr) (h3 : x3 = bl)
    (y : S5000x128.Idx) (i : S150000x128.Idx) (hi0 : (i 0).val = b * 5000 + (y 0).val) (hi1 : (i 1).val = (y 1).val) :
    k5_pay1 (F := Ideal) x0 x1 x2 x4 x3 y = Spec.sage mean own wl bl wr i := by
  subst h2 h4 h3
  obtain ⟨r, q, rfl⟩ : ∃ (r : Fin 5000) (q : Fin 128), y = ix2 r q := ⟨y 0, y 1, eq_ix2 y⟩
  obtain ⟨p, q', rfl⟩ : ∃ (p : Fin 150000) (q' : Fin 128), i = ix2 p q' := ⟨i 0, i 1, eq_ix2 i⟩
  have hq : q = q' := (Fin.ext hi1).symm
  subst hq
  refine (Pay.pay2_apply x0 x1 x2 x4 x3 r q).trans ?_
  rw [Spec.sage_apply]
  have e0 : ∀ j : Fin 128, x0 (ix2 r j) = mean (ix2 p j) := fun j => h0 _ _ hi0 rfl
  have e1 : ∀ j : Fin 128, x1 (ix2 r j) = own (ix2 p j) := fun j => h1 _ _ hi0 rfl
  simp only [e0, e1]

/-- What grid point t writes back is block t of the layer update of the arrays the region found. -/
theorem flushed5_eq (c : Dev nD) (t : Fin cfg5.N) :
    (dat5 (F := Ideal) V c).flushed 5 t = ((cfg5.win 5).blk t).view.read (Elt Ideal) (Spec.sage (V c main_v135) (V c main_v77) (V c main_v145) (V c main_v150) (V c main_v149)) := by
  show (cfg5.win 5).cut (grid5.coords t) ((dat5 V c).after 5 t) = _
  rw [after5_5]
  unfold out5_5
  rw [View.canon_unit_zero zeroOffsets5]
  simp only [View.ld_unit_zero (S := S5000x128) zeroOffsets5, View.ld_unit_zero (S := S128x128) zeroOffsets5, View.ld_unit_zero (S := S1x128) zeroOffsets5]
  obtain ⟨e00, e01, e10, e11, e20, e21, e30, e31, e40, e41, e50, e51⟩ := blockIndices5 t
  funext j
  show k5_pay1 (F := Ideal) (iblk5 V c 0 t) (iblk5 V c 1 t) (iblk5 V c 2 t) (iblk5 V c 4 t) (iblk5 V c 3 t) j
    = Spec.sage (V c main_v135) (V c main_v77) (V c main_v145) (V c main_v150) (V c main_v149) (((cfg5.win 5).blk t).view.emb j)
  refine point5 (V c main_v135) (V c main_v77) (V c main_v145) (V c main_v149) (V c main_v150)
    (iblk5 V c 0 t) (iblk5 V c 1 t) (iblk5 V c 2 t) (iblk5 V c 4 t) (iblk5 V c 3 t) t.val ?_ ?_ ?_ ?_ ?_ j (((cfg5.win 5).blk t).view.emb j) ?_ ?_
  · intro y i hi0 hi1
    show V c main_v135 (((cfg5.win 0).blk t).view.emb y) = V c main_v135 i
    refine congrArg _ (funext fun a => Fin.ext ?_)
    match a with
    | ⟨0, _⟩ => show win5_0.index t (0 : Fin 2) * 5000 + 1 * (y 0).val = (i 0).val; omega
    | ⟨1, _⟩ => show win5_0.index t (1 : Fin 2) * 128 + 1 * (y 1).val = (i 1).val; omega
  · intro y i hi0 hi1
    show V c main_v77 (((cfg5.win 1).blk t).view.emb y) = V c main_v77 i
    refine congrArg _ (funext fun a => Fin.ext ?_)
    match a with
    | ⟨0, _⟩ => show win5_1.index t (0 : Fin 2) * 5000 + 1 * (y 0).val = (i 0).val; omega
    | ⟨1, _⟩ => show win5_1.index t (1 : Fin 2) * 128 + 1 * (y 1).val = (i 1).val; omega
  · funext y
    show V c main_v145 (((cfg5.win 2).blk t).view.emb y) = V c main_v145 y
    refine congrArg _ (funext fun a => Fin.ext ?_)
    match a with
    | ⟨0, _⟩ => show win5_2.index t (0 : Fin 2) * 128 + 1 * (y 0).val = (y 0).val; omega
    | ⟨1, _⟩ => show win5_2.index t (1 : Fin 2) * 128 + 1 * (y 1).val = (y 1).val; omega
  · funext y
    show V c main_v149 (((cfg5.win 4).blk t).view.emb y) = V c main_v149 y
    refine congrArg _ (funext fun a => Fin.ext ?_)
    match a with
    | ⟨0, _⟩ => show win5_4.index t (0 : Fin 2) * 128 + 1 * (y 0).val = (y 0).val; omega
    | ⟨1, _⟩ => show win5_4.index t (1 : Fin 2) * 128 + 1 * (y 1).val = (y 1).val; omega
  · funext y
    show V c main_v150 (((cfg5.win 3).blk t).view.emb y) = V c main_v150 y
    refine congrArg _ (funext fun a => Fin.ext ?_)
    match a with
    | ⟨0, _⟩ => show win5_3.index t (0 : Fin 2) * 1 + 1 * (y 0).val = (y 0).val; omega
    | ⟨1, _⟩ => show win5_3.index t (1 : Fin 2) * 128 + 1 * (y 1).val = (y 1).val; omega
  · show win5_5.index t (0 : Fin 2) * 5000 + 1 * (j 0).val = t.val * 5000 + (j 0).val; omega
  · show win5_5.index t (1 : Fin 2) * 128 + 1 * (j 1).val = (j 1).val; omega

/-- An entry of the array is in grid point t's block iff each coordinate is in the block's range on its axis. -/
theorem mem_blk5 (t : Fin cfg5.N) (i : S150000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v151).slice (win5_5.rect t)).set ↔ _
  rw [View.set_slice_whole, Rect.mem_set_unit]
  exact Iff.rfl

/-- Row i of the array lies in the block of grid point i / 5000: the blocks fill the array. -/
theorem covered5 (i : S150000x128.Idx) : ∃ t : Fin cfg5.N, (cfg5.win 5).flush t = true ∧ i ∈ ((cfg5.win 5).blk t).view.set := by
  have hi0 : (i 0).val < 150000 := (i 0).isLt
  have hi1 : (i 1).val < 128 := (i 1).isLt
  obtain ⟨t, ht⟩ : ∃ t : Fin cfg5.N, t.val = (i 0).val / 5000 := ⟨⟨(i 0).val / 5000, by show _ < grid5.N; rw [N_5]; omega⟩, rfl⟩
  obtain ⟨-, -, -, -, -, -, -, -, -, -, e50, e51⟩ := blockIndices5 t
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- After all 30 grid points the output array is `Spec.sage` of the input arrays as the region found them. -/
theorem value5 (c : Dev nD) :
    (dat5 (F := Ideal) V c).arrAt 5 cfg5.N = Spec.sage (V c main_v135) (V c main_v77) (V c main_v145) (V c main_v150) (V c main_v149) :=
  (dat5 V c).arrAt_eq_of_cover 5 (Spec.sage (V c main_v135) (V c main_v77) (V c main_v145) (V c main_v150) (V c main_v149))
    (fun t _ => flushed5_eq V c t) covered5

end Cert.KernelIdeal.RegionValue

end
-- ==== Proof.KChainL1.lean ====
/-
  Layer 1 of the idealized kernel program: two stretches of whole-array operations (the two neighbour averages and the
  layer's parameters cut out of the stacked arrays) around regions 4 (the books' update) and 5 (the users' update). Both
  updates read the rows as they were BEFORE the layer.
-/
import proofs.«165431_j6949257085118_1_alg».proof.Proof.Gen.KernelIdeal.Frame
import proofs.«165431_j6949257085118_1_alg».proof.Proof.KState
import proofs.«165431_j6949257085118_1_alg».proof.Proof.KArgs
import proofs.«165431_j6949257085118_1_alg».proof.Proof.KRegion4
import proofs.«165431_j6949257085118_1_alg».proof.Proof.KRegion5
import proofs.«165431_j6949257085118_1_alg».proof.Proof.Rows
import Idealize.ShloMosaic.Lib.StableHlo.Run

noncomputable section

namespace Cert.KernelIdeal.Chain

open Cert.KernelIdeal Cert.KernelIdeal.Gen Cert.KernelIdeal.Pieces Cert.KernelIdeal.RegionValue Cert.KernelIdeal.Args Idealize.ShloMosaic Idealize.ShloMosaic.TcCoe Idealize.ShloMosaic.ValueIdx Idealize.SL.Sem Cert.Spec

variable (m : (ℓ : Loc nD τ sig) → Buf (Elt Ideal) ℓ) (ρ : Dev nD → PrngReg)

/-- A buffer that no operation of a stretch writes holds after the stretch what it held before. -/
local macro "stretch_keeps" ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The two stretches of whole-array operations, from any contents `V` -/

section Stretch

variable (V : Valuation τ sig (Elt Ideal))

/-- The first stretch leaves the books' neighbour means: the users' rows averaged along the edges. -/
private theorem sA_meanB : StableHlo.after (hostOps4 (F := Ideal)) V (Proc.devRef .tc main_v106)
    = aggBook (wrapU (V (Proc.devRef .tc main_arg2))) (wrapB (V (Proc.devRef .tc main_arg3))) (V (Proc.devRef .tc main_v77)) := by
  after_results_simp
  rfl

/-- … and the users' neighbour means: the books' rows averaged along the edges. -/
private theorem sA_meanU : StableHlo.after (hostOps4 (F := Ideal)) V (Proc.devRef .tc main_v135)
    = aggUser (wrapB (V (Proc.devRef .tc main_arg3))) (wrapU (V (Proc.devRef .tc main_arg2))) (V (Proc.devRef .tc main_v69)) := by
  after_results_simp
  rfl

/-- … and the layer's parameters, the bias as a one-row matrix. -/
private theorem sA_wl : StableHlo.after (hostOps4 (F := Ideal)) V (Proc.devRef .tc main_v137)
    = (weights1 (V (Proc.devRef .tc main_arg8)) (V (Proc.devRef .tc main_arg9)) (V (Proc.devRef .tc main_arg10))).wl := by
  after_results_simp
  rfl

private theorem sA_bl : StableHlo.after (hostOps4 (F := Ideal)) V (Proc.devRef .tc main_v142)
    = rowMat (weights1 (V (Proc.devRef .tc main_arg8)) (V (Proc.devRef .tc main_arg9)) (V (Proc.devRef .tc main_arg10))).bl := by
  refine Eq.trans ?_ (Rows.shapeCast_row _ shapeCasts_S128_S1x128)
  after_results_simp
  rfl

private theorem sA_wr : StableHlo.after (hostOps4 (F := Ideal)) V (Proc.devRef .tc main_v141)
    = (weights1 (V (Proc.devRef .tc main_arg8)) (V (Proc.devRef .tc main_arg9)) (V (Proc.devRef .tc main_arg10))).wr := by
  after_results_simp
  rfl

/-- The second stretch cuts the same parameters out again. -/
private theorem sB_wl : StableHlo.after (hostOps5 (F := Ideal)) V (Proc.devRef .tc main_v145)
    = (weights1 (V (Proc.devRef .tc main_arg8)) (V (Proc.devRef .tc main_arg9)) (V (Proc.devRef .tc main_arg10))).wl := by
  after_results_simp
  rfl

private theorem sB_bl : StableHlo.after (hostOps5 (F := Ideal)) V (Proc.devRef .tc main_v150)
    = rowMat (weights1 (V (Proc.devRef .tc main_arg8)) (V (Proc.devRef .tc main_arg9)) (V (Proc.devRef .tc main_arg10))).bl := by
  refine Eq.trans ?_ (Rows.shapeCast_row _ shapeCasts_S128_S1x128)
  after_results_simp
  rfl

private theorem sB_wr : StableHlo.after (hostOps5 (F := Ideal)) V (Proc.devRef .tc main_v149)
    = (weights1 (V (Proc.devRef .tc main_arg8)) (V (Proc.devRef .tc main_arg9)) (V (Proc.devRef .tc main_arg10))).wr := by
  after_results_simp
  rfl

/-- The rows both updates read, and the means and the books' update waiting for the second region, pass through the
    stretches untouched. -/
private theorem sA_u : StableHlo.after (hostOps4 (F := Ideal)) V (Proc.devRef .tc main_v77) = V (Proc.devRef .tc main_v77) := by
  stretch_keeps hostOps4
private theorem sA_b : StableHlo.after (hostOps4 (F := Ideal)) V (Proc.devRef .tc main_v69) = V (Proc.devRef .tc main_v69) := by
  stretch_keeps hostOps4
private theorem sB_u : StableHlo.after (hostOps5 (F := Ideal)) V (Proc.devRef .tc main_v77) = V (Proc.devRef .tc main_v77) := by
  stretch_keeps hostOps5
private theorem sB_meanU : StableHlo.after (hostOps5 (F := Ideal)) V (Proc.devRef .tc main_v135) = V (Proc.devRef .tc main_v135) := by
  stretch_keeps hostOps5
private theorem sB_outB : StableHlo.after (hostOps5 (F := Ideal)) V (Proc.devRef .tc main_v143) = V (Proc.devRef .tc main_v143) := by
  stretch_keeps hostOps5

end Stretch

/-! ## Layer 1 -/

/-- `Spec.sage` of equal arrays. -/
private theorem sage_congr {n : ℕ} {a a' b b' : Mat n 128} {wl wl' wr wr' : Mat 128 128} {bl bl' : Mat 1 128}
    (h1 : a = a') (h2 : b = b') (h3 : wl = wl') (h4 : bl = bl') (h5 : wr = wr') :
    Spec.sage a b wl bl wr = Spec.sage a' b' wl' bl' wr' := by
  subst h1 h2 h3 h4 h5; rfl

/-- If the two buffers hold the rows X before the layer, they hold `Spec.layer … X` after it. -/
theorem step1 (c : Dev nD) (X : Mat 150000 128 × Mat 75000 128)
    (hu : W8 (F := Ideal) m ρ c (Proc.devRef .tc main_v77) = X.1) (hb : W8 (F := Ideal) m ρ c (Proc.devRef .tc main_v69) = X.2) :
    W12 (F := Ideal) m ρ c (Proc.devRef .tc main_v151)
        = (Spec.layer (aggB m c) (aggU m c) (weights1 (m ((c : Thread nD τ).loc main_arg8)) (m ((c : Thread nD τ).loc main_arg9)) (m ((c : Thread nD τ).loc main_arg10))) X).1
    ∧ W12 (F := Ideal) m ρ c (Proc.devRef .tc main_v143)
        = (Spec.layer (aggB m c) (aggU m c) (weights1 (m ((c : Thread nD τ).loc main_arg8)) (m ((c : Thread nD τ).loc main_arg9)) (m ((c : Thread nD τ).loc main_arg10))) X).2 := by
  -- the argument arrays where the two stretches read them
  have a2 := Args.W8_main_arg2 (F := Ideal) m ρ c
  have a3 := Args.W8_main_arg3 (F := Ideal) m ρ c
  have a8 := Args.W8_main_arg8 (F := Ideal) m ρ c
  have a9 := Args.W8_main_arg9 (F := Ideal) m ρ c
  have a10 := Args.W8_main_arg10 (F := Ideal) m ρ c
  have a8' := Args.W10_main_arg8 (F := Ideal) m ρ c
  have a9' := Args.W10_main_arg9 (F := Ideal) m ρ c
  have a10' := Args.W10_main_arg10 (F := Ideal) m ρ c
  -- the first stretch: what the books' region finds
  have eMeanB : W9 (F := Ideal) m ρ c (Proc.devRef .tc main_v106) = aggB m c X.1 :=
    (sA_meanB (W8 (F := Ideal) m ρ c)).trans (by rw [a2, a3, hu]; rfl)
  have eMeanU : W9 (F := Ideal) m ρ c (Proc.devRef .tc main_v135) = aggU m c X.2 :=
    (sA_meanU (W8 (F := Ideal) m ρ c)).trans (by rw [a2, a3, hb]; rfl)
  have eWl : W9 (F := Ideal) m ρ c (Proc.devRef .tc main_v137) = (weights1 (m ((c : Thread nD τ).loc main_arg8)) (m ((c : Thread nD τ).loc main_arg9)) (m ((c : Thread nD τ).loc main_arg10))).wl :=
    (sA_wl (W8 (F := Ideal) m ρ c)).trans (by rw [a8, a9, a10])
  have eBl : W9 (F := Ideal) m ρ c (Proc.devRef .tc main_v142) = rowMat (weights1 (m ((c : Thread nD τ).loc main_arg8)) (m ((c : Thread nD τ).loc main_arg9)) (m ((c : Thread nD τ).loc main_arg10))).bl :=
    (sA_bl (W8 (F := Ideal) m ρ c)).trans (by rw [a8, a9, a10])
  have eWr : W9 (F := Ideal) m ρ c (Proc.devRef .tc main_v141) = (weights1 (m ((c : Thread nD τ).loc main_arg8)) (m ((c : Thread nD τ).loc main_arg9)) (m ((c : Thread nD τ).loc main_arg10))).wr :=
    (sA_wr (W8 (F := Ideal) m ρ c)).trans (by rw [a8, a9, a10])
  have eU5 : W9 (F := Ideal) m ρ c (Proc.devRef .tc main_v77) = X.1 := (sA_u (W8 (F := Ideal) m ρ c)).trans hu
  have eB5 : W9 (F := Ideal) m ρ c (Proc.devRef .tc main_v69) = X.2 := (sA_b (W8 (F := Ideal) m ρ c)).trans hb
  -- the books' region
  have eOutB : W10 (F := Ideal) m ρ c (Proc.devRef .tc main_v143)
      = (Spec.layer (aggB m c) (aggU m c) (weights1 (m ((c : Thread nD τ).loc main_arg8)) (m ((c : Thread nD τ).loc main_arg9)) (m ((c : Thread nD τ).loc main_arg10))) X).2 := by
    refine (W10_arr (F := Ideal) m ρ c 5).trans ((value4 (V9 (F := Ideal) m ρ) c).trans ?_)
    exact sage_congr eMeanB eB5 eWl eBl eWr
  have eU6 : W10 (F := Ideal) m ρ c (Proc.devRef .tc main_v77) = X.1 := (W10_of_ne (F := Ideal) m ρ c main_v77 (by decide)).trans eU5
  have eMeanU6 : W10 (F := Ideal) m ρ c (Proc.devRef .tc main_v135) = aggU m c X.2 := (W10_of_ne (F := Ideal) m ρ c main_v135 (by decide)).trans eMeanU
  -- the second stretch: what the users' region finds
  have eWl7 : W11 (F := Ideal) m ρ c (Proc.devRef .tc main_v145) = (weights1 (m ((c : Thread nD τ).loc main_arg8)) (m ((c : Thread nD τ).loc main_arg9)) (m ((c : Thread nD τ).loc main_arg10))).wl :=
    (sB_wl (W10 (F := Ideal) m ρ c)).trans (by rw [a8', a9', a10'])
  have eBl7 : W11 (F := Ideal) m ρ c (Proc.devRef .tc main_v150) = rowMat (weights1 (m ((c : Thread nD τ).loc main_arg8)) (m ((c : Thread nD τ).loc main_arg9)) (m ((c : Thread nD τ).loc main_arg10))).bl :=
    (sB_bl (W10 (F := Ideal) m ρ c)).trans (by rw [a8', a9', a10'])
  have eWr7 : W11 (F := Ideal) m ρ c (Proc.devRef .tc main_v149) = (weights1 (m ((c : Thread nD τ).loc main_arg8)) (m ((c : Thread nD τ).loc main_arg9)) (m ((c : Thread nD τ).loc main_arg10))).wr :=
    (sB_wr (W10 (F := Ideal) m ρ c)).trans (by rw [a8', a9', a10'])
  have eU7 : W11 (F := Ideal) m ρ c (Proc.devRef .tc main_v77) = X.1 := (sB_u (W10 (F := Ideal) m ρ c)).trans eU6
  have eMeanU7 : W11 (F := Ideal) m ρ c (Proc.devRef .tc main_v135) = aggU m c X.2 := (sB_meanU (W10 (F := Ideal) m ρ c)).trans eMeanU6
  have eOutB7 : W11 (F := Ideal) m ρ c (Proc.devRef .tc main_v143) = _ := (sB_outB (W10 (F := Ideal) m ρ c)).trans eOutB
  -- the users' region
  refine ⟨?_, (W12_of_ne (F := Ideal) m ρ c main_v143 (by decide)).trans eOutB7⟩
  refine (W12_arr (F := Ideal) m ρ c 5).trans ((value5 (V11 (F := Ideal) m ρ) c).trans ?_)
  exact sage_congr eMeanU7 eU7 eWl7 eBl7 eWr7

end Cert.KernelIdeal.Chain

end
-- ==== Proof.KRegion6.lean ====
/-
  Region 6 of the idealized kernel program (a layer update over 75000 rows in blocks of 5000): the array its output
  window leaves, as one function of the arrays it reads, whatever the memory holds when the region is entered.
-/
import proofs.«165431_j6949257085118_1_alg».proof.Proof.Gen.KernelIdeal.Frame
import proofs.«165431_j6949257085118_1_alg».proof.Proof.Spec
import proofs.«165431_j6949257085118_1_alg».proof.Proof.KPaySage

noncomputable section

namespace Cert.KernelIdeal.RegionValue

open Cert.KernelIdeal Cert.KernelIdeal.Gen Idealize.ShloMosaic Idealize.ShloMosaic.TcCoe Idealize.ShloMosaic.ValueIdx Idealize.SL.Sem Cert.Spec

open Idealize.ShloMosaic.Pipeline (Dat Cfg Window)

variable (V : (c : Dev nD) → (b : Ref sig .tc) → Buf (Elt Ideal) ((c : Thread nD τ).loc b))

/-- Every offset of a whole-buffer access is zero. -/
theorem zeroOffsets6 : (![0, 0] : Fin 2 → Nat) = fun _ => 0 := funext fun a => by fin_cases a <;> rfl

/-- The printed index maps, decided over the grid: the means, the own rows and the output move together, block t of rows
    at grid point t; the two weight matrices and the bias are whole arrays, always their block (0, 0). -/
theorem blockIndices6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- One stored entry: when the two row blocks are rows b·5000 … of the whole arrays and the other three blocks are the
    whole weight arrays, the payload at a block entry is the layer update at the array entry 5000·b rows further down. -/
theorem point6 (mean own : Mat 75000 128) (wl wr : Mat 128 128) (bl : Mat 1 128)
    (x0 x1 : Vec Ideal S5000x128 .f32) (x2 x4 : Vec Ideal S128x128 .f32) (x3 : Vec Ideal S1x128 .f32) (b : ℕ)
    (h0 : ∀ (y : S5000x128.Idx) (i : S75000x128.Idx), (i 0).val = b * 5000 + (y 0).val → (i 1).val = (y 1).val → x0 y = mean i)
    (h1 : ∀ (y : S5000x128.Idx) (i : S75000x128.Idx), (i 0).val = b * 5000 + (y 0).val → (i 1).val = (y 1).val → x1 y = own i)
    (h2 : x2 = wl) (h4 : x4 = wr) (h3 : x3 = bl)
    (y : S5000x128.Idx) (i : S75000x128.Idx) (hi0 : (i 0).val = b * 5000 + (y 0).val) (hi1 : (i 1).val = (y 1).val) :
    k6_pay1 (F := Ideal) x0 x1 x2 x4 x3 y = Spec.sage mean own wl bl wr i := by
  subst h2 h4 h3
  obtain ⟨r, q, rfl⟩ : ∃ (r : Fin 5000) (q : Fin 128), y = ix2 r q := ⟨y 0, y 1, eq_ix2 y⟩
  obtain ⟨p, q', rfl⟩ : ∃ (p : Fin 75000) (q' : Fin 128), i = ix2 p q' := ⟨i 0, i 1, eq_ix2 i⟩
  have hq : q = q' := (Fin.ext hi1).symm
  subst hq
  refine (Pay.pay2_apply x0 x1 x2 x4 x3 r q).trans ?_
  rw [Spec.sage_apply]
  have e0 : ∀ j : Fin 128, x0 (ix2 r j) = mean (ix2 p j) := fun j => h0 _ _ hi0 rfl
  have e1 : ∀ j : Fin 128, x1 (ix2 r j) = own (ix2 p j) := fun j => h1 _ _ hi0 rfl
  simp only [e0, e1]

/-- What grid point t writes back is block t of the layer update of the arrays the region found. -/
theorem flushed6_eq (c : Dev nD) (t : Fin cfg6.N) :
    (dat6 (F := Ideal) V c).flushed 5 t = ((cfg6.win 5).blk t).view.read (Elt Ideal) (Spec.sage (V c main_v180) (V c main_v143) (V c main_v211) (V c main_v216) (V c main_v215)) := by
  show (cfg6.win 5).cut (grid6.coords t) ((dat6 V c).after 5 t) = _
  rw [after6_5]
  unfold out6_5
  rw [View.canon_unit_zero zeroOffsets6]
  simp only [View.ld_unit_zero (S := S5000x128) zeroOffsets6, View.ld_unit_zero (S := S128x128) zeroOffsets6, View.ld_unit_zero (S := S1x128) zeroOffsets6]
  obtain ⟨e00, e01, e10, e11, e20, e21, e30, e31, e40, e41, e50, e51⟩ := blockIndices6 t
  funext j
  show k6_pay1 (F := Ideal) (iblk6 V c 0 t) (iblk6 V c 1 t) (iblk6 V c 2 t) (iblk6 V c 4 t) (iblk6 V c 3 t) j
    = Spec.sage (V c main_v180) (V c main_v143) (V c main_v211) (V c main_v216) (V c main_v215) (((cfg6.win 5).blk t).view.emb j)
  refine point6 (V c main_v180) (V c main_v143) (V c main_v211) (V c main_v215) (V c main_v216)
    (iblk6 V c 0 t) (iblk6 V c 1 t) (iblk6 V c 2 t) (iblk6 V c 4 t) (iblk6 V c 3 t) t.val ?_ ?_ ?_ ?_ ?_ j (((cfg6.win 5).blk t).view.emb j) ?_ ?_
  · intro y i hi0 hi1
    show V c main_v180 (((cfg6.win 0).blk t).view.emb y) = V c main_v180 i
    refine congrArg _ (funext fun a => Fin.ext ?_)
    match a with
    | ⟨0, _⟩ => show win6_0.index t (0 : Fin 2) * 5000 + 1 * (y 0).val = (i 0).val; omega
    | ⟨1, _⟩ => show win6_0.index t (1 : Fin 2) * 128 + 1 * (y 1).val = (i 1).val; omega
  · intro y i hi0 hi1
    show V c main_v143 (((cfg6.win 1).blk t).view.emb y) = V c main_v143 i
    refine congrArg _ (funext fun a => Fin.ext ?_)
    match a with
    | ⟨0, _⟩ => show win6_1.index t (0 : Fin 2) * 5000 + 1 * (y 0).val = (i 0).val; omega
    | ⟨1, _⟩ => show win6_1.index t (1 : Fin 2) * 128 + 1 * (y 1).val = (i 1).val; omega
  · funext y
    show V c main_v211 (((cfg6.win 2).blk t).view.emb y) = V c main_v211 y
    refine congrArg _ (funext fun a => Fin.ext ?_)
    match a with
    | ⟨0, _⟩ => show win6_2.index t (0 : Fin 2) * 128 + 1 * (y 0).val = (y 0).val; omega
    | ⟨1, _⟩ => show win6_2.index t (1 : Fin 2) * 128 + 1 * (y 1).val = (y 1).val; omega
  · funext y
    show V c main_v215 (((cfg6.win 4).blk t).view.emb y) = V c main_v215 y
    refine congrArg _ (funext fun a => Fin.ext ?_)
    match a with
    | ⟨0, _⟩ => show win6_4.index t (0 : Fin 2) * 128 + 1 * (y 0).val = (y 0).val; omega
    | ⟨1, _⟩ => show win6_4.index t (1 : Fin 2) * 128 + 1 * (y 1).val = (y 1).val; omega
  · funext y
    show V c main_v216 (((cfg6.win 3).blk t).view.emb y) = V c main_v216 y
    refine congrArg _ (funext fun a => Fin.ext ?_)
    match a with
    | ⟨0, _⟩ => show win6_3.index t (0 : Fin 2) * 1 + 1 * (y 0).val = (y 0).val; omega
    | ⟨1, _⟩ => show win6_3.index t (1 : Fin 2) * 128 + 1 * (y 1).val = (y 1).val; omega
  · show win6_5.index t (0 : Fin 2) * 5000 + 1 * (j 0).val = t.val * 5000 + (j 0).val; omega
  · show win6_5.index t (1 : Fin 2) * 128 + 1 * (j 1).val = (j 1).val; omega

/-- An entry of the array is in grid point t's block iff each coordinate is in the block's range on its axis. -/
theorem mem_blk6 (t : Fin cfg6.N) (i : S75000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v217).slice (win6_5.rect t)).set ↔ _
  rw [View.set_slice_whole, Rect.mem_set_unit]
  exact Iff.rfl

/-- Row i of the array lies in the block of grid point i / 5000: the blocks fill the array. -/
theorem covered6 (i : S75000x128.Idx) : ∃ t : Fin cfg6.N, (cfg6.win 5).flush t = true ∧ i ∈ ((cfg6.win 5).blk t).view.set := by
  have hi0 : (i 0).val < 75000 := (i 0).isLt
  have hi1 : (i 1).val < 128 := (i 1).isLt
  obtain ⟨t, ht⟩ : ∃ t : Fin cfg6.N, t.val = (i 0).val / 5000 := ⟨⟨(i 0).val / 5000, by show _ < grid6.N; rw [N_6]; omega⟩, rfl⟩
  obtain ⟨-, -, -, -, -, -, -, -, -, -, e50, e51⟩ := blockIndices6 t
  refine ⟨t, flush6_5 t, ?_⟩
  rw [mem_blk6]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 128 ≤ (i 1).val ∧ (i 1).val < win6_5.index t (1 : Fin 2) * 128 + 128; omega

/-- After all 15 grid points the output array is `Spec.sage` of the input arrays as the region found them. -/
theorem value6 (c : Dev nD) :
    (dat6 (F := Ideal) V c).arrAt 5 cfg6.N = Spec.sage (V c main_v180) (V c main_v143) (V c main_v211) (V c main_v216) (V c main_v215) :=
  (dat6 V c).arrAt_eq_of_cover 5 (Spec.sage (V c main_v180) (V c main_v143) (V c main_v211) (V c main_v216) (V c main_v215))
    (fun t _ => flushed6_eq V c t) covered6

end Cert.KernelIdeal.RegionValue

end
-- ==== Proof.KRegion7.lean ====
/-
  Region 7 of the idealized kernel program (a layer update over 150000 rows in blocks of 5000): the array its output
  window leaves, as one function of the arrays it reads, whatever the memory holds when the region is entered.
-/
import proofs.«165431_j6949257085118_1_alg».proof.Proof.Gen.KernelIdeal.Frame
import proofs.«165431_j6949257085118_1_alg».proof.Proof.Spec
import proofs.«165431_j6949257085118_1_alg».proof.Proof.KPaySage

noncomputable section

namespace Cert.KernelIdeal.RegionValue

open Cert.KernelIdeal Cert.KernelIdeal.Gen Idealize.ShloMosaic Idealize.ShloMosaic.TcCoe Idealize.ShloMosaic.ValueIdx Idealize.SL.Sem Cert.Spec

open Idealize.ShloMosaic.Pipeline (Dat Cfg Window)

variable (V : (c : Dev nD) → (b : Ref sig .tc) → Buf (Elt Ideal) ((c : Thread nD τ).loc b))

/-- Every offset of a whole-buffer access is zero. -/
theorem zeroOffsets7 : (![0, 0] : Fin 2 → Nat) = fun _ => 0 := funext fun a => by fin_cases a <;> rfl

/-- The printed index maps, decided over the grid: the means, the own rows and the output move together, block t of rows
    at grid point t; the two weight matrices and the bias are whole arrays, always their block (0, 0). -/
theorem blockIndices7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- One stored entry: when the two row blocks are rows b·5000 … of the whole arrays and the other three blocks are the
    whole weight arrays, the payload at a block entry is the layer update at the array entry 5000·b rows further down. -/
theorem point7 (mean own : Mat 150000 128) (wl wr : Mat 128 128) (bl : Mat 1 128)
    (x0 x1 : Vec Ideal S5000x128 .f32) (x2 x4 : Vec Ideal S128x128 .f32) (x3 : Vec Ideal S1x128 .f32) (b : ℕ)
    (h0 : ∀ (y : S5000x128.Idx) (i : S150000x128.Idx), (i 0).val = b * 5000 + (y 0).val → (i 1).val = (y 1).val → x0 y = mean i)
    (h1 : ∀ (y : S5000x128.Idx) (i : S150000x128.Idx), (i 0).val = b * 5000 + (y 0).val → (i 1).val = (y 1).val → x1 y = own i)
    (h2 : x2 = wl) (h4 : x4 = wr) (h3 : x3 = bl)
    (y : S5000x128.Idx) (i : S150000x128.Idx) (hi0 : (i 0).val = b * 5000 + (y 0).val) (hi1 : (i 1).val = (y 1).val) :
    k7_pay1 (F := Ideal) x0 x1 x2 x4 x3 y = Spec.sage mean own wl bl wr i := by
  subst h2 h4 h3
  obtain ⟨r, q, rfl⟩ : ∃ (r : Fin 5000) (q : Fin 128), y = ix2 r q := ⟨y 0, y 1, eq_ix2 y⟩
  obtain ⟨p, q', rfl⟩ : ∃ (p : Fin 150000) (q' : Fin 128), i = ix2 p q' := ⟨i 0, i 1, eq_ix2 i⟩
  have hq : q = q' := (Fin.ext hi1).symm
  subst hq
  refine (Pay.pay2_apply x0 x1 x2 x4 x3 r q).trans ?_
  rw [Spec.sage_apply]
  have e0 : ∀ j : Fin 128, x0 (ix2 r j) = mean (ix2 p j) := fun j => h0 _ _ hi0 rfl
  have e1 : ∀ j : Fin 128, x1 (ix2 r j) = own (ix2 p j) := fun j => h1 _ _ hi0 rfl
  simp only [e0, e1]

/-- What grid point t writes back is block t of the layer update of the arrays the region found. -/
theorem flushed7_eq (c : Dev nD) (t : Fin cfg7.N) :
    (dat7 (F := Ideal) V c).flushed 5 t = ((cfg7.win 5).blk t).view.read (Elt Ideal) (Spec.sage (V c main_v209) (V c main_v151) (V c main_v219) (V c main_v224) (V c main_v223)) := by
  show (cfg7.win 5).cut (grid7.coords t) ((dat7 V c).after 5 t) = _
  rw [after7_5]
  unfold out7_5
  rw [View.canon_unit_zero zeroOffsets7]
  simp only [View.ld_unit_zero (S := S5000x128) zeroOffsets7, View.ld_unit_zero (S := S128x128) zeroOffsets7, View.ld_unit_zero (S := S1x128) zeroOffsets7]
  obtain ⟨e00, e01, e10, e11, e20, e21, e30, e31, e40, e41, e50, e51⟩ := blockIndices7 t
  funext j
  show k7_pay1 (F := Ideal) (iblk7 V c 0 t) (iblk7 V c 1 t) (iblk7 V c 2 t) (iblk7 V c 4 t) (iblk7 V c 3 t) j
    = Spec.sage (V c main_v209) (V c main_v151) (V c main_v219) (V c main_v224) (V c main_v223) (((cfg7.win 5).blk t).view.emb j)
  refine point7 (V c main_v209) (V c main_v151) (V c main_v219) (V c main_v223) (V c main_v224)
    (iblk7 V c 0 t) (iblk7 V c 1 t) (iblk7 V c 2 t) (iblk7 V c 4 t) (iblk7 V c 3 t) t.val ?_ ?_ ?_ ?_ ?_ j (((cfg7.win 5).blk t).view.emb j) ?_ ?_
  · intro y i hi0 hi1
    show V c main_v209 (((cfg7.win 0).blk t).view.emb y) = V c main_v209 i
    refine congrArg _ (funext fun a => Fin.ext ?_)
    match a with
    | ⟨0, _⟩ => show win7_0.index t (0 : Fin 2) * 5000 + 1 * (y 0).val = (i 0).val; omega
    | ⟨1, _⟩ => show win7_0.index t (1 : Fin 2) * 128 + 1 * (y 1).val = (i 1).val; omega
  · intro y i hi0 hi1
    show V c main_v151 (((cfg7.win 1).blk t).view.emb y) = V c main_v151 i
    refine congrArg _ (funext fun a => Fin.ext ?_)
    match a with
    | ⟨0, _⟩ => show win7_1.index t (0 : Fin 2) * 5000 + 1 * (y 0).val = (i 0).val; omega
    | ⟨1, _⟩ => show win7_1.index t (1 : Fin 2) * 128 + 1 * (y 1).val = (i 1).val; omega
  · funext y
    show V c main_v219 (((cfg7.win 2).blk t).view.emb y) = V c main_v219 y
    refine congrArg _ (funext fun a => Fin.ext ?_)
    match a with
    | ⟨0, _⟩ => show win7_2.index t (0 : Fin 2) * 128 + 1 * (y 0).val = (y 0).val; omega
    | ⟨1, _⟩ => show win7_2.index t (1 : Fin 2) * 128 + 1 * (y 1).val = (y 1).val; omega
  · funext y
    show V c main_v223 (((cfg7.win 4).blk t).view.emb y) = V c main_v223 y
    refine congrArg _ (funext fun a => Fin.ext ?_)
    match a with
    | ⟨0, _⟩ => show win7_4.index t (0 : Fin 2) * 128 + 1 * (y 0).val = (y 0).val; omega
    | ⟨1, _⟩ => show win7_4.index t (1 : Fin 2) * 128 + 1 * (y 1).val = (y 1).val; omega
  · funext y
    show V c main_v224 (((cfg7.win 3).blk t).view.emb y) = V c main_v224 y
    refine congrArg _ (funext fun a => Fin.ext ?_)
    match a with
    | ⟨0, _⟩ => show win7_3.index t (0 : Fin 2) * 1 + 1 * (y 0).val = (y 0).val; omega
    | ⟨1, _⟩ => show win7_3.index t (1 : Fin 2) * 128 + 1 * (y 1).val = (y 1).val; omega
  · show win7_5.index t (0 : Fin 2) * 5000 + 1 * (j 0).val = t.val * 5000 + (j 0).val; omega
  · show win7_5.index t (1 : Fin 2) * 128 + 1 * (j 1).val = (j 1).val; omega

/-- An entry of the array is in grid point t's block iff each coordinate is in the block's range on its axis. -/
theorem mem_blk7 (t : Fin cfg7.N) (i : S150000x128.Idx) :
    i ∈ ((cfg7.win 5).blk t).view.set ↔ ∀ a : Fin 2, win7_5.index t a * S5000x128.size a ≤ (i a).val ∧ (i a).val < win7_5.index t a * S5000x128.size a + S5000x128.size a := by
  show i ∈ ((View.whole main_v225).slice (win7_5.rect t)).set ↔ _
  rw [View.set_slice_whole, Rect.mem_set_unit]
  exact Iff.rfl

/-- Row i of the array lies in the block of grid point i / 5000: the blocks fill the array. -/
theorem covered7 (i : S150000x128.Idx) : ∃ t : Fin cfg7.N, (cfg7.win 5).flush t = true ∧ i ∈ ((cfg7.win 5).blk t).view.set := by
  have hi0 : (i 0).val < 150000 := (i 0).isLt
  have hi1 : (i 1).val < 128 := (i 1).isLt
  obtain ⟨t, ht⟩ : ∃ t : Fin cfg7.N, t.val = (i 0).val / 5000 := ⟨⟨(i 0).val / 5000, by show _ < grid7.N; rw [N_7]; omega⟩, rfl⟩
  obtain ⟨-, -, -, -, -, -, -, -, -, -, e50, e51⟩ := blockIndices7 t
  refine ⟨t, flush7_5 t, ?_⟩
  rw [mem_blk7]
  intro a
  match a with
  | ⟨0, _⟩ => show win7_5.index t (0 : Fin 2) * 5000 ≤ (i 0).val ∧ (i 0).val < win7_5.index t (0 : Fin 2) * 5000 + 5000; omega
  | ⟨1, _⟩ => show win7_5.index t (1 : Fin 2) * 128 ≤ (i 1).val ∧ (i 1).val < win7_5.index t (1 : Fin 2) * 128 + 128; omega

/-- After all 30 grid points the output array is `Spec.sage` of the input arrays as the region found them. -/
theorem value7 (c : Dev nD) :
    (dat7 (F := Ideal) V c).arrAt 5 cfg7.N = Spec.sage (V c main_v209) (V c main_v151) (V c main_v219) (V c main_v224) (V c main_v223) :=
  (dat7 V c).arrAt_eq_of_cover 5 (Spec.sage (V c main_v209) (V c main_v151) (V c main_v219) (V c main_v224) (V c main_v223))
    (fun t _ => flushed7_eq V c t) covered7

end Cert.KernelIdeal.RegionValue

end
-- ==== Proof.KChainL2.lean ====
/-
  Layer 2 of the idealized kernel program: two stretches of whole-array operations (the two neighbour averages and the
  layer's parameters cut out of the stacked arrays) around regions 6 (the books' update) and 7 (the users' update). Both
  updates read the rows as they were BEFORE the layer.
-/
import proofs.«165431_j6949257085118_1_alg».proof.Proof.Gen.KernelIdeal.Frame
import proofs.«165431_j6949257085118_1_alg».proof.Proof.KState
import proofs.«165431_j6949257085118_1_alg».proof.Proof.KArgs
import proofs.«165431_j6949257085118_1_alg».proof.Proof.KRegion6
import proofs.«165431_j6949257085118_1_alg».proof.Proof.KRegion7
import proofs.«165431_j6949257085118_1_alg».proof.Proof.Rows
import Idealize.ShloMosaic.Lib.StableHlo.Run

noncomputable section

namespace Cert.KernelIdeal.Chain

open Cert.KernelIdeal Cert.KernelIdeal.Gen Cert.KernelIdeal.Pieces Cert.KernelIdeal.RegionValue Cert.KernelIdeal.Args Idealize.ShloMosaic Idealize.ShloMosaic.TcCoe Idealize.ShloMosaic.ValueIdx Idealize.SL.Sem Cert.Spec

variable (m : (ℓ : Loc nD τ sig) → Buf (Elt Ideal) ℓ) (ρ : Dev nD → PrngReg)

/-- A buffer that no operation of a stretch writes holds after the stretch what it held before. -/
local macro "stretch_keeps" ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The two stretches of whole-array operations, from any contents `V` -/

section Stretch

variable (V : Valuation τ sig (Elt Ideal))

/-- The first stretch leaves the books' neighbour means: the users' rows averaged along the edges. -/
private theorem sA_meanB : StableHlo.after (hostOps6 (F := Ideal)) V (Proc.devRef .tc main_v180)
    = aggBook (wrapU (V (Proc.devRef .tc main_arg2))) (wrapB (V (Proc.devRef .tc main_arg3))) (V (Proc.devRef .tc main_v151)) := by
  after_results_simp
  rfl

/-- … and the users' neighbour means: the books' rows averaged along the edges. -/
private theorem sA_meanU : StableHlo.after (hostOps6 (F := Ideal)) V (Proc.devRef .tc main_v209)
    = aggUser (wrapB (V (Proc.devRef .tc main_arg3))) (wrapU (V (Proc.devRef .tc main_arg2))) (V (Proc.devRef .tc main_v143)) := by
  after_results_simp
  rfl

/-- … and the layer's parameters, the bias as a one-row matrix. -/
private theorem sA_wl : StableHlo.after (hostOps6 (F := Ideal)) V (Proc.devRef .tc main_v211)
    = (weights2 (V (Proc.devRef .tc main_arg8)) (V (Proc.devRef .tc main_arg9)) (V (Proc.devRef .tc main_arg10))).wl := by
  after_results_simp
  rfl

private theorem sA_bl : StableHlo.after (hostOps6 (F := Ideal)) V (Proc.devRef .tc main_v216)
    = rowMat (weights2 (V (Proc.devRef .tc main_arg8)) (V (Proc.devRef .tc main_arg9)) (V (Proc.devRef .tc main_arg10))).bl := by
  refine Eq.trans ?_ (Rows.shapeCast_row _ shapeCasts_S128_S1x128)
  after_results_simp
  rfl

private theorem sA_wr : StableHlo.after (hostOps6 (F := Ideal)) V (Proc.devRef .tc main_v215)
    = (weights2 (V (Proc.devRef .tc main_arg8)) (V (Proc.devRef .tc main_arg9)) (V (Proc.devRef .tc main_arg10))).wr := by
  after_results_simp
  rfl

/-- The second stretch cuts the same parameters out again. -/
private theorem sB_wl : StableHlo.after (hostOps7 (F := Ideal)) V (Proc.devRef .tc main_v219)
    = (weights2 (V (Proc.devRef .tc main_arg8)) (V (Proc.devRef .tc main_arg9)) (V (Proc.devRef .tc main_arg10))).wl := by
  after_results_simp
  rfl

private theorem sB_bl : StableHlo.after (hostOps7 (F := Ideal)) V (Proc.devRef .tc main_v224)
    = rowMat (weights2 (V (Proc.devRef .tc main_arg8)) (V (Proc.devRef .tc main_arg9)) (V (Proc.devRef .tc main_arg10))).bl := by
  refine Eq.trans ?_ (Rows.shapeCast_row _ shapeCasts_S128_S1x128)
  after_results_simp
  rfl

private theorem sB_wr : StableHlo.after (hostOps7 (F := Ideal)) V (Proc.devRef .tc main_v223)
    = (weights2 (V (Proc.devRef .tc main_arg8)) (V (Proc.devRef .tc main_arg9)) (V (Proc.devRef .tc main_arg10))).wr := by
  after_results_simp
  rfl

/-- The rows both updates read, and the means and the books' update waiting for the second region, pass through the
    stretches untouched. -/
private theorem sA_u : StableHlo.after (hostOps6 (F := Ideal)) V (Proc.devRef .tc main_v151) = V (Proc.devRef .tc main_v151) := by
  stretch_keeps hostOps6
private theorem sA_b : StableHlo.after (hostOps6 (F := Ideal)) V (Proc.devRef .tc main_v143) = V (Proc.devRef .tc main_v143) := by
  stretch_keeps hostOps6
private theorem sB_u : StableHlo.after (hostOps7 (F := Ideal)) V (Proc.devRef .tc main_v151) = V (Proc.devRef .tc main_v151) := by
  stretch_keeps hostOps7
private theorem sB_meanU : StableHlo.after (hostOps7 (F := Ideal)) V (Proc.devRef .tc main_v209) = V (Proc.devRef .tc main_v209) := by
  stretch_keeps hostOps7
private theorem sB_outB : StableHlo.after (hostOps7 (F := Ideal)) V (Proc.devRef .tc main_v217) = V (Proc.devRef .tc main_v217) := by
  stretch_keeps hostOps7

end Stretch

/-! ## Layer 2 -/

/-- `Spec.sage` of equal arrays. -/
private theorem sage_congr {n : ℕ} {a a' b b' : Mat n 128} {wl wl' wr wr' : Mat 128 128} {bl bl' : Mat 1 128}
    (h1 : a = a') (h2 : b = b') (h3 : wl = wl') (h4 : bl = bl') (h5 : wr = wr') :
    Spec.sage a b wl bl wr = Spec.sage a' b' wl' bl' wr' := by
  subst h1 h2 h3 h4 h5; rfl

/-- If the two buffers hold the rows X before the layer, they hold `Spec.layer … X` after it. -/
theorem step2 (c : Dev nD) (X : Mat 150000 128 × Mat 75000 128)
    (hu : W12 (F := Ideal) m ρ c (Proc.devRef .tc main_v151) = X.1) (hb : W12 (F := Ideal) m ρ c (Proc.devRef .tc main_v143) = X.2) :
    W16 (F := Ideal) m ρ c (Proc.devRef .tc main_v225)
        = (Spec.layer (aggB m c) (aggU m c) (weights2 (m ((c : Thread nD τ).loc main_arg8)) (m ((c : Thread nD τ).loc main_arg9)) (m ((c : Thread nD τ).loc main_arg10))) X).1
    ∧ W16 (F := Ideal) m ρ c (Proc.devRef .tc main_v217)
        = (Spec.layer (aggB m c) (aggU m c) (weights2 (m ((c : Thread nD τ).loc main_arg8)) (m ((c : Thread nD τ).loc main_arg9)) (m ((c : Thread nD τ).loc main_arg10))) X).2 := by
  -- the argument arrays where the two stretches read them
  have a2 := Args.W12_main_arg2 (F := Ideal) m ρ c
  have a3 := Args.W12_main_arg3 (F := Ideal) m ρ c
  have a8 := Args.W12_main_arg8 (F := Ideal) m ρ c
  have a9 := Args.W12_main_arg9 (F := Ideal) m ρ c
  have a10 := Args.W12_main_arg10 (F := Ideal) m ρ c
  have a8' := Args.W14_main_arg8 (F := Ideal) m ρ c
  have a9' := Args.W14_main_arg9 (F := Ideal) m ρ c
  have a10' := Args.W14_main_arg10 (F := Ideal) m ρ c
  -- the first stretch: what the books' region finds
  have eMeanB : W13 (F := Ideal) m ρ c (Proc.devRef .tc main_v180) = aggB m c X.1 :=
    (sA_meanB (W12 (F := Ideal) m ρ c)).trans (by rw [a2, a3, hu]; rfl)
  have eMeanU : W13 (F := Ideal) m ρ c (Proc.devRef .tc main_v209) = aggU m c X.2 :=
    (sA_meanU (W12 (F := Ideal) m ρ c)).trans (by rw [a2, a3, hb]; rfl)
  have eWl : W13 (F := Ideal) m ρ c (Proc.devRef .tc main_v211) = (weights2 (m ((c : Thread nD τ).loc main_arg8)) (m ((c : Thread nD τ).loc main_arg9)) (m ((c : Thread nD τ).loc main_arg10))).wl :=
    (sA_wl (W12 (F := Ideal) m ρ c)).trans (by rw [a8, a9, a10])
  have eBl : W13 (F := Ideal) m ρ c (Proc.devRef .tc main_v216) = rowMat (weights2 (m ((c : Thread nD τ).loc main_arg8)) (m ((c : Thread nD τ).loc main_arg9)) (m ((c : Thread nD τ).loc main_arg10))).bl :=
    (sA_bl (W12 (F := Ideal) m ρ c)).trans (by rw [a8, a9, a10])
  have eWr : W13 (F := Ideal) m ρ c (Proc.devRef .tc main_v215) = (weights2 (m ((c : Thread nD τ).loc main_arg8)) (m ((c : Thread nD τ).loc main_arg9)) (m ((c : Thread nD τ).loc main_arg10))).wr :=
    (sA_wr (W12 (F := Ideal) m ρ c)).trans (by rw [a8, a9, a10])
  have eU5 : W13 (F := Ideal) m ρ c (Proc.devRef .tc main_v151) = X.1 := (sA_u (W12 (F := Ideal) m ρ c)).trans hu
  have eB5 : W13 (F := Ideal) m ρ c (Proc.devRef .tc main_v143) = X.2 := (sA_b (W12 (F := Ideal) m ρ c)).trans hb
  -- the books' region
  have eOutB : W14 (F := Ideal) m ρ c (Proc.devRef .tc main_v217)
      = (Spec.layer (aggB m c) (aggU m c) (weights2 (m ((c : Thread nD τ).loc main_arg8)) (m ((c : Thread nD τ).loc main_arg9)) (m ((c : Thread nD τ).loc main_arg10))) X).2 := by
    refine (W14_arr (F := Ideal) m ρ c 5).trans ((value6 (V13 (F := Ideal) m ρ) c).trans ?_)
    exact sage_congr eMeanB eB5 eWl eBl eWr
  have eU6 : W14 (F := Ideal) m ρ c (Proc.devRef .tc main_v151) = X.1 := (W14_of_ne (F := Ideal) m ρ c main_v151 (by decide)).trans eU5
  have eMeanU6 : W14 (F := Ideal) m ρ c (Proc.devRef .tc main_v209) = aggU m c X.2 := (W14_of_ne (F := Ideal) m ρ c main_v209 (by decide)).trans eMeanU
  -- the second stretch: what the users' region finds
  have eWl7 : W15 (F := Ideal) m ρ c (Proc.devRef .tc main_v219) = (weights2 (m ((c : Thread nD τ).loc main_arg8)) (m ((c : Thread nD τ).loc main_arg9)) (m ((c : Thread nD τ).loc main_arg10))).wl :=
    (sB_wl (W14 (F := Ideal) m ρ c)).trans (by rw [a8', a9', a10'])
  have eBl7 : W15 (F := Ideal) m ρ c (Proc.devRef .tc main_v224) = rowMat (weights2 (m ((c : Thread nD τ).loc main_arg8)) (m ((c : Thread nD τ).loc main_arg9)) (m ((c : Thread nD τ).loc main_arg10))).bl :=
    (sB_bl (W14 (F := Ideal) m ρ c)).trans (by rw [a8', a9', a10'])
  have eWr7 : W15 (F := Ideal) m ρ c (Proc.devRef .tc main_v223) = (weights2 (m ((c : Thread nD τ).loc main_arg8)) (m ((c : Thread nD τ).loc main_arg9)) (m ((c : Thread nD τ).loc main_arg10))).wr :=
    (sB_wr (W14 (F := Ideal) m ρ c)).trans (by rw [a8', a9', a10'])
  have eU7 : W15 (F := Ideal) m ρ c (Proc.devRef .tc main_v151) = X.1 := (sB_u (W14 (F := Ideal) m ρ c)).trans eU6
  have eMeanU7 : W15 (F := Ideal) m ρ c (Proc.devRef .tc main_v209) = aggU m c X.2 := (sB_meanU (W14 (F := Ideal) m ρ c)).trans eMeanU6
  have eOutB7 : W15 (F := Ideal) m ρ c (Proc.devRef .tc main_v217) = _ := (sB_outB (W14 (F := Ideal) m ρ c)).trans eOutB
  -- the users' region
  refine ⟨?_, (W16_of_ne (F := Ideal) m ρ c main_v217 (by decide)).trans eOutB7⟩
  refine (W16_arr (F := Ideal) m ρ c 5).trans ((value7 (V15 (F := Ideal) m ρ) c).trans ?_)
  exact sage_congr eMeanU7 eU7 eWl7 eBl7 eWr7

end Cert.KernelIdeal.Chain

end
-- ==== Proof.KPayNorm.lean ====
/-
  What one grid point of a normalisation region stores, entry by entry: the row's entry minus the row mean, times
  (row variance + eps)^(-1/2), times gamma, plus beta. Mean and variance are over the block's own row, which is a whole
  row of the array (the blocks keep all 128 columns).
-/
import proofs.«165431_j6949257085118_1_alg».proof.Proof.Gen.KernelIdeal.Skeleton
import proofs.«165431_j6949257085118_1_alg».proof.Proof.Spec
import proofs.«165431_j6949257085118_1_alg».proof.Proof.LibPlainDot
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx Cert.Spec

/-- A column [a,1] broadcast to [a,b] reads, at (p, c), the column at p. -/
private theorem bcastCol_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a,1] reads, at (p, u), the vector at p. -/
private theorem castCol_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum along the rows of a [5000,128] block, at row r. -/
private theorem rowSum_apply (v : FVec Ideal S5000x128 .f32) (r : Fin 5000) :
    multiReduction (F := Ideal) .add [1] S5000 v 0x00000000#32 reduces_S5000x128_S5000 (.inl rfl) rfl (ix1 r) = ∑ k : Fin 128, v (ix2 r k) := by
  refine (Ideal.multiReduction_add_single (φ := .f32) v 0x00000000#32 reduces_S5000x128_S5000 (.inl rfl) rfl (ix1 r)).trans ?_
  refine Finset.sum_congr rfl fun k _ => congrArg v ?_
  funext a
  match a with
  | ⟨0, _⟩ => rfl
  | ⟨1, _⟩ => rfl

/-- The same three readings at the block's own shapes. -/
private theorem bcastCol (v : FVec Ideal S5000x1 .f32) (r : Fin 5000) (q : Fin 128) :
    broadcastTo S5000x128 v broadcasts_S5000x1_S5000x128 (ix2 r q) = v (ix2 r (0 : Fin 1)) :=
  bcastCol_apply v broadcasts_S5000x1_S5000x128 r q

private theorem castCol (x : FVec Ideal S5000 .f32) (r : Fin 5000) (u : Fin 1) :
    shapeCast S5000x1 x shapeCasts_S5000_S5000x1 (ix2 r u) = x (ix1 r) :=
  castCol_apply x shapeCasts_S5000_S5000x1 r u

private theorem bcastRow (v : FVec Ideal S1x128 .f32) (r : Fin 5000) (q : Fin 128) :
    broadcastTo S5000x128 v broadcasts_S1x128_S5000x128 (ix2 r q) = v (ix2 (0 : Fin 1) q) :=
  broadcastTo_1b_ab_apply v broadcasts_S1x128_S5000x128 r q

private theorem rsqrt_apply {s : Shape} (x : FVec Ideal s .f32) (i : s.Idx) : rsqrt x i = Ideal.rsqrt (x i) := rfl

/-- The block's column of row means, at row r. -/
private theorem meanCol_apply (v : FVec Ideal S5000x128 .f32) (r : Fin 5000) (u : Fin 1) :
    divf (shapeCast S5000x1 (multiReduction (F := Ideal) .add [1] S5000 v 0x00000000#32 reduces_S5000x128_S5000 (.inl rfl) rfl) shapeCasts_S5000_S5000x1)
        (broadcast S5000x1 (Scalar.ofBits (F := Ideal) .f32 0x43000000#32)) (ix2 r u)
      = Ideal.div (∑ k : Fin 128, v (ix2 r k)) Spec.c128 := by
  rw [divf_apply, castCol, rowSum_apply, broadcast_apply]
  rfl

/-- A normalisation region's stored block at (r, q). -/
theorem pay8_apply (v0 : Vec Ideal S5000x128 .f32) (v20 v24 : Vec Ideal S1x128 .f32) (r : Fin 5000) (q : Fin 128) :
    k8_pay1 (F := Ideal) v0 v20 v24 (ix2 r q)
      = ((v0 (ix2 r q) - Spec.rowMean (n := 5000) v0 r) * Ideal.rsqrt (Spec.rowVar (n := 5000) v0 r + Spec.eps)) * v20 (ix2 0 q) + v24 (ix2 0 q) := by
  unfold k8_pay1
  simp only [shapeCast_self]
  rw [addf_apply, mulf_apply, mulf_apply, subf_apply, bcastRow, bcastRow, bcastCol, bcastCol, rsqrt_apply, addf_apply,
    meanCol_apply, meanCol_apply, broadcast_apply]
  have hvar : (∑ k : Fin 128, mulf (subf v0 (broadcastTo S5000x128 (divf (shapeCast S5000x1 (multiReduction (F := Ideal) .add [1] S5000 v0 0x00000000#32 reduces_S5000x128_S5000 (.inl rfl) rfl) shapeCasts_S5000_S5000x1)
        (broadcast S5000x1 (Scalar.ofBits (F := Ideal) .f32 0x43000000#32))) broadcasts_S5000x1_S5000x128))
        (subf v0 (broadcastTo S5000x128 (divf (shapeCast S5000x1 (multiReduction (F := Ideal) .add [1] S5000 v0 0x00000000#32 reduces_S5000x128_S5000 (.inl rfl) rfl) shapeCasts_S5000_S5000x1)
        (broadcast S5000x1 (Scalar.ofBits (F := Ideal) .f32 0x43000000#32))) broadcasts_S5000x1_S5000x128)) (ix2 r k))
      = ∑ k : Fin 128, (v0 (ix2 r k) - Spec.rowMean (n := 5000) v0 r) * (v0 (ix2 r k) - Spec.rowMean (n := 5000) v0 r) :=
    Finset.sum_congr rfl fun k _ => by
      rw [mulf_apply, subf_apply, bcastCol, meanCol_apply]
      rfl
  rw [hvar]
  rfl

end Cert.KernelIdeal.Pay

end
-- ==== Proof.KRegion8.lean ====
/-
  Region 8 of the idealized kernel program (a row normalisation over 150000 rows in blocks of 5000): the array its output
  window leaves, as one function of the arrays it reads, whatever the memory holds when the region is entered.
-/
import proofs.«165431_j6949257085118_1_alg».proof.Proof.Gen.KernelIdeal.Frame
import proofs.«165431_j6949257085118_1_alg».proof.Proof.Spec
import proofs.«165431_j6949257085118_1_alg».proof.Proof.KPayNorm

noncomputable section

namespace Cert.KernelIdeal.RegionValue

open Cert.KernelIdeal Cert.KernelIdeal.Gen Idealize.ShloMosaic Idealize.ShloMosaic.TcCoe Idealize.ShloMosaic.ValueIdx Idealize.SL.Sem Cert.Spec

open Idealize.ShloMosaic.Pipeline (Dat Cfg Window)

variable (V : (c : Dev nD) → (b : Ref sig .tc) → Buf (Elt Ideal) ((c : Thread nD τ).loc b))

private theorem hz8 : (![0, 0] : Fin 2 → Nat) = fun _ => 0 := funext fun a => by fin_cases a <;> rfl

/-- The printed index maps, decided over the 30 grid points: the input rows' block and the output's block are both
    block t along the rows; the scale and the shift are fetched whole (block (0, 0)). -/
private theorem idx_facts8 : ∀ t : Fin cfg8.N, win8_0.index t (0 : Fin 2) = t.val
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) = t.val
    ∧ win8_3.index t (1 : Fin 2) = 0 :=
  (by decide +kernel : ∀ t : Fin grid8.N, _)

/-- A row's mean depends on the row's 128 entries only: a block row that is row p of the array has row p's mean. -/
private theorem rowMean_of_row {n b : ℕ} (a : Mat n 128) (x : Mat b 128) (r : Fin b) (p : Fin n)
    (h : ∀ k : Fin 128, x (ix2 r k) = a (ix2 p k)) : Spec.rowMean x r = Spec.rowMean a p := by
  unfold Spec.rowMean
  rw [Finset.sum_congr rfl fun k _ => h k]

/-- Likewise the row's variance. -/
private theorem rowVar_of_row {n b : ℕ} (a : Mat n 128) (x : Mat b 128) (r : Fin b) (p : Fin n)
    (h : ∀ k : Fin 128, x (ix2 r k) = a (ix2 p k)) : Spec.rowVar x r = Spec.rowVar a p := by
  unfold Spec.rowVar
  rw [rowMean_of_row a x r p h, Finset.sum_congr rfl fun k _ => by rw [h k]]

/-- One stored block against the whole arrays: when the block of rows is the rows of `a0` that the embedding `e` names,
    and the scale and the shift are the whole arrays, the stored block is `Spec.lnorm` read through `e`. -/
private theorem block8 (a0 : Mat 150000 128) (a1 a2 : Mat 1 128)
    (x0 : Vec Ideal S5000x128 .f32) (x1 x2 : Vec Ideal S1x128 .f32)
    (e : S5000x128.Idx → S150000x128.Idx)
    (h0 : ∀ (j : S5000x128.Idx) (k : Fin 128), x0 (ix2 (j 0) k) = a0 (ix2 (e j 0) k))
    (h1 : x1 = a1) (h2 : x2 = a2) (he : ∀ j, e j 1 = j 1) (j : S5000x128.Idx) :
    k8_pay1 (F := Ideal) x0 x1 x2 j = Spec.lnorm a0 a1 a2 (e j) := by
  subst h1 h2
  have hp : k8_pay1 (F := Ideal) x0 x1 x2 j = _ :=
    (congrArg (k8_pay1 (F := Ideal) x0 x1 x2) (eq_ix2 j)).trans (Pay.pay8_apply x0 x1 x2 (j 0) (j 1))
  have hq : Spec.lnorm a0 x1 x2 (e j) = _ :=
    (congrArg (Spec.lnorm a0 x1 x2) (eq_ix2 (e j))).trans (Spec.lnorm_apply a0 x1 x2 (e j 0) (e j 1))
  rw [hp, hq, he j, rowMean_of_row a0 x0 (j 0) (e j 0) (h0 j), rowVar_of_row a0 x0 (j 0) (e j 0) (h0 j), h0 j (j 1)]

/-- What grid point t writes back is block t of `Spec.lnorm` of the arrays as the region finds them. -/
theorem flushed8_eq (c : Dev nD) (t : Fin cfg8.N) :
    (dat8 (F := Ideal) V c).flushed 3 t
      = ((cfg8.win 3).blk t).view.read (Elt Ideal) (Spec.lnorm (V c main_v225) (V c main_v226) (V c main_v227)) := by
  show (cfg8.win 3).cut (grid8.coords t) ((dat8 V c).after 3 t) = _
  rw [after8_3]
  unfold out8_3
  rw [View.canon_unit_zero hz8]
  simp only [View.ld_unit_zero (S := S5000x128) hz8, View.ld_unit_zero (S := S1x128) hz8]
  obtain ⟨e0, e1, e2, e3, e4, e5, e6, e7⟩ := idx_facts8 t
  funext j
  refine block8 (V c main_v225) (V c main_v226) (V c main_v227) (iblk8 V c 0 t) (iblk8 V c 1 t) (iblk8 V c 2 t)
    (((cfg8.win 3).blk t).view.emb) ?_ ?_ ?_ ?_ j
  · intro j k
    show V c main_v225 (((cfg8.win 0).blk t).view.emb (ix2 (j 0) k)) = _
    congr 1
    funext a; apply Fin.ext
    match a with
    | ⟨0, _⟩ => show win8_0.index t (0 : Fin 2) * 5000 + 1 * (j 0).val = win8_3.index t (0 : Fin 2) * 5000 + 1 * (j 0).val; omega
    | ⟨1, _⟩ => show win8_0.index t (1 : Fin 2) * 128 + 1 * k.val = k.val; omega
  · funext x
    show V c main_v226 (((cfg8.win 1).blk t).view.emb x) = _
    congr 1
    funext a; apply Fin.ext
    match a with
    | ⟨0, _⟩ => show win8_1.index t (0 : Fin 2) * 1 + 1 * (x 0).val = (x 0).val; omega
    | ⟨1, _⟩ => show win8_1.index t (1 : Fin 2) * 128 + 1 * (x 1).val = (x 1).val; omega
  · funext x
    show V c main_v227 (((cfg8.win 2).blk t).view.emb x) = _
    congr 1
    funext a; apply Fin.ext
    match a with
    | ⟨0, _⟩ => show win8_2.index t (0 : Fin 2) * 1 + 1 * (x 0).val = (x 0).val; omega
    | ⟨1, _⟩ => show win8_2.index t (1 : Fin 2) * 128 + 1 * (x 1).val = (x 1).val; omega
  · intro j
    apply Fin.ext
    show win8_3.index t (1 : Fin 2) * 128 + 1 * (j 1).val = (j 1).val; omega

/-- An index of the output array is in grid point t's block iff each coordinate is in the block's range on its axis. -/
private theorem mem_blk8 (t : Fin cfg8.N) (i : S150000x128.Idx) :
    i ∈ ((cfg8.win 3).blk t).view.set ↔ ∀ a : Fin 2, win8_3.index t a * S5000x128.size a ≤ (i a).val ∧ (i a).val < win8_3.index t a * S5000x128.size a + S5000x128.size a := by
  show i ∈ ((View.whole main_v228).slice (win8_3.rect t)).set ↔ _
  rw [View.set_slice_whole, Rect.mem_set_unit]
  exact Iff.rfl

/-- The 30 blocks of 5000 rows cover the 150000 rows: row i is in block i / 5000. -/
private theorem cover8 (i : S150000x128.Idx) :
    ∃ t : Fin cfg8.N, (cfg8.win 3).flush t = true ∧ i ∈ ((cfg8.win 3).blk t).view.set := by
  have hi0 : (i 0).val < 150000 := (i 0).isLt
  have hi1 : (i 1).val < 128 := (i 1).isLt
  have hN : cfg8.N = 30 := N_8
  obtain ⟨t, ht⟩ : ∃ t : Fin cfg8.N, t.val = (i 0).val / 5000 := ⟨⟨(i 0).val / 5000, by rw [hN]; omega⟩, rfl⟩
  obtain ⟨-, -, -, -, -, -, e6, e7⟩ := idx_facts8 t
  refine ⟨t, flush8_3 t, ?_⟩
  rw [mem_blk8]
  intro a
  match a with
  | ⟨0, _⟩ => show win8_3.index t (0 : Fin 2) * 5000 ≤ (i 0).val ∧ (i 0).val < win8_3.index t (0 : Fin 2) * 5000 + 5000; omega
  | ⟨1, _⟩ => show win8_3.index t (1 : Fin 2) * 128 ≤ (i 1).val ∧ (i 1).val < win8_3.index t (1 : Fin 2) * 128 + 128; omega

/-- After all 30 grid points the output array is `Spec.lnorm` of the input arrays as the region found them. -/
theorem value8 (c : Dev nD) :
    (dat8 (F := Ideal) V c).arrAt 3 cfg8.N = Spec.lnorm (V c main_v225) (V c main_v226) (V c main_v227) :=
  (dat8 (F := Ideal) V c).arrAt_eq_of_cover 3 _ (fun t _ => flushed8_eq V c t) cover8

end Cert.KernelIdeal.RegionValue

end
-- ==== Proof.KRegion9.lean ====
/-
  Region 9 of the idealized kernel program (a row normalisation over 75000 rows in blocks of 5000): the array its output
  window leaves, as one function of the arrays it reads, whatever the memory holds when the region is entered.
-/
import proofs.«165431_j6949257085118_1_alg».proof.Proof.Gen.KernelIdeal.Frame
import proofs.«165431_j6949257085118_1_alg».proof.Proof.Spec
import proofs.«165431_j6949257085118_1_alg».proof.Proof.KPayNorm

noncomputable section

namespace Cert.KernelIdeal.RegionValue

open Cert.KernelIdeal Cert.KernelIdeal.Gen Idealize.ShloMosaic Idealize.ShloMosaic.TcCoe Idealize.ShloMosaic.ValueIdx Idealize.SL.Sem Cert.Spec

open Idealize.ShloMosaic.Pipeline (Dat Cfg Window)

variable (V : (c : Dev nD) → (b : Ref sig .tc) → Buf (Elt Ideal) ((c : Thread nD τ).loc b))

private theorem hz9 : (![0, 0] : Fin 2 → Nat) = fun _ => 0 := funext fun a => by fin_cases a <;> rfl

/-- The printed index maps, decided over the 15 grid points: the input rows' block and the output's block are both
    block t along the rows; the scale and the shift are fetched whole (block (0, 0)). -/
private theorem idx_facts9 : ∀ t : Fin cfg9.N, win9_0.index t (0 : Fin 2) = t.val
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) = t.val
    ∧ win9_3.index t (1 : Fin 2) = 0 :=
  (by decide +kernel : ∀ t : Fin grid9.N, _)

/-- A row's mean depends on the row's 128 entries only: a block row that is row p of the array has row p's mean. -/
private theorem rowMean_of_row {n b : ℕ} (a : Mat n 128) (x : Mat b 128) (r : Fin b) (p : Fin n)
    (h : ∀ k : Fin 128, x (ix2 r k) = a (ix2 p k)) : Spec.rowMean x r = Spec.rowMean a p := by
  unfold Spec.rowMean
  rw [Finset.sum_congr rfl fun k _ => h k]

/-- Likewise the row's variance. -/
private theorem rowVar_of_row {n b : ℕ} (a : Mat n 128) (x : Mat b 128) (r : Fin b) (p : Fin n)
    (h : ∀ k : Fin 128, x (ix2 r k) = a (ix2 p k)) : Spec.rowVar x r = Spec.rowVar a p := by
  unfold Spec.rowVar
  rw [rowMean_of_row a x r p h, Finset.sum_congr rfl fun k _ => by rw [h k]]

/-- One stored block against the whole arrays: when the block of rows is the rows of `a0` that the embedding `e` names,
    and the scale and the shift are the whole arrays, the stored block is `Spec.lnorm` read through `e`. -/
private theorem block9 (a0 : Mat 75000 128) (a1 a2 : Mat 1 128)
    (x0 : Vec Ideal S5000x128 .f32) (x1 x2 : Vec Ideal S1x128 .f32)
    (e : S5000x128.Idx → S75000x128.Idx)
    (h0 : ∀ (j : S5000x128.Idx) (k : Fin 128), x0 (ix2 (j 0) k) = a0 (ix2 (e j 0) k))
    (h1 : x1 = a1) (h2 : x2 = a2) (he : ∀ j, e j 1 = j 1) (j : S5000x128.Idx) :
    k9_pay1 (F := Ideal) x0 x1 x2 j = Spec.lnorm a0 a1 a2 (e j) := by
  subst h1 h2
  have hp : k9_pay1 (F := Ideal) x0 x1 x2 j = _ :=
    (congrArg (k9_pay1 (F := Ideal) x0 x1 x2) (eq_ix2 j)).trans (Pay.pay8_apply x0 x1 x2 (j 0) (j 1))
  have hq : Spec.lnorm a0 x1 x2 (e j) = _ :=
    (congrArg (Spec.lnorm a0 x1 x2) (eq_ix2 (e j))).trans (Spec.lnorm_apply a0 x1 x2 (e j 0) (e j 1))
  rw [hp, hq, he j, rowMean_of_row a0 x0 (j 0) (e j 0) (h0 j), rowVar_of_row a0 x0 (j 0) (e j 0) (h0 j), h0 j (j 1)]

/-- What grid point t writes back is block t of `Spec.lnorm` of the arrays as the region finds them. -/
theorem flushed9_eq (c : Dev nD) (t : Fin cfg9.N) :
    (dat9 (F := Ideal) V c).flushed 3 t
      = ((cfg9.win 3).blk t).view.read (Elt Ideal) (Spec.lnorm (V c main_v217) (V c main_v229) (V c main_v230)) := by
  show (cfg9.win 3).cut (grid9.coords t) ((dat9 V c).after 3 t) = _
  rw [after9_3]
  unfold out9_3
  rw [View.canon_unit_zero hz9]
  simp only [View.ld_unit_zero (S := S5000x128) hz9, View.ld_unit_zero (S := S1x128) hz9]
  obtain ⟨e0, e1, e2, e3, e4, e5, e6, e7⟩ := idx_facts9 t
  funext j
  refine block9 (V c main_v217) (V c main_v229) (V c main_v230) (iblk9 V c 0 t) (iblk9 V c 1 t) (iblk9 V c 2 t)
    (((cfg9.win 3).blk t).view.emb) ?_ ?_ ?_ ?_ j
  · intro j k
    show V c main_v217 (((cfg9.win 0).blk t).view.emb (ix2 (j 0) k)) = _
    congr 1
    funext a; apply Fin.ext
    match a with
    | ⟨0, _⟩ => show win9_0.index t (0 : Fin 2) * 5000 + 1 * (j 0).val = win9_3.index t (0 : Fin 2) * 5000 + 1 * (j 0).val; omega
    | ⟨1, _⟩ => show win9_0.index t (1 : Fin 2) * 128 + 1 * k.val = k.val; omega
  · funext x
    show V c main_v229 (((cfg9.win 1).blk t).view.emb x) = _
    congr 1
    funext a; apply Fin.ext
    match a with
    | ⟨0, _⟩ => show win9_1.index t (0 : Fin 2) * 1 + 1 * (x 0).val = (x 0).val; omega
    | ⟨1, _⟩ => show win9_1.index t (1 : Fin 2) * 128 + 1 * (x 1).val = (x 1).val; omega
  · funext x
    show V c main_v230 (((cfg9.win 2).blk t).view.emb x) = _
    congr 1
    funext a; apply Fin.ext
    match a with
    | ⟨0, _⟩ => show win9_2.index t (0 : Fin 2) * 1 + 1 * (x 0).val = (x 0).val; omega
    | ⟨1, _⟩ => show win9_2.index t (1 : Fin 2) * 128 + 1 * (x 1).val = (x 1).val; omega
  · intro j
    apply Fin.ext
    show win9_3.index t (1 : Fin 2) * 128 + 1 * (j 1).val = (j 1).val; omega

/-- An index of the output array is in grid point t's block iff each coordinate is in the block's range on its axis. -/
private theorem mem_blk9 (t : Fin cfg9.N) (i : S75000x128.Idx) :
    i ∈ ((cfg9.win 3).blk t).view.set ↔ ∀ a : Fin 2, win9_3.index t a * S5000x128.size a ≤ (i a).val ∧ (i a).val < win9_3.index t a * S5000x128.size a + S5000x128.size a := by
  show i ∈ ((View.whole main_v231).slice (win9_3.rect t)).set ↔ _
  rw [View.set_slice_whole, Rect.mem_set_unit]
  exact Iff.rfl

/-- The 15 blocks of 5000 rows cover the 75000 rows: row i is in block i / 5000. -/
private theorem cover9 (i : S75000x128.Idx) :
    ∃ t : Fin cfg9.N, (cfg9.win 3).flush t = true ∧ i ∈ ((cfg9.win 3).blk t).view.set := by
  have hi0 : (i 0).val < 75000 := (i 0).isLt
  have hi1 : (i 1).val < 128 := (i 1).isLt
  have hN : cfg9.N = 15 := N_9
  obtain ⟨t, ht⟩ : ∃ t : Fin cfg9.N, t.val = (i 0).val / 5000 := ⟨⟨(i 0).val / 5000, by rw [hN]; omega⟩, rfl⟩
  obtain ⟨-, -, -, -, -, -, e6, e7⟩ := idx_facts9 t
  refine ⟨t, flush9_3 t, ?_⟩
  rw [mem_blk9]
  intro a
  match a with
  | ⟨0, _⟩ => show win9_3.index t (0 : Fin 2) * 5000 ≤ (i 0).val ∧ (i 0).val < win9_3.index t (0 : Fin 2) * 5000 + 5000; omega
  | ⟨1, _⟩ => show win9_3.index t (1 : Fin 2) * 128 ≤ (i 1).val ∧ (i 1).val < win9_3.index t (1 : Fin 2) * 128 + 128; omega

/-- After all 15 grid points the output array is `Spec.lnorm` of the input arrays as the region found them. -/
theorem value9 (c : Dev nD) :
    (dat9 (F := Ideal) V c).arrAt 3 cfg9.N = Spec.lnorm (V c main_v217) (V c main_v229) (V c main_v230) :=
  (dat9 (F := Ideal) V c).arrAt_eq_of_cover 3 _ (fun t _ => flushed9_eq V c t) cover9

end Cert.KernelIdeal.RegionValue

end
-- ==== Proof.KChainN.lean ====
/-
  The end of the idealized kernel program: regions 8 and 9 normalise the users' and the books' rows; each scale and
  shift vector reaches its region as a one-row matrix made by a reshape.
-/
import proofs.«165431_j6949257085118_1_alg».proof.Proof.Gen.KernelIdeal.Frame
import proofs.«165431_j6949257085118_1_alg».proof.Proof.KState
import proofs.«165431_j6949257085118_1_alg».proof.Proof.KArgs
import proofs.«165431_j6949257085118_1_alg».proof.Proof.KRegion8
import proofs.«165431_j6949257085118_1_alg».proof.Proof.KRegion9
import proofs.«165431_j6949257085118_1_alg».proof.Proof.Rows
import Idealize.ShloMosaic.Lib.StableHlo.Run

noncomputable section

namespace Cert.KernelIdeal.Chain

open Cert.KernelIdeal Cert.KernelIdeal.Gen Cert.KernelIdeal.Pieces Cert.KernelIdeal.RegionValue Cert.KernelIdeal.Args Idealize.ShloMosaic Idealize.ShloMosaic.TcCoe Idealize.ShloMosaic.ValueIdx Idealize.SL.Sem Cert.Spec

variable (m : (ℓ : Loc nD τ sig) → Buf (Elt Ideal) ℓ) (ρ : Dev nD → PrngReg)

/-- A host stretch leaves a buffer it does not write as it found it. -/
local macro "stretch_skips" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- If the two buffers hold the rows X after the last layer, the results are X's two normalisations. -/
theorem stepN (c : Dev nD) (X : Mat 150000 128 × Mat 75000 128)
    (hu : W16 (F := Ideal) m ρ c (Proc.devRef .tc main_v225) = X.1) (hb : W16 (F := Ideal) m ρ c (Proc.devRef .tc main_v217) = X.2) :
    W20 (F := Ideal) m ρ c (Proc.devRef .tc main_v228) = Spec.lnorm X.1 (rowMat (m ((c : Thread nD τ).loc main_arg11))) (rowMat (m ((c : Thread nD τ).loc main_arg12)))
    ∧ W20 (F := Ideal) m ρ c (Proc.devRef .tc main_v231) = Spec.lnorm X.2 (rowMat (m ((c : Thread nD τ).loc main_arg13))) (rowMat (m ((c : Thread nD τ).loc main_arg14))) := by
  -- region 8's scale and shift: reshapes of arguments 11 and 12
  have eg : W17 (F := Ideal) m ρ c (Proc.devRef .tc main_v226) = rowMat (m ((c : Thread nD τ).loc main_arg11)) := by
    show StableHlo.after hostOps8 (W16 (F := Ideal) m ρ c) (Proc.devRef .tc main_v226) = _
    after_results
    rw [W16_main_arg11 m ρ c]
    exact Rows.shapeCast_row _ _
  have eb : W17 (F := Ideal) m ρ c (Proc.devRef .tc main_v227) = rowMat (m ((c : Thread nD τ).loc main_arg12)) := by
    show StableHlo.after hostOps8 (W16 (F := Ideal) m ρ c) (Proc.devRef .tc main_v227) = _
    after_results
    rw [W16_main_arg12 m ρ c]
    exact Rows.shapeCast_row _ _
  -- the users' rows pass the stretch untouched
  have cu : W17 (F := Ideal) m ρ c (Proc.devRef .tc main_v225) = W16 (F := Ideal) m ρ c (Proc.devRef .tc main_v225) := by
    stretch_skips hostOps8
  -- region 8's output
  have e8 : W18 (F := Ideal) m ρ c (Proc.devRef .tc main_v228)
      = Spec.lnorm X.1 (rowMat (m ((c : Thread nD τ).loc main_arg11))) (rowMat (m ((c : Thread nD τ).loc main_arg12))) := by
    refine ((W18_arr m ρ c 3).trans (value8 (V17 m ρ) c)).trans ?_
    show Spec.lnorm (W17 (F := Ideal) m ρ c (Proc.devRef .tc main_v225)) (W17 (F := Ideal) m ρ c (Proc.devRef .tc main_v226)) (W17 (F := Ideal) m ρ c (Proc.devRef .tc main_v227)) = _
    rw [cu, hu, eg, eb]
  -- region 9's scale and shift: reshapes of arguments 13 and 14
  have eg' : W19 (F := Ideal) m ρ c (Proc.devRef .tc main_v229) = rowMat (m ((c : Thread nD τ).loc main_arg13)) := by
    show StableHlo.after hostOps9 (W18 (F := Ideal) m ρ c) (Proc.devRef .tc main_v229) = _
    after_results
    rw [W18_main_arg13 m ρ c]
    exact Rows.shapeCast_row _ _
  have eb' : W19 (F := Ideal) m ρ c (Proc.devRef .tc main_v230) = rowMat (m ((c : Thread nD τ).loc main_arg14)) := by
    show StableHlo.after hostOps9 (W18 (F := Ideal) m ρ c) (Proc.devRef .tc main_v230) = _
    after_results
    rw [W18_main_arg14 m ρ c]
    exact Rows.shapeCast_row _ _
  -- the books' rows pass both stretches and region 8 untouched
  have cb17 : W17 (F := Ideal) m ρ c (Proc.devRef .tc main_v217) = W16 (F := Ideal) m ρ c (Proc.devRef .tc main_v217) := by
    stretch_skips hostOps8
  have cb18 : W18 (F := Ideal) m ρ c (Proc.devRef .tc main_v217) = W17 (F := Ideal) m ρ c (Proc.devRef .tc main_v217) :=
    W18_of_ne m ρ c main_v217 (by decide)
  have cb19 : W19 (F := Ideal) m ρ c (Proc.devRef .tc main_v217) = W18 (F := Ideal) m ρ c (Proc.devRef .tc main_v217) := by
    stretch_skips hostOps9
  -- region 9's output
  have e9 : W20 (F := Ideal) m ρ c (Proc.devRef .tc main_v231)
      = Spec.lnorm X.2 (rowMat (m ((c : Thread nD τ).loc main_arg13))) (rowMat (m ((c : Thread nD τ).loc main_arg14))) := by
    refine ((W20_arr m ρ c 3).trans (value9 (V19 m ρ) c)).trans ?_
    show Spec.lnorm (W19 (F := Ideal) m ρ c (Proc.devRef .tc main_v217)) (W19 (F := Ideal) m ρ c (Proc.devRef .tc main_v229)) (W19 (F := Ideal) m ρ c (Proc.devRef .tc main_v230)) = _
    rw [cb19, cb18, cb17, hb, eg', eb']
  -- the users' result passes the last stretch and region 9 untouched
  have cr19 : W19 (F := Ideal) m ρ c (Proc.devRef .tc main_v228) = W18 (F := Ideal) m ρ c (Proc.devRef .tc main_v228) := by
    stretch_skips hostOps9
  have cr20 : W20 (F := Ideal) m ρ c (Proc.devRef .tc main_v228) = W19 (F := Ideal) m ρ c (Proc.devRef .tc main_v228) :=
    W20_of_ne m ρ c main_v228 (by decide)
  exact ⟨cr20.trans (cr19.trans e8), e9⟩

end Cert.KernelIdeal.Chain

end
-- ==== Proof.KChain.lean ====
/-
  The idealized kernel program's two results as the network's value on the argument arrays: the projections, three
  layers and the normalisations, chained through the program's segment boundaries.
-/
import proofs.«165431_j6949257085118_1_alg».proof.Proof.KChainA
import proofs.«165431_j6949257085118_1_alg».proof.Proof.KChainL0
import proofs.«165431_j6949257085118_1_alg».proof.Proof.KChainL1
import proofs.«165431_j6949257085118_1_alg».proof.Proof.KChainL2
import proofs.«165431_j6949257085118_1_alg».proof.Proof.KChainN

noncomputable section

namespace Cert.KernelIdeal.Chain

open Cert.KernelIdeal Cert.KernelIdeal.Gen Cert.KernelIdeal.Pieces Cert.KernelIdeal.RegionValue Cert.KernelIdeal.Args Idealize.ShloMosaic Idealize.ShloMosaic.TcCoe Idealize.ShloMosaic.ValueIdx Idealize.SL.Sem Cert.Spec

variable (m : (ℓ : Loc nD τ sig) → Buf (Elt Ideal) ℓ) (ρ : Dev nD → PrngReg)

/-- At the end of the program the users' result buffer holds the normalised `h3` users' rows and the books' the books'. -/
theorem kernel_value (c : Dev nD) :
    W20 (F := Ideal) m ρ c (Proc.devRef .tc main_v228) = Spec.lnorm (h3 m c).1 (rowMat (m ((c : Thread nD τ).loc main_arg11))) (rowMat (m ((c : Thread nD τ).loc main_arg12)))
    ∧ W20 (F := Ideal) m ρ c (Proc.devRef .tc main_v231) = Spec.lnorm (h3 m c).2 (rowMat (m ((c : Thread nD τ).loc main_arg13))) (rowMat (m ((c : Thread nD τ).loc main_arg14))) := by
  obtain ⟨u0, b0⟩ := inv4 m ρ c
  obtain ⟨u1, b1⟩ := step0 m ρ c (h0 m c) u0 b0
  obtain ⟨u2, b2⟩ := step1 m ρ c _ u1 b1
  obtain ⟨u3, b3⟩ := step2 m ρ c _ u2 b2
  exact stepN m ρ c _ u3 b3

end Cert.KernelIdeal.Chain

end
-- ==== Proof.RPieces.lean ====
/-
  The whole-array pieces of the network that the program `ReferenceIdeal` computes with plain array operations outside its
  row-blocked regions, each written once as a function of the arrays it reads:

  * `wrapU` / `wrapB`: an edge's endpoint as python reads an index (a negative one counted from the end: +150000 on
    the user side, +75000 on the book side);
  * `aggBook` / `aggUser`: the neighbour average. The rows named by the gather endpoints `gi` are fetched (one row per
    edge), summed into the row named by the scatter endpoint `si`, and divided by max(count, 1) where count is the
    number of edges that land on that row;
  * `weights i`: layer i's two 128 × 128 matrices and its bias, cut out of the stacked parameter arrays.
-/
import proofs.«165431_j6949257085118_1_alg».proof.Proof.Gen.ReferenceIdeal
import proofs.«165431_j6949257085118_1_alg».proof.Proof.Spec

noncomputable section

namespace Cert.ReferenceIdeal.Pieces

open Cert.ReferenceIdeal Cert.ReferenceIdeal.Gen Idealize.ShloMosaic Cert.Spec

/-- The edges' endpoints. -/
abbrev Edges : Type := IVec S1500000 32

/-- A user index as python reads it. -/
def wrapU (i : Edges) : Edges :=
  select (cmpi .slt i (broadcastInDim S1500000 ![] bcast_S_S1500000 (constantI S_ 32 0#32)))
    (addi i (broadcastInDim S1500000 ![] bcast_S_S1500000 (constantI S_ 32 150000#32))) i

/-- A book index as python reads it. -/
def wrapB (i : Edges) : Edges :=
  select (cmpi .slt i (broadcastInDim S1500000 ![] bcast_S_S1500000 (constantI S_ 32 0#32)))
    (addi i (broadcastInDim S1500000 ![] bcast_S_S1500000 (constantI S_ 32 75000#32))) i

/-- The users' rows averaged into the books: gather along `gi`, sum and count along `si`. -/
def aggBook (gi si : Edges) (u : Mat 150000 128) : Mat 75000 128 :=
  Host.divf (F := Ideal)
    (Host.scatterAdd (F := Ideal) scatter_S75000x128_S1500000x1_S1500000x128_1_0_0_1
      (broadcastInDim S75000x128 ![] bcast_S_S75000x128 (constant (F := Ideal) S_ .f32 0x00000000#32))
      (broadcastInDim S1500000x1 ![0] bcast_S1500000_S1500000x1_0 si)
      (Host.gather gather_S150000x128_S1500000x1_S1500000x128_1_0_n_n_0_1_1128 u (broadcastInDim S1500000x1 ![0] bcast_S1500000_S1500000x1_0 gi)))
    (broadcastInDim S75000x128 ![0, 1] bcast_S75000x1_S75000x128_0_1 (broadcastInDim S75000x1 ![0] bcast_S75000_S75000x1_0
      (maximumf (F := Ideal)
        (Host.scatterAdd (F := Ideal) scatter_S75000_S1500000x1_S1500000_n_0_0_1
          (broadcastInDim S75000 ![] bcast_S_S75000 (constant (F := Ideal) S_ .f32 0x00000000#32))
          (broadcastInDim S1500000x1 ![0] bcast_S1500000_S1500000x1_0 si)
          (broadcastInDim S1500000 ![] bcast_S_S1500000 (constant (F := Ideal) S_ .f32 0x3F800000#32)))
        (broadcastInDim S75000 ![] bcast_S_S75000 (constant (F := Ideal) S_ .f32 0x3F800000#32)))))

/-- The books' rows averaged into the users: gather along `gi`, sum and count along `si`. -/
def aggUser (gi si : Edges) (b : Mat 75000 128) : Mat 150000 128 :=
  Host.divf (F := Ideal)
    (Host.scatterAdd (F := Ideal) scatter_S150000x128_S1500000x1_S1500000x128_1_0_0_1
      (broadcastInDim S150000x128 ![] bcast_S_S150000x128 (constant (F := Ideal) S_ .f32 0x00000000#32))
      (broadcastInDim S1500000x1 ![0] bcast_S1500000_S1500000x1_0 si)
      (Host.gather gather_S75000x128_S1500000x1_S1500000x128_1_0_n_n_0_1_1128 b (broadcastInDim S1500000x1 ![0] bcast_S1500000_S1500000x1_0 gi)))
    (broadcastInDim S150000x128 ![0, 1] bcast_S150000x1_S150000x128_0_1 (broadcastInDim S150000x1 ![0] bcast_S150000_S150000x1_0
      (maximumf (F := Ideal)
        (Host.scatterAdd (F := Ideal) scatter_S150000_S1500000x1_S1500000_n_0_0_1
          (broadcastInDim S150000 ![] bcast_S_S150000 (constant (F := Ideal) S_ .f32 0x00000000#32))
          (broadcastInDim S1500000x1 ![0] bcast_S1500000_S1500000x1_0 si)
          (broadcastInDim S1500000 ![] bcast_S_S1500000 (constant (F := Ideal) S_ .f32 0x3F800000#32)))
        (broadcastInDim S150000 ![] bcast_S_S150000 (constant (F := Ideal) S_ .f32 0x3F800000#32)))))

/-- Layer 0's parameters. -/
def weights0 (a8 : FVec Ideal S3x128x128 .f32) (a9 : FVec Ideal S3x128 .f32) (a10 : FVec Ideal S3x128x128 .f32) : Weights where
  wl := shapeCast S128x128 (extractStridedSlice S1x128x128 ![0, 0, 0] a8 slices_S3x128x128_S1x128x128_0_0_0) shapeCasts_S1x128x128_S128x128
  bl := shapeCast S128 (extractStridedSlice S1x128 ![0, 0] a9 slices_S3x128_S1x128_0_0) shapeCasts_S1x128_S128
  wr := shapeCast S128x128 (extractStridedSlice S1x128x128 ![0, 0, 0] a10 slices_S3x128x128_S1x128x128_0_0_0) shapeCasts_S1x128x128_S128x128

/-- Layer 1's parameters. -/
def weights1 (a8 : FVec Ideal S3x128x128 .f32) (a9 : FVec Ideal S3x128 .f32) (a10 : FVec Ideal S3x128x128 .f32) : Weights where
  wl := shapeCast S128x128 (extractStridedSlice S1x128x128 ![1, 0, 0] a8 slices_S3x128x128_S1x128x128_1_0_0) shapeCasts_S1x128x128_S128x128
  bl := shapeCast S128 (extractStridedSlice S1x128 ![1, 0] a9 slices_S3x128_S1x128_1_0) shapeCasts_S1x128_S128
  wr := shapeCast S128x128 (extractStridedSlice S1x128x128 ![1, 0, 0] a10 slices_S3x128x128_S1x128x128_1_0_0) shapeCasts_S1x128x128_S128x128

/-- Layer 2's parameters. -/
def weights2 (a8 : FVec Ideal S3x128x128 .f32) (a9 : FVec Ideal S3x128 .f32) (a10 : FVec Ideal S3x128x128 .f32) : Weights where
  wl := shapeCast S128x128 (extractStridedSlice S1x128x128 ![2, 0, 0] a8 slices_S3x128x128_S1x128x128_2_0_0) shapeCasts_S1x128x128_S128x128
  bl := shapeCast S128 (extractStridedSlice S1x128 ![2, 0] a9 slices_S3x128_S1x128_2_0) shapeCasts_S1x128_S128
  wr := shapeCast S128x128 (extractStridedSlice S1x128x128 ![2, 0, 0] a10 slices_S3x128x128_S1x128x128_2_0_0) shapeCasts_S1x128x128_S128x128

end Cert.ReferenceIdeal.Pieces

end
-- ==== Proof.RState.lean ====
/-
  The rows the idealized reference program holds after each of its stages, as terms of the argument arrays (the
  launch memory `m` read on core `c`): `h0` after the two input projections, `h1`, `h2`, `h3` after each layer
  (users first, books second). The reference gathers along the endpoints as python reads them and sums into the
  segment the raw endpoint names.
-/
import proofs.«165431_j6949257085118_1_alg».proof.Proof.Gen.ReferenceIdeal
import proofs.«165431_j6949257085118_1_alg».proof.Proof.Spec
import proofs.«165431_j6949257085118_1_alg».proof.Proof.RPieces

noncomputable section

namespace Cert.ReferenceIdeal.Chain

open Cert.ReferenceIdeal Cert.ReferenceIdeal.Gen Cert.ReferenceIdeal.Pieces Idealize.ShloMosaic Idealize.ShloMosaic.TcCoe Idealize.SL.Sem Cert.Spec

variable (m : (ℓ : Loc nD τ sig) → Buf (Elt Ideal) ℓ) (c : Dev nD)

/-- Users' rows averaged into the books, along this launch's edges. -/
def aggB : Mat 150000 128 → Mat 75000 128 := aggBook (wrapU (m ((c.tc : Thread nD τ).loc main_arg2))) (m ((c.tc : Thread nD τ).loc main_arg3))
/-- Books' rows averaged into the users, along this launch's edges. -/
def aggU : Mat 75000 128 → Mat 150000 128 := aggUser (wrapB (m ((c.tc : Thread nD τ).loc main_arg3))) (m ((c.tc : Thread nD τ).loc main_arg2))

/-- After the input projections. -/
def h0 : Mat 150000 128 × Mat 75000 128 :=
  (proj (m ((c.tc : Thread nD τ).loc main_arg0)) (m ((c.tc : Thread nD τ).loc main_arg4)) (rowMat (m ((c.tc : Thread nD τ).loc main_arg5))), proj (m ((c.tc : Thread nD τ).loc main_arg1)) (m ((c.tc : Thread nD τ).loc main_arg6)) (rowMat (m ((c.tc : Thread nD τ).loc main_arg7))))
/-- After layer 0. -/
def h1 : Mat 150000 128 × Mat 75000 128 := layer (aggB m c) (aggU m c) (weights0 (m ((c.tc : Thread nD τ).loc main_arg8)) (m ((c.tc : Thread nD τ).loc main_arg9)) (m ((c.tc : Thread nD τ).loc main_arg10))) (h0 m c)
/-- After layer 1. -/
def h2 : Mat 150000 128 × Mat 75000 128 := layer (aggB m c) (aggU m c) (weights1 (m ((c.tc : Thread nD τ).loc main_arg8)) (m ((c.tc : Thread nD τ).loc main_arg9)) (m ((c.tc : Thread nD τ).loc main_arg10))) (h1 m c)
/-- After layer 2. -/
def h3 : Mat 150000 128 × Mat 75000 128 := layer (aggB m c) (aggU m c) (weights2 (m ((c.tc : Thread nD τ).loc main_arg8)) (m ((c.tc : Thread nD τ).loc main_arg9)) (m ((c.tc : Thread nD τ).loc main_arg10))) (h2 m c)

/-- The network's value on this launch's arguments is the normalisation of `h3`. -/
theorem model_eq :
    Spec.model (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (aggB m c) (aggU m c)
      (weights0 (m ((c.tc : Thread nD τ).loc main_arg8)) (m ((c.tc : Thread nD τ).loc main_arg9)) (m ((c.tc : Thread nD τ).loc main_arg10))) (weights1 (m ((c.tc : Thread nD τ).loc main_arg8)) (m ((c.tc : Thread nD τ).loc main_arg9)) (m ((c.tc : Thread nD τ).loc main_arg10))) (weights2 (m ((c.tc : Thread nD τ).loc main_arg8)) (m ((c.tc : Thread nD τ).loc main_arg9)) (m ((c.tc : Thread nD τ).loc main_arg10)))
      (m ((c.tc : Thread nD τ).loc main_arg11)) (m ((c.tc : Thread nD τ).loc main_arg12)) (m ((c.tc : Thread nD τ).loc main_arg13)) (m ((c.tc : Thread nD τ).loc main_arg14))
    = (lnorm (h3 m c).1 (rowMat (m ((c.tc : Thread nD τ).loc main_arg11))) (rowMat (m ((c.tc : Thread nD τ).loc main_arg12))), lnorm (h3 m c).2 (rowMat (m ((c.tc : Thread nD τ).loc main_arg13))) (rowMat (m ((c.tc : Thread nD τ).loc main_arg14)))) := rfl

end Cert.ReferenceIdeal.Chain

end
-- ==== Proof.RMathProj.lean ====
/-
  The reference's whole-array spellings of an affine map and of a layer update are the index-by-index functions
  `Spec.proj` and `Spec.sage`: a matrix product read at an entry is the sum over the shared axis, a broadcast bias is the
  one-row matrix's entry, and (mean·wl + bl) + own·wr is regrouped as (mean·wl + own·wr) + bl, which holds for sums of extended reals.
-/
import Idealize.ShloMosaic.PureOps.Ideal.Laws
import Idealize.ShloMosaic.Lib.ValueIdx
import Idealize.ShloMosaic.Lib.Pipeline.Value
import Idealize.ShloMosaic.Lib.ValueLayout
import proofs.«165431_j6949257085118_1_alg».proof.Proof.Spec
import proofs.«165431_j6949257085118_1_alg».proof.Proof.LibPlainDot

noncomputable section

namespace Cert.RefMath

open Idealize.ShloMosaic Idealize.ShloMosaic.ValueIdx Idealize.ShloMosaic.PlainDot Cert.Spec

variable {n k : ℕ}

/-- x · w + (the one-row bias broadcast to every row) is `Spec.proj`. -/
theorem proj_eq (d : DotDims ⟨2, ![n, k]⟩ ⟨2, ![k, 128]⟩ ⟨2, ![n, 128]⟩) (hd : IsPlain d) (x : Mat n k) (w : Mat k 128) (b1 : Mat 1 128)
    (hb : (⟨2, ![1, 128]⟩ : Shape).BroadcastsInDim ⟨2, ![n, 128]⟩ (![0, 1] : Fin 2 → Fin 2)) :
    addf (F := Ideal) (Host.dotGeneral (F := Ideal) d none x w) (broadcastInDim ⟨2, ![n, 128]⟩ ![0, 1] hb b1) = Spec.proj x w b1 := by
  funext i
  obtain ⟨p, q, rfl⟩ : ∃ (p : Fin n) (q : Fin 128), i = ix2 p q := ⟨i 0, i 1, eq_ix2 i⟩
  rw [addf_apply, Spec.proj_apply]
  show FloatOps.dotGeneral d none .single x w (ix2 p q) + _ = _
  rw [PlainDot.dotGeneral_apply hd,
    broadcastInDim_apply ![0, 1] hb b1 (ix2 p q) (ix2 0 q)
      (fun a => by match a with | ⟨0, _⟩ => rfl | ⟨1, _⟩ => rfl)]

/-- max((mean · wl + bias) + own · wr, 0) is `Spec.sage`. -/
theorem sage_eq (d : DotDims ⟨2, ![n, 128]⟩ ⟨2, ![128, 128]⟩ ⟨2, ![n, 128]⟩) (hd : IsPlain d) (mean own : Mat n 128) (wl wr : Mat 128 128) (bl1 : Mat 1 128)
    (hb : (⟨2, ![1, 128]⟩ : Shape).BroadcastsInDim ⟨2, ![n, 128]⟩ (![0, 1] : Fin 2 → Fin 2))
    (h0 : (⟨0, ![]⟩ : Shape).BroadcastsInDim ⟨2, ![n, 128]⟩ (![] : Fin 0 → Fin 2)) :
    maximumf (F := Ideal)
      (addf (F := Ideal) (addf (F := Ideal) (Host.dotGeneral (F := Ideal) d none mean wl) (broadcastInDim ⟨2, ![n, 128]⟩ ![0, 1] hb bl1))
        (Host.dotGeneral (F := Ideal) d none own wr))
      (broadcastInDim ⟨2, ![n, 128]⟩ ![] h0 (constant (F := Ideal) ⟨0, ![]⟩ .f32 0x00000000#32))
    = Spec.sage mean own wl bl1 wr := by
  funext i
  obtain ⟨p, q, rfl⟩ : ∃ (p : Fin n) (q : Fin 128), i = ix2 p q := ⟨i 0, i 1, eq_ix2 i⟩
  rw [maximumf_apply, addf_apply, addf_apply, Spec.sage_apply]
  show max ((FloatOps.dotGeneral d none .single mean wl (ix2 p q) + _) + FloatOps.dotGeneral d none .single own wr (ix2 p q)) _ = _
  rw [PlainDot.dotGeneral_apply hd, PlainDot.dotGeneral_apply hd,
    broadcastInDim_apply ![0, 1] hb bl1 (ix2 p q) (ix2 0 q)
      (fun a => by match a with | ⟨0, _⟩ => rfl | ⟨1, _⟩ => rfl),
    add_right_comm]
  rfl

end Cert.RefMath

end
-- ==== Proof.RStageA.lean ====
/-
  The reference's first eight operations: the two input projections, each a matrix product plus the bias broadcast
  to every row.
-/
import proofs.«165431_j6949257085118_1_alg».proof.Proof.RRun
import proofs.«165431_j6949257085118_1_alg».proof.Proof.RPieces
import proofs.«165431_j6949257085118_1_alg».proof.Proof.RMathProj
import proofs.«165431_j6949257085118_1_alg».proof.Proof.Rows

noncomputable section

namespace Cert.ReferenceIdeal.Stage

open Cert.ReferenceIdeal Cert.ReferenceIdeal.Gen Cert.ReferenceIdeal.Pieces Idealize.ShloMosaic Idealize.ShloMosaic.TcCoe Idealize.ShloMosaic.ValueIdx Idealize.SL.Sem Cert.Spec

/-- From any buffer contents V, the first eight operations leave the users' and the books' projected rows. -/
theorem stageA (V : Valuation τ sig (Elt Ideal)) :
    StableHlo.after (HandRun.p0 (F := Ideal)) V (Proc.devRef .tc main_v3)
        = Spec.proj (V (Proc.devRef .tc main_arg0)) (V (Proc.devRef .tc main_arg4)) (Spec.rowMat (V (Proc.devRef .tc main_arg5)))
    ∧ StableHlo.after (HandRun.p0 (F := Ideal)) V (Proc.devRef .tc main_v7)
        = Spec.proj (V (Proc.devRef .tc main_arg1)) (V (Proc.devRef .tc main_arg6)) (Spec.rowMat (V (Proc.devRef .tc main_arg7))) := by
  constructor
  · open Idealize.ShloMosaic.StableHlo in after_results
    exact (congrArg (fun b => addf (F := Ideal)
        (Host.dotGeneral (F := Ideal) dot_S150000x64_S64x128_S150000x128_1_0_0_1_n_n none (V (Proc.devRef .tc main_arg0)) (V (Proc.devRef .tc main_arg4)))
        (broadcastInDim S150000x128 ![0, 1] bcast_S1x128_S150000x128_0_1 b))
      (Rows.bcast_row (V (Proc.devRef .tc main_arg5)) bcast_S128_S1x128_1)).trans
      (RefMath.proj_eq (n := 150000) (k := 64) dot_S150000x64_S64x128_S150000x128_1_0_0_1_n_n ⟨rfl, rfl, rfl, rfl, rfl, rfl⟩
        (V (Proc.devRef .tc main_arg0)) (V (Proc.devRef .tc main_arg4)) (Spec.rowMat (V (Proc.devRef .tc main_arg5))) bcast_S1x128_S150000x128_0_1)
  · open Idealize.ShloMosaic.StableHlo in after_results
    exact (congrArg (fun b => addf (F := Ideal)
        (Host.dotGeneral (F := Ideal) dot_S75000x128_S128x128_S75000x128_1_0_0_1_n_n none (V (Proc.devRef .tc main_arg1)) (V (Proc.devRef .tc main_arg6)))
        (broadcastInDim S75000x128 ![0, 1] bcast_S1x128_S75000x128_0_1 b))
      (Rows.bcast_row (V (Proc.devRef .tc main_arg7)) bcast_S128_S1x128_1)).trans
      (RefMath.proj_eq (n := 75000) (k := 128) dot_S75000x128_S128x128_S75000x128_1_0_0_1_n_n ⟨rfl, rfl, rfl, rfl, rfl, rfl⟩
        (V (Proc.devRef .tc main_arg1)) (V (Proc.devRef .tc main_arg6)) (Spec.rowMat (V (Proc.devRef .tc main_arg7))) bcast_S1x128_S75000x128_0_1)

end Cert.ReferenceIdeal.Stage

end
-- ==== Proof.RStageL0.lean ====
/-
  Layer 0 of the reference: eighty operations. The layer's parameters are cut out of the stacked arrays; the users' rows are
  gathered along the edges and averaged into the books, and the books' rows into the users; each side's new rows are
  max(mean · wl + bl + own · wr, 0), both computed from the rows as they were BEFORE the layer.
-/
import proofs.«165431_j6949257085118_1_alg».proof.Proof.RRun
import proofs.«165431_j6949257085118_1_alg».proof.Proof.RPieces
import proofs.«165431_j6949257085118_1_alg».proof.Proof.RMathProj
import proofs.«165431_j6949257085118_1_alg».proof.Proof.Rows

noncomputable section

namespace Cert.ReferenceIdeal.Stage

open Cert.ReferenceIdeal Cert.ReferenceIdeal.Gen Cert.ReferenceIdeal.Pieces Idealize.ShloMosaic Idealize.ShloMosaic.TcCoe Idealize.ShloMosaic.ValueIdx Idealize.SL.Sem Cert.Spec

/-! ### Reading the buffers

The layer's eighty operations are read as seventy-four followed by six. The seventy-four leave, for each side, the new
rows before the maximum with zero: the other side's rows averaged along the edges, times wl, plus the bias, plus the
side's own rows times wr. The six are the two maxima with zero. The fold over a list is rewritten, operation by
operation, into the writing operation's function applied to the folds at its operands, down to the contents the list
starts from. -/

section Read

open Idealize.ShloMosaic.StableHlo

variable (V : Valuation τ sig (Elt Ideal))

/-- Operations run one list after the other. -/
private theorem after_app : ∀ (l₁ l₂ : List (HloOp τ sig (Elt Ideal))) (W : Valuation τ sig (Elt Ideal)),
    after (l₁ ++ l₂) W = after l₂ (after l₁ W)
  | [], _, _ => rfl
  | op :: l₁, l₂, W => by rw [List.cons_append, after_cons, after_cons, after_app l₁ l₂]

/-- The eighty operations, cut after the seventy-fourth. -/
private theorem ops_split : HandRun.p1 (F := Ideal) ++ HandRun.p2
    = List.take 74 (HandRun.p1 (F := Ideal) ++ HandRun.p2) ++ List.drop 74 (HandRun.p1 (F := Ideal) ++ HandRun.p2) :=
  (List.take_append_drop 74 _).symm

/-- The last six operations: the users' maximum with zero. -/
private theorem tail_users : after (List.drop 74 (HandRun.p1 (F := Ideal) ++ HandRun.p2)) V (Proc.devRef .tc main_v70)
    = maximumf (F := Ideal) (V (Proc.devRef .tc main_v69))
        (broadcastInDim S150000x128 ![] bcast_S_S150000x128 (constant (F := Ideal) S_ .f32 0x00000000#32)) := by
  simp only [HandRun.p1, HandRun.p2, List.cons_append, List.nil_append, List.drop_succ_cons, List.drop_zero]
  after_results_simp
  simp only [TRef.ofBuf, TRef.toBuf, cast_eq]

/-- The last six operations: the books' maximum with zero. -/
private theorem tail_books : after (List.drop 74 (HandRun.p1 (F := Ideal) ++ HandRun.p2)) V (Proc.devRef .tc main_v71)
    = maximumf (F := Ideal) (V (Proc.devRef .tc main_v38))
        (broadcastInDim S75000x128 ![] bcast_S_S75000x128 (constant (F := Ideal) S_ .f32 0x00000000#32)) := by
  simp only [HandRun.p1, HandRun.p2, List.cons_append, List.nil_append, List.drop_succ_cons, List.drop_zero]
  after_results_simp
  simp only [TRef.ofBuf, TRef.toBuf, cast_eq]

/-- The first seventy-four operations: the users' new rows before the maximum. -/
private theorem head_users : after (List.take 74 (HandRun.p1 (F := Ideal) ++ HandRun.p2)) V (Proc.devRef .tc main_v69)
    = addf (F := Ideal)
        (addf (F := Ideal)
          (Host.dotGeneral (F := Ideal) (φ₁ := .f32) (φ₂ := .f32) dot_S150000x128_S128x128_S150000x128_1_0_0_1_n_n none
            (aggUser (wrapB (V (Proc.devRef .tc main_arg3))) (V (Proc.devRef .tc main_arg2)) (V (Proc.devRef .tc main_v7)))
            (weights0 (V (Proc.devRef .tc main_arg8)) (V (Proc.devRef .tc main_arg9)) (V (Proc.devRef .tc main_arg10))).wl)
          (broadcastInDim S150000x128 ![0, 1] bcast_S1x128_S150000x128_0_1
            (broadcastInDim S1x128 ![1] bcast_S128_S1x128_1 (weights0 (V (Proc.devRef .tc main_arg8)) (V (Proc.devRef .tc main_arg9)) (V (Proc.devRef .tc main_arg10))).bl)))
        (Host.dotGeneral (F := Ideal) (φ₁ := .f32) (φ₂ := .f32) dot_S150000x128_S128x128_S150000x128_1_0_0_1_n_n none
          (V (Proc.devRef .tc main_v3)) (weights0 (V (Proc.devRef .tc main_arg8)) (V (Proc.devRef .tc main_arg9)) (V (Proc.devRef .tc main_arg10))).wr) := by
  simp only [HandRun.p1, HandRun.p2, List.cons_append, List.nil_append, List.take_succ_cons, List.take_zero]
  after_results_simp
  rfl

/-- The first seventy-four operations: the books' new rows before the maximum. -/
private theorem head_books : after (List.take 74 (HandRun.p1 (F := Ideal) ++ HandRun.p2)) V (Proc.devRef .tc main_v38)
    = addf (F := Ideal)
        (addf (F := Ideal)
          (Host.dotGeneral (F := Ideal) (φ₁ := .f32) (φ₂ := .f32) dot_S75000x128_S128x128_S75000x128_1_0_0_1_n_n none
            (aggBook (wrapU (V (Proc.devRef .tc main_arg2))) (V (Proc.devRef .tc main_arg3)) (V (Proc.devRef .tc main_v3)))
            (weights0 (V (Proc.devRef .tc main_arg8)) (V (Proc.devRef .tc main_arg9)) (V (Proc.devRef .tc main_arg10))).wl)
          (broadcastInDim S75000x128 ![0, 1] bcast_S1x128_S75000x128_0_1
            (broadcastInDim S1x128 ![1] bcast_S128_S1x128_1 (weights0 (V (Proc.devRef .tc main_arg8)) (V (Proc.devRef .tc main_arg9)) (V (Proc.devRef .tc main_arg10))).bl)))
        (Host.dotGeneral (F := Ideal) (φ₁ := .f32) (φ₂ := .f32) dot_S75000x128_S128x128_S75000x128_1_0_0_1_n_n none
          (V (Proc.devRef .tc main_v7)) (weights0 (V (Proc.devRef .tc main_arg8)) (V (Proc.devRef .tc main_arg9)) (V (Proc.devRef .tc main_arg10))).wr) := by
  simp only [HandRun.p1, HandRun.p2, List.cons_append, List.nil_append, List.take_succ_cons, List.take_zero]
  after_results_simp
  rfl

end Read

/-- From any buffer contents V, layer 0's operations leave `Spec.layer` of the rows V holds for the two sides. -/
theorem stageL0 (V : Valuation τ sig (Elt Ideal)) :
    StableHlo.after (HandRun.p1 (F := Ideal) ++ HandRun.p2) V (Proc.devRef .tc main_v70)
        = (Spec.layer (aggBook (wrapU (V (Proc.devRef .tc main_arg2))) (V (Proc.devRef .tc main_arg3))) (aggUser (wrapB (V (Proc.devRef .tc main_arg3))) (V (Proc.devRef .tc main_arg2)))
            (weights0 (V (Proc.devRef .tc main_arg8)) (V (Proc.devRef .tc main_arg9)) (V (Proc.devRef .tc main_arg10))) (V (Proc.devRef .tc main_v3), V (Proc.devRef .tc main_v7))).1
    ∧ StableHlo.after (HandRun.p1 (F := Ideal) ++ HandRun.p2) V (Proc.devRef .tc main_v71)
        = (Spec.layer (aggBook (wrapU (V (Proc.devRef .tc main_arg2))) (V (Proc.devRef .tc main_arg3))) (aggUser (wrapB (V (Proc.devRef .tc main_arg3))) (V (Proc.devRef .tc main_arg2)))
            (weights0 (V (Proc.devRef .tc main_arg8)) (V (Proc.devRef .tc main_arg9)) (V (Proc.devRef .tc main_arg10))) (V (Proc.devRef .tc main_v3), V (Proc.devRef .tc main_v7))).2 := by
  constructor
  · rw [ops_split, after_app, tail_users, head_users, Rows.bcast_row]
    exact RefMath.sage_eq dot_S150000x128_S128x128_S150000x128_1_0_0_1_n_n ⟨rfl, rfl, rfl, rfl, rfl, rfl⟩ _ _ _ _ _ _ _
  · rw [ops_split, after_app, tail_books, head_books, Rows.bcast_row]
    exact RefMath.sage_eq dot_S75000x128_S128x128_S75000x128_1_0_0_1_n_n ⟨rfl, rfl, rfl, rfl, rfl, rfl⟩ _ _ _ _ _ _ _

end Cert.ReferenceIdeal.Stage

end
-- ==== Proof.RStageL1.lean ====
/-
  Layer 1 of the reference: eighty operations. The layer's parameters are cut out of the stacked arrays; the users' rows are
  gathered along the edges and averaged into the books, and the books' rows into the users; each side's new rows are
  max(mean · wl + bl + own · wr, 0), both computed from the rows as they were BEFORE the layer.
-/
import proofs.«165431_j6949257085118_1_alg».proof.Proof.RRun
import proofs.«165431_j6949257085118_1_alg».proof.Proof.RPieces
import proofs.«165431_j6949257085118_1_alg».proof.Proof.RMathProj
import proofs.«165431_j6949257085118_1_alg».proof.Proof.Rows

noncomputable section

namespace Cert.ReferenceIdeal.Stage

open Cert.ReferenceIdeal Cert.ReferenceIdeal.Gen Cert.ReferenceIdeal.Pieces Idealize.ShloMosaic Idealize.ShloMosaic.TcCoe Idealize.ShloMosaic.ValueIdx Idealize.SL.Sem Cert.Spec

/-! ### Reading the buffers

The layer's eighty operations are read as seventy-four followed by six. The seventy-four leave, for each side, the new
rows before the maximum with zero: the other side's rows averaged along the edges, times wl, plus the bias, plus the
side's own rows times wr. The six are the two maxima with zero. The fold over a list is rewritten, operation by
operation, into the writing operation's function applied to the folds at its operands, down to the contents the list
starts from. -/

section Read

open Idealize.ShloMosaic.StableHlo

variable (V : Valuation τ sig (Elt Ideal))

/-- Operations run one list after the other. -/
private theorem after_app : ∀ (l₁ l₂ : List (HloOp τ sig (Elt Ideal))) (W : Valuation τ sig (Elt Ideal)),
    after (l₁ ++ l₂) W = after l₂ (after l₁ W)
  | [], _, _ => rfl
  | op :: l₁, l₂, W => by rw [List.cons_append, after_cons, after_cons, after_app l₁ l₂]

/-- The eighty operations, cut after the seventy-fourth. -/
private theorem ops_split : HandRun.p3 (F := Ideal) ++ HandRun.p4
    = List.take 74 (HandRun.p3 (F := Ideal) ++ HandRun.p4) ++ List.drop 74 (HandRun.p3 (F := Ideal) ++ HandRun.p4) :=
  (List.take_append_drop 74 _).symm

/-- The last six operations: the users' maximum with zero. -/
private theorem tail_users : after (List.drop 74 (HandRun.p3 (F := Ideal) ++ HandRun.p4)) V (Proc.devRef .tc main_v134)
    = maximumf (F := Ideal) (V (Proc.devRef .tc main_v133))
        (broadcastInDim S150000x128 ![] bcast_S_S150000x128 (constant (F := Ideal) S_ .f32 0x00000000#32)) := by
  simp only [HandRun.p3, HandRun.p4, List.cons_append, List.nil_append, List.drop_succ_cons, List.drop_zero]
  after_results_simp
  simp only [TRef.ofBuf, TRef.toBuf, cast_eq]

/-- The last six operations: the books' maximum with zero. -/
private theorem tail_books : after (List.drop 74 (HandRun.p3 (F := Ideal) ++ HandRun.p4)) V (Proc.devRef .tc main_v135)
    = maximumf (F := Ideal) (V (Proc.devRef .tc main_v102))
        (broadcastInDim S75000x128 ![] bcast_S_S75000x128 (constant (F := Ideal) S_ .f32 0x00000000#32)) := by
  simp only [HandRun.p3, HandRun.p4, List.cons_append, List.nil_append, List.drop_succ_cons, List.drop_zero]
  after_results_simp
  simp only [TRef.ofBuf, TRef.toBuf, cast_eq]

/-- The first seventy-four operations: the users' new rows before the maximum. -/
private theorem head_users : after (List.take 74 (HandRun.p3 (F := Ideal) ++ HandRun.p4)) V (Proc.devRef .tc main_v133)
    = addf (F := Ideal)
        (addf (F := Ideal)
          (Host.dotGeneral (F := Ideal) (φ₁ := .f32) (φ₂ := .f32) dot_S150000x128_S128x128_S150000x128_1_0_0_1_n_n none
            (aggUser (wrapB (V (Proc.devRef .tc main_arg3))) (V (Proc.devRef .tc main_arg2)) (V (Proc.devRef .tc main_v71)))
            (weights1 (V (Proc.devRef .tc main_arg8)) (V (Proc.devRef .tc main_arg9)) (V (Proc.devRef .tc main_arg10))).wl)
          (broadcastInDim S150000x128 ![0, 1] bcast_S1x128_S150000x128_0_1
            (broadcastInDim S1x128 ![1] bcast_S128_S1x128_1 (weights1 (V (Proc.devRef .tc main_arg8)) (V (Proc.devRef .tc main_arg9)) (V (Proc.devRef .tc main_arg10))).bl)))
        (Host.dotGeneral (F := Ideal) (φ₁ := .f32) (φ₂ := .f32) dot_S150000x128_S128x128_S150000x128_1_0_0_1_n_n none
          (V (Proc.devRef .tc main_v70)) (weights1 (V (Proc.devRef .tc main_arg8)) (V (Proc.devRef .tc main_arg9)) (V (Proc.devRef .tc main_arg10))).wr) := by
  simp only [HandRun.p3, HandRun.p4, List.cons_append, List.nil_append, List.take_succ_cons, List.take_zero]
  after_results_simp
  rfl

/-- The first seventy-four operations: the books' new rows before the maximum. -/
private theorem head_books : after (List.take 74 (HandRun.p3 (F := Ideal) ++ HandRun.p4)) V (Proc.devRef .tc main_v102)
    = addf (F := Ideal)
        (addf (F := Ideal)
          (Host.dotGeneral (F := Ideal) (φ₁ := .f32) (φ₂ := .f32) dot_S75000x128_S128x128_S75000x128_1_0_0_1_n_n none
            (aggBook (wrapU (V (Proc.devRef .tc main_arg2))) (V (Proc.devRef .tc main_arg3)) (V (Proc.devRef .tc main_v70)))
            (weights1 (V (Proc.devRef .tc main_arg8)) (V (Proc.devRef .tc main_arg9)) (V (Proc.devRef .tc main_arg10))).wl)
          (broadcastInDim S75000x128 ![0, 1] bcast_S1x128_S75000x128_0_1
            (broadcastInDim S1x128 ![1] bcast_S128_S1x128_1 (weights1 (V (Proc.devRef .tc main_arg8)) (V (Proc.devRef .tc main_arg9)) (V (Proc.devRef .tc main_arg10))).bl)))
        (Host.dotGeneral (F := Ideal) (φ₁ := .f32) (φ₂ := .f32) dot_S75000x128_S128x128_S75000x128_1_0_0_1_n_n none
          (V (Proc.devRef .tc main_v71)) (weights1 (V (Proc.devRef .tc main_arg8)) (V (Proc.devRef .tc main_arg9)) (V (Proc.devRef .tc main_arg10))).wr) := by
  simp only [HandRun.p3, HandRun.p4, List.cons_append, List.nil_append, List.take_succ_cons, List.take_zero]
  after_results_simp
  rfl

end Read

/-- From any buffer contents V, layer 1's operations leave `Spec.layer` of the rows V holds for the two sides. -/
theorem stageL1 (V : Valuation τ sig (Elt Ideal)) :
    StableHlo.after (HandRun.p3 (F := Ideal) ++ HandRun.p4) V (Proc.devRef .tc main_v134)
        = (Spec.layer (aggBook (wrapU (V (Proc.devRef .tc main_arg2))) (V (Proc.devRef .tc main_arg3))) (aggUser (wrapB (V (Proc.devRef .tc main_arg3))) (V (Proc.devRef .tc main_arg2)))
            (weights1 (V (Proc.devRef .tc main_arg8)) (V (Proc.devRef .tc main_arg9)) (V (Proc.devRef .tc main_arg10))) (V (Proc.devRef .tc main_v70), V (Proc.devRef .tc main_v71))).1
    ∧ StableHlo.after (HandRun.p3 (F := Ideal) ++ HandRun.p4) V (Proc.devRef .tc main_v135)
        = (Spec.layer (aggBook (wrapU (V (Proc.devRef .tc main_arg2))) (V (Proc.devRef .tc main_arg3))) (aggUser (wrapB (V (Proc.devRef .tc main_arg3))) (V (Proc.devRef .tc main_arg2)))
            (weights1 (V (Proc.devRef .tc main_arg8)) (V (Proc.devRef .tc main_arg9)) (V (Proc.devRef .tc main_arg10))) (V (Proc.devRef .tc main_v70), V (Proc.devRef .tc main_v71))).2 := by
  constructor
  · rw [ops_split, after_app, tail_users, head_users, Rows.bcast_row]
    exact RefMath.sage_eq dot_S150000x128_S128x128_S150000x128_1_0_0_1_n_n ⟨rfl, rfl, rfl, rfl, rfl, rfl⟩ _ _ _ _ _ _ _
  · rw [ops_split, after_app, tail_books, head_books, Rows.bcast_row]
    exact RefMath.sage_eq dot_S75000x128_S128x128_S75000x128_1_0_0_1_n_n ⟨rfl, rfl, rfl, rfl, rfl, rfl⟩ _ _ _ _ _ _ _

end Cert.ReferenceIdeal.Stage

end
-- ==== Proof.RStageL2.lean ====
/-
  Layer 2 of the reference: eighty operations. The layer's parameters are cut out of the stacked arrays; the users' rows are
  gathered along the edges and averaged into the books, and the books' rows into the users; each side's new rows are
  max(mean · wl + bl + own · wr, 0), both computed from the rows as they were BEFORE the layer.
-/
import proofs.«165431_j6949257085118_1_alg».proof.Proof.RRun
import proofs.«165431_j6949257085118_1_alg».proof.Proof.RPieces
import proofs.«165431_j6949257085118_1_alg».proof.Proof.RMathProj
import proofs.«165431_j6949257085118_1_alg».proof.Proof.Rows

noncomputable section

namespace Cert.ReferenceIdeal.Stage

open Cert.ReferenceIdeal Cert.ReferenceIdeal.Gen Cert.ReferenceIdeal.Pieces Idealize.ShloMosaic Idealize.ShloMosaic.TcCoe Idealize.ShloMosaic.ValueIdx Idealize.SL.Sem Cert.Spec

/-! ### Reading the buffers

The layer's eighty operations are read as seventy-four followed by six. The seventy-four leave, for each side, the new
rows before the maximum with zero: the other side's rows averaged along the edges, times wl, plus the bias, plus the
side's own rows times wr. The six are the two maxima with zero. The fold over a list is rewritten, operation by
operation, into the writing operation's function applied to the folds at its operands, down to the contents the list
starts from. -/

section Read

open Idealize.ShloMosaic.StableHlo

variable (V : Valuation τ sig (Elt Ideal))

/-- Operations run one list after the other. -/
private theorem after_app : ∀ (l₁ l₂ : List (HloOp τ sig (Elt Ideal))) (W : Valuation τ sig (Elt Ideal)),
    after (l₁ ++ l₂) W = after l₂ (after l₁ W)
  | [], _, _ => rfl
  | op :: l₁, l₂, W => by rw [List.cons_append, after_cons, after_cons, after_app l₁ l₂]

/-- The eighty operations, cut after the seventy-fourth. -/
private theorem ops_split : HandRun.p5 (F := Ideal) ++ HandRun.p6
    = List.take 74 (HandRun.p5 (F := Ideal) ++ HandRun.p6) ++ List.drop 74 (HandRun.p5 (F := Ideal) ++ HandRun.p6) :=
  (List.take_append_drop 74 _).symm

/-- The last six operations: the users' maximum with zero. -/
private theorem tail_users : after (List.drop 74 (HandRun.p5 (F := Ideal) ++ HandRun.p6)) V (Proc.devRef .tc main_v198)
    = maximumf (F := Ideal) (V (Proc.devRef .tc main_v197))
        (broadcastInDim S150000x128 ![] bcast_S_S150000x128 (constant (F := Ideal) S_ .f32 0x00000000#32)) := by
  simp only [HandRun.p5, HandRun.p6, List.cons_append, List.nil_append, List.drop_succ_cons, List.drop_zero]
  after_results_simp
  simp only [TRef.ofBuf, TRef.toBuf, cast_eq]

/-- The last six operations: the books' maximum with zero. -/
private theorem tail_books : after (List.drop 74 (HandRun.p5 (F := Ideal) ++ HandRun.p6)) V (Proc.devRef .tc main_v199)
    = maximumf (F := Ideal) (V (Proc.devRef .tc main_v166))
        (broadcastInDim S75000x128 ![] bcast_S_S75000x128 (constant (F := Ideal) S_ .f32 0x00000000#32)) := by
  simp only [HandRun.p5, HandRun.p6, List.cons_append, List.nil_append, List.drop_succ_cons, List.drop_zero]
  after_results_simp
  simp only [TRef.ofBuf, TRef.toBuf, cast_eq]

/-- The first seventy-four operations: the users' new rows before the maximum. -/
private theorem head_users : after (List.take 74 (HandRun.p5 (F := Ideal) ++ HandRun.p6)) V (Proc.devRef .tc main_v197)
    = addf (F := Ideal)
        (addf (F := Ideal)
          (Host.dotGeneral (F := Ideal) (φ₁ := .f32) (φ₂ := .f32) dot_S150000x128_S128x128_S150000x128_1_0_0_1_n_n none
            (aggUser (wrapB (V (Proc.devRef .tc main_arg3))) (V (Proc.devRef .tc main_arg2)) (V (Proc.devRef .tc main_v135)))
            (weights2 (V (Proc.devRef .tc main_arg8)) (V (Proc.devRef .tc main_arg9)) (V (Proc.devRef .tc main_arg10))).wl)
          (broadcastInDim S150000x128 ![0, 1] bcast_S1x128_S150000x128_0_1
            (broadcastInDim S1x128 ![1] bcast_S128_S1x128_1 (weights2 (V (Proc.devRef .tc main_arg8)) (V (Proc.devRef .tc main_arg9)) (V (Proc.devRef .tc main_arg10))).bl)))
        (Host.dotGeneral (F := Ideal) (φ₁ := .f32) (φ₂ := .f32) dot_S150000x128_S128x128_S150000x128_1_0_0_1_n_n none
          (V (Proc.devRef .tc main_v134)) (weights2 (V (Proc.devRef .tc main_arg8)) (V (Proc.devRef .tc main_arg9)) (V (Proc.devRef .tc main_arg10))).wr) := by
  simp only [HandRun.p5, HandRun.p6, List.cons_append, List.nil_append, List.take_succ_cons, List.take_zero]
  after_results_simp
  rfl

/-- The first seventy-four operations: the books' new rows before the maximum. -/
private theorem head_books : after (List.take 74 (HandRun.p5 (F := Ideal) ++ HandRun.p6)) V (Proc.devRef .tc main_v166)
    = addf (F := Ideal)
        (addf (F := Ideal)
          (Host.dotGeneral (F := Ideal) (φ₁ := .f32) (φ₂ := .f32) dot_S75000x128_S128x128_S75000x128_1_0_0_1_n_n none
            (aggBook (wrapU (V (Proc.devRef .tc main_arg2))) (V (Proc.devRef .tc main_arg3)) (V (Proc.devRef .tc main_v134)))
            (weights2 (V (Proc.devRef .tc main_arg8)) (V (Proc.devRef .tc main_arg9)) (V (Proc.devRef .tc main_arg10))).wl)
          (broadcastInDim S75000x128 ![0, 1] bcast_S1x128_S75000x128_0_1
            (broadcastInDim S1x128 ![1] bcast_S128_S1x128_1 (weights2 (V (Proc.devRef .tc main_arg8)) (V (Proc.devRef .tc main_arg9)) (V (Proc.devRef .tc main_arg10))).bl)))
        (Host.dotGeneral (F := Ideal) (φ₁ := .f32) (φ₂ := .f32) dot_S75000x128_S128x128_S75000x128_1_0_0_1_n_n none
          (V (Proc.devRef .tc main_v135)) (weights2 (V (Proc.devRef .tc main_arg8)) (V (Proc.devRef .tc main_arg9)) (V (Proc.devRef .tc main_arg10))).wr) := by
  simp only [HandRun.p5, HandRun.p6, List.cons_append, List.nil_append, List.take_succ_cons, List.take_zero]
  after_results_simp
  rfl

end Read

/-- From any buffer contents V, layer 2's operations leave `Spec.layer` of the rows V holds for the two sides. -/
theorem stageL2 (V : Valuation τ sig (Elt Ideal)) :
    StableHlo.after (HandRun.p5 (F := Ideal) ++ HandRun.p6) V (Proc.devRef .tc main_v198)
        = (Spec.layer (aggBook (wrapU (V (Proc.devRef .tc main_arg2))) (V (Proc.devRef .tc main_arg3))) (aggUser (wrapB (V (Proc.devRef .tc main_arg3))) (V (Proc.devRef .tc main_arg2)))
            (weights2 (V (Proc.devRef .tc main_arg8)) (V (Proc.devRef .tc main_arg9)) (V (Proc.devRef .tc main_arg10))) (V (Proc.devRef .tc main_v134), V (Proc.devRef .tc main_v135))).1
    ∧ StableHlo.after (HandRun.p5 (F := Ideal) ++ HandRun.p6) V (Proc.devRef .tc main_v199)
        = (Spec.layer (aggBook (wrapU (V (Proc.devRef .tc main_arg2))) (V (Proc.devRef .tc main_arg3))) (aggUser (wrapB (V (Proc.devRef .tc main_arg3))) (V (Proc.devRef .tc main_arg2)))
            (weights2 (V (Proc.devRef .tc main_arg8)) (V (Proc.devRef .tc main_arg9)) (V (Proc.devRef .tc main_arg10))) (V (Proc.devRef .tc main_v134), V (Proc.devRef .tc main_v135))).2 := by
  constructor
  · rw [ops_split, after_app, tail_users, head_users, Rows.bcast_row]
    exact RefMath.sage_eq dot_S150000x128_S128x128_S150000x128_1_0_0_1_n_n ⟨rfl, rfl, rfl, rfl, rfl, rfl⟩ _ _ _ _ _ _ _
  · rw [ops_split, after_app, tail_books, head_books, Rows.bcast_row]
    exact RefMath.sage_eq dot_S75000x128_S128x128_S75000x128_1_0_0_1_n_n ⟨rfl, rfl, rfl, rfl, rfl, rfl⟩ _ _ _ _ _ _ _

end Cert.ReferenceIdeal.Stage

end
-- ==== Proof.RStageN.lean ====
/-
  The reference's last fifty-eight operations: the users' rows normalised (29 operations), then the books' (29).
  Each is the same whole-array computation: the sum along every row divided by 128 is the row mean, the sum of the
  squared differences divided by 128 the row variance, and the result is (x − mean) · (variance + eps)^(−1/2) · gamma + beta,
  gamma and beta entering as one-row matrices broadcast to every row.
-/
import proofs.«165431_j6949257085118_1_alg».proof.Proof.RRun
import proofs.«165431_j6949257085118_1_alg».proof.Proof.RPieces
import proofs.«165431_j6949257085118_1_alg».proof.Proof.Rows
import Idealize.ShloMosaic.PureOps.Ideal.Laws
import Idealize.ShloMosaic.Lib.ValueIdx
import Idealize.ShloMosaic.Lib.Pipeline.Value
import Idealize.ShloMosaic.Lib.StableHlo.Run

noncomputable section

namespace Cert.ReferenceIdeal.Stage

open Cert.ReferenceIdeal Cert.ReferenceIdeal.Gen Cert.ReferenceIdeal.Pieces Idealize.ShloMosaic Idealize.ShloMosaic.TcCoe Idealize.ShloMosaic.ValueIdx Idealize.SL.Sem Cert.Spec

section Math
variable {n : ℕ}

/-- A vector [n] laid out as a column [n,1] reads, at (p, u), the vector at p. -/
private theorem colOf_apply {α : Type} (h : (⟨1, ![n]⟩ : Shape).BroadcastsInDim ⟨2, ![n, 1]⟩ (![0] : Fin 1 → Fin 2))
    (v : (⟨1, ![n]⟩ : Shape).Idx → α) (p : Fin n) (u : Fin 1) :
    broadcastInDim ⟨2, ![n, 1]⟩ ![0] h v (ix2 p u) = v (ix1 p) :=
  broadcastInDim_apply ![0] h v (ix2 p u) (ix1 p) fun a => by
    match a with
    | ⟨0, _⟩ =>
      show p.val = if n = 1 then 0 else p.val
      split
      · have := p.isLt; omega
      · rfl

/-- A column [n,1] broadcast along the rows reads, at (p, q), the column at p. -/
private theorem colBcast_apply {α : Type} (h : (⟨2, ![n, 1]⟩ : Shape).BroadcastsInDim ⟨2, ![n, 128]⟩ (![0, 1] : Fin 2 → Fin 2))
    (v : (⟨2, ![n, 1]⟩ : Shape).Idx → α) (p : Fin n) (q : Fin 128) :
    broadcastInDim ⟨2, ![n, 128]⟩ ![0, 1] h v (ix2 p q) = v (ix2 p (0 : Fin 1)) :=
  broadcastInDim_apply ![0, 1] h v (ix2 p q) (ix2 p (0 : Fin 1)) fun a => by
    match a with
    | ⟨0, _⟩ =>
      show p.val = if n = 1 then 0 else p.val
      split
      · have := p.isLt; omega
      · rfl
    | ⟨1, _⟩ => rfl

/-- A one-row matrix broadcast to every row reads, at (p, q), the row at q. -/
private theorem rowBcast_apply {α : Type} (h : (⟨2, ![1, 128]⟩ : Shape).BroadcastsInDim ⟨2, ![n, 128]⟩ (![0, 1] : Fin 2 → Fin 2))
    (v : (⟨2, ![1, 128]⟩ : Shape).Idx → α) (p : Fin n) (q : Fin 128) :
    broadcastInDim ⟨2, ![n, 128]⟩ ![0, 1] h v (ix2 p q) = v (ix2 (0 : Fin 1) q) :=
  broadcastInDim_apply ![0, 1] h v (ix2 p q) (ix2 (0 : Fin 1) q) fun a => by
    match a with
    | ⟨0, _⟩ => rfl
    | ⟨1, _⟩ => rfl

/-- A scalar constant broadcast to any shape reads the extended real its word encodes. -/
private theorem scal_apply {t : Shape} (h : (⟨0, ![]⟩ : Shape).BroadcastsInDim t (![] : Fin 0 → Fin t.rank)) (b : BitVec 32) (j : t.Idx) :
    broadcastInDim t ![] h (constant (F := Ideal) ⟨0, ![]⟩ .f32 b) j = Ideal.ofBits .f32 b := rfl

/-- The host's quotient at an index is the extended reals' division of the elements. -/
private theorem hostDivf_apply {s : Shape} (a b : FVec Ideal s .f32) (i : s.Idx) : Host.divf a b i = Ideal.div (a i) (b i) := rfl

/-- The host's reciprocal square root at an index is the extended reals' of the element. -/
private theorem hostRsqrt_apply {s : Shape} (a : FVec Ideal s .f32) (i : s.Idx) : Host.rsqrt a i = Ideal.rsqrt (a i) := rfl

/-- The host's sum along the rows from the initial value zero, at row p. -/
private theorem rowSum_apply (hr' : (⟨2, ![n, 128]⟩ : Shape).ReducesTo [1] ⟨1, ![n]⟩) (hr : (⟨2, ![n, 128]⟩ : Shape).Reduces [1] ⟨1, ![n]⟩)
    (h0 : 0 < (⟨0, ![]⟩ : Shape).numel) (x : Mat n 128) (p : Fin n) :
    Host.reduceAdd (F := Ideal) x (constant (F := Ideal) ⟨0, ![]⟩ .f32 0x00000000#32) hr' h0 (ix1 p) = ∑ k : Fin 128, x (ix2 p k) := by
  show Ideal.hostReduceAdd hr' x (Ideal.ofBits .f32 0x00000000#32) (ix1 p) = _
  rw [Ideal.hostReduceAdd_single hr' hr, Ideal.ofBits_zero_f32, zero_add]
  refine Finset.sum_congr rfl fun k _ => congrArg x ?_
  funext a
  match a with
  | ⟨0, _⟩ => rfl
  | ⟨1, _⟩ => rfl

/-- The reference's whole-array spelling of a row normalisation — sum along the rows, divide by 128, subtract, square,
    sum, divide, add eps, reciprocal square root, scale and shift by one-row matrices — is `Spec.lnorm`. -/
theorem lnorm_eq (hr' : (⟨2, ![n, 128]⟩ : Shape).ReducesTo [1] ⟨1, ![n]⟩) (hr : (⟨2, ![n, 128]⟩ : Shape).Reduces [1] ⟨1, ![n]⟩)
    (h0 : 0 < (⟨0, ![]⟩ : Shape).numel)
    (hcol : (⟨1, ![n]⟩ : Shape).BroadcastsInDim ⟨2, ![n, 1]⟩ (![0] : Fin 1 → Fin 2))
    (hs : (⟨0, ![]⟩ : Shape).BroadcastsInDim ⟨2, ![n, 1]⟩ (![] : Fin 0 → Fin 2))
    (hfull : (⟨2, ![n, 1]⟩ : Shape).BroadcastsInDim ⟨2, ![n, 128]⟩ (![0, 1] : Fin 2 → Fin 2))
    (hrow : (⟨2, ![1, 128]⟩ : Shape).BroadcastsInDim ⟨2, ![n, 128]⟩ (![0, 1] : Fin 2 → Fin 2))
    (x : Mat n 128) (g be : Mat 1 128) :
    addf (F := Ideal)
      (mulf (F := Ideal)
        (mulf (F := Ideal)
          (subf (F := Ideal) x (broadcastInDim ⟨2, ![n, 128]⟩ ![0, 1] hfull
            (Host.divf (F := Ideal) (broadcastInDim ⟨2, ![n, 1]⟩ ![0] hcol (Host.reduceAdd (F := Ideal) x (constant (F := Ideal) ⟨0, ![]⟩ .f32 0x00000000#32) hr' h0))
              (broadcastInDim ⟨2, ![n, 1]⟩ ![] hs (constant (F := Ideal) ⟨0, ![]⟩ .f32 0x43000000#32)))))
          (broadcastInDim ⟨2, ![n, 128]⟩ ![0, 1] hfull
            (Host.rsqrt (F := Ideal)
              (addf (F := Ideal)
                (Host.divf (F := Ideal)
                  (broadcastInDim ⟨2, ![n, 1]⟩ ![0] hcol
                    (Host.reduceAdd (F := Ideal)
                      (mulf (F := Ideal)
                        (subf (F := Ideal) x (broadcastInDim ⟨2, ![n, 128]⟩ ![0, 1] hfull
                          (Host.divf (F := Ideal) (broadcastInDim ⟨2, ![n, 1]⟩ ![0] hcol (Host.reduceAdd (F := Ideal) x (constant (F := Ideal) ⟨0, ![]⟩ .f32 0x00000000#32) hr' h0))
                            (broadcastInDim ⟨2, ![n, 1]⟩ ![] hs (constant (F := Ideal) ⟨0, ![]⟩ .f32 0x43000000#32)))))
                        (subf (F := Ideal) x (broadcastInDim ⟨2, ![n, 128]⟩ ![0, 1] hfull
                          (Host.divf (F := Ideal) (broadcastInDim ⟨2, ![n, 1]⟩ ![0] hcol (Host.reduceAdd (F := Ideal) x (constant (F := Ideal) ⟨0, ![]⟩ .f32 0x00000000#32) hr' h0))
                            (broadcastInDim ⟨2, ![n, 1]⟩ ![] hs (constant (F := Ideal) ⟨0, ![]⟩ .f32 0x43000000#32))))))
                      (constant (F := Ideal) ⟨0, ![]⟩ .f32 0x00000000#32) hr' h0))
                  (broadcastInDim ⟨2, ![n, 1]⟩ ![] hs (constant (F := Ideal) ⟨0, ![]⟩ .f32 0x43000000#32)))
                (broadcastInDim ⟨2, ![n, 1]⟩ ![] hs (constant (F := Ideal) ⟨0, ![]⟩ .f32 0x3727C5AC#32))))))
        (broadcastInDim ⟨2, ![n, 128]⟩ ![0, 1] hrow g))
      (broadcastInDim ⟨2, ![n, 128]⟩ ![0, 1] hrow be)
    = Spec.lnorm x g be := by
  have hmean : ∀ (p : Fin n) (u : Fin 1),
      Host.divf (F := Ideal) (broadcastInDim ⟨2, ![n, 1]⟩ ![0] hcol (Host.reduceAdd (F := Ideal) x (constant (F := Ideal) ⟨0, ![]⟩ .f32 0x00000000#32) hr' h0))
          (broadcastInDim ⟨2, ![n, 1]⟩ ![] hs (constant (F := Ideal) ⟨0, ![]⟩ .f32 0x43000000#32)) (ix2 p u)
        = Spec.rowMean x p := by
    intro p u
    rw [hostDivf_apply, colOf_apply, rowSum_apply hr' hr, scal_apply]
    rfl
  funext i
  obtain ⟨p, q, rfl⟩ : ∃ (p : Fin n) (q : Fin 128), i = ix2 p q := ⟨i 0, i 1, eq_ix2 i⟩
  rw [addf_apply, mulf_apply, mulf_apply, subf_apply, rowBcast_apply, rowBcast_apply, colBcast_apply, colBcast_apply, hmean,
    Spec.lnorm_apply]
  rw [hostRsqrt_apply, addf_apply, scal_apply, hostDivf_apply, colOf_apply, rowSum_apply hr' hr, scal_apply]
  have hvar : ∀ k : Fin 128, mulf (F := Ideal)
        (subf (F := Ideal) x (broadcastInDim ⟨2, ![n, 128]⟩ ![0, 1] hfull
          (Host.divf (F := Ideal) (broadcastInDim ⟨2, ![n, 1]⟩ ![0] hcol (Host.reduceAdd (F := Ideal) x (constant (F := Ideal) ⟨0, ![]⟩ .f32 0x00000000#32) hr' h0))
            (broadcastInDim ⟨2, ![n, 1]⟩ ![] hs (constant (F := Ideal) ⟨0, ![]⟩ .f32 0x43000000#32)))))
        (subf (F := Ideal) x (broadcastInDim ⟨2, ![n, 128]⟩ ![0, 1] hfull
          (Host.divf (F := Ideal) (broadcastInDim ⟨2, ![n, 1]⟩ ![0] hcol (Host.reduceAdd (F := Ideal) x (constant (F := Ideal) ⟨0, ![]⟩ .f32 0x00000000#32) hr' h0))
            (broadcastInDim ⟨2, ![n, 1]⟩ ![] hs (constant (F := Ideal) ⟨0, ![]⟩ .f32 0x43000000#32))))) (ix2 p k)
      = (x (ix2 p k) - Spec.rowMean x p) * (x (ix2 p k) - Spec.rowMean x p) := by
    intro k
    rw [mulf_apply, subf_apply, colBcast_apply, hmean]
  simp only [hvar]
  rfl

end Math

/-- From any buffer contents V, the users' normalisation leaves `Spec.lnorm` of the users' rows. -/
theorem stageNu (V : Valuation τ sig (Elt Ideal)) :
    StableHlo.after (HandRun.p7 (F := Ideal) ++ HandRun.p8) V (Proc.devRef .tc main_v223)
      = Spec.lnorm (V (Proc.devRef .tc main_v198)) (Spec.rowMat (V (Proc.devRef .tc main_arg11))) (Spec.rowMat (V (Proc.devRef .tc main_arg12))) := by
  rw [StableHlo.after_append]
  after_results_simp
  rw [Rows.bcast_row, Rows.bcast_row]
  exact lnorm_eq _ (by decide) _ _ _ _ _ _ _ _

/-- From any buffer contents V, the books' normalisation leaves `Spec.lnorm` of the books' rows. -/
theorem stageNb (V : Valuation τ sig (Elt Ideal)) :
    StableHlo.after (HandRun.p9 (F := Ideal)) V (Proc.devRef .tc main_v247)
      = Spec.lnorm (V (Proc.devRef .tc main_v199)) (Spec.rowMat (V (Proc.devRef .tc main_arg13))) (Spec.rowMat (V (Proc.devRef .tc main_arg14))) := by
  after_results_simp
  rw [Rows.bcast_row, Rows.bcast_row]
  exact lnorm_eq _ (by decide) _ _ _ _ _ _ _ _

end Cert.ReferenceIdeal.Stage

end
-- ==== Proof.RArgs.lean ====
/- No operation of the reference writes an argument array: every operation writes exactly one buffer, its result, and
   no result buffer is an argument's. So the fold of the operations over any contents leaves every argument array as it was. -/
import proofs.«165431_j6949257085118_1_alg».proof.Proof.RRun
import Idealize.ShloMosaic.Lib.StableHlo.Run

noncomputable section

namespace Cert.ReferenceIdeal.Args

open Cert.ReferenceIdeal Cert.ReferenceIdeal.Gen Idealize.ShloMosaic Idealize.ShloMosaic.TcCoe Idealize.SL.Sem

variable {F : FTy → Type} [FloatOps F]

/-- The fold over two lists in a row is the fold over the second of the fold over the first. -/
private theorem after_app {Val : EltTy → Type} : ∀ (l₁ l₂ : List (HloOp τ sig Val)) (V : Valuation τ sig Val),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-! ## Piece 0 writes no argument array -/

theorem keep_p0_arg0 (V : Valuation τ sig (Elt F)) :
    StableHlo.after (HandRun.p0 (F := F)) V (Proc.devRef .tc main_arg0) = V (Proc.devRef .tc main_arg0) :=
  StableHlo.after_of_forall_not_mem (b := Proc.devRef .tc main_arg0) _ _ (List.forall_iff_forall_mem.mp (by
    simp only [HandRun.p0, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p0_arg1 (V : Valuation τ sig (Elt F)) :
    StableHlo.after (HandRun.p0 (F := F)) V (Proc.devRef .tc main_arg1) = V (Proc.devRef .tc main_arg1) :=
  StableHlo.after_of_forall_not_mem (b := Proc.devRef .tc main_arg1) _ _ (List.forall_iff_forall_mem.mp (by
    simp only [HandRun.p0, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p0_arg2 (V : Valuation τ sig (Elt F)) :
    StableHlo.after (HandRun.p0 (F := F)) V (Proc.devRef .tc main_arg2) = V (Proc.devRef .tc main_arg2) :=
  StableHlo.after_of_forall_not_mem (b := Proc.devRef .tc main_arg2) _ _ (List.forall_iff_forall_mem.mp (by
    simp only [HandRun.p0, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p0_arg3 (V : Valuation τ sig (Elt F)) :
    StableHlo.after (HandRun.p0 (F := F)) V (Proc.devRef .tc main_arg3) = V (Proc.devRef .tc main_arg3) :=
  StableHlo.after_of_forall_not_mem (b := Proc.devRef .tc main_arg3) _ _ (List.forall_iff_forall_mem.mp (by
    simp only [HandRun.p0, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p0_arg4 (V : Valuation τ sig (Elt F)) :
    StableHlo.after (HandRun.p0 (F := F)) V (Proc.devRef .tc main_arg4) = V (Proc.devRef .tc main_arg4) :=
  StableHlo.after_of_forall_not_mem (b := Proc.devRef .tc main_arg4) _ _ (List.forall_iff_forall_mem.mp (by
    simp only [HandRun.p0, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p0_arg5 (V : Valuation τ sig (Elt F)) :
    StableHlo.after (HandRun.p0 (F := F)) V (Proc.devRef .tc main_arg5) = V (Proc.devRef .tc main_arg5) :=
  StableHlo.after_of_forall_not_mem (b := Proc.devRef .tc main_arg5) _ _ (List.forall_iff_forall_mem.mp (by
    simp only [HandRun.p0, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p0_arg6 (V : Valuation τ sig (Elt F)) :
    StableHlo.after (HandRun.p0 (F := F)) V (Proc.devRef .tc main_arg6) = V (Proc.devRef .tc main_arg6) :=
  StableHlo.after_of_forall_not_mem (b := Proc.devRef .tc main_arg6) _ _ (List.forall_iff_forall_mem.mp (by
    simp only [HandRun.p0, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p0_arg7 (V : Valuation τ sig (Elt F)) :
    StableHlo.after (HandRun.p0 (F := F)) V (Proc.devRef .tc main_arg7) = V (Proc.devRef .tc main_arg7) :=
  StableHlo.after_of_forall_not_mem (b := Proc.devRef .tc main_arg7) _ _ (List.forall_iff_forall_mem.mp (by
    simp only [HandRun.p0, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p0_arg8 (V : Valuation τ sig (Elt F)) :
    StableHlo.after (HandRun.p0 (F := F)) V (Proc.devRef .tc main_arg8) = V (Proc.devRef .tc main_arg8) :=
  StableHlo.after_of_forall_not_mem (b := Proc.devRef .tc main_arg8) _ _ (List.forall_iff_forall_mem.mp (by
    simp only [HandRun.p0, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p0_arg9 (V : Valuation τ sig (Elt F)) :
    StableHlo.after (HandRun.p0 (F := F)) V (Proc.devRef .tc main_arg9) = V (Proc.devRef .tc main_arg9) :=
  StableHlo.after_of_forall_not_mem (b := Proc.devRef .tc main_arg9) _ _ (List.forall_iff_forall_mem.mp (by
    simp only [HandRun.p0, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p0_arg10 (V : Valuation τ sig (Elt F)) :
    StableHlo.after (HandRun.p0 (F := F)) V (Proc.devRef .tc main_arg10) = V (Proc.devRef .tc main_arg10) :=
  StableHlo.after_of_forall_not_mem (b := Proc.devRef .tc main_arg10) _ _ (List.forall_iff_forall_mem.mp (by
    simp only [HandRun.p0, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p0_arg11 (V : Valuation τ sig (Elt F)) :
    StableHlo.after (HandRun.p0 (F := F)) V (Proc.devRef .tc main_arg11) = V (Proc.devRef .tc main_arg11) :=
  StableHlo.after_of_forall_not_mem (b := Proc.devRef .tc main_arg11) _ _ (List.forall_iff_forall_mem.mp (by
    simp only [HandRun.p0, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p0_arg12 (V : Valuation τ sig (Elt F)) :
    StableHlo.after (HandRun.p0 (F := F)) V (Proc.devRef .tc main_arg12) = V (Proc.devRef .tc main_arg12) :=
  StableHlo.after_of_forall_not_mem (b := Proc.devRef .tc main_arg12) _ _ (List.forall_iff_forall_mem.mp (by
    simp only [HandRun.p0, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p0_arg13 (V : Valuation τ sig (Elt F)) :
    StableHlo.after (HandRun.p0 (F := F)) V (Proc.devRef .tc main_arg13) = V (Proc.devRef .tc main_arg13) :=
  StableHlo.after_of_forall_not_mem (b := Proc.devRef .tc main_arg13) _ _ (List.forall_iff_forall_mem.mp (by
    simp only [HandRun.p0, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p0_arg14 (V : Valuation τ sig (Elt F)) :
    StableHlo.after (HandRun.p0 (F := F)) V (Proc.devRef .tc main_arg14) = V (Proc.devRef .tc main_arg14) :=
  StableHlo.after_of_forall_not_mem (b := Proc.devRef .tc main_arg14) _ _ (List.forall_iff_forall_mem.mp (by
    simp only [HandRun.p0, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

/-! ## Piece 1 writes no argument array -/

theorem keep_p1_arg0 (V : Valuation τ sig (Elt F)) :
    StableHlo.after (HandRun.p1 (F := F)) V (Proc.devRef .tc main_arg0) = V (Proc.devRef .tc main_arg0) :=
  StableHlo.after_of_forall_not_mem (b := Proc.devRef .tc main_arg0) _ _ (List.forall_iff_forall_mem.mp (by
    simp only [HandRun.p1, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p1_arg1 (V : Valuation τ sig (Elt F)) :
    StableHlo.after (HandRun.p1 (F := F)) V (Proc.devRef .tc main_arg1) = V (Proc.devRef .tc main_arg1) :=
  StableHlo.after_of_forall_not_mem (b := Proc.devRef .tc main_arg1) _ _ (List.forall_iff_forall_mem.mp (by
    simp only [HandRun.p1, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p1_arg2 (V : Valuation τ sig (Elt F)) :
    StableHlo.after (HandRun.p1 (F := F)) V (Proc.devRef .tc main_arg2) = V (Proc.devRef .tc main_arg2) :=
  StableHlo.after_of_forall_not_mem (b := Proc.devRef .tc main_arg2) _ _ (List.forall_iff_forall_mem.mp (by
    simp only [HandRun.p1, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p1_arg3 (V : Valuation τ sig (Elt F)) :
    StableHlo.after (HandRun.p1 (F := F)) V (Proc.devRef .tc main_arg3) = V (Proc.devRef .tc main_arg3) :=
  StableHlo.after_of_forall_not_mem (b := Proc.devRef .tc main_arg3) _ _ (List.forall_iff_forall_mem.mp (by
    simp only [HandRun.p1, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p1_arg4 (V : Valuation τ sig (Elt F)) :
    StableHlo.after (HandRun.p1 (F := F)) V (Proc.devRef .tc main_arg4) = V (Proc.devRef .tc main_arg4) :=
  StableHlo.after_of_forall_not_mem (b := Proc.devRef .tc main_arg4) _ _ (List.forall_iff_forall_mem.mp (by
    simp only [HandRun.p1, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p1_arg5 (V : Valuation τ sig (Elt F)) :
    StableHlo.after (HandRun.p1 (F := F)) V (Proc.devRef .tc main_arg5) = V (Proc.devRef .tc main_arg5) :=
  StableHlo.after_of_forall_not_mem (b := Proc.devRef .tc main_arg5) _ _ (List.forall_iff_forall_mem.mp (by
    simp only [HandRun.p1, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p1_arg6 (V : Valuation τ sig (Elt F)) :
    StableHlo.after (HandRun.p1 (F := F)) V (Proc.devRef .tc main_arg6) = V (Proc.devRef .tc main_arg6) :=
  StableHlo.after_of_forall_not_mem (b := Proc.devRef .tc main_arg6) _ _ (List.forall_iff_forall_mem.mp (by
    simp only [HandRun.p1, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p1_arg7 (V : Valuation τ sig (Elt F)) :
    StableHlo.after (HandRun.p1 (F := F)) V (Proc.devRef .tc main_arg7) = V (Proc.devRef .tc main_arg7) :=
  StableHlo.after_of_forall_not_mem (b := Proc.devRef .tc main_arg7) _ _ (List.forall_iff_forall_mem.mp (by
    simp only [HandRun.p1, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p1_arg8 (V : Valuation τ sig (Elt F)) :
    StableHlo.after (HandRun.p1 (F := F)) V (Proc.devRef .tc main_arg8) = V (Proc.devRef .tc main_arg8) :=
  StableHlo.after_of_forall_not_mem (b := Proc.devRef .tc main_arg8) _ _ (List.forall_iff_forall_mem.mp (by
    simp only [HandRun.p1, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p1_arg9 (V : Valuation τ sig (Elt F)) :
    StableHlo.after (HandRun.p1 (F := F)) V (Proc.devRef .tc main_arg9) = V (Proc.devRef .tc main_arg9) :=
  StableHlo.after_of_forall_not_mem (b := Proc.devRef .tc main_arg9) _ _ (List.forall_iff_forall_mem.mp (by
    simp only [HandRun.p1, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p1_arg10 (V : Valuation τ sig (Elt F)) :
    StableHlo.after (HandRun.p1 (F := F)) V (Proc.devRef .tc main_arg10) = V (Proc.devRef .tc main_arg10) :=
  StableHlo.after_of_forall_not_mem (b := Proc.devRef .tc main_arg10) _ _ (List.forall_iff_forall_mem.mp (by
    simp only [HandRun.p1, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p1_arg11 (V : Valuation τ sig (Elt F)) :
    StableHlo.after (HandRun.p1 (F := F)) V (Proc.devRef .tc main_arg11) = V (Proc.devRef .tc main_arg11) :=
  StableHlo.after_of_forall_not_mem (b := Proc.devRef .tc main_arg11) _ _ (List.forall_iff_forall_mem.mp (by
    simp only [HandRun.p1, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p1_arg12 (V : Valuation τ sig (Elt F)) :
    StableHlo.after (HandRun.p1 (F := F)) V (Proc.devRef .tc main_arg12) = V (Proc.devRef .tc main_arg12) :=
  StableHlo.after_of_forall_not_mem (b := Proc.devRef .tc main_arg12) _ _ (List.forall_iff_forall_mem.mp (by
    simp only [HandRun.p1, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p1_arg13 (V : Valuation τ sig (Elt F)) :
    StableHlo.after (HandRun.p1 (F := F)) V (Proc.devRef .tc main_arg13) = V (Proc.devRef .tc main_arg13) :=
  StableHlo.after_of_forall_not_mem (b := Proc.devRef .tc main_arg13) _ _ (List.forall_iff_forall_mem.mp (by
    simp only [HandRun.p1, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p1_arg14 (V : Valuation τ sig (Elt F)) :
    StableHlo.after (HandRun.p1 (F := F)) V (Proc.devRef .tc main_arg14) = V (Proc.devRef .tc main_arg14) :=
  StableHlo.after_of_forall_not_mem (b := Proc.devRef .tc main_arg14) _ _ (List.forall_iff_forall_mem.mp (by
    simp only [HandRun.p1, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

/-! ## Piece 2 writes no argument array -/

theorem keep_p2_arg0 (V : Valuation τ sig (Elt F)) :
    StableHlo.after (HandRun.p2 (F := F)) V (Proc.devRef .tc main_arg0) = V (Proc.devRef .tc main_arg0) :=
  StableHlo.after_of_forall_not_mem (b := Proc.devRef .tc main_arg0) _ _ (List.forall_iff_forall_mem.mp (by
    simp only [HandRun.p2, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p2_arg1 (V : Valuation τ sig (Elt F)) :
    StableHlo.after (HandRun.p2 (F := F)) V (Proc.devRef .tc main_arg1) = V (Proc.devRef .tc main_arg1) :=
  StableHlo.after_of_forall_not_mem (b := Proc.devRef .tc main_arg1) _ _ (List.forall_iff_forall_mem.mp (by
    simp only [HandRun.p2, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p2_arg2 (V : Valuation τ sig (Elt F)) :
    StableHlo.after (HandRun.p2 (F := F)) V (Proc.devRef .tc main_arg2) = V (Proc.devRef .tc main_arg2) :=
  StableHlo.after_of_forall_not_mem (b := Proc.devRef .tc main_arg2) _ _ (List.forall_iff_forall_mem.mp (by
    simp only [HandRun.p2, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p2_arg3 (V : Valuation τ sig (Elt F)) :
    StableHlo.after (HandRun.p2 (F := F)) V (Proc.devRef .tc main_arg3) = V (Proc.devRef .tc main_arg3) :=
  StableHlo.after_of_forall_not_mem (b := Proc.devRef .tc main_arg3) _ _ (List.forall_iff_forall_mem.mp (by
    simp only [HandRun.p2, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p2_arg4 (V : Valuation τ sig (Elt F)) :
    StableHlo.after (HandRun.p2 (F := F)) V (Proc.devRef .tc main_arg4) = V (Proc.devRef .tc main_arg4) :=
  StableHlo.after_of_forall_not_mem (b := Proc.devRef .tc main_arg4) _ _ (List.forall_iff_forall_mem.mp (by
    simp only [HandRun.p2, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p2_arg5 (V : Valuation τ sig (Elt F)) :
    StableHlo.after (HandRun.p2 (F := F)) V (Proc.devRef .tc main_arg5) = V (Proc.devRef .tc main_arg5) :=
  StableHlo.after_of_forall_not_mem (b := Proc.devRef .tc main_arg5) _ _ (List.forall_iff_forall_mem.mp (by
    simp only [HandRun.p2, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p2_arg6 (V : Valuation τ sig (Elt F)) :
    StableHlo.after (HandRun.p2 (F := F)) V (Proc.devRef .tc main_arg6) = V (Proc.devRef .tc main_arg6) :=
  StableHlo.after_of_forall_not_mem (b := Proc.devRef .tc main_arg6) _ _ (List.forall_iff_forall_mem.mp (by
    simp only [HandRun.p2, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p2_arg7 (V : Valuation τ sig (Elt F)) :
    StableHlo.after (HandRun.p2 (F := F)) V (Proc.devRef .tc main_arg7) = V (Proc.devRef .tc main_arg7) :=
  StableHlo.after_of_forall_not_mem (b := Proc.devRef .tc main_arg7) _ _ (List.forall_iff_forall_mem.mp (by
    simp only [HandRun.p2, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p2_arg8 (V : Valuation τ sig (Elt F)) :
    StableHlo.after (HandRun.p2 (F := F)) V (Proc.devRef .tc main_arg8) = V (Proc.devRef .tc main_arg8) :=
  StableHlo.after_of_forall_not_mem (b := Proc.devRef .tc main_arg8) _ _ (List.forall_iff_forall_mem.mp (by
    simp only [HandRun.p2, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p2_arg9 (V : Valuation τ sig (Elt F)) :
    StableHlo.after (HandRun.p2 (F := F)) V (Proc.devRef .tc main_arg9) = V (Proc.devRef .tc main_arg9) :=
  StableHlo.after_of_forall_not_mem (b := Proc.devRef .tc main_arg9) _ _ (List.forall_iff_forall_mem.mp (by
    simp only [HandRun.p2, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p2_arg10 (V : Valuation τ sig (Elt F)) :
    StableHlo.after (HandRun.p2 (F := F)) V (Proc.devRef .tc main_arg10) = V (Proc.devRef .tc main_arg10) :=
  StableHlo.after_of_forall_not_mem (b := Proc.devRef .tc main_arg10) _ _ (List.forall_iff_forall_mem.mp (by
    simp only [HandRun.p2, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p2_arg11 (V : Valuation τ sig (Elt F)) :
    StableHlo.after (HandRun.p2 (F := F)) V (Proc.devRef .tc main_arg11) = V (Proc.devRef .tc main_arg11) :=
  StableHlo.after_of_forall_not_mem (b := Proc.devRef .tc main_arg11) _ _ (List.forall_iff_forall_mem.mp (by
    simp only [HandRun.p2, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p2_arg12 (V : Valuation τ sig (Elt F)) :
    StableHlo.after (HandRun.p2 (F := F)) V (Proc.devRef .tc main_arg12) = V (Proc.devRef .tc main_arg12) :=
  StableHlo.after_of_forall_not_mem (b := Proc.devRef .tc main_arg12) _ _ (List.forall_iff_forall_mem.mp (by
    simp only [HandRun.p2, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p2_arg13 (V : Valuation τ sig (Elt F)) :
    StableHlo.after (HandRun.p2 (F := F)) V (Proc.devRef .tc main_arg13) = V (Proc.devRef .tc main_arg13) :=
  StableHlo.after_of_forall_not_mem (b := Proc.devRef .tc main_arg13) _ _ (List.forall_iff_forall_mem.mp (by
    simp only [HandRun.p2, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p2_arg14 (V : Valuation τ sig (Elt F)) :
    StableHlo.after (HandRun.p2 (F := F)) V (Proc.devRef .tc main_arg14) = V (Proc.devRef .tc main_arg14) :=
  StableHlo.after_of_forall_not_mem (b := Proc.devRef .tc main_arg14) _ _ (List.forall_iff_forall_mem.mp (by
    simp only [HandRun.p2, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

/-! ## Piece 3 writes no argument array -/

theorem keep_p3_arg0 (V : Valuation τ sig (Elt F)) :
    StableHlo.after (HandRun.p3 (F := F)) V (Proc.devRef .tc main_arg0) = V (Proc.devRef .tc main_arg0) :=
  StableHlo.after_of_forall_not_mem (b := Proc.devRef .tc main_arg0) _ _ (List.forall_iff_forall_mem.mp (by
    simp only [HandRun.p3, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p3_arg1 (V : Valuation τ sig (Elt F)) :
    StableHlo.after (HandRun.p3 (F := F)) V (Proc.devRef .tc main_arg1) = V (Proc.devRef .tc main_arg1) :=
  StableHlo.after_of_forall_not_mem (b := Proc.devRef .tc main_arg1) _ _ (List.forall_iff_forall_mem.mp (by
    simp only [HandRun.p3, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p3_arg2 (V : Valuation τ sig (Elt F)) :
    StableHlo.after (HandRun.p3 (F := F)) V (Proc.devRef .tc main_arg2) = V (Proc.devRef .tc main_arg2) :=
  StableHlo.after_of_forall_not_mem (b := Proc.devRef .tc main_arg2) _ _ (List.forall_iff_forall_mem.mp (by
    simp only [HandRun.p3, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p3_arg3 (V : Valuation τ sig (Elt F)) :
    StableHlo.after (HandRun.p3 (F := F)) V (Proc.devRef .tc main_arg3) = V (Proc.devRef .tc main_arg3) :=
  StableHlo.after_of_forall_not_mem (b := Proc.devRef .tc main_arg3) _ _ (List.forall_iff_forall_mem.mp (by
    simp only [HandRun.p3, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p3_arg4 (V : Valuation τ sig (Elt F)) :
    StableHlo.after (HandRun.p3 (F := F)) V (Proc.devRef .tc main_arg4) = V (Proc.devRef .tc main_arg4) :=
  StableHlo.after_of_forall_not_mem (b := Proc.devRef .tc main_arg4) _ _ (List.forall_iff_forall_mem.mp (by
    simp only [HandRun.p3, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p3_arg5 (V : Valuation τ sig (Elt F)) :
    StableHlo.after (HandRun.p3 (F := F)) V (Proc.devRef .tc main_arg5) = V (Proc.devRef .tc main_arg5) :=
  StableHlo.after_of_forall_not_mem (b := Proc.devRef .tc main_arg5) _ _ (List.forall_iff_forall_mem.mp (by
    simp only [HandRun.p3, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p3_arg6 (V : Valuation τ sig (Elt F)) :
    StableHlo.after (HandRun.p3 (F := F)) V (Proc.devRef .tc main_arg6) = V (Proc.devRef .tc main_arg6) :=
  StableHlo.after_of_forall_not_mem (b := Proc.devRef .tc main_arg6) _ _ (List.forall_iff_forall_mem.mp (by
    simp only [HandRun.p3, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p3_arg7 (V : Valuation τ sig (Elt F)) :
    StableHlo.after (HandRun.p3 (F := F)) V (Proc.devRef .tc main_arg7) = V (Proc.devRef .tc main_arg7) :=
  StableHlo.after_of_forall_not_mem (b := Proc.devRef .tc main_arg7) _ _ (List.forall_iff_forall_mem.mp (by
    simp only [HandRun.p3, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p3_arg8 (V : Valuation τ sig (Elt F)) :
    StableHlo.after (HandRun.p3 (F := F)) V (Proc.devRef .tc main_arg8) = V (Proc.devRef .tc main_arg8) :=
  StableHlo.after_of_forall_not_mem (b := Proc.devRef .tc main_arg8) _ _ (List.forall_iff_forall_mem.mp (by
    simp only [HandRun.p3, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p3_arg9 (V : Valuation τ sig (Elt F)) :
    StableHlo.after (HandRun.p3 (F := F)) V (Proc.devRef .tc main_arg9) = V (Proc.devRef .tc main_arg9) :=
  StableHlo.after_of_forall_not_mem (b := Proc.devRef .tc main_arg9) _ _ (List.forall_iff_forall_mem.mp (by
    simp only [HandRun.p3, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p3_arg10 (V : Valuation τ sig (Elt F)) :
    StableHlo.after (HandRun.p3 (F := F)) V (Proc.devRef .tc main_arg10) = V (Proc.devRef .tc main_arg10) :=
  StableHlo.after_of_forall_not_mem (b := Proc.devRef .tc main_arg10) _ _ (List.forall_iff_forall_mem.mp (by
    simp only [HandRun.p3, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p3_arg11 (V : Valuation τ sig (Elt F)) :
    StableHlo.after (HandRun.p3 (F := F)) V (Proc.devRef .tc main_arg11) = V (Proc.devRef .tc main_arg11) :=
  StableHlo.after_of_forall_not_mem (b := Proc.devRef .tc main_arg11) _ _ (List.forall_iff_forall_mem.mp (by
    simp only [HandRun.p3, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p3_arg12 (V : Valuation τ sig (Elt F)) :
    StableHlo.after (HandRun.p3 (F := F)) V (Proc.devRef .tc main_arg12) = V (Proc.devRef .tc main_arg12) :=
  StableHlo.after_of_forall_not_mem (b := Proc.devRef .tc main_arg12) _ _ (List.forall_iff_forall_mem.mp (by
    simp only [HandRun.p3, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p3_arg13 (V : Valuation τ sig (Elt F)) :
    StableHlo.after (HandRun.p3 (F := F)) V (Proc.devRef .tc main_arg13) = V (Proc.devRef .tc main_arg13) :=
  StableHlo.after_of_forall_not_mem (b := Proc.devRef .tc main_arg13) _ _ (List.forall_iff_forall_mem.mp (by
    simp only [HandRun.p3, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p3_arg14 (V : Valuation τ sig (Elt F)) :
    StableHlo.after (HandRun.p3 (F := F)) V (Proc.devRef .tc main_arg14) = V (Proc.devRef .tc main_arg14) :=
  StableHlo.after_of_forall_not_mem (b := Proc.devRef .tc main_arg14) _ _ (List.forall_iff_forall_mem.mp (by
    simp only [HandRun.p3, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

/-! ## Piece 4 writes no argument array -/

theorem keep_p4_arg0 (V : Valuation τ sig (Elt F)) :
    StableHlo.after (HandRun.p4 (F := F)) V (Proc.devRef .tc main_arg0) = V (Proc.devRef .tc main_arg0) :=
  StableHlo.after_of_forall_not_mem (b := Proc.devRef .tc main_arg0) _ _ (List.forall_iff_forall_mem.mp (by
    simp only [HandRun.p4, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p4_arg1 (V : Valuation τ sig (Elt F)) :
    StableHlo.after (HandRun.p4 (F := F)) V (Proc.devRef .tc main_arg1) = V (Proc.devRef .tc main_arg1) :=
  StableHlo.after_of_forall_not_mem (b := Proc.devRef .tc main_arg1) _ _ (List.forall_iff_forall_mem.mp (by
    simp only [HandRun.p4, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p4_arg2 (V : Valuation τ sig (Elt F)) :
    StableHlo.after (HandRun.p4 (F := F)) V (Proc.devRef .tc main_arg2) = V (Proc.devRef .tc main_arg2) :=
  StableHlo.after_of_forall_not_mem (b := Proc.devRef .tc main_arg2) _ _ (List.forall_iff_forall_mem.mp (by
    simp only [HandRun.p4, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p4_arg3 (V : Valuation τ sig (Elt F)) :
    StableHlo.after (HandRun.p4 (F := F)) V (Proc.devRef .tc main_arg3) = V (Proc.devRef .tc main_arg3) :=
  StableHlo.after_of_forall_not_mem (b := Proc.devRef .tc main_arg3) _ _ (List.forall_iff_forall_mem.mp (by
    simp only [HandRun.p4, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p4_arg4 (V : Valuation τ sig (Elt F)) :
    StableHlo.after (HandRun.p4 (F := F)) V (Proc.devRef .tc main_arg4) = V (Proc.devRef .tc main_arg4) :=
  StableHlo.after_of_forall_not_mem (b := Proc.devRef .tc main_arg4) _ _ (List.forall_iff_forall_mem.mp (by
    simp only [HandRun.p4, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p4_arg5 (V : Valuation τ sig (Elt F)) :
    StableHlo.after (HandRun.p4 (F := F)) V (Proc.devRef .tc main_arg5) = V (Proc.devRef .tc main_arg5) :=
  StableHlo.after_of_forall_not_mem (b := Proc.devRef .tc main_arg5) _ _ (List.forall_iff_forall_mem.mp (by
    simp only [HandRun.p4, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p4_arg6 (V : Valuation τ sig (Elt F)) :
    StableHlo.after (HandRun.p4 (F := F)) V (Proc.devRef .tc main_arg6) = V (Proc.devRef .tc main_arg6) :=
  StableHlo.after_of_forall_not_mem (b := Proc.devRef .tc main_arg6) _ _ (List.forall_iff_forall_mem.mp (by
    simp only [HandRun.p4, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p4_arg7 (V : Valuation τ sig (Elt F)) :
    StableHlo.after (HandRun.p4 (F := F)) V (Proc.devRef .tc main_arg7) = V (Proc.devRef .tc main_arg7) :=
  StableHlo.after_of_forall_not_mem (b := Proc.devRef .tc main_arg7) _ _ (List.forall_iff_forall_mem.mp (by
    simp only [HandRun.p4, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p4_arg8 (V : Valuation τ sig (Elt F)) :
    StableHlo.after (HandRun.p4 (F := F)) V (Proc.devRef .tc main_arg8) = V (Proc.devRef .tc main_arg8) :=
  StableHlo.after_of_forall_not_mem (b := Proc.devRef .tc main_arg8) _ _ (List.forall_iff_forall_mem.mp (by
    simp only [HandRun.p4, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p4_arg9 (V : Valuation τ sig (Elt F)) :
    StableHlo.after (HandRun.p4 (F := F)) V (Proc.devRef .tc main_arg9) = V (Proc.devRef .tc main_arg9) :=
  StableHlo.after_of_forall_not_mem (b := Proc.devRef .tc main_arg9) _ _ (List.forall_iff_forall_mem.mp (by
    simp only [HandRun.p4, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p4_arg10 (V : Valuation τ sig (Elt F)) :
    StableHlo.after (HandRun.p4 (F := F)) V (Proc.devRef .tc main_arg10) = V (Proc.devRef .tc main_arg10) :=
  StableHlo.after_of_forall_not_mem (b := Proc.devRef .tc main_arg10) _ _ (List.forall_iff_forall_mem.mp (by
    simp only [HandRun.p4, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p4_arg11 (V : Valuation τ sig (Elt F)) :
    StableHlo.after (HandRun.p4 (F := F)) V (Proc.devRef .tc main_arg11) = V (Proc.devRef .tc main_arg11) :=
  StableHlo.after_of_forall_not_mem (b := Proc.devRef .tc main_arg11) _ _ (List.forall_iff_forall_mem.mp (by
    simp only [HandRun.p4, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p4_arg12 (V : Valuation τ sig (Elt F)) :
    StableHlo.after (HandRun.p4 (F := F)) V (Proc.devRef .tc main_arg12) = V (Proc.devRef .tc main_arg12) :=
  StableHlo.after_of_forall_not_mem (b := Proc.devRef .tc main_arg12) _ _ (List.forall_iff_forall_mem.mp (by
    simp only [HandRun.p4, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p4_arg13 (V : Valuation τ sig (Elt F)) :
    StableHlo.after (HandRun.p4 (F := F)) V (Proc.devRef .tc main_arg13) = V (Proc.devRef .tc main_arg13) :=
  StableHlo.after_of_forall_not_mem (b := Proc.devRef .tc main_arg13) _ _ (List.forall_iff_forall_mem.mp (by
    simp only [HandRun.p4, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p4_arg14 (V : Valuation τ sig (Elt F)) :
    StableHlo.after (HandRun.p4 (F := F)) V (Proc.devRef .tc main_arg14) = V (Proc.devRef .tc main_arg14) :=
  StableHlo.after_of_forall_not_mem (b := Proc.devRef .tc main_arg14) _ _ (List.forall_iff_forall_mem.mp (by
    simp only [HandRun.p4, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

/-! ## Piece 5 writes no argument array -/

theorem keep_p5_arg0 (V : Valuation τ sig (Elt F)) :
    StableHlo.after (HandRun.p5 (F := F)) V (Proc.devRef .tc main_arg0) = V (Proc.devRef .tc main_arg0) :=
  StableHlo.after_of_forall_not_mem (b := Proc.devRef .tc main_arg0) _ _ (List.forall_iff_forall_mem.mp (by
    simp only [HandRun.p5, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p5_arg1 (V : Valuation τ sig (Elt F)) :
    StableHlo.after (HandRun.p5 (F := F)) V (Proc.devRef .tc main_arg1) = V (Proc.devRef .tc main_arg1) :=
  StableHlo.after_of_forall_not_mem (b := Proc.devRef .tc main_arg1) _ _ (List.forall_iff_forall_mem.mp (by
    simp only [HandRun.p5, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p5_arg2 (V : Valuation τ sig (Elt F)) :
    StableHlo.after (HandRun.p5 (F := F)) V (Proc.devRef .tc main_arg2) = V (Proc.devRef .tc main_arg2) :=
  StableHlo.after_of_forall_not_mem (b := Proc.devRef .tc main_arg2) _ _ (List.forall_iff_forall_mem.mp (by
    simp only [HandRun.p5, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p5_arg3 (V : Valuation τ sig (Elt F)) :
    StableHlo.after (HandRun.p5 (F := F)) V (Proc.devRef .tc main_arg3) = V (Proc.devRef .tc main_arg3) :=
  StableHlo.after_of_forall_not_mem (b := Proc.devRef .tc main_arg3) _ _ (List.forall_iff_forall_mem.mp (by
    simp only [HandRun.p5, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p5_arg4 (V : Valuation τ sig (Elt F)) :
    StableHlo.after (HandRun.p5 (F := F)) V (Proc.devRef .tc main_arg4) = V (Proc.devRef .tc main_arg4) :=
  StableHlo.after_of_forall_not_mem (b := Proc.devRef .tc main_arg4) _ _ (List.forall_iff_forall_mem.mp (by
    simp only [HandRun.p5, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p5_arg5 (V : Valuation τ sig (Elt F)) :
    StableHlo.after (HandRun.p5 (F := F)) V (Proc.devRef .tc main_arg5) = V (Proc.devRef .tc main_arg5) :=
  StableHlo.after_of_forall_not_mem (b := Proc.devRef .tc main_arg5) _ _ (List.forall_iff_forall_mem.mp (by
    simp only [HandRun.p5, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p5_arg6 (V : Valuation τ sig (Elt F)) :
    StableHlo.after (HandRun.p5 (F := F)) V (Proc.devRef .tc main_arg6) = V (Proc.devRef .tc main_arg6) :=
  StableHlo.after_of_forall_not_mem (b := Proc.devRef .tc main_arg6) _ _ (List.forall_iff_forall_mem.mp (by
    simp only [HandRun.p5, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p5_arg7 (V : Valuation τ sig (Elt F)) :
    StableHlo.after (HandRun.p5 (F := F)) V (Proc.devRef .tc main_arg7) = V (Proc.devRef .tc main_arg7) :=
  StableHlo.after_of_forall_not_mem (b := Proc.devRef .tc main_arg7) _ _ (List.forall_iff_forall_mem.mp (by
    simp only [HandRun.p5, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p5_arg8 (V : Valuation τ sig (Elt F)) :
    StableHlo.after (HandRun.p5 (F := F)) V (Proc.devRef .tc main_arg8) = V (Proc.devRef .tc main_arg8) :=
  StableHlo.after_of_forall_not_mem (b := Proc.devRef .tc main_arg8) _ _ (List.forall_iff_forall_mem.mp (by
    simp only [HandRun.p5, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p5_arg9 (V : Valuation τ sig (Elt F)) :
    StableHlo.after (HandRun.p5 (F := F)) V (Proc.devRef .tc main_arg9) = V (Proc.devRef .tc main_arg9) :=
  StableHlo.after_of_forall_not_mem (b := Proc.devRef .tc main_arg9) _ _ (List.forall_iff_forall_mem.mp (by
    simp only [HandRun.p5, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p5_arg10 (V : Valuation τ sig (Elt F)) :
    StableHlo.after (HandRun.p5 (F := F)) V (Proc.devRef .tc main_arg10) = V (Proc.devRef .tc main_arg10) :=
  StableHlo.after_of_forall_not_mem (b := Proc.devRef .tc main_arg10) _ _ (List.forall_iff_forall_mem.mp (by
    simp only [HandRun.p5, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p5_arg11 (V : Valuation τ sig (Elt F)) :
    StableHlo.after (HandRun.p5 (F := F)) V (Proc.devRef .tc main_arg11) = V (Proc.devRef .tc main_arg11) :=
  StableHlo.after_of_forall_not_mem (b := Proc.devRef .tc main_arg11) _ _ (List.forall_iff_forall_mem.mp (by
    simp only [HandRun.p5, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p5_arg12 (V : Valuation τ sig (Elt F)) :
    StableHlo.after (HandRun.p5 (F := F)) V (Proc.devRef .tc main_arg12) = V (Proc.devRef .tc main_arg12) :=
  StableHlo.after_of_forall_not_mem (b := Proc.devRef .tc main_arg12) _ _ (List.forall_iff_forall_mem.mp (by
    simp only [HandRun.p5, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p5_arg13 (V : Valuation τ sig (Elt F)) :
    StableHlo.after (HandRun.p5 (F := F)) V (Proc.devRef .tc main_arg13) = V (Proc.devRef .tc main_arg13) :=
  StableHlo.after_of_forall_not_mem (b := Proc.devRef .tc main_arg13) _ _ (List.forall_iff_forall_mem.mp (by
    simp only [HandRun.p5, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p5_arg14 (V : Valuation τ sig (Elt F)) :
    StableHlo.after (HandRun.p5 (F := F)) V (Proc.devRef .tc main_arg14) = V (Proc.devRef .tc main_arg14) :=
  StableHlo.after_of_forall_not_mem (b := Proc.devRef .tc main_arg14) _ _ (List.forall_iff_forall_mem.mp (by
    simp only [HandRun.p5, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

/-! ## Piece 6 writes no argument array -/

theorem keep_p6_arg0 (V : Valuation τ sig (Elt F)) :
    StableHlo.after (HandRun.p6 (F := F)) V (Proc.devRef .tc main_arg0) = V (Proc.devRef .tc main_arg0) :=
  StableHlo.after_of_forall_not_mem (b := Proc.devRef .tc main_arg0) _ _ (List.forall_iff_forall_mem.mp (by
    simp only [HandRun.p6, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p6_arg1 (V : Valuation τ sig (Elt F)) :
    StableHlo.after (HandRun.p6 (F := F)) V (Proc.devRef .tc main_arg1) = V (Proc.devRef .tc main_arg1) :=
  StableHlo.after_of_forall_not_mem (b := Proc.devRef .tc main_arg1) _ _ (List.forall_iff_forall_mem.mp (by
    simp only [HandRun.p6, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p6_arg2 (V : Valuation τ sig (Elt F)) :
    StableHlo.after (HandRun.p6 (F := F)) V (Proc.devRef .tc main_arg2) = V (Proc.devRef .tc main_arg2) :=
  StableHlo.after_of_forall_not_mem (b := Proc.devRef .tc main_arg2) _ _ (List.forall_iff_forall_mem.mp (by
    simp only [HandRun.p6, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p6_arg3 (V : Valuation τ sig (Elt F)) :
    StableHlo.after (HandRun.p6 (F := F)) V (Proc.devRef .tc main_arg3) = V (Proc.devRef .tc main_arg3) :=
  StableHlo.after_of_forall_not_mem (b := Proc.devRef .tc main_arg3) _ _ (List.forall_iff_forall_mem.mp (by
    simp only [HandRun.p6, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p6_arg4 (V : Valuation τ sig (Elt F)) :
    StableHlo.after (HandRun.p6 (F := F)) V (Proc.devRef .tc main_arg4) = V (Proc.devRef .tc main_arg4) :=
  StableHlo.after_of_forall_not_mem (b := Proc.devRef .tc main_arg4) _ _ (List.forall_iff_forall_mem.mp (by
    simp only [HandRun.p6, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p6_arg5 (V : Valuation τ sig (Elt F)) :
    StableHlo.after (HandRun.p6 (F := F)) V (Proc.devRef .tc main_arg5) = V (Proc.devRef .tc main_arg5) :=
  StableHlo.after_of_forall_not_mem (b := Proc.devRef .tc main_arg5) _ _ (List.forall_iff_forall_mem.mp (by
    simp only [HandRun.p6, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p6_arg6 (V : Valuation τ sig (Elt F)) :
    StableHlo.after (HandRun.p6 (F := F)) V (Proc.devRef .tc main_arg6) = V (Proc.devRef .tc main_arg6) :=
  StableHlo.after_of_forall_not_mem (b := Proc.devRef .tc main_arg6) _ _ (List.forall_iff_forall_mem.mp (by
    simp only [HandRun.p6, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p6_arg7 (V : Valuation τ sig (Elt F)) :
    StableHlo.after (HandRun.p6 (F := F)) V (Proc.devRef .tc main_arg7) = V (Proc.devRef .tc main_arg7) :=
  StableHlo.after_of_forall_not_mem (b := Proc.devRef .tc main_arg7) _ _ (List.forall_iff_forall_mem.mp (by
    simp only [HandRun.p6, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p6_arg8 (V : Valuation τ sig (Elt F)) :
    StableHlo.after (HandRun.p6 (F := F)) V (Proc.devRef .tc main_arg8) = V (Proc.devRef .tc main_arg8) :=
  StableHlo.after_of_forall_not_mem (b := Proc.devRef .tc main_arg8) _ _ (List.forall_iff_forall_mem.mp (by
    simp only [HandRun.p6, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p6_arg9 (V : Valuation τ sig (Elt F)) :
    StableHlo.after (HandRun.p6 (F := F)) V (Proc.devRef .tc main_arg9) = V (Proc.devRef .tc main_arg9) :=
  StableHlo.after_of_forall_not_mem (b := Proc.devRef .tc main_arg9) _ _ (List.forall_iff_forall_mem.mp (by
    simp only [HandRun.p6, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p6_arg10 (V : Valuation τ sig (Elt F)) :
    StableHlo.after (HandRun.p6 (F := F)) V (Proc.devRef .tc main_arg10) = V (Proc.devRef .tc main_arg10) :=
  StableHlo.after_of_forall_not_mem (b := Proc.devRef .tc main_arg10) _ _ (List.forall_iff_forall_mem.mp (by
    simp only [HandRun.p6, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p6_arg11 (V : Valuation τ sig (Elt F)) :
    StableHlo.after (HandRun.p6 (F := F)) V (Proc.devRef .tc main_arg11) = V (Proc.devRef .tc main_arg11) :=
  StableHlo.after_of_forall_not_mem (b := Proc.devRef .tc main_arg11) _ _ (List.forall_iff_forall_mem.mp (by
    simp only [HandRun.p6, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p6_arg12 (V : Valuation τ sig (Elt F)) :
    StableHlo.after (HandRun.p6 (F := F)) V (Proc.devRef .tc main_arg12) = V (Proc.devRef .tc main_arg12) :=
  StableHlo.after_of_forall_not_mem (b := Proc.devRef .tc main_arg12) _ _ (List.forall_iff_forall_mem.mp (by
    simp only [HandRun.p6, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p6_arg13 (V : Valuation τ sig (Elt F)) :
    StableHlo.after (HandRun.p6 (F := F)) V (Proc.devRef .tc main_arg13) = V (Proc.devRef .tc main_arg13) :=
  StableHlo.after_of_forall_not_mem (b := Proc.devRef .tc main_arg13) _ _ (List.forall_iff_forall_mem.mp (by
    simp only [HandRun.p6, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p6_arg14 (V : Valuation τ sig (Elt F)) :
    StableHlo.after (HandRun.p6 (F := F)) V (Proc.devRef .tc main_arg14) = V (Proc.devRef .tc main_arg14) :=
  StableHlo.after_of_forall_not_mem (b := Proc.devRef .tc main_arg14) _ _ (List.forall_iff_forall_mem.mp (by
    simp only [HandRun.p6, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

/-! ## Piece 7 writes no argument array -/

theorem keep_p7_arg0 (V : Valuation τ sig (Elt F)) :
    StableHlo.after (HandRun.p7 (F := F)) V (Proc.devRef .tc main_arg0) = V (Proc.devRef .tc main_arg0) :=
  StableHlo.after_of_forall_not_mem (b := Proc.devRef .tc main_arg0) _ _ (List.forall_iff_forall_mem.mp (by
    simp only [HandRun.p7, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p7_arg1 (V : Valuation τ sig (Elt F)) :
    StableHlo.after (HandRun.p7 (F := F)) V (Proc.devRef .tc main_arg1) = V (Proc.devRef .tc main_arg1) :=
  StableHlo.after_of_forall_not_mem (b := Proc.devRef .tc main_arg1) _ _ (List.forall_iff_forall_mem.mp (by
    simp only [HandRun.p7, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p7_arg2 (V : Valuation τ sig (Elt F)) :
    StableHlo.after (HandRun.p7 (F := F)) V (Proc.devRef .tc main_arg2) = V (Proc.devRef .tc main_arg2) :=
  StableHlo.after_of_forall_not_mem (b := Proc.devRef .tc main_arg2) _ _ (List.forall_iff_forall_mem.mp (by
    simp only [HandRun.p7, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p7_arg3 (V : Valuation τ sig (Elt F)) :
    StableHlo.after (HandRun.p7 (F := F)) V (Proc.devRef .tc main_arg3) = V (Proc.devRef .tc main_arg3) :=
  StableHlo.after_of_forall_not_mem (b := Proc.devRef .tc main_arg3) _ _ (List.forall_iff_forall_mem.mp (by
    simp only [HandRun.p7, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p7_arg4 (V : Valuation τ sig (Elt F)) :
    StableHlo.after (HandRun.p7 (F := F)) V (Proc.devRef .tc main_arg4) = V (Proc.devRef .tc main_arg4) :=
  StableHlo.after_of_forall_not_mem (b := Proc.devRef .tc main_arg4) _ _ (List.forall_iff_forall_mem.mp (by
    simp only [HandRun.p7, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p7_arg5 (V : Valuation τ sig (Elt F)) :
    StableHlo.after (HandRun.p7 (F := F)) V (Proc.devRef .tc main_arg5) = V (Proc.devRef .tc main_arg5) :=
  StableHlo.after_of_forall_not_mem (b := Proc.devRef .tc main_arg5) _ _ (List.forall_iff_forall_mem.mp (by
    simp only [HandRun.p7, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p7_arg6 (V : Valuation τ sig (Elt F)) :
    StableHlo.after (HandRun.p7 (F := F)) V (Proc.devRef .tc main_arg6) = V (Proc.devRef .tc main_arg6) :=
  StableHlo.after_of_forall_not_mem (b := Proc.devRef .tc main_arg6) _ _ (List.forall_iff_forall_mem.mp (by
    simp only [HandRun.p7, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p7_arg7 (V : Valuation τ sig (Elt F)) :
    StableHlo.after (HandRun.p7 (F := F)) V (Proc.devRef .tc main_arg7) = V (Proc.devRef .tc main_arg7) :=
  StableHlo.after_of_forall_not_mem (b := Proc.devRef .tc main_arg7) _ _ (List.forall_iff_forall_mem.mp (by
    simp only [HandRun.p7, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p7_arg8 (V : Valuation τ sig (Elt F)) :
    StableHlo.after (HandRun.p7 (F := F)) V (Proc.devRef .tc main_arg8) = V (Proc.devRef .tc main_arg8) :=
  StableHlo.after_of_forall_not_mem (b := Proc.devRef .tc main_arg8) _ _ (List.forall_iff_forall_mem.mp (by
    simp only [HandRun.p7, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p7_arg9 (V : Valuation τ sig (Elt F)) :
    StableHlo.after (HandRun.p7 (F := F)) V (Proc.devRef .tc main_arg9) = V (Proc.devRef .tc main_arg9) :=
  StableHlo.after_of_forall_not_mem (b := Proc.devRef .tc main_arg9) _ _ (List.forall_iff_forall_mem.mp (by
    simp only [HandRun.p7, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p7_arg10 (V : Valuation τ sig (Elt F)) :
    StableHlo.after (HandRun.p7 (F := F)) V (Proc.devRef .tc main_arg10) = V (Proc.devRef .tc main_arg10) :=
  StableHlo.after_of_forall_not_mem (b := Proc.devRef .tc main_arg10) _ _ (List.forall_iff_forall_mem.mp (by
    simp only [HandRun.p7, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p7_arg11 (V : Valuation τ sig (Elt F)) :
    StableHlo.after (HandRun.p7 (F := F)) V (Proc.devRef .tc main_arg11) = V (Proc.devRef .tc main_arg11) :=
  StableHlo.after_of_forall_not_mem (b := Proc.devRef .tc main_arg11) _ _ (List.forall_iff_forall_mem.mp (by
    simp only [HandRun.p7, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p7_arg12 (V : Valuation τ sig (Elt F)) :
    StableHlo.after (HandRun.p7 (F := F)) V (Proc.devRef .tc main_arg12) = V (Proc.devRef .tc main_arg12) :=
  StableHlo.after_of_forall_not_mem (b := Proc.devRef .tc main_arg12) _ _ (List.forall_iff_forall_mem.mp (by
    simp only [HandRun.p7, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p7_arg13 (V : Valuation τ sig (Elt F)) :
    StableHlo.after (HandRun.p7 (F := F)) V (Proc.devRef .tc main_arg13) = V (Proc.devRef .tc main_arg13) :=
  StableHlo.after_of_forall_not_mem (b := Proc.devRef .tc main_arg13) _ _ (List.forall_iff_forall_mem.mp (by
    simp only [HandRun.p7, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p7_arg14 (V : Valuation τ sig (Elt F)) :
    StableHlo.after (HandRun.p7 (F := F)) V (Proc.devRef .tc main_arg14) = V (Proc.devRef .tc main_arg14) :=
  StableHlo.after_of_forall_not_mem (b := Proc.devRef .tc main_arg14) _ _ (List.forall_iff_forall_mem.mp (by
    simp only [HandRun.p7, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

/-! ## Piece 8 writes no argument array -/

theorem keep_p8_arg0 (V : Valuation τ sig (Elt F)) :
    StableHlo.after (HandRun.p8 (F := F)) V (Proc.devRef .tc main_arg0) = V (Proc.devRef .tc main_arg0) :=
  StableHlo.after_of_forall_not_mem (b := Proc.devRef .tc main_arg0) _ _ (List.forall_iff_forall_mem.mp (by
    simp only [HandRun.p8, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p8_arg1 (V : Valuation τ sig (Elt F)) :
    StableHlo.after (HandRun.p8 (F := F)) V (Proc.devRef .tc main_arg1) = V (Proc.devRef .tc main_arg1) :=
  StableHlo.after_of_forall_not_mem (b := Proc.devRef .tc main_arg1) _ _ (List.forall_iff_forall_mem.mp (by
    simp only [HandRun.p8, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p8_arg2 (V : Valuation τ sig (Elt F)) :
    StableHlo.after (HandRun.p8 (F := F)) V (Proc.devRef .tc main_arg2) = V (Proc.devRef .tc main_arg2) :=
  StableHlo.after_of_forall_not_mem (b := Proc.devRef .tc main_arg2) _ _ (List.forall_iff_forall_mem.mp (by
    simp only [HandRun.p8, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p8_arg3 (V : Valuation τ sig (Elt F)) :
    StableHlo.after (HandRun.p8 (F := F)) V (Proc.devRef .tc main_arg3) = V (Proc.devRef .tc main_arg3) :=
  StableHlo.after_of_forall_not_mem (b := Proc.devRef .tc main_arg3) _ _ (List.forall_iff_forall_mem.mp (by
    simp only [HandRun.p8, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p8_arg4 (V : Valuation τ sig (Elt F)) :
    StableHlo.after (HandRun.p8 (F := F)) V (Proc.devRef .tc main_arg4) = V (Proc.devRef .tc main_arg4) :=
  StableHlo.after_of_forall_not_mem (b := Proc.devRef .tc main_arg4) _ _ (List.forall_iff_forall_mem.mp (by
    simp only [HandRun.p8, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p8_arg5 (V : Valuation τ sig (Elt F)) :
    StableHlo.after (HandRun.p8 (F := F)) V (Proc.devRef .tc main_arg5) = V (Proc.devRef .tc main_arg5) :=
  StableHlo.after_of_forall_not_mem (b := Proc.devRef .tc main_arg5) _ _ (List.forall_iff_forall_mem.mp (by
    simp only [HandRun.p8, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p8_arg6 (V : Valuation τ sig (Elt F)) :
    StableHlo.after (HandRun.p8 (F := F)) V (Proc.devRef .tc main_arg6) = V (Proc.devRef .tc main_arg6) :=
  StableHlo.after_of_forall_not_mem (b := Proc.devRef .tc main_arg6) _ _ (List.forall_iff_forall_mem.mp (by
    simp only [HandRun.p8, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p8_arg7 (V : Valuation τ sig (Elt F)) :
    StableHlo.after (HandRun.p8 (F := F)) V (Proc.devRef .tc main_arg7) = V (Proc.devRef .tc main_arg7) :=
  StableHlo.after_of_forall_not_mem (b := Proc.devRef .tc main_arg7) _ _ (List.forall_iff_forall_mem.mp (by
    simp only [HandRun.p8, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p8_arg8 (V : Valuation τ sig (Elt F)) :
    StableHlo.after (HandRun.p8 (F := F)) V (Proc.devRef .tc main_arg8) = V (Proc.devRef .tc main_arg8) :=
  StableHlo.after_of_forall_not_mem (b := Proc.devRef .tc main_arg8) _ _ (List.forall_iff_forall_mem.mp (by
    simp only [HandRun.p8, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p8_arg9 (V : Valuation τ sig (Elt F)) :
    StableHlo.after (HandRun.p8 (F := F)) V (Proc.devRef .tc main_arg9) = V (Proc.devRef .tc main_arg9) :=
  StableHlo.after_of_forall_not_mem (b := Proc.devRef .tc main_arg9) _ _ (List.forall_iff_forall_mem.mp (by
    simp only [HandRun.p8, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p8_arg10 (V : Valuation τ sig (Elt F)) :
    StableHlo.after (HandRun.p8 (F := F)) V (Proc.devRef .tc main_arg10) = V (Proc.devRef .tc main_arg10) :=
  StableHlo.after_of_forall_not_mem (b := Proc.devRef .tc main_arg10) _ _ (List.forall_iff_forall_mem.mp (by
    simp only [HandRun.p8, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p8_arg11 (V : Valuation τ sig (Elt F)) :
    StableHlo.after (HandRun.p8 (F := F)) V (Proc.devRef .tc main_arg11) = V (Proc.devRef .tc main_arg11) :=
  StableHlo.after_of_forall_not_mem (b := Proc.devRef .tc main_arg11) _ _ (List.forall_iff_forall_mem.mp (by
    simp only [HandRun.p8, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p8_arg12 (V : Valuation τ sig (Elt F)) :
    StableHlo.after (HandRun.p8 (F := F)) V (Proc.devRef .tc main_arg12) = V (Proc.devRef .tc main_arg12) :=
  StableHlo.after_of_forall_not_mem (b := Proc.devRef .tc main_arg12) _ _ (List.forall_iff_forall_mem.mp (by
    simp only [HandRun.p8, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p8_arg13 (V : Valuation τ sig (Elt F)) :
    StableHlo.after (HandRun.p8 (F := F)) V (Proc.devRef .tc main_arg13) = V (Proc.devRef .tc main_arg13) :=
  StableHlo.after_of_forall_not_mem (b := Proc.devRef .tc main_arg13) _ _ (List.forall_iff_forall_mem.mp (by
    simp only [HandRun.p8, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p8_arg14 (V : Valuation τ sig (Elt F)) :
    StableHlo.after (HandRun.p8 (F := F)) V (Proc.devRef .tc main_arg14) = V (Proc.devRef .tc main_arg14) :=
  StableHlo.after_of_forall_not_mem (b := Proc.devRef .tc main_arg14) _ _ (List.forall_iff_forall_mem.mp (by
    simp only [HandRun.p8, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

/-! ## Piece 9 writes no argument array -/

theorem keep_p9_arg0 (V : Valuation τ sig (Elt F)) :
    StableHlo.after (HandRun.p9 (F := F)) V (Proc.devRef .tc main_arg0) = V (Proc.devRef .tc main_arg0) :=
  StableHlo.after_of_forall_not_mem (b := Proc.devRef .tc main_arg0) _ _ (List.forall_iff_forall_mem.mp (by
    simp only [HandRun.p9, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p9_arg1 (V : Valuation τ sig (Elt F)) :
    StableHlo.after (HandRun.p9 (F := F)) V (Proc.devRef .tc main_arg1) = V (Proc.devRef .tc main_arg1) :=
  StableHlo.after_of_forall_not_mem (b := Proc.devRef .tc main_arg1) _ _ (List.forall_iff_forall_mem.mp (by
    simp only [HandRun.p9, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p9_arg2 (V : Valuation τ sig (Elt F)) :
    StableHlo.after (HandRun.p9 (F := F)) V (Proc.devRef .tc main_arg2) = V (Proc.devRef .tc main_arg2) :=
  StableHlo.after_of_forall_not_mem (b := Proc.devRef .tc main_arg2) _ _ (List.forall_iff_forall_mem.mp (by
    simp only [HandRun.p9, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p9_arg3 (V : Valuation τ sig (Elt F)) :
    StableHlo.after (HandRun.p9 (F := F)) V (Proc.devRef .tc main_arg3) = V (Proc.devRef .tc main_arg3) :=
  StableHlo.after_of_forall_not_mem (b := Proc.devRef .tc main_arg3) _ _ (List.forall_iff_forall_mem.mp (by
    simp only [HandRun.p9, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p9_arg4 (V : Valuation τ sig (Elt F)) :
    StableHlo.after (HandRun.p9 (F := F)) V (Proc.devRef .tc main_arg4) = V (Proc.devRef .tc main_arg4) :=
  StableHlo.after_of_forall_not_mem (b := Proc.devRef .tc main_arg4) _ _ (List.forall_iff_forall_mem.mp (by
    simp only [HandRun.p9, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p9_arg5 (V : Valuation τ sig (Elt F)) :
    StableHlo.after (HandRun.p9 (F := F)) V (Proc.devRef .tc main_arg5) = V (Proc.devRef .tc main_arg5) :=
  StableHlo.after_of_forall_not_mem (b := Proc.devRef .tc main_arg5) _ _ (List.forall_iff_forall_mem.mp (by
    simp only [HandRun.p9, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p9_arg6 (V : Valuation τ sig (Elt F)) :
    StableHlo.after (HandRun.p9 (F := F)) V (Proc.devRef .tc main_arg6) = V (Proc.devRef .tc main_arg6) :=
  StableHlo.after_of_forall_not_mem (b := Proc.devRef .tc main_arg6) _ _ (List.forall_iff_forall_mem.mp (by
    simp only [HandRun.p9, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p9_arg7 (V : Valuation τ sig (Elt F)) :
    StableHlo.after (HandRun.p9 (F := F)) V (Proc.devRef .tc main_arg7) = V (Proc.devRef .tc main_arg7) :=
  StableHlo.after_of_forall_not_mem (b := Proc.devRef .tc main_arg7) _ _ (List.forall_iff_forall_mem.mp (by
    simp only [HandRun.p9, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p9_arg8 (V : Valuation τ sig (Elt F)) :
    StableHlo.after (HandRun.p9 (F := F)) V (Proc.devRef .tc main_arg8) = V (Proc.devRef .tc main_arg8) :=
  StableHlo.after_of_forall_not_mem (b := Proc.devRef .tc main_arg8) _ _ (List.forall_iff_forall_mem.mp (by
    simp only [HandRun.p9, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p9_arg9 (V : Valuation τ sig (Elt F)) :
    StableHlo.after (HandRun.p9 (F := F)) V (Proc.devRef .tc main_arg9) = V (Proc.devRef .tc main_arg9) :=
  StableHlo.after_of_forall_not_mem (b := Proc.devRef .tc main_arg9) _ _ (List.forall_iff_forall_mem.mp (by
    simp only [HandRun.p9, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p9_arg10 (V : Valuation τ sig (Elt F)) :
    StableHlo.after (HandRun.p9 (F := F)) V (Proc.devRef .tc main_arg10) = V (Proc.devRef .tc main_arg10) :=
  StableHlo.after_of_forall_not_mem (b := Proc.devRef .tc main_arg10) _ _ (List.forall_iff_forall_mem.mp (by
    simp only [HandRun.p9, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p9_arg11 (V : Valuation τ sig (Elt F)) :
    StableHlo.after (HandRun.p9 (F := F)) V (Proc.devRef .tc main_arg11) = V (Proc.devRef .tc main_arg11) :=
  StableHlo.after_of_forall_not_mem (b := Proc.devRef .tc main_arg11) _ _ (List.forall_iff_forall_mem.mp (by
    simp only [HandRun.p9, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p9_arg12 (V : Valuation τ sig (Elt F)) :
    StableHlo.after (HandRun.p9 (F := F)) V (Proc.devRef .tc main_arg12) = V (Proc.devRef .tc main_arg12) :=
  StableHlo.after_of_forall_not_mem (b := Proc.devRef .tc main_arg12) _ _ (List.forall_iff_forall_mem.mp (by
    simp only [HandRun.p9, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p9_arg13 (V : Valuation τ sig (Elt F)) :
    StableHlo.after (HandRun.p9 (F := F)) V (Proc.devRef .tc main_arg13) = V (Proc.devRef .tc main_arg13) :=
  StableHlo.after_of_forall_not_mem (b := Proc.devRef .tc main_arg13) _ _ (List.forall_iff_forall_mem.mp (by
    simp only [HandRun.p9, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p9_arg14 (V : Valuation τ sig (Elt F)) :
    StableHlo.after (HandRun.p9 (F := F)) V (Proc.devRef .tc main_arg14) = V (Proc.devRef .tc main_arg14) :=
  StableHlo.after_of_forall_not_mem (b := Proc.devRef .tc main_arg14) _ _ (List.forall_iff_forall_mem.mp (by
    simp only [HandRun.p9, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

/-! ## Results that later pieces leave alone -/

theorem keep_p9_v223 (V : Valuation τ sig (Elt F)) :
    StableHlo.after (HandRun.p9 (F := F)) V (Proc.devRef .tc main_v223) = V (Proc.devRef .tc main_v223) :=
  StableHlo.after_of_forall_not_mem (b := Proc.devRef .tc main_v223) _ _ (List.forall_iff_forall_mem.mp (by
    simp only [HandRun.p9, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p7_v199 (V : Valuation τ sig (Elt F)) :
    StableHlo.after (HandRun.p7 (F := F)) V (Proc.devRef .tc main_v199) = V (Proc.devRef .tc main_v199) :=
  StableHlo.after_of_forall_not_mem (b := Proc.devRef .tc main_v199) _ _ (List.forall_iff_forall_mem.mp (by
    simp only [HandRun.p7, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_p8_v199 (V : Valuation τ sig (Elt F)) :
    StableHlo.after (HandRun.p8 (F := F)) V (Proc.devRef .tc main_v199) = V (Proc.devRef .tc main_v199) :=
  StableHlo.after_of_forall_not_mem (b := Proc.devRef .tc main_v199) _ _ (List.forall_iff_forall_mem.mp (by
    simp only [HandRun.p8, List.Forall, StableHlo.TRef.nullary, StableHlo.TRef.unary, StableHlo.TRef.binary, StableHlo.nullary_writes,
      StableHlo.unary_writes, StableHlo.binary_writes, StableHlo.ternary_writes, StableHlo.reshape_writes, Finset.mem_singleton]
    repeat' apply And.intro
    all_goals exact StableHlo.devRef_ne_of_ne (by decide)))

/-! ## The whole list writes no argument array -/

theorem keep_ops_arg0 (V : Valuation τ sig (Elt F)) :
    StableHlo.after (HandRun.ops (F := F)) V (Proc.devRef .tc main_arg0) = V (Proc.devRef .tc main_arg0) := by
  simp only [HandRun.ops, after_app]
  rw [keep_p9_arg0, keep_p8_arg0, keep_p7_arg0, keep_p6_arg0, keep_p5_arg0, keep_p4_arg0, keep_p3_arg0, keep_p2_arg0, keep_p1_arg0, keep_p0_arg0]

theorem keep_ops_arg1 (V : Valuation τ sig (Elt F)) :
    StableHlo.after (HandRun.ops (F := F)) V (Proc.devRef .tc main_arg1) = V (Proc.devRef .tc main_arg1) := by
  simp only [HandRun.ops, after_app]
  rw [keep_p9_arg1, keep_p8_arg1, keep_p7_arg1, keep_p6_arg1, keep_p5_arg1, keep_p4_arg1, keep_p3_arg1, keep_p2_arg1, keep_p1_arg1, keep_p0_arg1]

theorem keep_ops_arg2 (V : Valuation τ sig (Elt F)) :
    StableHlo.after (HandRun.ops (F := F)) V (Proc.devRef .tc main_arg2) = V (Proc.devRef .tc main_arg2) := by
  simp only [HandRun.ops, after_app]
  rw [keep_p9_arg2, keep_p8_arg2, keep_p7_arg2, keep_p6_arg2, keep_p5_arg2, keep_p4_arg2, keep_p3_arg2, keep_p2_arg2, keep_p1_arg2, keep_p0_arg2]

theorem keep_ops_arg3 (V : Valuation τ sig (Elt F)) :
    StableHlo.after (HandRun.ops (F := F)) V (Proc.devRef .tc main_arg3) = V (Proc.devRef .tc main_arg3) := by
  simp only [HandRun.ops, after_app]
  rw [keep_p9_arg3, keep_p8_arg3, keep_p7_arg3, keep_p6_arg3, keep_p5_arg3, keep_p4_arg3, keep_p3_arg3, keep_p2_arg3, keep_p1_arg3, keep_p0_arg3]

theorem keep_ops_arg4 (V : Valuation τ sig (Elt F)) :
    StableHlo.after (HandRun.ops (F := F)) V (Proc.devRef .tc main_arg4) = V (Proc.devRef .tc main_arg4) := by
  simp only [HandRun.ops, after_app]
  rw [keep_p9_arg4, keep_p8_arg4, keep_p7_arg4, keep_p6_arg4, keep_p5_arg4, keep_p4_arg4, keep_p3_arg4, keep_p2_arg4, keep_p1_arg4, keep_p0_arg4]

theorem keep_ops_arg5 (V : Valuation τ sig (Elt F)) :
    StableHlo.after (HandRun.ops (F := F)) V (Proc.devRef .tc main_arg5) = V (Proc.devRef .tc main_arg5) := by
  simp only [HandRun.ops, after_app]
  rw [keep_p9_arg5, keep_p8_arg5, keep_p7_arg5, keep_p6_arg5, keep_p5_arg5, keep_p4_arg5, keep_p3_arg5, keep_p2_arg5, keep_p1_arg5, keep_p0_arg5]

theorem keep_ops_arg6 (V : Valuation τ sig (Elt F)) :
    StableHlo.after (HandRun.ops (F := F)) V (Proc.devRef .tc main_arg6) = V (Proc.devRef .tc main_arg6) := by
  simp only [HandRun.ops, after_app]
  rw [keep_p9_arg6, keep_p8_arg6, keep_p7_arg6, keep_p6_arg6, keep_p5_arg6, keep_p4_arg6, keep_p3_arg6, keep_p2_arg6, keep_p1_arg6, keep_p0_arg6]

theorem keep_ops_arg7 (V : Valuation τ sig (Elt F)) :
    StableHlo.after (HandRun.ops (F := F)) V (Proc.devRef .tc main_arg7) = V (Proc.devRef .tc main_arg7) := by
  simp only [HandRun.ops, after_app]
  rw [keep_p9_arg7, keep_p8_arg7, keep_p7_arg7, keep_p6_arg7, keep_p5_arg7, keep_p4_arg7, keep_p3_arg7, keep_p2_arg7, keep_p1_arg7, keep_p0_arg7]

theorem keep_ops_arg8 (V : Valuation τ sig (Elt F)) :
    StableHlo.after (HandRun.ops (F := F)) V (Proc.devRef .tc main_arg8) = V (Proc.devRef .tc main_arg8) := by
  simp only [HandRun.ops, after_app]
  rw [keep_p9_arg8, keep_p8_arg8, keep_p7_arg8, keep_p6_arg8, keep_p5_arg8, keep_p4_arg8, keep_p3_arg8, keep_p2_arg8, keep_p1_arg8, keep_p0_arg8]

theorem keep_ops_arg9 (V : Valuation τ sig (Elt F)) :
    StableHlo.after (HandRun.ops (F := F)) V (Proc.devRef .tc main_arg9) = V (Proc.devRef .tc main_arg9) := by
  simp only [HandRun.ops, after_app]
  rw [keep_p9_arg9, keep_p8_arg9, keep_p7_arg9, keep_p6_arg9, keep_p5_arg9, keep_p4_arg9, keep_p3_arg9, keep_p2_arg9, keep_p1_arg9, keep_p0_arg9]

theorem keep_ops_arg10 (V : Valuation τ sig (Elt F)) :
    StableHlo.after (HandRun.ops (F := F)) V (Proc.devRef .tc main_arg10) = V (Proc.devRef .tc main_arg10) := by
  simp only [HandRun.ops, after_app]
  rw [keep_p9_arg10, keep_p8_arg10, keep_p7_arg10, keep_p6_arg10, keep_p5_arg10, keep_p4_arg10, keep_p3_arg10, keep_p2_arg10, keep_p1_arg10, keep_p0_arg10]

theorem keep_ops_arg11 (V : Valuation τ sig (Elt F)) :
    StableHlo.after (HandRun.ops (F := F)) V (Proc.devRef .tc main_arg11) = V (Proc.devRef .tc main_arg11) := by
  simp only [HandRun.ops, after_app]
  rw [keep_p9_arg11, keep_p8_arg11, keep_p7_arg11, keep_p6_arg11, keep_p5_arg11, keep_p4_arg11, keep_p3_arg11, keep_p2_arg11, keep_p1_arg11, keep_p0_arg11]

theorem keep_ops_arg12 (V : Valuation τ sig (Elt F)) :
    StableHlo.after (HandRun.ops (F := F)) V (Proc.devRef .tc main_arg12) = V (Proc.devRef .tc main_arg12) := by
  simp only [HandRun.ops, after_app]
  rw [keep_p9_arg12, keep_p8_arg12, keep_p7_arg12, keep_p6_arg12, keep_p5_arg12, keep_p4_arg12, keep_p3_arg12, keep_p2_arg12, keep_p1_arg12, keep_p0_arg12]

theorem keep_ops_arg13 (V : Valuation τ sig (Elt F)) :
    StableHlo.after (HandRun.ops (F := F)) V (Proc.devRef .tc main_arg13) = V (Proc.devRef .tc main_arg13) := by
  simp only [HandRun.ops, after_app]
  rw [keep_p9_arg13, keep_p8_arg13, keep_p7_arg13, keep_p6_arg13, keep_p5_arg13, keep_p4_arg13, keep_p3_arg13, keep_p2_arg13, keep_p1_arg13, keep_p0_arg13]

theorem keep_ops_arg14 (V : Valuation τ sig (Elt F)) :
    StableHlo.after (HandRun.ops (F := F)) V (Proc.devRef .tc main_arg14) = V (Proc.devRef .tc main_arg14) := by
  simp only [HandRun.ops, after_app]
  rw [keep_p9_arg14, keep_p8_arg14, keep_p7_arg14, keep_p6_arg14, keep_p5_arg14, keep_p4_arg14, keep_p3_arg14, keep_p2_arg14, keep_p1_arg14, keep_p0_arg14]

/-- The fold leaves every argument array as launched. -/
theorem ref_args_all (m : (ℓ : Loc nD τ sig) → Buf (Elt F) ℓ) (c : Dev nD) :
    StableHlo.after (HandRun.ops (F := F)) (StableHlo.launchContents m c) (Proc.devRef .tc main_arg0) = m ((c.tc : Thread nD τ).loc main_arg0)
    ∧ StableHlo.after (HandRun.ops (F := F)) (StableHlo.launchContents m c) (Proc.devRef .tc main_arg1) = m ((c.tc : Thread nD τ).loc main_arg1)
    ∧ StableHlo.after (HandRun.ops (F := F)) (StableHlo.launchContents m c) (Proc.devRef .tc main_arg2) = m ((c.tc : Thread nD τ).loc main_arg2)
    ∧ StableHlo.after (HandRun.ops (F := F)) (StableHlo.launchContents m c) (Proc.devRef .tc main_arg3) = m ((c.tc : Thread nD τ).loc main_arg3)
    ∧ StableHlo.after (HandRun.ops (F := F)) (StableHlo.launchContents m c) (Proc.devRef .tc main_arg4) = m ((c.tc : Thread nD τ).loc main_arg4)
    ∧ StableHlo.after (HandRun.ops (F := F)) (StableHlo.launchContents m c) (Proc.devRef .tc main_arg5) = m ((c.tc : Thread nD τ).loc main_arg5)
    ∧ StableHlo.after (HandRun.ops (F := F)) (StableHlo.launchContents m c) (Proc.devRef .tc main_arg6) = m ((c.tc : Thread nD τ).loc main_arg6)
    ∧ StableHlo.after (HandRun.ops (F := F)) (StableHlo.launchContents m c) (Proc.devRef .tc main_arg7) = m ((c.tc : Thread nD τ).loc main_arg7)
    ∧ StableHlo.after (HandRun.ops (F := F)) (StableHlo.launchContents m c) (Proc.devRef .tc main_arg8) = m ((c.tc : Thread nD τ).loc main_arg8)
    ∧ StableHlo.after (HandRun.ops (F := F)) (StableHlo.launchContents m c) (Proc.devRef .tc main_arg9) = m ((c.tc : Thread nD τ).loc main_arg9)
    ∧ StableHlo.after (HandRun.ops (F := F)) (StableHlo.launchContents m c) (Proc.devRef .tc main_arg10) = m ((c.tc : Thread nD τ).loc main_arg10)
    ∧ StableHlo.after (HandRun.ops (F := F)) (StableHlo.launchContents m c) (Proc.devRef .tc main_arg11) = m ((c.tc : Thread nD τ).loc main_arg11)
    ∧ StableHlo.after (HandRun.ops (F := F)) (StableHlo.launchContents m c) (Proc.devRef .tc main_arg12) = m ((c.tc : Thread nD τ).loc main_arg12)
    ∧ StableHlo.after (HandRun.ops (F := F)) (StableHlo.launchContents m c) (Proc.devRef .tc main_arg13) = m ((c.tc : Thread nD τ).loc main_arg13)
    ∧ StableHlo.after (HandRun.ops (F := F)) (StableHlo.launchContents m c) (Proc.devRef .tc main_arg14) = m ((c.tc : Thread nD τ).loc main_arg14) :=
  ⟨keep_ops_arg0 _, keep_ops_arg1 _, keep_ops_arg2 _, keep_ops_arg3 _, keep_ops_arg4 _, keep_ops_arg5 _, keep_ops_arg6 _, keep_ops_arg7 _, keep_ops_arg8 _, keep_ops_arg9 _, keep_ops_arg10 _, keep_ops_arg11 _, keep_ops_arg12 _, keep_ops_arg13 _, keep_ops_arg14 _⟩

end Cert.ReferenceIdeal.Args

end
-- ==== Proof.RValue.lean ====
/-
  The reference's two results as the network's value on the argument arrays: the fold of its 306 operations read
  stage by stage (projections, three layers, the two normalisations); no operation writes an argument array.
-/
import proofs.«165431_j6949257085118_1_alg».proof.Proof.RRun
import proofs.«165431_j6949257085118_1_alg».proof.Proof.RState
import proofs.«165431_j6949257085118_1_alg».proof.Proof.RStageA
import proofs.«165431_j6949257085118_1_alg».proof.Proof.RStageL0
import proofs.«165431_j6949257085118_1_alg».proof.Proof.RStageL1
import proofs.«165431_j6949257085118_1_alg».proof.Proof.RStageL2
import proofs.«165431_j6949257085118_1_alg».proof.Proof.RStageN
import proofs.«165431_j6949257085118_1_alg».proof.Proof.RArgs

noncomputable section

namespace Cert.ReferenceIdeal.Chain

open Cert.ReferenceIdeal Cert.ReferenceIdeal.Gen Cert.ReferenceIdeal.Pieces Idealize.ShloMosaic Idealize.ShloMosaic.TcCoe Idealize.ShloMosaic.ValueIdx Idealize.SL.Sem Cert.Spec Cert.ReferenceIdeal.Stage

/-! ## Folding over two lists in a row, and the argument arrays the stages read -/

/-- The fold over a concatenation is the fold over the second list from the fold over the first. -/
private theorem after_app (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => rw [List.cons_append, StableHlo.after_cons, StableHlo.after_cons, ih]

/-- Two buffer contents hold the same nine argument arrays that the layers and the normalisations read: the edges'
    endpoints, the stacked layer parameters, and the normalisations' scales and shifts. -/
private def Agree (W V : Valuation τ sig (Elt Ideal)) : Prop :=
  W (Proc.devRef .tc main_arg2) = V (Proc.devRef .tc main_arg2)
    ∧ W (Proc.devRef .tc main_arg3) = V (Proc.devRef .tc main_arg3)
    ∧ W (Proc.devRef .tc main_arg8) = V (Proc.devRef .tc main_arg8)
    ∧ W (Proc.devRef .tc main_arg9) = V (Proc.devRef .tc main_arg9)
    ∧ W (Proc.devRef .tc main_arg10) = V (Proc.devRef .tc main_arg10)
    ∧ W (Proc.devRef .tc main_arg11) = V (Proc.devRef .tc main_arg11)
    ∧ W (Proc.devRef .tc main_arg12) = V (Proc.devRef .tc main_arg12)
    ∧ W (Proc.devRef .tc main_arg13) = V (Proc.devRef .tc main_arg13)
    ∧ W (Proc.devRef .tc main_arg14) = V (Proc.devRef .tc main_arg14)

private theorem Agree.trans {X W V : Valuation τ sig (Elt Ideal)} (h : Agree X W) (g : Agree W V) : Agree X V := by
  obtain ⟨h2, h3, h8, h9, h10, h11, h12, h13, h14⟩ := h
  obtain ⟨g2, g3, g8, g9, g10, g11, g12, g13, g14⟩ := g
  exact ⟨h2.trans g2, h3.trans g3, h8.trans g8, h9.trans g9, h10.trans g10, h11.trans g11, h12.trans g12, h13.trans g13, h14.trans g14⟩

/-- Two lists that each leave the nine arrays alone leave them alone when run in a row. -/
private theorem agree_app {l₁ l₂ : List (HloOp τ sig (Elt Ideal))}
    (h₁ : ∀ V, Agree (StableHlo.after l₁ V) V) (h₂ : ∀ V, Agree (StableHlo.after l₂ V) V) (V : Valuation τ sig (Elt Ideal)) :
    Agree (StableHlo.after (l₁ ++ l₂) V) V := by
  rw [after_app]
  exact (h₂ _).trans (h₁ V)

private theorem agree_p0 (V : Valuation τ sig (Elt Ideal)) : Agree (StableHlo.after (HandRun.p0 (F := Ideal)) V) V :=
  ⟨Args.keep_p0_arg2 V, Args.keep_p0_arg3 V, Args.keep_p0_arg8 V, Args.keep_p0_arg9 V, Args.keep_p0_arg10 V,
    Args.keep_p0_arg11 V, Args.keep_p0_arg12 V, Args.keep_p0_arg13 V, Args.keep_p0_arg14 V⟩
private theorem agree_p1 (V : Valuation τ sig (Elt Ideal)) : Agree (StableHlo.after (HandRun.p1 (F := Ideal)) V) V :=
  ⟨Args.keep_p1_arg2 V, Args.keep_p1_arg3 V, Args.keep_p1_arg8 V, Args.keep_p1_arg9 V, Args.keep_p1_arg10 V,
    Args.keep_p1_arg11 V, Args.keep_p1_arg12 V, Args.keep_p1_arg13 V, Args.keep_p1_arg14 V⟩
private theorem agree_p2 (V : Valuation τ sig (Elt Ideal)) : Agree (StableHlo.after (HandRun.p2 (F := Ideal)) V) V :=
  ⟨Args.keep_p2_arg2 V, Args.keep_p2_arg3 V, Args.keep_p2_arg8 V, Args.keep_p2_arg9 V, Args.keep_p2_arg10 V,
    Args.keep_p2_arg11 V, Args.keep_p2_arg12 V, Args.keep_p2_arg13 V, Args.keep_p2_arg14 V⟩
private theorem agree_p3 (V : Valuation τ sig (Elt Ideal)) : Agree (StableHlo.after (HandRun.p3 (F := Ideal)) V) V :=
  ⟨Args.keep_p3_arg2 V, Args.keep_p3_arg3 V, Args.keep_p3_arg8 V, Args.keep_p3_arg9 V, Args.keep_p3_arg10 V,
    Args.keep_p3_arg11 V, Args.keep_p3_arg12 V, Args.keep_p3_arg13 V, Args.keep_p3_arg14 V⟩
private theorem agree_p4 (V : Valuation τ sig (Elt Ideal)) : Agree (StableHlo.after (HandRun.p4 (F := Ideal)) V) V :=
  ⟨Args.keep_p4_arg2 V, Args.keep_p4_arg3 V, Args.keep_p4_arg8 V, Args.keep_p4_arg9 V, Args.keep_p4_arg10 V,
    Args.keep_p4_arg11 V, Args.keep_p4_arg12 V, Args.keep_p4_arg13 V, Args.keep_p4_arg14 V⟩
private theorem agree_p5 (V : Valuation τ sig (Elt Ideal)) : Agree (StableHlo.after (HandRun.p5 (F := Ideal)) V) V :=
  ⟨Args.keep_p5_arg2 V, Args.keep_p5_arg3 V, Args.keep_p5_arg8 V, Args.keep_p5_arg9 V, Args.keep_p5_arg10 V,
    Args.keep_p5_arg11 V, Args.keep_p5_arg12 V, Args.keep_p5_arg13 V, Args.keep_p5_arg14 V⟩
private theorem agree_p6 (V : Valuation τ sig (Elt Ideal)) : Agree (StableHlo.after (HandRun.p6 (F := Ideal)) V) V :=
  ⟨Args.keep_p6_arg2 V, Args.keep_p6_arg3 V, Args.keep_p6_arg8 V, Args.keep_p6_arg9 V, Args.keep_p6_arg10 V,
    Args.keep_p6_arg11 V, Args.keep_p6_arg12 V, Args.keep_p6_arg13 V, Args.keep_p6_arg14 V⟩
private theorem agree_p7 (V : Valuation τ sig (Elt Ideal)) : Agree (StableHlo.after (HandRun.p7 (F := Ideal)) V) V :=
  ⟨Args.keep_p7_arg2 V, Args.keep_p7_arg3 V, Args.keep_p7_arg8 V, Args.keep_p7_arg9 V, Args.keep_p7_arg10 V,
    Args.keep_p7_arg11 V, Args.keep_p7_arg12 V, Args.keep_p7_arg13 V, Args.keep_p7_arg14 V⟩
private theorem agree_p8 (V : Valuation τ sig (Elt Ideal)) : Agree (StableHlo.after (HandRun.p8 (F := Ideal)) V) V :=
  ⟨Args.keep_p8_arg2 V, Args.keep_p8_arg3 V, Args.keep_p8_arg8 V, Args.keep_p8_arg9 V, Args.keep_p8_arg10 V,
    Args.keep_p8_arg11 V, Args.keep_p8_arg12 V, Args.keep_p8_arg13 V, Args.keep_p8_arg14 V⟩

variable (m : (ℓ : Loc nD τ sig) → Buf (Elt Ideal) ℓ)

/-! ## The contents after each stage -/

/-- The launch contents on core c. -/
private def C0 (c : Dev nD) : Valuation τ sig (Elt Ideal) := StableHlo.launchContents m c
/-- After the two projections. -/
private def C1 (c : Dev nD) : Valuation τ sig (Elt Ideal) := StableHlo.after (HandRun.p0 (F := Ideal)) (C0 m c)
/-- After layer 0. -/
private def C2 (c : Dev nD) : Valuation τ sig (Elt Ideal) := StableHlo.after (HandRun.p1 (F := Ideal) ++ HandRun.p2) (C1 m c)
/-- After layer 1. -/
private def C3 (c : Dev nD) : Valuation τ sig (Elt Ideal) := StableHlo.after (HandRun.p3 (F := Ideal) ++ HandRun.p4) (C2 m c)
/-- After layer 2. -/
private def C4 (c : Dev nD) : Valuation τ sig (Elt Ideal) := StableHlo.after (HandRun.p5 (F := Ideal) ++ HandRun.p6) (C3 m c)
/-- After the users' normalisation. -/
private def C5 (c : Dev nD) : Valuation τ sig (Elt Ideal) := StableHlo.after (HandRun.p7 (F := Ideal) ++ HandRun.p8) (C4 m c)

/-- The launch contents at a reference are the launch memory there. -/
private theorem C0_at (c : Dev nD) (b : Ref sig .tc) : C0 m c (Proc.devRef .tc b) = m ((c.tc : Thread nD τ).loc b) := rfl

/-- The whole fold is the last normalisation's fold from the contents after the users' normalisation. -/
private theorem fold_eq (c : Dev nD) :
    StableHlo.after (HandRun.ops (F := Ideal)) (StableHlo.launchContents m c) = StableHlo.after (HandRun.p9 (F := Ideal)) (C5 m c) := by
  unfold C5 C4 C3 C2 C1 C0
  simp only [HandRun.ops, after_app]

private theorem agree1 (c : Dev nD) : Agree (C1 m c) (C0 m c) := agree_p0 _
private theorem agree2 (c : Dev nD) : Agree (C2 m c) (C0 m c) := (agree_app agree_p1 agree_p2 _).trans (agree1 m c)
private theorem agree3 (c : Dev nD) : Agree (C3 m c) (C0 m c) := (agree_app agree_p3 agree_p4 _).trans (agree2 m c)
private theorem agree4 (c : Dev nD) : Agree (C4 m c) (C0 m c) := (agree_app agree_p5 agree_p6 _).trans (agree3 m c)
private theorem agree5 (c : Dev nD) : Agree (C5 m c) (C0 m c) := (agree_app agree_p7 agree_p8 _).trans (agree4 m c)

/-! ## The rows after each stage -/

private theorem rows1 (c : Dev nD) :
    C1 m c (Proc.devRef .tc main_v3) = (h0 m c).1 ∧ C1 m c (Proc.devRef .tc main_v7) = (h0 m c).2 :=
  stageA (C0 m c)

private theorem rows2 (c : Dev nD) :
    C2 m c (Proc.devRef .tc main_v70) = (h1 m c).1 ∧ C2 m c (Proc.devRef .tc main_v71) = (h1 m c).2 := by
  obtain ⟨e2, e3, e8, e9, e10, -⟩ := agree1 m c
  obtain ⟨u, b⟩ := rows1 m c
  have s := stageL0 (C1 m c)
  rw [e2, e3, e8, e9, e10, u, b] at s
  exact s

private theorem rows3 (c : Dev nD) :
    C3 m c (Proc.devRef .tc main_v134) = (h2 m c).1 ∧ C3 m c (Proc.devRef .tc main_v135) = (h2 m c).2 := by
  obtain ⟨e2, e3, e8, e9, e10, -⟩ := agree2 m c
  obtain ⟨u, b⟩ := rows2 m c
  have s := stageL1 (C2 m c)
  rw [e2, e3, e8, e9, e10, u, b] at s
  exact s

private theorem rows4 (c : Dev nD) :
    C4 m c (Proc.devRef .tc main_v198) = (h3 m c).1 ∧ C4 m c (Proc.devRef .tc main_v199) = (h3 m c).2 := by
  obtain ⟨e2, e3, e8, e9, e10, -⟩ := agree3 m c
  obtain ⟨u, b⟩ := rows3 m c
  have s := stageL2 (C3 m c)
  rw [e2, e3, e8, e9, e10, u, b] at s
  exact s

/-- The books' rows of the last layer are still in place after the users' normalisation. -/
private theorem books5 (c : Dev nD) : C5 m c (Proc.devRef .tc main_v199) = (h3 m c).2 := by
  unfold C5
  rw [after_app, Args.keep_p8_v199, Args.keep_p7_v199]
  exact (rows4 m c).2

/-- The users' normalised rows, after the users' normalisation. -/
private theorem users5 (c : Dev nD) :
    C5 m c (Proc.devRef .tc main_v223)
      = Spec.lnorm (h3 m c).1 (rowMat (m ((c.tc : Thread nD τ).loc main_arg11))) (rowMat (m ((c.tc : Thread nD τ).loc main_arg12))) := by
  obtain ⟨-, -, -, -, -, e11, e12, -⟩ := agree4 m c
  have s := stageNu (C4 m c)
  rw [e11, e12, (rows4 m c).1] at s
  exact s

/-- The fold of all 306 operations over the launch contents, read at the two results. -/
theorem ref_value (c : Dev nD) :
    StableHlo.after (HandRun.ops (F := Ideal)) (StableHlo.launchContents m c) (Proc.devRef .tc main_v223)
        = Spec.lnorm (h3 m c).1 (rowMat (m ((c.tc : Thread nD τ).loc main_arg11))) (rowMat (m ((c.tc : Thread nD τ).loc main_arg12)))
    ∧ StableHlo.after (HandRun.ops (F := Ideal)) (StableHlo.launchContents m c) (Proc.devRef .tc main_v247)
        = Spec.lnorm (h3 m c).2 (rowMat (m ((c.tc : Thread nD τ).loc main_arg13))) (rowMat (m ((c.tc : Thread nD τ).loc main_arg14))) := by
  rw [fold_eq]
  constructor
  · rw [Args.keep_p9_v223]
    exact users5 m c
  · obtain ⟨-, -, -, -, -, -, -, e13, e14⟩ := agree5 m c
    have s := stageNb (C5 m c)
    rw [e13, e14, books5 m c] at s
    exact s

/-- The fold leaves every argument array as launched. -/
theorem ref_args (c : Dev nD) :
    StableHlo.after (HandRun.ops (F := Ideal)) (StableHlo.launchContents m c) (Proc.devRef .tc main_arg0) = m ((c.tc : Thread nD τ).loc main_arg0)
    ∧ StableHlo.after (HandRun.ops (F := Ideal)) (StableHlo.launchContents m c) (Proc.devRef .tc main_arg1) = m ((c.tc : Thread nD τ).loc main_arg1)
    ∧ StableHlo.after (HandRun.ops (F := Ideal)) (StableHlo.launchContents m c) (Proc.devRef .tc main_arg2) = m ((c.tc : Thread nD τ).loc main_arg2)
    ∧ StableHlo.after (HandRun.ops (F := Ideal)) (StableHlo.launchContents m c) (Proc.devRef .tc main_arg3) = m ((c.tc : Thread nD τ).loc main_arg3)
    ∧ StableHlo.after (HandRun.ops (F := Ideal)) (StableHlo.launchContents m c) (Proc.devRef .tc main_arg4) = m ((c.tc : Thread nD τ).loc main_arg4)
    ∧ StableHlo.after (HandRun.ops (F := Ideal)) (StableHlo.launchContents m c) (Proc.devRef .tc main_arg5) = m ((c.tc : Thread nD τ).loc main_arg5)
    ∧ StableHlo.after (HandRun.ops (F := Ideal)) (StableHlo.launchContents m c) (Proc.devRef .tc main_arg6) = m ((c.tc : Thread nD τ).loc main_arg6)
    ∧ StableHlo.after (HandRun.ops (F := Ideal)) (StableHlo.launchContents m c) (Proc.devRef .tc main_arg7) = m ((c.tc : Thread nD τ).loc main_arg7)
    ∧ StableHlo.after (HandRun.ops (F := Ideal)) (StableHlo.launchContents m c) (Proc.devRef .tc main_arg8) = m ((c.tc : Thread nD τ).loc main_arg8)
    ∧ StableHlo.after (HandRun.ops (F := Ideal)) (StableHlo.launchContents m c) (Proc.devRef .tc main_arg9) = m ((c.tc : Thread nD τ).loc main_arg9)
    ∧ StableHlo.after (HandRun.ops (F := Ideal)) (StableHlo.launchContents m c) (Proc.devRef .tc main_arg10) = m ((c.tc : Thread nD τ).loc main_arg10)
    ∧ StableHlo.after (HandRun.ops (F := Ideal)) (StableHlo.launchContents m c) (Proc.devRef .tc main_arg11) = m ((c.tc : Thread nD τ).loc main_arg11)
    ∧ StableHlo.after (HandRun.ops (F := Ideal)) (StableHlo.launchContents m c) (Proc.devRef .tc main_arg12) = m ((c.tc : Thread nD τ).loc main_arg12)
    ∧ StableHlo.after (HandRun.ops (F := Ideal)) (StableHlo.launchContents m c) (Proc.devRef .tc main_arg13) = m ((c.tc : Thread nD τ).loc main_arg13)
    ∧ StableHlo.after (HandRun.ops (F := Ideal)) (StableHlo.launchContents m c) (Proc.devRef .tc main_arg14) = m ((c.tc : Thread nD τ).loc main_arg14) :=
  Args.ref_args_all m c

end Cert.ReferenceIdeal.Chain

end
-- ==== Proof.PreIdx.lean ====
/-
  What the precondition says of the edge endpoints: every endpoint is non-negative, so reading it the way python
  reads an index (a negative one counted from the end) changes nothing.
-/
import proofs.«165431_j6949257085118_1_alg».proof.Proof.Gen.Pre_finite_inputs
import proofs.«165431_j6949257085118_1_alg».proof.Proof.KPieces
import Idealize.ShloMosaic.Lib.ReduceAll
import Idealize.ShloMosaic.Lib.StableHlo.Predicate

noncomputable section

namespace Cert.PreIdx

open Idealize.ShloMosaic Cert.Spec

/-- Signed "not below" excludes signed "below": the two comparisons of the same pair of words are complementary. -/
private theorem slt_eq_zero_of_sge {x y : BitVec 32} (h : IntOp.cmpi .sge x y = 1#1) : IntOp.cmpi .slt x y = 0#1 := by
  have h1 : BitVec.ofBool (y.sle x) = 1#1 := h
  show BitVec.ofBool (x.slt y) = 0#1
  rw [StableHlo.Predicate.ofBool_eq_one_iff] at h1
  simp only [BitVec.sle, decide_eq_true_eq] at h1
  have h2 : ¬ x.toInt < y.toInt := by omega
  simp only [BitVec.slt, decide_eq_false h2]
  rfl

/-- An index array all of whose entries are non-negative is fixed by the reading that counts a negative index
    from the end, whatever the length that is added to a negative entry. -/
private theorem wrap_fixed (i : IVec Cert.KernelIdeal.S1500000 32) (n : IVec Cert.KernelIdeal.S1500000 32)
    (z : IVec Cert.KernelIdeal.S1500000 32) (hz : ∀ e, z e = 0#32)
    (hi : ∀ e, IntOp.cmpi .sge (i e) 0#32 = 1#1) :
    select (cmpi .slt i z) (addi i n) i = i := by
  funext e
  show Scalar.select (IntOp.cmpi .slt (i e) (z e)) (addi i n e) (i e) = i e
  rw [hz e, slt_eq_zero_of_sge (hi e), ValueIdx.select_zero]

open Cert.Pre_finite_inputs in
/-- Under the precondition both endpoint arrays are fixed by python's index reading. -/
theorem wrap_of_pre (a0 : FVec Ideal S150000x64 .f32) (a1 : FVec Ideal S75000x128 .f32) (a2 a3 : IVec S1500000 32) (a4 : FVec Ideal S64x128 .f32) (a5 : FVec Ideal S128 .f32) (a6 : FVec Ideal S128x128 .f32) (a7 : FVec Ideal S128 .f32) (a8 : FVec Ideal S3x128x128 .f32) (a9 : FVec Ideal S3x128 .f32) (a10 : FVec Ideal S3x128x128 .f32) (a11 a12 a13 a14 : FVec Ideal S128 .f32)
    (h : Cert.Pre_finite_inputs.fn (F := Ideal) a0 a1 a2 a3 a4 a5 a6 a7 a8 a9 a10 a11 a12 a13 a14 = fun _ => 1#1) :
    Cert.KernelIdeal.Pieces.wrapU a2 = a2 ∧ Cert.KernelIdeal.Pieces.wrapB a3 = a3 := by
  -- the predicate is a chain of "and"s; its last two links are the two "all endpoints ≥ 0" tests
  have h0 := congrFun h ValueIdx.ix0
  obtain ⟨v48, v49, v50, e3⟩ : ∃ v48 v49 v50,
      Cert.Pre_finite_inputs.fn (F := Ideal) a0 a1 a2 a3 a4 a5 a6 a7 a8 a9 a10 a11 a12 a13 a14
        = fn_part3 (F := Ideal) a2 a3 a13 a14 v48 v49 v50 := ⟨_, _, _, rfl⟩
  obtain ⟨v63, e4⟩ : ∃ v63, fn_part3 (F := Ideal) a2 a3 a13 a14 v48 v49 v50
      = andi (andi v63
          (Host.reduce IntOp.andi (cmpi .sge a2 (broadcastInDim S1500000 ![] Facts.bcast_S_S1500000 (constantI S_ 32 0#32)))
            (constantI S_ 1 1#1) Facts.reducesTo_S1500000_S_d0 Facts.h_S_))
          (Host.reduce IntOp.andi (cmpi .sge a3 (broadcastInDim S1500000 ![] Facts.bcast_S_S1500000 (constantI S_ 32 0#32)))
            (constantI S_ 1 1#1) Facts.reducesTo_S1500000_S_d0 Facts.h_S_) := ⟨_, rfl⟩
  rw [e3, e4] at h0
  obtain ⟨h12, h3⟩ := IntOp.andi_eq_one.1 h0
  obtain ⟨_, h2⟩ := IntOp.andi_eq_one.1 h12
  haveI : Subsingleton S_.Idx := ⟨fun a b => funext fun d => d.elim0⟩
  have A2 : ∀ e, IntOp.cmpi .sge (a2 e) 0#32 = 1#1 := fun e => Host.reduce_andi_all _ _ _ _ _ h2 e
  have A3 : ∀ e, IntOp.cmpi .sge (a3 e) 0#32 = 1#1 := fun e => Host.reduce_andi_all _ _ _ _ _ h3 e
  exact ⟨wrap_fixed a2 _ _ (fun _ => rfl) A2, wrap_fixed a3 _ _ (fun _ => rfl) A3⟩

end Cert.PreIdx

end
-- ==== Proof.Bridge.lean ====
/-
  The two programs compute one network. Written over the same argument arrays, the kernel program's stage terms and the
  reference's differ in two places only: each program names its own copies of the shapes and dimension records (equal
  by unfolding), and the kernel program sums a neighbour's row into the segment named by the endpoint as python reads
  an index (a negative one counted from the end), the reference into the segment the raw endpoint names. Under the
  precondition no endpoint is negative, so the two readings are the same array.
-/
import proofs.«165431_j6949257085118_1_alg».proof.Proof.KState
import proofs.«165431_j6949257085118_1_alg».proof.Proof.RState
import proofs.«165431_j6949257085118_1_alg».proof.Proof.PreIdx

noncomputable section

namespace Cert.Bridge

open Idealize.ShloMosaic Idealize.ShloMosaic.TcCoe Idealize.SL.Sem Cert.Spec

/-! ## The two programs' pieces are the same functions -/

theorem wrapU_eq : Cert.ReferenceIdeal.Pieces.wrapU = Cert.KernelIdeal.Pieces.wrapU := rfl
theorem wrapB_eq : Cert.ReferenceIdeal.Pieces.wrapB = Cert.KernelIdeal.Pieces.wrapB := rfl
theorem aggBook_eq : Cert.ReferenceIdeal.Pieces.aggBook = Cert.KernelIdeal.Pieces.aggBook := rfl
theorem aggUser_eq : Cert.ReferenceIdeal.Pieces.aggUser = Cert.KernelIdeal.Pieces.aggUser := rfl
theorem weights0_eq : Cert.ReferenceIdeal.Pieces.weights0 = Cert.KernelIdeal.Pieces.weights0 := rfl
theorem weights1_eq : Cert.ReferenceIdeal.Pieces.weights1 = Cert.KernelIdeal.Pieces.weights1 := rfl
theorem weights2_eq : Cert.ReferenceIdeal.Pieces.weights2 = Cert.KernelIdeal.Pieces.weights2 := rfl

/-! ## The rows after the last layer agree -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From launch memories that agree on the arguments and satisfy the precondition, both programs reach the same rows
    after the third layer. -/
theorem h3_eq (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) = fun _ => 1#1)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Chain.h3 m' c = Cert.KernelIdeal.Chain.h3 m c := by
  obtain ⟨e0, e1, e2, e3, e4, e5, e6, e7, e8, e9, e10, -, -, -, -⟩ := hagree
  obtain ⟨w2, w3⟩ := Cert.PreIdx.wrap_of_pre _ _ _ _ _ _ _ _ _ _ _ _ _ _ _ hpre
  unfold Cert.ReferenceIdeal.Chain.h3 Cert.ReferenceIdeal.Chain.h2 Cert.ReferenceIdeal.Chain.h1 Cert.ReferenceIdeal.Chain.h0
    Cert.ReferenceIdeal.Chain.aggB Cert.ReferenceIdeal.Chain.aggU
    Cert.KernelIdeal.Chain.h3 Cert.KernelIdeal.Chain.h2 Cert.KernelIdeal.Chain.h1 Cert.KernelIdeal.Chain.h0
    Cert.KernelIdeal.Chain.aggB Cert.KernelIdeal.Chain.aggU
  rw [e0, e1, e2, e3, e4, e5, e6, e7, e8, e9, e10, wrapU_eq, wrapB_eq, aggBook_eq, aggUser_eq, weights0_eq, weights1_eq, weights2_eq, w2, w3]

end Cert.Bridge

end
-- ==== Proof.lean ====
/-
  Two programs for one three-layer message-passing network on a bipartite graph of 150000 users and 75000 books
  joined by 1500000 edges: a program of ten row-blocked regions among stretches of whole-array operations, and a
  reference of 306 whole-array operations. Both project the raw node features to rows of 128 numbers, three times replace
  every node's row by max(mean of the neighbours' rows · Wl + own row · Wr + bl, 0), and normalise every row.

  Read on the extended reals the two programs are the same function of the argument arrays (`Spec.model`): the blocked
  program's matrix products into a zero accumulator and the reference's whole products are the same sums, its rounding
  of the operands to a shorter format is the identity, its sum (mean·Wl + own·Wr) + bl is the reference's
  (mean·Wl + bl) + own·Wr regrouped, and its row blocks tile each array. The one place where the two differ as printed is
  the neighbour sum: the blocked program adds an edge's message into the row its endpoint names as python reads an
  index (a negative one counted from the end), the reference into the segment the raw endpoint names, dropping a negative
  one. The precondition says no endpoint is negative (outside that the reference's segment sum indexes out of range), and
  there the two readings coincide (`Bridge.h3_eq`).

  The frames of the two blocked programs are the generated ones; the reference's frame is its run, read at the argument
  arrays, which no operation writes.
-/
import proofs.«165431_j6949257085118_1_alg».proof.Defs
import proofs.«165431_j6949257085118_1_alg».proof.Proof.Gen.Kernel
import proofs.«165431_j6949257085118_1_alg».proof.Proof.Gen.Kernel.Skeleton
import proofs.«165431_j6949257085118_1_alg».proof.Proof.Gen.Kernel.Launch
import proofs.«165431_j6949257085118_1_alg».proof.Proof.Gen.Kernel.Points
import proofs.«165431_j6949257085118_1_alg».proof.Proof.Gen.Kernel.Frame
import proofs.«165431_j6949257085118_1_alg».proof.Proof.Gen.KernelIdeal
import proofs.«165431_j6949257085118_1_alg».proof.Proof.Gen.KernelIdeal.Skeleton
import proofs.«165431_j6949257085118_1_alg».proof.Proof.Gen.KernelIdeal.Launch
import proofs.«165431_j6949257085118_1_alg».proof.Proof.Gen.KernelIdeal.Points
import proofs.«165431_j6949257085118_1_alg».proof.Proof.Gen.KernelIdeal.Frame
import proofs.«165431_j6949257085118_1_alg».proof.Proof.Gen.ReferenceIdeal
import proofs.«165431_j6949257085118_1_alg».proof.Proof.Gen.Pre_finite_inputs
import proofs.«165431_j6949257085118_1_alg».proof.Proof.KRun
import proofs.«165431_j6949257085118_1_alg».proof.Proof.KChain
import proofs.«165431_j6949257085118_1_alg».proof.Proof.RRun
import proofs.«165431_j6949257085118_1_alg».proof.Proof.RValue
import proofs.«165431_j6949257085118_1_alg».proof.Proof.Bridge
import Idealize.ShloMosaic.Adequacy
import Idealize.ShloMosaic.Init

noncomputable section

namespace Cert.Proof

open Idealize.ShloMosaic Idealize.SL.Sem Cert.Spec

theorem frame_k : Cert.frame_Kernel := fun m ρ _ => Cert.Kernel.Gen.frame m ρ

theorem frame_ki : Cert.frame_KernelIdeal := fun m ρ _ => Cert.KernelIdeal.Gen.frame m ρ

/-- The reference's run leaves every argument array as launched. -/
theorem frame_ri : Cert.frame_ReferenceIdeal := fun m ρ _ =>
  (θ_run Cert.ReferenceIdeal.defs _ _).mono (fun r h c => by
      obtain ⟨a0, a1, a2, a3, a4, a5, a6, a7, a8, a9, a10, a11, a12, a13, a14⟩ := Cert.ReferenceIdeal.Chain.ref_args m c
      exact ⟨(h c Cert.ReferenceIdeal.main_arg0).trans a0,
        (h c Cert.ReferenceIdeal.main_arg1).trans a1,
        (h c Cert.ReferenceIdeal.main_arg2).trans a2,
        (h c Cert.ReferenceIdeal.main_arg3).trans a3,
        (h c Cert.ReferenceIdeal.main_arg4).trans a4,
        (h c Cert.ReferenceIdeal.main_arg5).trans a5,
        (h c Cert.ReferenceIdeal.main_arg6).trans a6,
        (h c Cert.ReferenceIdeal.main_arg7).trans a7,
        (h c Cert.ReferenceIdeal.main_arg8).trans a8,
        (h c Cert.ReferenceIdeal.main_arg9).trans a9,
        (h c Cert.ReferenceIdeal.main_arg10).trans a10,
        (h c Cert.ReferenceIdeal.main_arg11).trans a11,
        (h c Cert.ReferenceIdeal.main_arg12).trans a12,
        (h c Cert.ReferenceIdeal.main_arg13).trans a13,
        (h c Cert.ReferenceIdeal.main_arg14).trans a14⟩)
    (Cert.ReferenceIdeal.HandRun.run (F := Ideal) m ρ)

/-- The idealization rewrote nothing. -/
theorem preserves : Cert.preserves_Kernel_KernelIdeal := trivial

/-- Both programs end with the normalised rows of `Spec.model` on the common arguments. -/
theorem algebraic : Cert.algebraic_KernelIdeal_ReferenceIdeal := by
  intro m g m' g' hpre hagree
  refine ⟨fun c => Spec.lnorm (Cert.KernelIdeal.Chain.h3 m c).1 (rowMat (m ((c.tc : Thread Cert.KernelIdeal.nD Cert.KernelIdeal.τ).loc Cert.KernelIdeal.main_arg11))) (rowMat (m ((c.tc : Thread Cert.KernelIdeal.nD Cert.KernelIdeal.τ).loc Cert.KernelIdeal.main_arg12))),
    fun c => Spec.lnorm (Cert.KernelIdeal.Chain.h3 m c).2 (rowMat (m ((c.tc : Thread Cert.KernelIdeal.nD Cert.KernelIdeal.τ).loc Cert.KernelIdeal.main_arg13))) (rowMat (m ((c.tc : Thread Cert.KernelIdeal.nD Cert.KernelIdeal.τ).loc Cert.KernelIdeal.main_arg14))), ?_, ?_⟩
  · refine (θ_run Cert.KernelIdeal.defs _ _).mono (fun r h c => ?_) (Cert.KernelIdeal.Run.run_values (F := Ideal) m g)
    obtain ⟨hv0, hv1, hargs⟩ := h c
    obtain ⟨k0, k1⟩ := Cert.KernelIdeal.Chain.kernel_value m g c
    exact ⟨hv0.trans k0, hv1.trans k1, hargs⟩
  · refine (θ_run Cert.ReferenceIdeal.defs _ _).mono (fun r h c => ?_) (Cert.ReferenceIdeal.HandRun.run (F := Ideal) m' g')
    obtain ⟨r0, r1⟩ := Cert.ReferenceIdeal.Chain.ref_value m' c
    obtain ⟨a0, a1, a2, a3, a4, a5, a6, a7, a8, a9, a10, a11, a12, a13, a14⟩ := Cert.ReferenceIdeal.Chain.ref_args m' c
    have e3 := Cert.Bridge.h3_eq m m' c (hpre c) (hagree c)
    obtain ⟨-, -, -, -, -, -, -, -, -, -, -, g11, g12, g13, g14⟩ := hagree c
    refine ⟨((h c Cert.ReferenceIdeal.main_v223).trans r0).trans ?_, ((h c Cert.ReferenceIdeal.main_v247).trans r1).trans ?_,
        (h c Cert.ReferenceIdeal.main_arg0).trans a0,
        (h c Cert.ReferenceIdeal.main_arg1).trans a1,
        (h c Cert.ReferenceIdeal.main_arg2).trans a2,
        (h c Cert.ReferenceIdeal.main_arg3).trans a3,
        (h c Cert.ReferenceIdeal.main_arg4).trans a4,
        (h c Cert.ReferenceIdeal.main_arg5).trans a5,
        (h c Cert.ReferenceIdeal.main_arg6).trans a6,
        (h c Cert.ReferenceIdeal.main_arg7).trans a7,
        (h c Cert.ReferenceIdeal.main_arg8).trans a8,
        (h c Cert.ReferenceIdeal.main_arg9).trans a9,
        (h c Cert.ReferenceIdeal.main_arg10).trans a10,
        (h c Cert.ReferenceIdeal.main_arg11).trans a11,
        (h c Cert.ReferenceIdeal.main_arg12).trans a12,
        (h c Cert.ReferenceIdeal.main_arg13).trans a13,
        (h c Cert.ReferenceIdeal.main_arg14).trans a14⟩
    · rw [e3, g11, g12]
    · rw [e3, g13, g14]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
